-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x2048 : Shape := ⟨3, ![8, 512, 2048]⟩
abbrev S8x512 : Shape := ⟨2, ![8, 512]⟩
abbrev S32000x2048 : Shape := ⟨2, ![32000, 2048]⟩
abbrev S_ : Shape := ⟨0, ![]⟩

class Facts : Prop where
  bcast_S_S8x512x2048 : S_.BroadcastsInDim S8x512x2048 (![] : Fin 0 → Fin S8x512x2048.rank)
  reducesTo_S8x512x2048_S_d0_1_2 : S8x512x2048.ReducesTo [0, 1, 2] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  bcast_S_S8x512 : S_.BroadcastsInDim S8x512 (![] : Fin 0 → Fin S8x512.rank)
  reducesTo_S8x512_S_d0_1 : S8x512.ReducesTo [0, 1] S_

variable [Facts]

def fn_part1 {F : FTy → Type} [FloatOps F] (main_arg2 : IVec S8x512 32) (main_v13 : IVec S_ 1) (main_v16 : IVec S32000x2048 1) : IVec S_ 1 :=
  let main_c_5 : IVec S_ 1 := constantI S_ 1 1#1
  let main_v17 : IVec S_ 1 := (fun x v => Host.reduce IntOp.andi x v reducesTo_S32000x2048_S_d0_1 h_S_) main_v16 main_c_5
  let main_v18 : IVec S_ 1 := andi main_v13 main_v17
  let main_c_6 : IVec S_ 32 := constantI S_ 32 4294935296#32
  let main_v19 : IVec S8x512 32 := broadcastInDim S8x512 ![] bcast_S_S8x512 main_c_6
  let main_v20 : IVec S8x512 1 := cmpi .sge main_arg2 main_v19
  let main_c_7 : IVec S_ 32 := constantI S_ 32 32000#32
  let main_v21 : IVec S8x512 32 := broadcastInDim S8x512 ![] bcast_S_S8x512 main_c_7
  let main_v22 : IVec S8x512 1 := cmpi .slt main_arg2 main_v21
  let main_v23 : IVec S8x512 1 := andi main_v20 main_v22
  let main_c_8 : IVec S_ 1 := constantI S_ 1 1#1
  let main_v24 : IVec S_ 1 := (fun x v => Host.reduce IntOp.andi x v reducesTo_S8x512_S_d0_1 h_S_) main_v23 main_c_8
  let main_v25 : IVec S_ 1 := andi main_v18 main_v24
  main_v25

def fn {F : FTy → Type} [FloatOps F] (main_arg0 : FVec F S8x512x2048 .f32) (main_arg1 : FVec F S8x512x2048 .f32) (main_arg2 : IVec S8x512 32) (main_arg3 : FVec F S32000x2048 .f32) (main_arg4 : FVec F S32000x2048 .f32) : IVec S_ 1 :=
  let main_v0 : FVec F S8x512x2048 .f32 := Host.absf main_arg0
  let main_cst : FVec F S_ .f32 := constant S_ .f32 0x7F800000#32
  let main_v1 : FVec F S8x512x2048 .f32 := broadcastInDim S8x512x2048 ![] bcast_S_S8x512x2048 main_cst
  let main_v2 : IVec S8x512x2048 1 := cmpf .olt main_v0 main_v1
  let main_c : IVec S_ 1 := constantI S_ 1 1#1
  let main_v3 : IVec S_ 1 := (fun x v => Host.reduce IntOp.andi x v reducesTo_S8x512x2048_S_d0_1_2 h_S_) main_v2 main_c
  let main_v4 : FVec F S8x512x2048 .f32 := Host.absf main_arg1
  let main_cst_0 : FVec F S_ .f32 := constant S_ .f32 0x7F800000#32
  let main_v5 : FVec F S8x512x2048 .f32 := broadcastInDim S8x512x2048 ![] bcast_S_S8x512x2048 main_cst_0
  let main_v6 : IVec S8x512x2048 1 := cmpf .olt main_v4 main_v5
  let main_c_1 : IVec S_ 1 := constantI S_ 1 1#1
  let main_v7 : IVec S_ 1 := (fun x v => Host.reduce IntOp.andi x v reducesTo_S8x512x2048_S_d0_1_2 h_S_) main_v6 main_c_1
  let main_v8 : IVec S_ 1 := andi main_v3 main_v7
  let main_v9 : FVec F S32000x2048 .f32 := Host.absf main_arg3
  let main_cst_2 : FVec F S_ .f32 := constant S_ .f32 0x7F800000#32
  let main_v10 : FVec F S32000x2048 .f32 := broadcastInDim S32000x2048 ![] bcast_S_S32000x2048 main_cst_2
  let main_v11 : IVec S32000x2048 1 := cmpf .olt main_v9 main_v10
  let main_c_3 : IVec S_ 1 := constantI S_ 1 1#1
  let main_v12 : IVec S_ 1 := (fun x v => Host.reduce IntOp.andi x v reducesTo_S32000x2048_S_d0_1 h_S_) main_v11 main_c_3
  let main_v13 : IVec S_ 1 := andi main_v8 main_v12
  let main_v14 : FVec F S32000x2048 .f32 := Host.absf main_arg4
  let main_cst_4 : FVec F S_ .f32 := constant S_ .f32 0x7F800000#32
  let main_v15 : FVec F S32000x2048 .f32 := broadcastInDim S32000x2048 ![] bcast_S_S32000x2048 main_cst_4
  let main_v16 : IVec S32000x2048 1 := cmpf .olt main_v14 main_v15
  fn_part1 (F := F) main_arg2 main_v13 main_v16
-- ==== Kernel.lean ====
abbrev S8x512x2048 : Shape := ⟨3, ![8, 512, 2048]⟩
abbrev S8x512 : Shape := ⟨2, ![8, 512]⟩
abbrev S32000x2048 : Shape := ⟨2, ![32000, 2048]⟩
abbrev S_ : Shape := ⟨0, ![]⟩
abbrev S4096 : Shape := ⟨1, ![4096]⟩
abbrev S4096x1 : Shape := ⟨2, ![4096, 1]⟩
abbrev S1 : Shape := ⟨1, ![1]⟩
abbrev S1x1 : Shape := ⟨2, ![1, 1]⟩
abbrev S4096x2048 : Shape := ⟨2, ![4096, 2048]⟩
abbrev S8x256x2048 : Shape := ⟨3, ![8, 256, 2048]⟩
abbrev S640x2048 : Shape := ⟨2, ![640, 2048]⟩
abbrev S8x256 : Shape := ⟨2, ![8, 256]⟩
abbrev S8x256x1 : Shape := ⟨3, ![8, 256, 1]⟩
abbrev S2048x2048 : Shape := ⟨2, ![2048, 2048]⟩
abbrev S2048x640 : Shape := ⟨2, ![2048, 640]⟩
abbrev S8x256x640 : Shape := ⟨3, ![8, 256, 640]⟩
abbrev S8 : Shape := ⟨1, ![8]⟩
abbrev S4 : Shape := ⟨1, ![4]⟩

abbrev nBuf : Space → Nat
  | .hbm => 136
  | .vmem => 16
  | .smem => 0
  | _ => 0

abbrev hbmTy0_0 (i : Nat) : BufTy := match i % 128 with
  | 0 => ⟨S8x512x2048, .f32⟩
  | 1 => ⟨S8x512x2048, .f32⟩
  | 2 => ⟨S8x512, .i32⟩
  | 3 => ⟨S32000x2048, .f32⟩
  | 4 => ⟨S32000x2048, .f32⟩
  | 5 => ⟨S_, .i32⟩
  | 6 => ⟨S8x512, .i32⟩
  | 7 => ⟨S8x512, .i1⟩
  | 8 => ⟨S_, .i32⟩
  | 9 => ⟨S_, .i32⟩
  | 10 => ⟨S8x512, .i32⟩
  | 11 => ⟨S8x512, .i32⟩
  | 12 => ⟨S4096, .i32⟩
  | 13 => ⟨S_, .i32⟩
  | 14 => ⟨S4096, .i32⟩
  | 15 => ⟨S4096, .i1⟩
  | 16 => ⟨S_, .i32⟩
  | 17 => ⟨S4096, .i32⟩
  | 18 => ⟨S4096, .i32⟩
  | 19 => ⟨S4096, .i32⟩
  | 20 => ⟨S4096x1, .i32⟩
  | 21 => ⟨S1, .i32⟩
  | 22 => ⟨S_, .i32⟩
  | 23 => ⟨S4096x1, .i32⟩
  | 24 => ⟨S4096x1, .i1⟩
  | 25 => ⟨S1x1, .i32⟩
  | 26 => ⟨S4096x1, .i32⟩
  | 27 => ⟨S4096x1, .i1⟩
  | 28 => ⟨S4096x1, .i1⟩
  | 29 => ⟨S_, .i1⟩
  | 30 => ⟨S4096, .i1⟩
  | 31 => ⟨S4096x2048, .f32⟩
  | 32 => ⟨S4096x2048, .i1⟩
  | 33 => ⟨S_, .f32⟩
  | 34 => ⟨S4096x2048, .f32⟩
  | 35 => ⟨S4096x2048, .f32⟩
  | 36 => ⟨S8x512x2048, .f32⟩
  | 37 => ⟨S8x512x2048, .f32⟩
  | 38 => ⟨S_, .f32⟩
  | 39 => ⟨S8x512, .f32⟩
  | 40 => ⟨S8x512x2048, .bf16⟩
  | 41 => ⟨S32000x2048, .bf16⟩
  | 42 => ⟨S8x512, .f32⟩
  | 43 => ⟨S8x512, .f32⟩
  | 44 => ⟨S_, .i32⟩
  | 45 => ⟨S8x512, .i32⟩
  | 46 => ⟨S8x512, .i1⟩
  | 47 => ⟨S_, .i32⟩
  | 48 => ⟨S_, .i32⟩
  | 49 => ⟨S8x512, .i32⟩
  | 50 => ⟨S8x512, .i32⟩
  | 51 => ⟨S4096, .i32⟩
  | 52 => ⟨S_, .i32⟩
  | 53 => ⟨S4096, .i32⟩
  | 54 => ⟨S4096, .i1⟩
  | 55 => ⟨S_, .i32⟩
  | 56 => ⟨S4096, .i32⟩
  | 57 => ⟨S4096, .i32⟩
  | 58 => ⟨S4096, .i32⟩
  | 59 => ⟨S4096x1, .i32⟩
  | 60 => ⟨S1, .i32⟩
  | 61 => ⟨S_, .i32⟩
  | 62 => ⟨S4096x1, .i32⟩
  | 63 => ⟨S4096x1, .i1⟩
  | 64 => ⟨S1x1, .i32⟩
  | 65 => ⟨S4096x1, .i32⟩
  | 66 => ⟨S4096x1, .i1⟩
  | 67 => ⟨S4096x1, .i1⟩
  | 68 => ⟨S_, .i1⟩
  | 69 => ⟨S4096, .i1⟩
  | 70 => ⟨S4096x2048, .f32⟩
  | 71 => ⟨S4096x2048, .i1⟩
  | 72 => ⟨S_, .f32⟩
  | 73 => ⟨S4096x2048, .f32⟩
  | 74 => ⟨S4096x2048, .f32⟩
  | 75 => ⟨S8x512x2048, .f32⟩
  | 76 => ⟨S8x512x2048, .f32⟩
  | 77 => ⟨S_, .f32⟩
  | 78 => ⟨S8x512, .f32⟩
  | 79 => ⟨S8x512x2048, .bf16⟩
  | 80 => ⟨S32000x2048, .bf16⟩
  | 81 => ⟨S8x512, .f32⟩
  | 82 => ⟨S8x512, .f32⟩
  | 83 => ⟨S_, .i32⟩
  | 84 => ⟨S8x512, .i32⟩
  | 85 => ⟨S8x512, .i1⟩
  | 86 => ⟨S8x512, .f32⟩
  | 87 => ⟨S_, .f32⟩
  | 88 => ⟨S8, .f32⟩
  | 89 => ⟨S8x512, .f32⟩
  | 90 => ⟨S_, .f32⟩
  | 91 => ⟨S8, .f32⟩
  | 92 => ⟨S8, .f32⟩
  | 93 => ⟨S8x512, .f32⟩
  | 94 => ⟨S_, .f32⟩
  | 95 => ⟨S8, .f32⟩
  | 96 => ⟨S8, .f32⟩
  | 97 => ⟨S4, .f32⟩
  | 98 => ⟨S4, .f32⟩
  | 99 => ⟨S4, .f32⟩
  | 100 => ⟨S4, .f32⟩
  | 101 => ⟨S4, .f32⟩
  | 102 => ⟨S4, .f32⟩
  | 103 => ⟨S_, .f32⟩
  | 104 => ⟨S4, .f32⟩
  | 105 => ⟨S4, .f32⟩
  | 106 => ⟨S4, .f32⟩
  | 107 => ⟨S4, .f32⟩
  | 108 => ⟨S_, .f32⟩
  | 109 => ⟨S4, .f32⟩
  | 110 => ⟨S4, .f32⟩
  | 111 => ⟨S_, .f32⟩
  | 112 => ⟨S4, .f32⟩
  | 113 => ⟨S4, .f32⟩
  | 114 => ⟨S_, .f32⟩
  | 115 => ⟨S4, .f32⟩
  | 116 => ⟨S4, .f32⟩
  | 117 => ⟨S_, .f32⟩
  | 118 => ⟨S4, .f32⟩
  | 119 => ⟨S4, .f32⟩
  | 120 => ⟨S4, .f32⟩
  | 121 => ⟨S4, .f32⟩
  | 122 => ⟨S_, .f32⟩
  | 123 => ⟨S4, .f32⟩
  | 124 => ⟨S4, .f32⟩
  | 125 => ⟨S_, .f32⟩
  | 126 => ⟨S4, .f32⟩
  | 127 => ⟨S4, .f32⟩
  | _ => ⟨S8x512x2048, .f32⟩

abbrev hbmTy0_1 (i : Nat) : BufTy := match i % 128 with
  | 0 => ⟨S_, .f32⟩
  | 1 => ⟨S4, .f32⟩
  | 2 => ⟨S4, .f32⟩
  | 3 => ⟨S8, .f32⟩
  | 4 => ⟨S_, .f32⟩
  | 5 => ⟨S_, .f32⟩
  | 6 => ⟨S_, .f32⟩
  | 7 => ⟨S_, .f32⟩
  | _ => ⟨S8x512x2048, .f32⟩

abbrev hbmTy (i : Nat) : BufTy := match i / 128 with
  | 0 => hbmTy0_0 i
  | 1 => hbmTy0_1 i
  | _ => ⟨S8x512x2048, .f32⟩

abbrev bufTy : (tb : Table) → Fin (tcTables nBuf tb) → BufTy
  | .hbm, ⟨i, _⟩ => hbmTy i
  | .local _ .vmem, ⟨0, _⟩ => ⟨S8x256x2048, .bf16⟩
  | .local _ .vmem, ⟨1, _⟩ => ⟨S8x256x2048, .bf16⟩
  | .local _ .vmem, ⟨2, _⟩ => ⟨S640x2048, .bf16⟩
  | .local _ .vmem, ⟨3, _⟩ => ⟨S640x2048, .bf16⟩
  | .local _ .vmem, ⟨4, _⟩ => ⟨S8x256, .f32⟩
  | .local _ .vmem, ⟨5, _⟩ => ⟨S8x256, .f32⟩
  | .local _ .vmem, ⟨6, _⟩ => ⟨S8x256x1, .f32⟩
  | .local _ .vmem, ⟨7, _⟩ => ⟨S8x256x1, .f32⟩
  | .local _ .vmem, ⟨8, _⟩ => ⟨S8x256x2048, .bf16⟩
  | .local _ .vmem, ⟨9, _⟩ => ⟨S8x256x2048, .bf16⟩
  | .local _ .vmem, ⟨10, _⟩ => ⟨S640x2048, .bf16⟩
  | .local _ .vmem, ⟨11, _⟩ => ⟨S640x2048, .bf16⟩
  | .local _ .vmem, ⟨12, _⟩ => ⟨S8x256, .f32⟩
  | .local _ .vmem, ⟨13, _⟩ => ⟨S8x256, .f32⟩
  | .local _ .vmem, ⟨14, _⟩ => ⟨S8x256x1, .f32⟩
  | .local _ .vmem, ⟨15, _⟩ => ⟨S8x256x1, .f32⟩
  | _, _ => ⟨S8x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v2 : Ref sig .tc := ⟨.hbm, 11, rfl⟩
abbrev main_v3 : Ref sig .tc := ⟨.hbm, 12, rfl⟩
abbrev main_call1_c : Ref sig .tc := ⟨.hbm, 13, rfl⟩
abbrev main_call1_v0 : Ref sig .tc := ⟨.hbm, 14, rfl⟩
abbrev main_call1_v1 : Ref sig .tc := ⟨.hbm, 15, rfl⟩
abbrev main_call1_c_0 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_c_1 : Ref sig .tc := ⟨.hbm, 21, rfl⟩
abbrev main_call1_c_2 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_3 : Ref sig .tc := ⟨.hbm, 29, rfl⟩
abbrev main_call1_v12 : Ref sig .tc := ⟨.hbm, 30, rfl⟩
abbrev main_call1_v13 : Ref sig .tc := ⟨.hbm, 31, rfl⟩
abbrev main_call1_v14 : Ref sig .tc := ⟨.hbm, 32, rfl⟩
abbrev main_call1_cst : Ref sig .tc := ⟨.hbm, 33, rfl⟩
abbrev main_call1_v15 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_cst : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_c_1 : Ref sig .tc := ⟨.hbm, 44, rfl⟩
abbrev main_v12 : Ref sig .tc := ⟨.hbm, 45, rfl⟩
abbrev main_v13 : Ref sig .tc := ⟨.hbm, 46, rfl⟩
abbrev main_c_2 : Ref sig .tc := ⟨.hbm, 47, rfl⟩
abbrev main_call2_v0 : Ref sig .tc := ⟨.hbm, 48, rfl⟩
abbrev main_call2_v1 : Ref sig .tc := ⟨.hbm, 49, rfl⟩
abbrev main_v14 : Ref sig .tc := ⟨.hbm, 50, rfl⟩
abbrev main_v15 : Ref sig .tc := ⟨.hbm, 51, rfl⟩
abbrev main_call3_c : Ref sig .tc := ⟨.hbm, 52, rfl⟩
abbrev main_call3_v0 : Ref sig .tc := ⟨.hbm, 53, rfl⟩
abbrev main_call3_v1 : Ref sig .tc := ⟨.hbm, 54, rfl⟩
abbrev main_call3_c_0 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_call3_v5 : Ref sig .tc := ⟨.hbm, 59, rfl⟩
abbrev main_call3_c_1 : Ref sig .tc := ⟨.hbm, 60, rfl⟩
abbrev main_call3_c_2 : Ref sig .tc := ⟨.hbm, 61, rfl⟩
abbrev main_call3_v6 : Ref sig .tc := ⟨.hbm, 62, rfl⟩
abbrev main_call3_v7 : Ref sig .tc := ⟨.hbm, 63, rfl⟩
abbrev main_call3_v8 : Ref sig .tc := ⟨.hbm, 64, rfl⟩
abbrev main_call3_v9 : Ref sig .tc := ⟨.hbm, 65, rfl⟩
abbrev main_call3_v10 : Ref sig .tc := ⟨.hbm, 66, rfl⟩
abbrev main_call3_v11 : Ref sig .tc := ⟨.hbm, 67, rfl⟩
abbrev main_call3_c_3 : Ref sig .tc := ⟨.hbm, 68, rfl⟩
abbrev main_call3_v12 : Ref sig .tc := ⟨.hbm, 69, rfl⟩
abbrev main_call3_v13 : Ref sig .tc := ⟨.hbm, 70, rfl⟩
abbrev main_call3_v14 : Ref sig .tc := ⟨.hbm, 71, rfl⟩
abbrev main_call3_cst : Ref sig .tc := ⟨.hbm, 72, rfl⟩
abbrev main_call3_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_cst_3 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_c_4 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_cst_5 : Ref sig .tc := ⟨.hbm, 87, rfl⟩
abbrev main_v27 : Ref sig .tc := ⟨.hbm, 88, rfl⟩
abbrev main_v28 : Ref sig .tc := ⟨.hbm, 89, rfl⟩
abbrev main_cst_6 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_cst_7 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_cst_8 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_cst_9 : Ref sig .tc := ⟨.hbm, 108, rfl⟩
abbrev main_v44 : Ref sig .tc := ⟨.hbm, 109, rfl⟩
abbrev main_v45 : Ref sig .tc := ⟨.hbm, 110, rfl⟩
abbrev main_cst_10 : Ref sig .tc := ⟨.hbm, 111, rfl⟩
abbrev main_v46 : Ref sig .tc := ⟨.hbm, 112, rfl⟩
abbrev main_v47 : Ref sig .tc := ⟨.hbm, 113, rfl⟩
abbrev main_cst_11 : Ref sig .tc := ⟨.hbm, 114, rfl⟩
abbrev main_v48 : Ref sig .tc := ⟨.hbm, 115, rfl⟩
abbrev main_v49 : Ref sig .tc := ⟨.hbm, 116, rfl⟩
abbrev main_cst_12 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_cst_13 : Ref sig .tc := ⟨.hbm, 122, rfl⟩
abbrev main_v54 : Ref sig .tc := ⟨.hbm, 123, rfl⟩
abbrev main_v55 : Ref sig .tc := ⟨.hbm, 124, rfl⟩
abbrev main_cst_14 : Ref sig .tc := ⟨.hbm, 125, rfl⟩
abbrev main_v56 : Ref sig .tc := ⟨.hbm, 126, rfl⟩
abbrev main_v57 : Ref sig .tc := ⟨.hbm, 127, rfl⟩
abbrev main_cst_15 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_cst_16 : Ref sig .tc := ⟨.hbm, 132, rfl⟩
abbrev main_v61 : Ref sig .tc := ⟨.hbm, 133, rfl⟩
abbrev main_cst_17 : Ref sig .tc := ⟨.hbm, 134, rfl⟩
abbrev main_v62 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg1 : BitVec 32 := BitVec.ofNat 32 (i 1).val
  let c49_i32 : BitVec 32 := 49#32
  let v31 : BitVec 1 := Scalar.cmpi .eq arg1 c49_i32
  let v32 : BitVec 32 := Scalar.extui v31
  let c0_i32_22 : BitVec 32 := 0#32
  let v33 : BitVec 1 := Scalar.cmpi .ne v32 c0_i32_22
  v33

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S640x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 50], ![false, false]⟩

def k1_cond2 (i : grid1.Coords) : BitVec 1 :=
  let arg1 : BitVec 32 := BitVec.ofNat 32 (i 1).val
  let c49_i32 : BitVec 32 := 49#32
  let v31 : BitVec 1 := Scalar.cmpi .eq arg1 c49_i32
  let v32 : BitVec 32 := Scalar.extui v31
  let c0_i32_22 : BitVec 32 := 0#32
  let v33 : BitVec 1 := Scalar.cmpi .ne v32 c0_i32_22
  v33

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S8x256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S640x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S8x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  bcast_S_S8x512 : S_.BroadcastsInDim S8x512 (![] : Fin 0 → Fin S8x512.rank)
  shapeCasts_S8x512_S4096 : S8x512.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x2048_0 : S4096.BroadcastsInDim S4096x2048 (![0] : Fin 1 → Fin S4096x2048.rank)
  bcast_S_S4096x2048 : S_.BroadcastsInDim S4096x2048 (![] : Fin 0 → Fin S4096x2048.rank)
  shapeCasts_S4096x2048_S8x512x2048 : S4096x2048.ShapeCasts S8x512x2048
  reducesTo_S8x512x2048_S8x512_d2 : S8x512x2048.ReducesTo [2] S8x512
  bitsLt_bf16_f32 : FTy.bits .bf16 < FTy.bits .f32
  inb_S8x256x1_S8x256x1_0_0_0 : ∀ a, (![0, 0, 0] : Fin 3 → Nat) a + S8x256x1.size a ≤ S8x256x1.size a
  h_S8x256x1 : 0 < S8x256x1.numel
  shapeCasts_S8x256x1_S8x256x1 : S8x256x1.ShapeCasts S8x256x1
  inb_S8x256x2048_S8x256x2048_0_0_0 : ∀ a, (![0, 0, 0] : Fin 3 → Nat) a + S8x256x2048.size a ≤ S8x256x2048.size a
  h_S8x256x2048 : 0 < S8x256x2048.numel
  shapeCasts_S8x256x2048_S8x256x2048 : S8x256x2048.ShapeCasts S8x256x2048
  inb_S640x2048_S640x2048_0_0 : ∀ a, (![0, 0] : Fin 2 → Nat) a + S640x2048.size a ≤ S640x2048.size a
  h_S640x2048 : 0 < S640x2048.numel
  shapeCasts_S640x2048_S640x2048 : S640x2048.ShapeCasts S640x2048
  shapeCasts_S8x256x2048_S2048x2048 : S8x256x2048.ShapeCasts S2048x2048
  shapeCasts_S2048x640_S8x256x640 : S2048x640.ShapeCasts S8x256x640
  reduces_S8x256x640_S8x256 : S8x256x640.Reduces [2] S8x256
  shapeCasts_S8x256_S8x256x1 : S8x256.ShapeCasts S8x256x1
  broadcasts_S8x256x1_S8x256x640 : S8x256x1.Broadcasts S8x256x640
  shapeCasts_S8x256x1_S8x256 : S8x256x1.ShapeCasts S8x256
  inb_S8x256_S8x256_0_0 : ∀ a, (![0, 0] : Fin 2 → Nat) a + S8x256.size a ≤ S8x256.size a
  h_S8x256 : 0 < S8x256.numel
  reducesTo_S8x512_S8_d1 : S8x512.ReducesTo [1] S8
  slices_S8_S4_0 : S8.Slices ![0] S4
  slices_S8_S4_4 : S8.Slices ![4] S4
  bcast_S_S4 : S_.BroadcastsInDim S4 (![] : Fin 0 → Fin S4.rank)
  concatenates_S4_S4_S8_d0 : Shape.Concatenates [S4, S4] S8 0
  reducesTo_S8_S_d0 : S8.ReducesTo [0] S_
  gather_S32000x2048_S4096x1_S4096x2048_1_0_n_n_0_1_12048_wf : GatherDims.WF S32000x2048 S4096x1 S4096x2048 [1] [0] [] [0] [] 1 ![1, 2048]
  dot_S2048x2048_S640x2048_S2048x640_1_1_0_0_n_n_wf : DotDims.WF S2048x2048 S640x2048 S2048x640 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x2048.size a ≤ S8x512x2048.size a
  hwx0_0 : ∀ i : grid0.Coords, EltTy.bits .bf16 = 32 ∨ (Rect.block (s := S8x512x2048) S8x256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640x2048.size a ≤ S32000x2048.size a
  hwx0_1 : ∀ i : grid0.Coords, EltTy.bits .bf16 = 32 ∨ (Rect.block (s := S32000x2048) S640x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S8x512.size a
  hwx0_2 : ∀ i : grid0.Coords, EltTy.bits .f32 = 32 ∨ (Rect.block (s := S8x512) S8x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x2048.size a ≤ S8x512x2048.size a
  hwx1_0 : ∀ i : grid1.Coords, EltTy.bits .bf16 = 32 ∨ (Rect.block (s := S8x512x2048) S8x256x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S640x2048.size a ≤ S32000x2048.size a
  hwx1_1 : ∀ i : grid1.Coords, EltTy.bits .bf16 = 32 ∨ (Rect.block (s := S32000x2048) S640x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x256.size a ≤ S8x512.size a
  hwx1_2 : ∀ i : grid1.Coords, EltTy.bits .f32 = 32 ∨ (Rect.block (s := S8x512) S8x256.size (cc1_transform_2 i) (hinb1_2 i)).WholeWords (EltTy.packing .f32)

variable [Facts₀]

def gather_S32000x2048_S4096x1_S4096x2048_1_0_n_n_0_1_12048 : GatherDims S32000x2048 S4096x1 S4096x2048 where
  offsetDims := [1]
  collapsedSliceDims := [0]
  operandBatchingDims := []
  startIndicesBatchingDims := []
  startIndexMap := [0]
  indexVectorDim := 1
  sliceSizes := ![1, 2048]
  wf := gather_S32000x2048_S4096x1_S4096x2048_1_0_n_n_0_1_12048_wf
def dot_S2048x2048_S640x2048_S2048x640_1_1_0_0_n_n : DotDims S2048x2048 S640x2048 S2048x640 where
  lhsContracting := [1]
  rhsContracting := [1]
  lhsNonContracting := [0]
  rhsNonContracting := [0]
  lhsBatch := []
  rhsBatch := []
  wf := dot_S2048x2048_S640x2048_S2048x640_1_1_0_0_n_n_wf

abbrev win0_0 : Pipeline.Window sig grid0 :=
  Pipeline.Window.ofSpec (Memref.whole main_v8) S8x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S640x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S8x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v20) S8x256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S640x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S8x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8x512x2048 : Shape := ⟨3, ![8, 512, 2048]⟩
abbrev S8x512 : Shape := ⟨2, ![8, 512]⟩
abbrev S32000x2048 : Shape := ⟨2, ![32000, 2048]⟩
abbrev S8x512x32000 : Shape := ⟨3, ![8, 512, 32000]⟩
abbrev S_ : Shape := ⟨0, ![]⟩
abbrev S8x512x1 : Shape := ⟨3, ![8, 512, 1]⟩
abbrev S8x512x1x1 : Shape := ⟨4, ![8, 512, 1, 1]⟩
abbrev S1 : Shape := ⟨1, ![1]⟩
abbrev S1x1x1x1 : Shape := ⟨4, ![1, 1, 1, 1]⟩
abbrev S8 : Shape := ⟨1, ![8]⟩
abbrev S4 : Shape := ⟨1, ![4]⟩

abbrev nBuf : Space → Nat
  | .hbm => 156
  | .vmem => 0
  | .smem => 0
  | _ => 0

abbrev hbmTy0_0 (i : Nat) : BufTy := match i % 128 with
  | 0 => ⟨S8x512x2048, .f32⟩
  | 1 => ⟨S8x512x2048, .f32⟩
  | 2 => ⟨S8x512, .i32⟩
  | 3 => ⟨S32000x2048, .f32⟩
  | 4 => ⟨S32000x2048, .f32⟩
  | 5 => ⟨S8x512x32000, .f32⟩
  | 6 => ⟨S_, .i32⟩
  | 7 => ⟨S8x512, .i32⟩
  | 8 => ⟨S8x512, .i1⟩
  | 9 => ⟨S_, .i32⟩
  | 10 => ⟨S_, .i32⟩
  | 11 => ⟨S8x512, .i32⟩
  | 12 => ⟨S8x512, .i32⟩
  | 13 => ⟨S_, .f32⟩
  | 14 => ⟨S8x512, .f32⟩
  | 15 => ⟨S_, .f32⟩
  | 16 => ⟨S8x512, .f32⟩
  | 17 => ⟨S8x512, .f32⟩
  | 18 => ⟨S8x512x1, .f32⟩
  | 19 => ⟨S8x512x32000, .f32⟩
  | 20 => ⟨S8x512x32000, .f32⟩
  | 21 => ⟨S8x512x32000, .f32⟩
  | 22 => ⟨S_, .f32⟩
  | 23 => ⟨S8x512, .f32⟩
  | 24 => ⟨S8x512x1, .f32⟩
  | 25 => ⟨S8x512x1, .f32⟩
  | 26 => ⟨S8x512x32000, .f32⟩
  | 27 => ⟨S8x512x32000, .f32⟩
  | 28 => ⟨S8x512x1, .i32⟩
  | 29 => ⟨S_, .i32⟩
  | 30 => ⟨S8x512x1, .i32⟩
  | 31 => ⟨S8x512x1, .i1⟩
  | 32 => ⟨S_, .i32⟩
  | 33 => ⟨S8x512x1, .i32⟩
  | 34 => ⟨S8x512x1, .i32⟩
  | 35 => ⟨S8x512x1, .i32⟩
  | 36 => ⟨S8x512x1x1, .i32⟩
  | 37 => ⟨S1, .i32⟩
  | 38 => ⟨S_, .i32⟩
  | 39 => ⟨S8x512x1x1, .i32⟩
  | 40 => ⟨S8x512x1x1, .i1⟩
  | 41 => ⟨S1x1x1x1, .i32⟩
  | 42 => ⟨S8x512x1x1, .i32⟩
  | 43 => ⟨S8x512x1x1, .i1⟩
  | 44 => ⟨S8x512x1x1, .i1⟩
  | 45 => ⟨S_, .i1⟩
  | 46 => ⟨S8x512x1, .i1⟩
  | 47 => ⟨S8x512x1, .f32⟩
  | 48 => ⟨S_, .f32⟩
  | 49 => ⟨S8x512x1, .f32⟩
  | 50 => ⟨S8x512x1, .f32⟩
  | 51 => ⟨S8x512, .f32⟩
  | 52 => ⟨S8x512, .f32⟩
  | 53 => ⟨S8x512, .f32⟩
  | 54 => ⟨S_, .f32⟩
  | 55 => ⟨S8, .f32⟩
  | 56 => ⟨S8x512, .i32⟩
  | 57 => ⟨S_, .i32⟩
  | 58 => ⟨S8, .i32⟩
  | 59 => ⟨S8, .f32⟩
  | 60 => ⟨S8, .f32⟩
  | 61 => ⟨S4, .f32⟩
  | 62 => ⟨S4, .f32⟩
  | 63 => ⟨S8x512x32000, .f32⟩
  | 64 => ⟨S_, .i32⟩
  | 65 => ⟨S8x512, .i32⟩
  | 66 => ⟨S8x512, .i1⟩
  | 67 => ⟨S_, .i32⟩
  | 68 => ⟨S_, .i32⟩
  | 69 => ⟨S8x512, .i32⟩
  | 70 => ⟨S8x512, .i32⟩
  | 71 => ⟨S_, .f32⟩
  | 72 => ⟨S8x512, .f32⟩
  | 73 => ⟨S_, .f32⟩
  | 74 => ⟨S8x512, .f32⟩
  | 75 => ⟨S8x512, .f32⟩
  | 76 => ⟨S8x512x1, .f32⟩
  | 77 => ⟨S8x512x32000, .f32⟩
  | 78 => ⟨S8x512x32000, .f32⟩
  | 79 => ⟨S8x512x32000, .f32⟩
  | 80 => ⟨S_, .f32⟩
  | 81 => ⟨S8x512, .f32⟩
  | 82 => ⟨S8x512x1, .f32⟩
  | 83 => ⟨S8x512x1, .f32⟩
  | 84 => ⟨S8x512x32000, .f32⟩
  | 85 => ⟨S8x512x32000, .f32⟩
  | 86 => ⟨S8x512x1, .i32⟩
  | 87 => ⟨S_, .i32⟩
  | 88 => ⟨S8x512x1, .i32⟩
  | 89 => ⟨S8x512x1, .i1⟩
  | 90 => ⟨S_, .i32⟩
  | 91 => ⟨S8x512x1, .i32⟩
  | 92 => ⟨S8x512x1, .i32⟩
  | 93 => ⟨S8x512x1, .i32⟩
  | 94 => ⟨S8x512x1x1, .i32⟩
  | 95 => ⟨S1, .i32⟩
  | 96 => ⟨S_, .i32⟩
  | 97 => ⟨S8x512x1x1, .i32⟩
  | 98 => ⟨S8x512x1x1, .i1⟩
  | 99 => ⟨S1x1x1x1, .i32⟩
  | 100 => ⟨S8x512x1x1, .i32⟩
  | 101 => ⟨S8x512x1x1, .i1⟩
  | 102 => ⟨S8x512x1x1, .i1⟩
  | 103 => ⟨S_, .i1⟩
  | 104 => ⟨S8x512x1, .i1⟩
  | 105 => ⟨S8x512x1, .f32⟩
  | 106 => ⟨S_, .f32⟩
  | 107 => ⟨S8x512x1, .f32⟩
  | 108 => ⟨S8x512x1, .f32⟩
  | 109 => ⟨S8x512, .f32⟩
  | 110 => ⟨S8x512, .f32⟩
  | 111 => ⟨S8x512, .f32⟩
  | 112 => ⟨S_, .f32⟩
  | 113 => ⟨S8, .f32⟩
  | 114 => ⟨S8x512, .i32⟩
  | 115 => ⟨S_, .i32⟩
  | 116 => ⟨S8, .i32⟩
  | 117 => ⟨S8, .f32⟩
  | 118 => ⟨S8, .f32⟩
  | 119 => ⟨S4, .f32⟩
  | 120 => ⟨S4, .f32⟩
  | 121 => ⟨S4, .f32⟩
  | 122 => ⟨S4, .f32⟩
  | 123 => ⟨S_, .f32⟩
  | 124 => ⟨S4, .f32⟩
  | 125 => ⟨S4, .f32⟩
  | 126 => ⟨S4, .f32⟩
  | 127 => ⟨S4, .f32⟩
  | _ => ⟨S8x512x2048, .f32⟩

abbrev hbmTy0_1 (i : Nat) : BufTy := match i % 128 with
  | 0 => ⟨S_, .f32⟩
  | 1 => ⟨S4, .f32⟩
  | 2 => ⟨S4, .f32⟩
  | 3 => ⟨S_, .f32⟩
  | 4 => ⟨S4, .f32⟩
  | 5 => ⟨S4, .f32⟩
  | 6 => ⟨S_, .f32⟩
  | 7 => ⟨S4, .f32⟩
  | 8 => ⟨S4, .f32⟩
  | 9 => ⟨S_, .f32⟩
  | 10 => ⟨S4, .f32⟩
  | 11 => ⟨S4, .f32⟩
  | 12 => ⟨S4, .f32⟩
  | 13 => ⟨S4, .f32⟩
  | 14 => ⟨S_, .f32⟩
  | 15 => ⟨S4, .f32⟩
  | 16 => ⟨S4, .f32⟩
  | 17 => ⟨S_, .f32⟩
  | 18 => ⟨S4, .f32⟩
  | 19 => ⟨S4, .f32⟩
  | 20 => ⟨S_, .f32⟩
  | 21 => ⟨S4, .f32⟩
  | 22 => ⟨S4, .f32⟩
  | 23 => ⟨S8, .f32⟩
  | 24 => ⟨S_, .f32⟩
  | 25 => ⟨S_, .f32⟩
  | 26 => ⟨S_, .f32⟩
  | 27 => ⟨S_, .f32⟩
  | _ => ⟨S8x512x2048, .f32⟩

abbrev hbmTy (i : Nat) : BufTy := match i / 128 with
  | 0 => hbmTy0_0 i
  | 1 => hbmTy0_1 i
  | _ => ⟨S8x512x2048, .f32⟩

abbrev bufTy : (tb : Table) → Fin (tcTables nBuf tb) → BufTy
  | .hbm, ⟨i, _⟩ => hbmTy i
  | _, _ => ⟨S8x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_call1_cst : Ref sig .tc := ⟨.hbm, 13, rfl⟩
abbrev main_call1_v0 : Ref sig .tc := ⟨.hbm, 14, rfl⟩
abbrev main_call1_cst_0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_v6 : Ref sig .tc := ⟨.hbm, 21, rfl⟩
abbrev main_call1_cst_1 : Ref sig .tc := ⟨.hbm, 22, rfl⟩
abbrev main_call1_v7 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_v4 : Ref sig .tc := ⟨.hbm, 27, rfl⟩
abbrev main_v5 : Ref sig .tc := ⟨.hbm, 28, rfl⟩
abbrev main_call2_c : Ref sig .tc := ⟨.hbm, 29, rfl⟩
abbrev main_call2_v0 : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_c_1 : Ref sig .tc := ⟨.hbm, 37, rfl⟩
abbrev main_call2_c_2 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_3 : Ref sig .tc := ⟨.hbm, 45, rfl⟩
abbrev main_call2_v12 : Ref sig .tc := ⟨.hbm, 46, rfl⟩
abbrev main_call2_v13 : Ref sig .tc := ⟨.hbm, 47, rfl⟩
abbrev main_call2_cst : Ref sig .tc := ⟨.hbm, 48, rfl⟩
abbrev main_call2_v14 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_cst : Ref sig .tc := ⟨.hbm, 54, rfl⟩
abbrev main_v10 : Ref sig .tc := ⟨.hbm, 55, rfl⟩
abbrev main_v11 : Ref sig .tc := ⟨.hbm, 56, rfl⟩
abbrev main_c_1 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_c_2 : Ref sig .tc := ⟨.hbm, 64, rfl⟩
abbrev main_v18 : Ref sig .tc := ⟨.hbm, 65, rfl⟩
abbrev main_v19 : Ref sig .tc := ⟨.hbm, 66, rfl⟩
abbrev main_c_3 : Ref sig .tc := ⟨.hbm, 67, rfl⟩
abbrev main_call3_v0 : Ref sig .tc := ⟨.hbm, 68, rfl⟩
abbrev main_call3_v1 : Ref sig .tc := ⟨.hbm, 69, rfl⟩
abbrev main_v20 : Ref sig .tc := ⟨.hbm, 70, rfl⟩
abbrev main_call4_cst : Ref sig .tc := ⟨.hbm, 71, rfl⟩
abbrev main_call4_v0 : Ref sig .tc := ⟨.hbm, 72, rfl⟩
abbrev main_call4_cst_0 : Ref sig .tc := ⟨.hbm, 73, rfl⟩
abbrev main_call4_v1 : Ref sig .tc := ⟨.hbm, 74, rfl⟩
abbrev main_call4_v2 : Ref sig .tc := ⟨.hbm, 75, rfl⟩
abbrev main_call4_v3 : Ref sig .tc := ⟨.hbm, 76, rfl⟩
abbrev main_call4_v4 : Ref sig .tc := ⟨.hbm, 77, rfl⟩
abbrev main_call4_v5 : Ref sig .tc := ⟨.hbm, 78, rfl⟩
abbrev main_call4_v6 : Ref sig .tc := ⟨.hbm, 79, rfl⟩
abbrev main_call4_cst_1 : Ref sig .tc := ⟨.hbm, 80, rfl⟩
abbrev main_call4_v7 : Ref sig .tc := ⟨.hbm, 81, rfl⟩
abbrev main_call4_v8 : Ref sig .tc := ⟨.hbm, 82, rfl⟩
abbrev main_call4_v9 : Ref sig .tc := ⟨.hbm, 83, rfl⟩
abbrev main_call4_v10 : Ref sig .tc := ⟨.hbm, 84, rfl⟩
abbrev main_v21 : Ref sig .tc := ⟨.hbm, 85, rfl⟩
abbrev main_v22 : Ref sig .tc := ⟨.hbm, 86, rfl⟩
abbrev main_call5_c : Ref sig .tc := ⟨.hbm, 87, rfl⟩
abbrev main_call5_v0 : Ref sig .tc := ⟨.hbm, 88, rfl⟩
abbrev main_call5_v1 : Ref sig .tc := ⟨.hbm, 89, rfl⟩
abbrev main_call5_c_0 : Ref sig .tc := ⟨.hbm, 90, rfl⟩
abbrev main_call5_v2 : Ref sig .tc := ⟨.hbm, 91, rfl⟩
abbrev main_call5_v3 : Ref sig .tc := ⟨.hbm, 92, rfl⟩
abbrev main_call5_v4 : Ref sig .tc := ⟨.hbm, 93, rfl⟩
abbrev main_call5_v5 : Ref sig .tc := ⟨.hbm, 94, rfl⟩
abbrev main_call5_c_1 : Ref sig .tc := ⟨.hbm, 95, rfl⟩
abbrev main_call5_c_2 : Ref sig .tc := ⟨.hbm, 96, rfl⟩
abbrev main_call5_v6 : Ref sig .tc := ⟨.hbm, 97, rfl⟩
abbrev main_call5_v7 : Ref sig .tc := ⟨.hbm, 98, rfl⟩
abbrev main_call5_v8 : Ref sig .tc := ⟨.hbm, 99, rfl⟩
abbrev main_call5_v9 : Ref sig .tc := ⟨.hbm, 100, rfl⟩
abbrev main_call5_v10 : Ref sig .tc := ⟨.hbm, 101, rfl⟩
abbrev main_call5_v11 : Ref sig .tc := ⟨.hbm, 102, rfl⟩
abbrev main_call5_c_3 : Ref sig .tc := ⟨.hbm, 103, rfl⟩
abbrev main_call5_v12 : Ref sig .tc := ⟨.hbm, 104, rfl⟩
abbrev main_call5_v13 : Ref sig .tc := ⟨.hbm, 105, rfl⟩
abbrev main_call5_cst : Ref sig .tc := ⟨.hbm, 106, rfl⟩
abbrev main_call5_v14 : Ref sig .tc := ⟨.hbm, 107, rfl⟩
abbrev main_v23 : Ref sig .tc := ⟨.hbm, 108, rfl⟩
abbrev main_v24 : Ref sig .tc := ⟨.hbm, 109, rfl⟩
abbrev main_v25 : Ref sig .tc := ⟨.hbm, 110, rfl⟩
abbrev main_v26 : Ref sig .tc := ⟨.hbm, 111, rfl⟩
abbrev main_cst_4 : Ref sig .tc := ⟨.hbm, 112, rfl⟩
abbrev main_v27 : Ref sig .tc := ⟨.hbm, 113, rfl⟩
abbrev main_v28 : Ref sig .tc := ⟨.hbm, 114, rfl⟩
abbrev main_c_5 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev main_v34 : Ref sig .tc := ⟨.hbm, 121, rfl⟩
abbrev main_v35 : Ref sig .tc := ⟨.hbm, 122, rfl⟩
abbrev main_cst_6 : Ref sig .tc := ⟨.hbm, 123, rfl⟩
abbrev main_v36 : Ref sig .tc := ⟨.hbm, 124, rfl⟩
abbrev main_v37 : Ref sig .tc := ⟨.hbm, 125, rfl⟩
abbrev main_v38 : Ref sig .tc := ⟨.hbm, 126, rfl⟩
abbrev main_v39 : Ref sig .tc := ⟨.hbm, 127, rfl⟩
abbrev main_cst_7 : Ref sig .tc := ⟨.hbm, 128, rfl⟩
abbrev main_v40 : Ref sig .tc := ⟨.hbm, 129, rfl⟩
abbrev main_v41 : Ref sig .tc := ⟨.hbm, 130, rfl⟩
abbrev main_cst_8 : Ref sig .tc := ⟨.hbm, 131, rfl⟩
abbrev main_v42 : Ref sig .tc := ⟨.hbm, 132, rfl⟩
abbrev main_v43 : Ref sig .tc := ⟨.hbm, 133, rfl⟩
abbrev main_cst_9 : Ref sig .tc := ⟨.hbm, 134, rfl⟩
abbrev main_v44 : Ref sig .tc := ⟨.hbm, 135, rfl⟩
abbrev main_v45 : Ref sig .tc := ⟨.hbm, 136, rfl⟩
abbrev main_cst_10 : Ref sig .tc := ⟨.hbm, 137, rfl⟩
abbrev main_v46 : Ref sig .tc := ⟨.hbm, 138, rfl⟩
abbrev main_v47 : Ref sig .tc := ⟨.hbm, 139, rfl⟩
abbrev main_v48 : Ref sig .tc := ⟨.hbm, 140, rfl⟩
abbrev main_v49 : Ref sig .tc := ⟨.hbm, 141, rfl⟩
abbrev main_cst_11 : Ref sig .tc := ⟨.hbm, 142, rfl⟩
abbrev main_v50 : Ref sig .tc := ⟨.hbm, 143, rfl⟩
abbrev main_v51 : Ref sig .tc := ⟨.hbm, 144, rfl⟩
abbrev main_cst_12 : Ref sig .tc := ⟨.hbm, 145, rfl⟩
abbrev main_v52 : Ref sig .tc := ⟨.hbm, 146, rfl⟩
abbrev main_v53 : Ref sig .tc := ⟨.hbm, 147, rfl⟩
abbrev main_cst_13 : Ref sig .tc := ⟨.hbm, 148, rfl⟩
abbrev main_v54 : Ref sig .tc := ⟨.hbm, 149, rfl⟩
abbrev main_v55 : Ref sig .tc := ⟨.hbm, 150, rfl⟩
abbrev main_v56 : Ref sig .tc := ⟨.hbm, 151, rfl⟩
abbrev main_cst_14 : Ref sig .tc := ⟨.hbm, 152, rfl⟩
abbrev main_v57 : Ref sig .tc := ⟨.hbm, 153, rfl⟩
abbrev main_cst_15 : Ref sig .tc := ⟨.hbm, 154, rfl⟩
abbrev main_v58 : Ref sig .tc := ⟨.hbm, 155, rfl⟩

abbrev nD : Nat := 1
abbrev τ : Topo := Topo.v7x

variable {F : FTy → Type} [FloatOps F]

class Facts₀ : Prop where
  bcast_S_S8x512 : S_.BroadcastsInDim S8x512 (![] : Fin 0 → Fin S8x512.rank)
  reducesTo_S8x512x32000_S8x512_d2 : S8x512x32000.ReducesTo [2] S8x512
  h_S_ : 0 < S_.numel
  bcast_S8x512_S8x512x1_0_1 : S8x512.BroadcastsInDim S8x512x1 (![0, 1] : Fin 2 → Fin S8x512x1.rank)
  bcast_S8x512x1_S8x512x32000_0_1_2 : S8x512x1.BroadcastsInDim S8x512x32000 (![0, 1, 2] : Fin 3 → Fin S8x512x32000.rank)
  bcast_S_S8x512x1 : S_.BroadcastsInDim S8x512x1 (![] : Fin 0 → Fin S8x512x1.rank)
  shapeCasts_S8x512x1_S8x512x1x1 : S8x512x1.ShapeCasts S8x512x1x1
  bcast_S_S8x512x1x1 : S_.BroadcastsInDim S8x512x1x1 (![] : Fin 0 → Fin S8x512x1x1.rank)
  bcast_S1_S1x1x1x1_3 : S1.BroadcastsInDim S1x1x1x1 (![3] : Fin 1 → Fin S1x1x1x1.rank)
  bcast_S1x1x1x1_S8x512x1x1_0_1_2_3 : S1x1x1x1.BroadcastsInDim S8x512x1x1 (![0, 1, 2, 3] : Fin 4 → Fin S8x512x1x1.rank)
  reducesTo_S8x512x1x1_S8x512x1_d3 : S8x512x1x1.ReducesTo [3] S8x512x1
  shapeCasts_S8x512x1_S8x512 : S8x512x1.ShapeCasts S8x512
  reducesTo_S8x512_S8_d1 : S8x512.ReducesTo [1] S8
  natLt_1_32 : 1 < 32
  slices_S8_S4_0 : S8.Slices ![0] S4
  slices_S8_S4_4 : S8.Slices ![4] S4
  bcast_S_S4 : S_.BroadcastsInDim S4 (![] : Fin 0 → Fin S4.rank)
  concatenates_S4_S4_S8_d0 : Shape.Concatenates [S4, S4] S8 0
  reducesTo_S8_S_d0 : S8.ReducesTo [0] S_
  dot_S8x512x2048_S32000x2048_S8x512x32000_2_1_01_0_n_n_wf : DotDims.WF S8x512x2048 S32000x2048 S8x512x32000 [2] [1] [0, 1] [0] [] []
  gather_S8x512x32000_S8x512x1x1_S8x512x1_n_2_01_01_2_3_111_wf : GatherDims.WF S8x512x32000 S8x512x1x1 S8x512x1 [] [2] [0, 1] [2] [0, 1] 3 ![1, 1, 1]

variable [Facts₀]

def dot_S8x512x2048_S32000x2048_S8x512x32000_2_1_01_0_n_n : DotDims S8x512x2048 S32000x2048 S8x512x32000 where
  lhsContracting := [2]
  rhsContracting := [1]
  lhsNonContracting := [0, 1]
  rhsNonContracting := [0]
  lhsBatch := []
  rhsBatch := []
  wf := dot_S8x512x2048_S32000x2048_S8x512x32000_2_1_01_0_n_n_wf
def gather_S8x512x32000_S8x512x1x1_S8x512x1_n_2_01_01_2_3_111 : GatherDims S8x512x32000 S8x512x1x1 S8x512x1 where
  offsetDims := []
  collapsedSliceDims := [2]
  operandBatchingDims := [0, 1]
  startIndicesBatchingDims := [0, 1]
  startIndexMap := [2]
  indexVectorDim := 3
  sliceSizes := ![1, 1, 1]
  wf := gather_S8x512x32000_S8x512x1x1_S8x512x1_n_2_01_01_2_3_111_wf

class Facts : Prop extends Facts₀ where

variable [Facts]
-- ==== Proof.Ref.RunHand.lean ====
/-
  The reference's run, read through its stages.  The 151 host operations are walked in three stretches — the first model's
  sequence scores, the second model's, the loss — so that no stage's term is ever expanded inside a later one: after each
  stretch the few buffers the next one reads hold their stage as a function of the five arguments.
-/
import proofs.«411388_j45131516346680_3_alg».proof.Proof.RefRead
import Idealize.ShloMosaic.Lib.StableHlo.Run

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Transporting contents to a buffer's own type and back is the identity. -/
theorem ofBuf_toBuf {T : BufTy} (x : TRef sig T) (v : T.Contents (Elt F)) : x.ofBuf (x.toBuf v) = v := by
  obtain ⟨r, h, _, _⟩ := x
  subst h
  rfl

/-- The first model's operations (through its two halves of sequence scores). -/
abbrev opsA : List (HloOp τ sig (Elt F)) :=
  [ binary main_arg0 main_arg3 main_v0 ((fun l r => Host.dotGeneral dot_S8x512x2048_S32000x2048_S8x512x32000_2_1_01_0_n_n none l r) : (⟨S8x512x2048, .f32⟩ : BufTy).Contents (Elt F) → (⟨S32000x2048, .f32⟩ : BufTy).Contents (Elt F) → (⟨S8x512x32000, .f32⟩ : BufTy).Contents (Elt F)),
    nullary main_c (constantI S_ 32 4294967196#32),
    unary main_c main_v1 (broadcastInDim S8x512 ![] bcast_S_S8x512 : (⟨S_, .i32⟩ : BufTy).Contents (Elt F) → (⟨S8x512, .i32⟩ : BufTy).Contents (Elt F)),
    binary main_arg2 main_v1 main_v2 (cmpi .ne : (⟨S8x512, .i32⟩ : BufTy).Contents (Elt F) → (⟨S8x512, .i32⟩ : BufTy).Contents (Elt F) → (⟨S8x512, .i1⟩ : BufTy).Contents (Elt F)),
    nullary main_c_0 (constantI S_ 32 0#32),
    TRef.unary (TRef.of (T := ⟨S_, .i32⟩) main_c_0) (TRef.of (T := ⟨S_, .i32⟩) main_call0_v0) id,
    TRef.unary (TRef.of (T := ⟨S_, .i32⟩) main_call0_v0) (TRef.of (T := ⟨S8x512, .i32⟩) main_call0_v1) (broadcastInDim S8x512 ![] bcast_S_S8x512),
    TRef.ternary (TRef.of (T := ⟨S8x512, .i1⟩) main_v2) (TRef.of (T := ⟨S8x512, .i32⟩) main_arg2) (TRef.of (T := ⟨S8x512, .i32⟩) main_call0_v1) (TRef.of (T := ⟨S8x512, .i32⟩) main_v3) select,
    TRef.nullary (TRef.of (T := ⟨S_, .f32⟩) main_call1_cst) (constant S_ .f32 0xFF800000#32),
    TRef.binary (TRef.of (T := ⟨S8x512x32000, .f32⟩) main_v0) (TRef.of (T := ⟨S_, .f32⟩) main_call1_cst) (TRef.of (T := ⟨S8x512, .f32⟩) main_call1_v0) (fun x v => Host.reduce FloatOps.maximumf x v reducesTo_S8x512x32000_S8x512_d2 h_S_),
    TRef.nullary (TRef.of (T := ⟨S_, .f32⟩) main_call1_cst_0) (constant S_ .f32 0xFF800000#32),
    TRef.unary (TRef.of (T := ⟨S_, .f32⟩) main_call1_cst_0) (TRef.of (T := ⟨S8x512, .f32⟩) main_call1_v1) (broadcastInDim S8x512 ![] bcast_S_S8x512),
    TRef.binary (TRef.of (T := ⟨S8x512, .f32⟩) main_call1_v1) (TRef.of (T := ⟨S8x512, .f32⟩) main_call1_v0) (TRef.of (T := ⟨S8x512, .f32⟩) main_call1_v2) maximumf,
    TRef.unary (TRef.of (T := ⟨S8x512, .f32⟩) main_call1_v2) (TRef.of (T := ⟨S8x512x1, .f32⟩) main_call1_v3) (broadcastInDim S8x512x1 ![0, 1] bcast_S8x512_S8x512x1_0_1),
    TRef.unary (TRef.of (T := ⟨S8x512x1, .f32⟩) main_call1_v3) (TRef.of (T := ⟨S8x512x32000, .f32⟩) main_call1_v4) (broadcastInDim S8x512x32000 ![0, 1, 2] bcast_S8x512x1_S8x512x32000_0_1_2),
    TRef.binary (TRef.of (T := ⟨S8x512x32000, .f32⟩) main_v0) (TRef.of (T := ⟨S8x512x32000, .f32⟩) main_call1_v4) (TRef.of (T := ⟨S8x512x32000, .f32⟩) main_call1_v5) subf,
    TRef.unary (TRef.of (T := ⟨S8x512x32000, .f32⟩) main_call1_v5) (TRef.of (T := ⟨S8x512x32000, .f32⟩) main_call1_v6) Host.exp,
    TRef.nullary (TRef.of (T := ⟨S_, .f32⟩) main_call1_cst_1) (constant S_ .f32 0x00000000#32),
    TRef.binary (TRef.of (T := ⟨S8x512x32000, .f32⟩) main_call1_v6) (TRef.of (T := ⟨S_, .f32⟩) main_call1_cst_1) (TRef.of (T := ⟨S8x512, .f32⟩) main_call1_v7) (fun x v => Host.reduceAdd x v reducesTo_S8x512x32000_S8x512_d2 h_S_),
    TRef.unary (TRef.of (T := ⟨S8x512, .f32⟩) main_call1_v7) (TRef.of (T := ⟨S8x512x1, .f32⟩) main_call1_v8) (broadcastInDim S8x512x1 ![0, 1] bcast_S8x512_S8x512x1_0_1),
    TRef.unary (TRef.of (T := ⟨S8x512x1, .f32⟩) main_call1_v8) (TRef.of (T := ⟨S8x512x1, .f32⟩) main_call1_v9) Host.log,
    TRef.unary (TRef.of (T := ⟨S8x512x1, .f32⟩) main_call1_v9) (TRef.of (T := ⟨S8x512x32000, .f32⟩) main_call1_v10) (broadcastInDim S8x512x32000 ![0, 1, 2] bcast_S8x512x1_S8x512x32000_0_1_2),
    TRef.binary (TRef.of (T := ⟨S8x512x32000, .f32⟩) main_call1_v5) (TRef.of (T := ⟨S8x512x32000, .f32⟩) main_call1_v10) (TRef.of (T := ⟨S8x512x32000, .f32⟩) main_v4) subf,
    unary main_v3 main_v5 (broadcastInDim S8x512x1 ![0, 1] bcast_S8x512_S8x512x1_0_1 : (⟨S8x512, .i32⟩ : BufTy).Contents (Elt F) → (⟨S8x512x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S8x512x1, .i32⟩) main_call2_v0) (broadcastInDim S8x512x1 ![] bcast_S_S8x512x1),
    TRef.binary (TRef.of (T := ⟨S8x512x1, .i32⟩) main_v5) (TRef.of (T := ⟨S8x512x1, .i32⟩) main_call2_v0) (TRef.of (T := ⟨S8x512x1, .i1⟩) main_call2_v1) (cmpi .slt),
    TRef.nullary (TRef.of (T := ⟨S_, .i32⟩) main_call2_c_0) (constantI S_ 32 32000#32),
    TRef.unary (TRef.of (T := ⟨S_, .i32⟩) main_call2_c_0) (TRef.of (T := ⟨S8x512x1, .i32⟩) main_call2_v2) (broadcastInDim S8x512x1 ![] bcast_S_S8x512x1),
    TRef.binary (TRef.of (T := ⟨S8x512x1, .i32⟩) main_v5) (TRef.of (T := ⟨S8x512x1, .i32⟩) main_call2_v2) (TRef.of (T := ⟨S8x512x1, .i32⟩) main_call2_v3) addi,
    TRef.ternary (TRef.of (T := ⟨S8x512x1, .i1⟩) main_call2_v1) (TRef.of (T := ⟨S8x512x1, .i32⟩) main_call2_v3) (TRef.of (T := ⟨S8x512x1, .i32⟩) main_v5) (TRef.of (T := ⟨S8x512x1, .i32⟩) main_call2_v4) select,
    TRef.reshape (TRef.of (T := ⟨S8x512x1, .i32⟩) main_call2_v4) (TRef.of (T := ⟨S8x512x1x1, .i32⟩) main_call2_v5) rfl shapeCasts_S8x512x1_S8x512x1x1,
    TRef.nullary (TRef.of (T := ⟨S1, .i32⟩) main_call2_c_1) (constantI S1 32 31999#32),
    TRef.nullary (TRef.of (T := ⟨S_, .i32⟩) main_call2_c_2) (constantI S_ 32 0#32),
    TRef.unary (TRef.of (T := ⟨S_, .i32⟩) main_call2_c_2) (TRef.of (T := ⟨S8x512x1x1, .i32⟩) main_call2_v6) (broadcastInDim S8x512x1x1 ![] bcast_S_S8x512x1x1),
    TRef.binary (TRef.of (T := ⟨S8x512x1x1, .i32⟩) main_call2_v5) (TRef.of (T := ⟨S8x512x1x1, .i32⟩) main_call2_v6) (TRef.of (T := ⟨S8x512x1x1, .i1⟩) main_call2_v7) (cmpi .sge),
    TRef.unary (TRef.of (T := ⟨S1, .i32⟩) main_call2_c_1) (TRef.of (T := ⟨S1x1x1x1, .i32⟩) main_call2_v8) (broadcastInDim S1x1x1x1 ![3] bcast_S1_S1x1x1x1_3),
    TRef.unary (TRef.of (T := ⟨S1x1x1x1, .i32⟩) main_call2_v8) (TRef.of (T := ⟨S8x512x1x1, .i32⟩) main_call2_v9) (broadcastInDim S8x512x1x1 ![0, 1, 2, 3] bcast_S1x1x1x1_S8x512x1x1_0_1_2_3),
    TRef.binary (TRef.of (T := ⟨S8x512x1x1, .i32⟩) main_call2_v5) (TRef.of (T := ⟨S8x512x1x1, .i32⟩) main_call2_v9) (TRef.of (T := ⟨S8x512x1x1, .i1⟩) main_call2_v10) (cmpi .sle),
    TRef.binary (TRef.of (T := ⟨S8x512x1x1, .i1⟩) main_call2_v7) (TRef.of (T := ⟨S8x512x1x1, .i1⟩) main_call2_v10) (TRef.of (T := ⟨S8x512x1x1, .i1⟩) main_call2_v11) andi,
    TRef.nullary (TRef.of (T := ⟨S_, .i1⟩) main_call2_c_3) (constantI S_ 1 1#1),
    TRef.binary (TRef.of (T := ⟨S8x512x1x1, .i1⟩) main_call2_v11) (TRef.of (T := ⟨S_, .i1⟩) main_call2_c_3) (TRef.of (T := ⟨S8x512x1, .i1⟩) main_call2_v12) (fun x v => Host.reduce IntOp.andi x v reducesTo_S8x512x1x1_S8x512x1_d3 h_S_),
    TRef.binary (TRef.of (T := ⟨S8x512x32000, .f32⟩) main_v4) (TRef.of (T := ⟨S8x512x1x1, .i32⟩) main_call2_v5) (TRef.of (T := ⟨S8x512x1, .f32⟩) main_call2_v13) (fun x i => Host.gather gather_S8x512x32000_S8x512x1x1_S8x512x1_n_2_01_01_2_3_111 x i),
    TRef.nullary (TRef.of (T := ⟨S_, .f32⟩) main_call2_cst) (constant S_ .f32 0x7FC00000#32),
    TRef.unary (TRef.of (T := ⟨S_, .f32⟩) main_call2_cst) (TRef.of (T := ⟨S8x512x1, .f32⟩) main_call2_v14) (broadcastInDim S8x512x1 ![] bcast_S_S8x512x1),
    TRef.ternary (TRef.of (T := ⟨S8x512x1, .i1⟩) main_call2_v12) (TRef.of (T := ⟨S8x512x1, .f32⟩) main_call2_v13) (TRef.of (T := ⟨S8x512x1, .f32⟩) main_call2_v14) (TRef.of (T := ⟨S8x512x1, .f32⟩) main_v6) select,
    reshape main_v6 main_v7 rfl shapeCasts_S8x512x1_S8x512,
    unary main_v2 main_v8 (uitofp .f32 : (⟨S8x512, .i1⟩ : BufTy).Contents (Elt F) → (⟨S8x512, .f32⟩ : BufTy).Contents (Elt F)),
    binary main_v7 main_v8 main_v9 (mulf : (⟨S8x512, .f32⟩ : BufTy).Contents (Elt F) → (⟨S8x512, .f32⟩ : BufTy).Contents (Elt F) → (⟨S8x512, .f32⟩ : BufTy).Contents (Elt F)),
    nullary main_cst (constant S_ .f32 0x00000000#32),
    binary main_v9 main_cst main_v10 ((fun x v => Host.reduceAdd x v reducesTo_S8x512_S8_d1 h_S_) : (⟨S8x512, .f32⟩ : BufTy).Contents (Elt F) → (⟨S_, .f32⟩ : BufTy).Contents (Elt F) → (⟨S8, .f32⟩ : BufTy).Contents (Elt F)),
    unary main_v2 main_v11 ((extui 32 · natLt_1_32) : (⟨S8x512, .i1⟩ : BufTy).Contents (Elt F) → (⟨S8x512, .i32⟩ : BufTy).Contents (Elt F)),
    nullary main_c_1 (constantI S_ 32 0#32),
    binary main_v11 main_c_1 main_v12 ((fun x v => Host.reduce IntOp.addi x v reducesTo_S8x512_S8_d1 h_S_) : (⟨S8x512, .i32⟩ : BufTy).Contents (Elt F) → (⟨S_, .i32⟩ : BufTy).Contents (Elt F) → (⟨S8, .i32⟩ : BufTy).Contents (Elt F)),
    unary main_v12 main_v13 (sitofp .f32 : (⟨S8, .i32⟩ : BufTy).Contents (Elt F) → (⟨S8, .f32⟩ : BufTy).Contents (Elt F)),
    binary main_v10 main_v13 main_v14 (Host.divf : (⟨S8, .f32⟩ : BufTy).Contents (Elt F) → (⟨S8, .f32⟩ : BufTy).Contents (Elt F) → (⟨S8, .f32⟩ : BufTy).Contents (Elt F)),
    unary main_v14 main_v15 ((extractStridedSlice S4 ![0] · slices_S8_S4_0) : (⟨S8, .f32⟩ : BufTy).Contents (Elt F) → (⟨S4, .f32⟩ : BufTy).Contents (Elt F)),
    unary main_v14 main_v16 ((extractStridedSlice S4 ![4] · slices_S8_S4_4) : (⟨S8, .f32⟩ : BufTy).Contents (Elt F) → (⟨S4, .f32⟩ : BufTy).Contents (Elt F)) ]

/-- The second model's operations. -/
abbrev opsB : List (HloOp τ sig (Elt F)) :=
  [ binary main_arg1 main_arg4 main_v17 ((fun l r => Host.dotGeneral dot_S8x512x2048_S32000x2048_S8x512x32000_2_1_01_0_n_n none l r) : (⟨S8x512x2048, .f32⟩ : BufTy).Contents (Elt F) → (⟨S32000x2048, .f32⟩ : BufTy).Contents (Elt F) → (⟨S8x512x32000, .f32⟩ : BufTy).Contents (Elt F)),
    nullary main_c_2 (constantI S_ 32 4294967196#32),
    unary main_c_2 main_v18 (broadcastInDim S8x512 ![] bcast_S_S8x512 : (⟨S_, .i32⟩ : BufTy).Contents (Elt F) → (⟨S8x512, .i32⟩ : BufTy).Contents (Elt F)),
    binary main_arg2 main_v18 main_v19 (cmpi .ne : (⟨S8x512, .i32⟩ : BufTy).Contents (Elt F) → (⟨S8x512, .i32⟩ : BufTy).Contents (Elt F) → (⟨S8x512, .i1⟩ : BufTy).Contents (Elt F)),
    nullary main_c_3 (constantI S_ 32 0#32),
    TRef.unary (TRef.of (T := ⟨S_, .i32⟩) main_c_3) (TRef.of (T := ⟨S_, .i32⟩) main_call3_v0) id,
    TRef.unary (TRef.of (T := ⟨S_, .i32⟩) main_call3_v0) (TRef.of (T := ⟨S8x512, .i32⟩) main_call3_v1) (broadcastInDim S8x512 ![] bcast_S_S8x512),
    TRef.ternary (TRef.of (T := ⟨S8x512, .i1⟩) main_v19) (TRef.of (T := ⟨S8x512, .i32⟩) main_arg2) (TRef.of (T := ⟨S8x512, .i32⟩) main_call3_v1) (TRef.of (T := ⟨S8x512, .i32⟩) main_v20) select,
    TRef.nullary (TRef.of (T := ⟨S_, .f32⟩) main_call4_cst) (constant S_ .f32 0xFF800000#32),
    TRef.binary (TRef.of (T := ⟨S8x512x32000, .f32⟩) main_v17) (TRef.of (T := ⟨S_, .f32⟩) main_call4_cst) (TRef.of (T := ⟨S8x512, .f32⟩) main_call4_v0) (fun x v => Host.reduce FloatOps.maximumf x v reducesTo_S8x512x32000_S8x512_d2 h_S_),
    TRef.nullary (TRef.of (T := ⟨S_, .f32⟩) main_call4_cst_0) (constant S_ .f32 0xFF800000#32),
    TRef.unary (TRef.of (T := ⟨S_, .f32⟩) main_call4_cst_0) (TRef.of (T := ⟨S8x512, .f32⟩) main_call4_v1) (broadcastInDim S8x512 ![] bcast_S_S8x512),
    TRef.binary (TRef.of (T := ⟨S8x512, .f32⟩) main_call4_v1) (TRef.of (T := ⟨S8x512, .f32⟩) main_call4_v0) (TRef.of (T := ⟨S8x512, .f32⟩) main_call4_v2) maximumf,
    TRef.unary (TRef.of (T := ⟨S8x512, .f32⟩) main_call4_v2) (TRef.of (T := ⟨S8x512x1, .f32⟩) main_call4_v3) (broadcastInDim S8x512x1 ![0, 1] bcast_S8x512_S8x512x1_0_1),
    TRef.unary (TRef.of (T := ⟨S8x512x1, .f32⟩) main_call4_v3) (TRef.of (T := ⟨S8x512x32000, .f32⟩) main_call4_v4) (broadcastInDim S8x512x32000 ![0, 1, 2] bcast_S8x512x1_S8x512x32000_0_1_2),
    TRef.binary (TRef.of (T := ⟨S8x512x32000, .f32⟩) main_v17) (TRef.of (T := ⟨S8x512x32000, .f32⟩) main_call4_v4) (TRef.of (T := ⟨S8x512x32000, .f32⟩) main_call4_v5) subf,
    TRef.unary (TRef.of (T := ⟨S8x512x32000, .f32⟩) main_call4_v5) (TRef.of (T := ⟨S8x512x32000, .f32⟩) main_call4_v6) Host.exp,
    TRef.nullary (TRef.of (T := ⟨S_, .f32⟩) main_call4_cst_1) (constant S_ .f32 0x00000000#32),
    TRef.binary (TRef.of (T := ⟨S8x512x32000, .f32⟩) main_call4_v6) (TRef.of (T := ⟨S_, .f32⟩) main_call4_cst_1) (TRef.of (T := ⟨S8x512, .f32⟩) main_call4_v7) (fun x v => Host.reduceAdd x v reducesTo_S8x512x32000_S8x512_d2 h_S_),
    TRef.unary (TRef.of (T := ⟨S8x512, .f32⟩) main_call4_v7) (TRef.of (T := ⟨S8x512x1, .f32⟩) main_call4_v8) (broadcastInDim S8x512x1 ![0, 1] bcast_S8x512_S8x512x1_0_1),
    TRef.unary (TRef.of (T := ⟨S8x512x1, .f32⟩) main_call4_v8) (TRef.of (T := ⟨S8x512x1, .f32⟩) main_call4_v9) Host.log,
    TRef.unary (TRef.of (T := ⟨S8x512x1, .f32⟩) main_call4_v9) (TRef.of (T := ⟨S8x512x32000, .f32⟩) main_call4_v10) (broadcastInDim S8x512x32000 ![0, 1, 2] bcast_S8x512x1_S8x512x32000_0_1_2),
    TRef.binary (TRef.of (T := ⟨S8x512x32000, .f32⟩) main_call4_v5) (TRef.of (T := ⟨S8x512x32000, .f32⟩) main_call4_v10) (TRef.of (T := ⟨S8x512x32000, .f32⟩) main_v21) subf,
    unary main_v20 main_v22 (broadcastInDim S8x512x1 ![0, 1] bcast_S8x512_S8x512x1_0_1 : (⟨S8x512, .i32⟩ : BufTy).Contents (Elt F) → (⟨S8x512x1, .i32⟩ : BufTy).Contents (Elt F)),
    TRef.nullary (TRef.of (T := ⟨S_, .i32⟩) main_call5_c) (constantI S_ 32 0#32),
    TRef.unary (TRef.of (T := ⟨S_, .i32⟩) main_call5_c) (TRef.of (T := ⟨S8x512x1, .i32⟩) main_call5_v0) (broadcastInDim S8x512x1 ![] bcast_S_S8x512x1),
    TRef.binary (TRef.of (T := ⟨S8x512x1, .i32⟩) main_v22) (TRef.of (T := ⟨S8x512x1, .i32⟩) main_call5_v0) (TRef.of (T := ⟨S8x512x1, .i1⟩) main_call5_v1) (cmpi .slt),
    TRef.nullary (TRef.of (T := ⟨S_, .i32⟩) main_call5_c_0) (constantI S_ 32 32000#32),
    TRef.unary (TRef.of (T := ⟨S_, .i32⟩) main_call5_c_0) (TRef.of (T := ⟨S8x512x1, .i32⟩) main_call5_v2) (broadcastInDim S8x512x1 ![] bcast_S_S8x512x1),
    TRef.binary (TRef.of (T := ⟨S8x512x1, .i32⟩) main_v22) (TRef.of (T := ⟨S8x512x1, .i32⟩) main_call5_v2) (TRef.of (T := ⟨S8x512x1, .i32⟩) main_call5_v3) addi,
    TRef.ternary (TRef.of (T := ⟨S8x512x1, .i1⟩) main_call5_v1) (TRef.of (T := ⟨S8x512x1, .i32⟩) main_call5_v3) (TRef.of (T := ⟨S8x512x1, .i32⟩) main_v22) (TRef.of (T := ⟨S8x512x1, .i32⟩) main_call5_v4) select,
    TRef.reshape (TRef.of (T := ⟨S8x512x1, .i32⟩) main_call5_v4) (TRef.of (T := ⟨S8x512x1x1, .i32⟩) main_call5_v5) rfl shapeCasts_S8x512x1_S8x512x1x1,
    TRef.nullary (TRef.of (T := ⟨S1, .i32⟩) main_call5_c_1) (constantI S1 32 31999#32),
    TRef.nullary (TRef.of (T := ⟨S_, .i32⟩) main_call5_c_2) (constantI S_ 32 0#32),
    TRef.unary (TRef.of (T := ⟨S_, .i32⟩) main_call5_c_2) (TRef.of (T := ⟨S8x512x1x1, .i32⟩) main_call5_v6) (broadcastInDim S8x512x1x1 ![] bcast_S_S8x512x1x1),
    TRef.binary (TRef.of (T := ⟨S8x512x1x1, .i32⟩) main_call5_v5) (TRef.of (T := ⟨S8x512x1x1, .i32⟩) main_call5_v6) (TRef.of (T := ⟨S8x512x1x1, .i1⟩) main_call5_v7) (cmpi .sge),
    TRef.unary (TRef.of (T := ⟨S1, .i32⟩) main_call5_c_1) (TRef.of (T := ⟨S1x1x1x1, .i32⟩) main_call5_v8) (broadcastInDim S1x1x1x1 ![3] bcast_S1_S1x1x1x1_3),
    TRef.unary (TRef.of (T := ⟨S1x1x1x1, .i32⟩) main_call5_v8) (TRef.of (T := ⟨S8x512x1x1, .i32⟩) main_call5_v9) (broadcastInDim S8x512x1x1 ![0, 1, 2, 3] bcast_S1x1x1x1_S8x512x1x1_0_1_2_3),
    TRef.binary (TRef.of (T := ⟨S8x512x1x1, .i32⟩) main_call5_v5) (TRef.of (T := ⟨S8x512x1x1, .i32⟩) main_call5_v9) (TRef.of (T := ⟨S8x512x1x1, .i1⟩) main_call5_v10) (cmpi .sle),
    TRef.binary (TRef.of (T := ⟨S8x512x1x1, .i1⟩) main_call5_v7) (TRef.of (T := ⟨S8x512x1x1, .i1⟩) main_call5_v10) (TRef.of (T := ⟨S8x512x1x1, .i1⟩) main_call5_v11) andi,
    TRef.nullary (TRef.of (T := ⟨S_, .i1⟩) main_call5_c_3) (constantI S_ 1 1#1),
    TRef.binary (TRef.of (T := ⟨S8x512x1x1, .i1⟩) main_call5_v11) (TRef.of (T := ⟨S_, .i1⟩) main_call5_c_3) (TRef.of (T := ⟨S8x512x1, .i1⟩) main_call5_v12) (fun x v => Host.reduce IntOp.andi x v reducesTo_S8x512x1x1_S8x512x1_d3 h_S_),
    TRef.binary (TRef.of (T := ⟨S8x512x32000, .f32⟩) main_v21) (TRef.of (T := ⟨S8x512x1x1, .i32⟩) main_call5_v5) (TRef.of (T := ⟨S8x512x1, .f32⟩) main_call5_v13) (fun x i => Host.gather gather_S8x512x32000_S8x512x1x1_S8x512x1_n_2_01_01_2_3_111 x i),
    TRef.nullary (TRef.of (T := ⟨S_, .f32⟩) main_call5_cst) (constant S_ .f32 0x7FC00000#32),
    TRef.unary (TRef.of (T := ⟨S_, .f32⟩) main_call5_cst) (TRef.of (T := ⟨S8x512x1, .f32⟩) main_call5_v14) (broadcastInDim S8x512x1 ![] bcast_S_S8x512x1),
    TRef.ternary (TRef.of (T := ⟨S8x512x1, .i1⟩) main_call5_v12) (TRef.of (T := ⟨S8x512x1, .f32⟩) main_call5_v13) (TRef.of (T := ⟨S8x512x1, .f32⟩) main_call5_v14) (TRef.of (T := ⟨S8x512x1, .f32⟩) main_v23) select,
    reshape main_v23 main_v24 rfl shapeCasts_S8x512x1_S8x512,
    unary main_v19 main_v25 (uitofp .f32 : (⟨S8x512, .i1⟩ : BufTy).Contents (Elt F) → (⟨S8x512, .f32⟩ : BufTy).Contents (Elt F)),
    binary main_v24 main_v25 main_v26 (mulf : (⟨S8x512, .f32⟩ : BufTy).Contents (Elt F) → (⟨S8x512, .f32⟩ : BufTy).Contents (Elt F) → (⟨S8x512, .f32⟩ : BufTy).Contents (Elt F)),
    nullary main_cst_4 (constant S_ .f32 0x00000000#32),
    binary main_v26 main_cst_4 main_v27 ((fun x v => Host.reduceAdd x v reducesTo_S8x512_S8_d1 h_S_) : (⟨S8x512, .f32⟩ : BufTy).Contents (Elt F) → (⟨S_, .f32⟩ : BufTy).Contents (Elt F) → (⟨S8, .f32⟩ : BufTy).Contents (Elt F)),
    unary main_v19 main_v28 ((extui 32 · natLt_1_32) : (⟨S8x512, .i1⟩ : BufTy).Contents (Elt F) → (⟨S8x512, .i32⟩ : BufTy).Contents (Elt F)),
    nullary main_c_5 (constantI S_ 32 0#32),
    binary main_v28 main_c_5 main_v29 ((fun x v => Host.reduce IntOp.addi x v reducesTo_S8x512_S8_d1 h_S_) : (⟨S8x512, .i32⟩ : BufTy).Contents (Elt F) → (⟨S_, .i32⟩ : BufTy).Contents (Elt F) → (⟨S8, .i32⟩ : BufTy).Contents (Elt F)),
    unary main_v29 main_v30 (sitofp .f32 : (⟨S8, .i32⟩ : BufTy).Contents (Elt F) → (⟨S8, .f32⟩ : BufTy).Contents (Elt F)),
    binary main_v27 main_v30 main_v31 (Host.divf : (⟨S8, .f32⟩ : BufTy).Contents (Elt F) → (⟨S8, .f32⟩ : BufTy).Contents (Elt F) → (⟨S8, .f32⟩ : BufTy).Contents (Elt F)),
    unary main_v31 main_v32 ((extractStridedSlice S4 ![0] · slices_S8_S4_0) : (⟨S8, .f32⟩ : BufTy).Contents (Elt F) → (⟨S4, .f32⟩ : BufTy).Contents (Elt F)),
    unary main_v31 main_v33 ((extractStridedSlice S4 ![4] · slices_S8_S4_4) : (⟨S8, .f32⟩ : BufTy).Contents (Elt F) → (⟨S4, .f32⟩ : BufTy).Contents (Elt F)) ]

/-- The loss from the four halves. -/
abbrev opsC : List (HloOp τ sig (Elt F)) :=
  [ binary main_v15 main_v32 main_v34 (subf : (⟨S4, .f32⟩ : BufTy).Contents (Elt F) → (⟨S4, .f32⟩ : BufTy).Contents (Elt F) → (⟨S4, .f32⟩ : BufTy).Contents (Elt F)),
    binary main_v16 main_v33 main_v35 (subf : (⟨S4, .f32⟩ : BufTy).Contents (Elt F) → (⟨S4, .f32⟩ : BufTy).Contents (Elt F) → (⟨S4, .f32⟩ : BufTy).Contents (Elt F)),
    nullary main_cst_6 (constant S_ .f32 0x3DCCCCCD#32),
    unary main_cst_6 main_v36 (broadcastInDim S4 ![] bcast_S_S4 : (⟨S_, .f32⟩ : BufTy).Contents (Elt F) → (⟨S4, .f32⟩ : BufTy).Contents (Elt F)),
    binary main_v36 main_v34 main_v37 (mulf : (⟨S4, .f32⟩ : BufTy).Contents (Elt F) → (⟨S4, .f32⟩ : BufTy).Contents (Elt F) → (⟨S4, .f32⟩ : BufTy).Contents (Elt F)),
    unary main_v37 main_v38 (Host.negf : (⟨S4, .f32⟩ : BufTy).Contents (Elt F) → (⟨S4, .f32⟩ : BufTy).Contents (Elt F)),
    unary main_v38 main_v39 (Host.exp : (⟨S4, .f32⟩ : BufTy).Contents (Elt F) → (⟨S4, .f32⟩ : BufTy).Contents (Elt F)),
    nullary main_cst_7 (constant S_ .f32 0x3F800000#32),
    unary main_cst_7 main_v40 (broadcastInDim S4 ![] bcast_S_S4 : (⟨S_, .f32⟩ : BufTy).Contents (Elt F) → (⟨S4, .f32⟩ : BufTy).Contents (Elt F)),
    binary main_v40 main_v39 main_v41 (addf : (⟨S4, .f32⟩ : BufTy).Contents (Elt F) → (⟨S4, .f32⟩ : BufTy).Contents (Elt F) → (⟨S4, .f32⟩ : BufTy).Contents (Elt F)),
    nullary main_cst_8 (constant S_ .f32 0x3F800000#32),
    unary main_cst_8 main_v42 (broadcastInDim S4 ![] bcast_S_S4 : (⟨S_, .f32⟩ : BufTy).Contents (Elt F) → (⟨S4, .f32⟩ : BufTy).Contents (Elt F)),
    binary main_v42 main_v41 main_v43 (Host.divf : (⟨S4, .f32⟩ : BufTy).Contents (Elt F) → (⟨S4, .f32⟩ : BufTy).Contents (Elt F) → (⟨S4, .f32⟩ : BufTy).Contents (Elt F)),
    nullary main_cst_9 (constant S_ .f32 0x3F800000#32),
    unary main_cst_9 main_v44 (broadcastInDim S4 ![] bcast_S_S4 : (⟨S_, .f32⟩ : BufTy).Contents (Elt F) → (⟨S4, .f32⟩ : BufTy).Contents (Elt F)),
    binary main_v44 main_v43 main_v45 (subf : (⟨S4, .f32⟩ : BufTy).Contents (Elt F) → (⟨S4, .f32⟩ : BufTy).Contents (Elt F) → (⟨S4, .f32⟩ : BufTy).Contents (Elt F)),
    nullary main_cst_10 (constant S_ .f32 0xBDCCCCCD#32),
    unary main_cst_10 main_v46 (broadcastInDim S4 ![] bcast_S_S4 : (⟨S_, .f32⟩ : BufTy).Contents (Elt F) → (⟨S4, .f32⟩ : BufTy).Contents (Elt F)),
    binary main_v46 main_v35 main_v47 (mulf : (⟨S4, .f32⟩ : BufTy).Contents (Elt F) → (⟨S4, .f32⟩ : BufTy).Contents (Elt F) → (⟨S4, .f32⟩ : BufTy).Contents (Elt F)),
    unary main_v47 main_v48 (Host.negf : (⟨S4, .f32⟩ : BufTy).Contents (Elt F) → (⟨S4, .f32⟩ : BufTy).Contents (Elt F)),
    unary main_v48 main_v49 (Host.exp : (⟨S4, .f32⟩ : BufTy).Contents (Elt F) → (⟨S4, .f32⟩ : BufTy).Contents (Elt F)),
    nullary main_cst_11 (constant S_ .f32 0x3F800000#32),
    unary main_cst_11 main_v50 (broadcastInDim S4 ![] bcast_S_S4 : (⟨S_, .f32⟩ : BufTy).Contents (Elt F) → (⟨S4, .f32⟩ : BufTy).Contents (Elt F)),
    binary main_v50 main_v49 main_v51 (addf : (⟨S4, .f32⟩ : BufTy).Contents (Elt F) → (⟨S4, .f32⟩ : BufTy).Contents (Elt F) → (⟨S4, .f32⟩ : BufTy).Contents (Elt F)),
    nullary main_cst_12 (constant S_ .f32 0x3F800000#32),
    unary main_cst_12 main_v52 (broadcastInDim S4 ![] bcast_S_S4 : (⟨S_, .f32⟩ : BufTy).Contents (Elt F) → (⟨S4, .f32⟩ : BufTy).Contents (Elt F)),
    binary main_v52 main_v51 main_v53 (Host.divf : (⟨S4, .f32⟩ : BufTy).Contents (Elt F) → (⟨S4, .f32⟩ : BufTy).Contents (Elt F) → (⟨S4, .f32⟩ : BufTy).Contents (Elt F)),
    nullary main_cst_13 (constant S_ .f32 0x3F800000#32),
    unary main_cst_13 main_v54 (broadcastInDim S4 ![] bcast_S_S4 : (⟨S_, .f32⟩ : BufTy).Contents (Elt F) → (⟨S4, .f32⟩ : BufTy).Contents (Elt F)),
    binary main_v54 main_v53 main_v55 (subf : (⟨S4, .f32⟩ : BufTy).Contents (Elt F) → (⟨S4, .f32⟩ : BufTy).Contents (Elt F) → (⟨S4, .f32⟩ : BufTy).Contents (Elt F)),
    binary main_v45 main_v55 main_v56 ((fun a b => concatenate S8 0 [⟨S4, a⟩, ⟨S4, b⟩] concatenates_S4_S4_S8_d0) : (⟨S4, .f32⟩ : BufTy).Contents (Elt F) → (⟨S4, .f32⟩ : BufTy).Contents (Elt F) → (⟨S8, .f32⟩ : BufTy).Contents (Elt F)),
    nullary main_cst_14 (constant S_ .f32 0x00000000#32),
    binary main_v56 main_cst_14 main_v57 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_15 (constant S_ .f32 0x41000000#32),
    binary main_v57 main_cst_15 main_v58 (Host.divf : (⟨S_, .f32⟩ : BufTy).Contents (Elt F) → (⟨S_, .f32⟩ : BufTy).Contents (Elt F) → (⟨S_, .f32⟩ : BufTy).Contents (Elt F)) ]

/-- The whole list is the three stretches in order. -/
theorem after_split (V : Valuation τ sig (Elt F)) :
    after (ops (F := F)) V = after opsC (after opsB (after opsA V)) := rfl

/-! ## The first stretch, from any contents W of the buffers -/

set_option maxHeartbeats 2000000 in
theorem A_v15 (W : Valuation τ sig (Elt F)) :
    after opsA W main_v15 = val_main_v15 (F := F) (W main_arg0) (W main_arg2) (W main_arg3) := by
  simp only [opsA]; after_results_simp <;> (try simp only [ofBuf_toBuf]) <;> rfl
set_option maxHeartbeats 2000000 in
theorem A_v16 (W : Valuation τ sig (Elt F)) :
    after opsA W main_v16 = val_main_v16 (F := F) (W main_arg0) (W main_arg2) (W main_arg3) := by
  simp only [opsA]; after_results_simp <;> (try simp only [ofBuf_toBuf]) <;> rfl
theorem A_arg1 (W : Valuation τ sig (Elt F)) : after opsA W main_arg1 = W main_arg1 := by
  simp only [opsA]; after_results_simp <;> (try simp only [ofBuf_toBuf]) <;> rfl
theorem A_arg2 (W : Valuation τ sig (Elt F)) : after opsA W main_arg2 = W main_arg2 := by
  simp only [opsA]; after_results_simp <;> (try simp only [ofBuf_toBuf]) <;> rfl
theorem A_arg4 (W : Valuation τ sig (Elt F)) : after opsA W main_arg4 = W main_arg4 := by
  simp only [opsA]; after_results_simp <;> (try simp only [ofBuf_toBuf]) <;> rfl

/-! ## The second stretch -/

set_option maxHeartbeats 2000000 in
theorem B_v32 (W : Valuation τ sig (Elt F)) :
    after opsB W main_v32 = val_main_v32 (F := F) (W main_arg1) (W main_arg2) (W main_arg4) := by
  simp only [opsB]; after_results_simp <;> (try simp only [ofBuf_toBuf]) <;> rfl
set_option maxHeartbeats 2000000 in
theorem B_v33 (W : Valuation τ sig (Elt F)) :
    after opsB W main_v33 = val_main_v33 (F := F) (W main_arg1) (W main_arg2) (W main_arg4) := by
  simp only [opsB]; after_results_simp <;> (try simp only [ofBuf_toBuf]) <;> rfl
theorem B_v15 (W : Valuation τ sig (Elt F)) : after opsB W main_v15 = W main_v15 := by
  simp only [opsB]; after_results_simp <;> (try simp only [ofBuf_toBuf]) <;> rfl
theorem B_v16 (W : Valuation τ sig (Elt F)) : after opsB W main_v16 = W main_v16 := by
  simp only [opsB]; after_results_simp <;> (try simp only [ofBuf_toBuf]) <;> rfl

/-! ## The third stretch: the loss from the four halves -/

set_option maxHeartbeats 2000000 in
theorem C_v58 (W : Valuation τ sig (Elt F))
    (x0 x1 : (⟨S8x512x2048, .f32⟩ : BufTy).Contents (Elt F)) (x2 : (⟨S8x512, .i32⟩ : BufTy).Contents (Elt F))
    (x3 x4 : (⟨S32000x2048, .f32⟩ : BufTy).Contents (Elt F))
    (h15 : W main_v15 = val_main_v15 (F := F) x0 x2 x3) (h16 : W main_v16 = val_main_v16 (F := F) x0 x2 x3)
    (h32 : W main_v32 = val_main_v32 (F := F) x1 x2 x4) (h33 : W main_v33 = val_main_v33 (F := F) x1 x2 x4) :
    after opsC W main_v58 = val_main_v58 (F := F) x0 x1 x2 x3 x4 := by
  simp only [opsC]; after_results
  rw [h15, h16, h32, h33]
  rfl

/-- After all 151 operations the result buffer holds its stage of the five arguments. -/
theorem result_stage (V : Valuation τ sig (Elt F)) :
    after (ops (F := F)) V main_v58
      = val_main_v58 (F := F) (V main_arg0) (V main_arg1) (V main_arg2) (V main_arg3) (V main_arg4) := by
  rw [after_split]
  refine C_v58 _ _ _ _ _ _ ?_ ?_ ?_ ?_
  · rw [B_v15, A_v15]
  · rw [B_v16, A_v16]
  · rw [B_v32, A_arg1, A_arg2, A_arg4]
  · rw [B_v33, A_arg1, A_arg2, A_arg4]

/-- THE REFERENCE'S RUN: every weakly fair execution terminates with the result at its stage of the arguments' launch
    contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v58)
        = val_main_v58 (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v58).trans (result_stage _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_after m ρ)

end Cert.ReferenceIdeal.Stages

end
-- ==== Proof.K.R0.Runs.lean ====
/-
  Region 0 (the first log-sum-exp call): what its three cases share.  The grid is 2 × 50: the outer axis picks a block of 256
  token positions, the inner axis walks the vocabulary in 50 tiles of 640 rows.  The body keeps two scratch columns
  between points, the running maximum and the running sum of exponentials: it resets them at the first tile, updates
  them at every tile, and at the last tile writes maximum + log(sum) into the output block.
-/
import proofs.«411388_j45131516346680_3_alg».proof.Proof.Gen.Kernel.Launch
import proofs.«411388_j45131516346680_3_alg».proof.Proof.Gen.Kernel.Skeleton
import proofs.«411388_j45131516346680_3_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The scratch columns as pure functions of what the body loads -/

/-- The running maximum after a tile: the old column against the tile's row maxima. -/
def mNew (x : Vec F S8x256x2048 .bf16) (w : Vec F S640x2048 .bf16) (mo : Vec F S8x256x1 .f32) : Vec F S8x256x1 .f32 :=
  k0_pay7 x w mo
/-- The running sum after a tile: the old sum rescaled to the new maximum, plus the tile's exponentials. -/
def lNew (x : Vec F S8x256x2048 .bf16) (w : Vec F S640x2048 .bf16) (mo lo : Vec F S8x256x1 .f32) : Vec F S8x256x1 .f32 :=
  k0_pay6 x w mo mo lo
/-- The columns a reset writes: minus infinity, and zero. -/
def mReset : Vec F S8x256x1 .f32 := k0_pay2 (F := F)
def lReset : Vec F S8x256x1 .f32 := k0_pay3 (F := F)
/-- What the last tile stores into the output block: maximum + log(sum), the unit axis dropped. -/
def outFin (mo lo : Vec F S8x256x1 .f32) : Vec F S8x256 .f32 := k0_pay1 mo lo

/-! ## The branch conditions over the grid -/

/-- The reset's condition: the inner coordinate is 0. -/
abbrev condA (i : grid0.Coords) : Prop :=
  (Scalar.cmpi .ne (Scalar.extui (Scalar.cmpi .eq (BitVec.ofNat 32 (i 1).val) 0#32)) 0#32) = 1#1
theorem hcondA : ∀ t : Fin cfg0.N, condA (grid0.coords t) ↔ t.val % 50 = 0 :=
  (by decide +kernel : ∀ t : Fin grid0.N, condA (grid0.coords t) ↔ t.val % 50 = 0)
/-- The final store's condition: the inner coordinate is 49. -/
abbrev condC (i : grid0.Coords) : Prop := k0_cond2 i = 1#1
theorem hcondC : ∀ t : Fin cfg0.N, condC (grid0.coords t) ↔ t.val % 50 = 49 :=
  (by decide +kernel : ∀ t : Fin grid0.N, condC (grid0.coords t) ↔ t.val % 50 = 49)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem idleAt_2 : ∀ t : Fin cfg0.N, ¬condC (grid0.coords t) → cfg0.idle 2 (grid0.coords t) = true := by decide +kernel
theorem noFlush_2 : ∀ t : Fin cfg0.N, ¬condC (grid0.coords t) → (cfg0.win 2).flush t = false := by decide +kernel
theorem liveAt_2 : ∀ t : Fin cfg0.N, condC (grid0.coords t) → cfg0.idle 2 (grid0.coords t) = false := by decide +kernel

/-! ## The staging and scratch memrefs the body is called with -/

abbrev ms_0 (t : Fin cfg0.N) : Memref sig .tc .vmem S8x256x2048 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S640x2048 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S8x256 .f32 := win0_2.stage (cfg0.slots t 2)
abbrev hs_2 (t : Fin cfg0.N) : (ms_2 t).IsWhole := hstage0_2 ((cfg0.slots t 2).cast nbuf0_2)
abbrev scM_0 : Memref sig .tc .vmem S8x256x1 .f32 := Memref.whole cc0_scratch0
abbrev scM_1 : Memref sig .tc .vmem S8x256x1 .f32 := Memref.whole cc0_scratch1

end Cert.Kernel.R0

end
-- ==== Proof.K.R0.RunA.lean ====
/-
  Region 0's body run in one of its three cases, as a Hoare triple over whole staging and scratch buffers: which contents the
  body leaves in the output block and in the two scratch columns, as pure functions of what it was handed.
-/
import proofs.«411388_j45131516346680_3_alg».proof.Proof.K.R0.Runs
import Idealize.ShloMosaic.Lib.Pipeline.Value

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The first tile of a block of tokens (inner coordinate 0): the scratch columns are reset, then updated by the tile; the output block is left as it was. -/
theorem runA (c : Dev nD) (i : grid0.Coords)
    (arg2 : Memref sig .tc .vmem S8x256x2048 .bf16) (harg2 : arg2.IsWhole) (arg3 : Memref sig .tc .vmem S640x2048 .bf16) (harg3 : arg3.IsWhole)
    (arg4 : Memref sig .tc .vmem S8x256 .f32) (harg4 : arg4.IsWhole) (arg5 : Memref sig .tc .vmem S8x256x1 .f32) (harg5 : arg5.IsWhole)
    (arg6 : Memref sig .tc .vmem S8x256x1 .f32) (harg6 : arg6.IsWhole) (hA : condA i) (hC : ¬condC i)
    (x0 : Vec F S8x256x2048 .bf16) (x1 : Vec F S640x2048 .bf16) (xo : Vec F S8x256 .f32) (s0 s1 : Vec F S8x256x1 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s0 ∗ owns (c : Thread nD τ) arg6 fullShare s1
        ∗ (iprop(owns (c : Thread nD τ) arg2 fullShare x0 ∗ owns (c : Thread nD τ) arg3 fullShare x1 ∗ owns (c : Thread nD τ) arg4 fullShare (xo)
            ∗ owns (c : Thread nD τ) arg5 fullShare (mNew x0 x1 mReset) ∗ owns (c : Thread nD τ) arg6 fullShare (lNew x0 x1 mReset lReset)) -∗ K ⟨⟩))
      ⊢ wp frame (wpE (defs₀ (F := F)) Variants.none c none) E (cc0__lse_kernel i arg2 harg2 arg3 harg3 arg4 harg4 arg5 harg5 arg6 harg6) K := by
  -- the whole-shape rectangles sit at offset zero along every axis
  have hz3 : (![0, 0, 0] : Fin 3 → Nat) = fun _ => 0 := funext fun a => by fin_cases a <;> rfl
  have hz2 : (![0, 0] : Fin 2 → Nat) = fun _ => 0 := funext fun a => by fin_cases a <;> rfl
  simp only [cc0__lse_kernel_eq_skeleton]; unfold cc0__lse_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1
  -- the reset branch is taken, the final-store branch is not
  sl_exec (disch := first | exact hA | exact hC)
  sl_step
  iapply Hk
  -- the two inputs and the output block are as they were handed in
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  isplitl [H3]
  -- the maximum column: its last store covers it, so it reads that store's payload, whose own loads read the two
  -- input blocks and the reset column stored just before
  · iexists _; isplitr
    swap; · iexact H3
    ipureintro
    refine (View.read_writes_eq_canon _ _ _ (fun y => ⟨_, List.mem_cons_self, View.mem_set_unit_zero (S := S8x256x1) hz3 inb_S8x256x1_S8x256x1_0_0_0 y⟩)).trans ?_
    refine (View.canon_cons_unit_zero (S := S8x256x1) hz3 inb_S8x256x1_S8x256x1_0_0_0 _ _).trans ?_
    sl_unfold_run_names
    unfold mNew mReset
    rw [View.readCov_unit_zero (S := S8x256x1) _ hz3]
    simp only [View.readAt_eq_ld, harg2.read_unread, harg3.read_unread, View.ld_unit_zero (S := S8x256x2048) hz3,
      View.ld_unit_zero (S := S640x2048) hz2]
  -- the sum column: the same, its payload reading both reset columns back
  · iexists _; isplitr
    swap; · iexact H4
    ipureintro
    refine (View.read_writes_eq_canon _ _ _ (fun y => ⟨_, List.mem_cons_self, View.mem_set_unit_zero (S := S8x256x1) hz3 inb_S8x256x1_S8x256x1_0_0_0 y⟩)).trans ?_
    refine (View.canon_cons_unit_zero (S := S8x256x1) hz3 inb_S8x256x1_S8x256x1_0_0_0 _ _).trans ?_
    sl_unfold_run_names
    unfold lNew mReset lReset
    rw [View.readCov_unit_zero (S := S8x256x1) _ hz3, View.readCov_unit_zero (S := S8x256x1) _ hz3]
    simp only [View.readAt_eq_ld, harg2.read_unread, harg3.read_unread, View.ld_unit_zero (S := S8x256x2048) hz3,
      View.ld_unit_zero (S := S640x2048) hz2]

end Cert.Kernel.R0

end
-- ==== Proof.K.R0.RunB.lean ====
/-
  Region 0's body run in one of its three cases, as a Hoare triple over whole staging and scratch buffers: which contents the
  body leaves in the output block and in the two scratch columns, as pure functions of what it was handed.
-/
import proofs.«411388_j45131516346680_3_alg».proof.Proof.K.R0.RunA
import Idealize.ShloMosaic.Lib.Pipeline.Value

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- A middle tile (inner coordinate 1 to 48): the scratch columns are updated by the tile; the output block is left as it was. -/
theorem runB (c : Dev nD) (i : grid0.Coords)
    (arg2 : Memref sig .tc .vmem S8x256x2048 .bf16) (harg2 : arg2.IsWhole) (arg3 : Memref sig .tc .vmem S640x2048 .bf16) (harg3 : arg3.IsWhole)
    (arg4 : Memref sig .tc .vmem S8x256 .f32) (harg4 : arg4.IsWhole) (arg5 : Memref sig .tc .vmem S8x256x1 .f32) (harg5 : arg5.IsWhole)
    (arg6 : Memref sig .tc .vmem S8x256x1 .f32) (harg6 : arg6.IsWhole) (hA : ¬condA i) (hC : ¬condC i)
    (x0 : Vec F S8x256x2048 .bf16) (x1 : Vec F S640x2048 .bf16) (xo : Vec F S8x256 .f32) (s0 s1 : Vec F S8x256x1 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s0 ∗ owns (c : Thread nD τ) arg6 fullShare s1
        ∗ (iprop(owns (c : Thread nD τ) arg2 fullShare x0 ∗ owns (c : Thread nD τ) arg3 fullShare x1 ∗ owns (c : Thread nD τ) arg4 fullShare (xo)
            ∗ owns (c : Thread nD τ) arg5 fullShare (mNew x0 x1 s0) ∗ owns (c : Thread nD τ) arg6 fullShare (lNew x0 x1 s0 s1)) -∗ K ⟨⟩))
      ⊢ wp frame (wpE (defs₀ (F := F)) Variants.none c none) E (cc0__lse_kernel i arg2 harg2 arg3 harg3 arg4 harg4 arg5 harg5 arg6 harg6) K := by
  simp only [cc0__lse_kernel_eq_skeleton]; unfold cc0__lse_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2
  obtain rfl := harg5.eq_unread hf3; obtain rfl := harg6.eq_unread hf4
  -- neither branch condition holds at a middle tile
  sl_exec (disch := first | exact hA | exact hC)
  sl_step
  -- the zero offsets, however spelt
  have hz3 : (![0, 0, 0] : Fin 3 → ℕ) = fun _ => 0 := by funext a; fin_cases a <;> rfl
  have hz2 : (![0, 0] : Fin 2 → ℕ) = fun _ => 0 := by funext a; fin_cases a <;> rfl
  -- a load of a whole buffer through the whole rectangle reads its contents
  have e2 : View.readAt (Elt F) arg2.view
      (Rect.unit ![0, 0, 0] S8x256x2048.size inb_S8x256x2048_S8x256x2048_0_0_0).toLoadRect (harg2.unread x0) = x0 := by
    rw [View.readAt_eq_ld, harg2.read_unread]; exact View.ld_unit_zero hz3 _ x0
  have e3 : View.readAt (Elt F) arg3.view
      (Rect.unit ![0, 0] S640x2048.size inb_S640x2048_S640x2048_0_0).toLoadRect (harg3.unread x1) = x1 := by
    rw [View.readAt_eq_ld, harg3.read_unread]; exact View.ld_unit_zero hz2 _ x1
  have e5 : View.readAt (Elt F) arg5.view
      (Rect.unit ![0, 0, 0] S8x256x1.size inb_S8x256x1_S8x256x1_0_0_0).toLoadRect (harg5.unread s0) = s0 := by
    rw [View.readAt_eq_ld, harg5.read_unread]; exact View.ld_unit_zero hz3 _ s0
  have e6 : View.readAt (Elt F) arg6.view
      (Rect.unit ![0, 0, 0] S8x256x1.size inb_S8x256x1_S8x256x1_0_0_0).toLoadRect (harg6.unread s1) = s1 := by
    rw [View.readAt_eq_ld, harg6.read_unread]; exact View.ld_unit_zero hz3 _ s1
  -- one store of a column through the whole rectangle leaves its payload, whatever the column held before
  have hst : ∀ (m : Memref sig .tc .vmem S8x256x1 .f32) (f : m.view.ty.Contents (Elt F)) (w : Vec F S8x256x1 .f32),
      m.view.read (Elt F) (m.view.writes (Elt F) f
        [(⟨Rect.unit ![0, 0, 0] S8x256x1.size inb_S8x256x1_S8x256x1_0_0_0, w⟩ : View.Piece (Elt F) S8x256x1 .f32)]) = w := by
    intro m f w
    rw [View.read_writes_eq_canon _ _ _ (fun y => ⟨_, List.mem_singleton_self _,
      View.mem_set_unit_zero hz3 inb_S8x256x1_S8x256x1_0_0_0 y⟩)]
    exact View.canon_unit_zero hz3 _ w
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · -- the maximum column
    iexists _; isplitr
    swap; · iexact H3
    ipureintro
    refine (hst arg5 _ _).trans ?_
    show k0_pay7 _ _ _ = mNew x0 x1 s0
    rw [e2, e3, e5]; rfl
  · -- the sum column
    iexists _; isplitr
    swap; · iexact H4
    ipureintro
    refine (hst arg6 _ _).trans ?_
    rw [e2, e3, e5, e6]; rfl

end Cert.Kernel.R0

end
-- ==== Proof.K.R0.RunC.lean ====
/-
  Region 0's body run in one of its three cases, as a Hoare triple over whole staging and scratch buffers: which contents the
  body leaves in the output block and in the two scratch columns, as pure functions of what it was handed.
-/
import proofs.«411388_j45131516346680_3_alg».proof.Proof.K.R0.RunB
import Idealize.ShloMosaic.Lib.Pipeline.Value

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The last tile (inner coordinate 49): the scratch columns are updated by the tile, and maximum + log(sum) is stored into the output block. -/
theorem runC (c : Dev nD) (i : grid0.Coords)
    (arg2 : Memref sig .tc .vmem S8x256x2048 .bf16) (harg2 : arg2.IsWhole) (arg3 : Memref sig .tc .vmem S640x2048 .bf16) (harg3 : arg3.IsWhole)
    (arg4 : Memref sig .tc .vmem S8x256 .f32) (harg4 : arg4.IsWhole) (arg5 : Memref sig .tc .vmem S8x256x1 .f32) (harg5 : arg5.IsWhole)
    (arg6 : Memref sig .tc .vmem S8x256x1 .f32) (harg6 : arg6.IsWhole) (hA : ¬condA i) (hC : condC i)
    (x0 : Vec F S8x256x2048 .bf16) (x1 : Vec F S640x2048 .bf16) (xo : Vec F S8x256 .f32) (s0 s1 : Vec F S8x256x1 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s0 ∗ owns (c : Thread nD τ) arg6 fullShare s1
        ∗ (iprop(owns (c : Thread nD τ) arg2 fullShare x0 ∗ owns (c : Thread nD τ) arg3 fullShare x1 ∗ owns (c : Thread nD τ) arg4 fullShare (outFin (mNew x0 x1 s0) (lNew x0 x1 s0 s1))
            ∗ owns (c : Thread nD τ) arg5 fullShare (mNew x0 x1 s0) ∗ owns (c : Thread nD τ) arg6 fullShare (lNew x0 x1 s0 s1)) -∗ K ⟨⟩))
      ⊢ wp frame (wpE (defs₀ (F := F)) Variants.none c none) E (cc0__lse_kernel i arg2 harg2 arg3 harg3 arg4 harg4 arg5 harg5 arg6 harg6) K := by
  simp only [cc0__lse_kernel_eq_skeleton]; unfold cc0__lse_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, Hk⟩
  -- a whole memref's raw contents are determined by what it reads
  obtain rfl := harg2.eq_unread hf2; obtain rfl := harg3.eq_unread hf3; obtain rfl := harg4.eq_unread hf4
  obtain rfl := harg5.eq_unread hf5; obtain rfl := harg6.eq_unread hf6
  -- the reset is skipped (inner coordinate ≠ 0) and the final store is taken (inner coordinate = 49)
  sl_exec (disch := first | exact hA | exact hC)
  sl_step
  -- every load and store of the body goes through the whole-shape rectangle at offset zero
  have hz3 : (![0, 0, 0] : Fin S8x256x1.rank → Nat) = fun _ => 0 := funext fun a => by fin_cases a <;> rfl
  have hz2 : (![0, 0] : Fin S8x256.rank → Nat) = fun _ => 0 := funext fun a => by fin_cases a <;> rfl
  have hzx : (![0, 0, 0] : Fin S8x256x2048.rank → Nat) = fun _ => 0 := funext fun a => by fin_cases a <;> rfl
  have hzw : (![0, 0] : Fin S640x2048.rank → Nat) = fun _ => 0 := funext fun a => by fin_cases a <;> rfl
  iapply Hk
  -- the two input blocks are only read
  isplitl [H2]
  · iexists _; isplitr; · ipureintro; exact harg2.read_unread _
    iexact H2
  isplitl [H3]
  · iexists _; isplitr; · ipureintro; exact harg3.read_unread _
    iexact H3
  -- the output block: maximum + log(sum) of the two columns as just updated (each read back after its covering store)
  isplitl [H4]
  · iexists _; isplitr
    on_goal 2 => iexact H4
    ipureintro
    sl_unfold_words
    -- one whole-block store covers the buffer, so it reads as that store's payload, whatever it held before
    refine (View.read_writes_eq_canon _ _ _ ?_).trans ?_
    · intro y; refine ⟨_, List.mem_singleton_self _, ?_⟩
      exact View.mem_set_unit_zero hz2 inb_S8x256_S8x256_0_0 y
    refine (View.canon_unit_zero hz2 inb_S8x256_S8x256_0_0 _).trans ?_
    -- the two columns read back are the payloads stored just before; those were computed from the whole-block loads, which read x0, x1, s0, s1
    simp only [View.readAt_eq_ld, harg2.read_unread, harg3.read_unread, harg5.read_unread, harg6.read_unread,
      View.readCov_unit_zero (S := S8x256x1) _ hz3,
      View.ld_unit_zero (S := S8x256x2048) hzx, View.ld_unit_zero (S := S640x2048) hzw, View.ld_unit_zero (S := S8x256x1) hz3]
    rfl
  -- the running maximum: the old column against the tile's row maxima
  isplitl [H5]
  · iexists _; isplitr
    on_goal 2 => iexact H5
    ipureintro
    sl_unfold_words
    -- one whole-block store covers the buffer, so it reads as that store's payload, whatever it held before
    refine (View.read_writes_eq_canon _ _ _ ?_).trans ?_
    · intro y; refine ⟨_, List.mem_singleton_self _, ?_⟩
      exact View.mem_set_unit_zero hz3 inb_S8x256x1_S8x256x1_0_0_0 y
    refine (View.canon_unit_zero hz3 inb_S8x256x1_S8x256x1_0_0_0 _).trans ?_
    -- the payload was computed from the whole-block loads, which read x0, x1, s0
    simp only [View.readAt_eq_ld, harg2.read_unread, harg3.read_unread, harg5.read_unread, harg6.read_unread,
      View.readCov_unit_zero (S := S8x256x1) _ hz3,
      View.ld_unit_zero (S := S8x256x2048) hzx, View.ld_unit_zero (S := S640x2048) hzw, View.ld_unit_zero (S := S8x256x1) hz3]
    rfl
  -- the running sum: rescaled to the new maximum, plus the tile's exponentials
  · iexists _; isplitr
    on_goal 2 => iexact H6
    ipureintro
    sl_unfold_words
    -- one whole-block store covers the buffer, so it reads as that store's payload, whatever it held before
    refine (View.read_writes_eq_canon _ _ _ ?_).trans ?_
    · intro y; refine ⟨_, List.mem_singleton_self _, ?_⟩
      exact View.mem_set_unit_zero hz3 inb_S8x256x1_S8x256x1_0_0_0 y
    refine (View.canon_unit_zero hz3 inb_S8x256x1_S8x256x1_0_0_0 _).trans ?_
    -- the payload was computed from the whole-block loads, which read x0, x1, s0 (twice) and s1
    simp only [View.readAt_eq_ld, harg2.read_unread, harg3.read_unread, harg5.read_unread, harg6.read_unread,
      View.readCov_unit_zero (S := S8x256x1) _ hz3,
      View.ld_unit_zero (S := S8x256x2048) hzx, View.ld_unit_zero (S := S640x2048) hzw, View.ld_unit_zero (S := S8x256x1) hz3]
    rfl

end Cert.Kernel.R0

end
-- ==== Proof.K.R0.Body.lean ====
/-
  Region 0's proof data and its body obligation.  After point n the two scratch columns hold the running maximum and the
  running sum of the tiles walked so far in the current block of tokens: a recursion on the point, restarted at every point
  whose inner coordinate is 0.  The output block is stored at the last tile of each block of tokens only.
-/
import proofs.«411388_j45131516346680_3_alg».proof.Proof.K.R0.RunC

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of hidden states (256 token positions of all 8 sequences) and the tile of 640 vocabulary rows at point t, at their literal types. -/
abbrev xblk (c : Dev nD) (t : Fin cfg0.N) : Vec F S8x256x2048 .bf16 := iblk V c 0 t
abbrev wblk (c : Dev nD) (t : Fin cfg0.N) : Vec F S640x2048 .bf16 := iblk V c 1 t

/-- The scratch columns (running maximum, running sum) after point n. -/
def scAt (c : Dev nD) : (n : ℕ) → n < cfg0.N → Vec F S8x256x1 .f32 × Vec F S8x256x1 .f32
  | 0, h => (mNew (xblk V c ⟨0, h⟩) (wblk V c ⟨0, h⟩) mReset, lNew (xblk V c ⟨0, h⟩) (wblk V c ⟨0, h⟩) mReset lReset)
  | n + 1, h =>
    if (n + 1) % 50 = 0 then
      (mNew (xblk V c ⟨n + 1, h⟩) (wblk V c ⟨n + 1, h⟩) mReset, lNew (xblk V c ⟨n + 1, h⟩) (wblk V c ⟨n + 1, h⟩) mReset lReset)
    else
      (mNew (xblk V c ⟨n + 1, h⟩) (wblk V c ⟨n + 1, h⟩) (scAt c n (Nat.lt_of_succ_lt h)).1,
       lNew (xblk V c ⟨n + 1, h⟩) (wblk V c ⟨n + 1, h⟩) (scAt c n (Nat.lt_of_succ_lt h)).1 (scAt c n (Nat.lt_of_succ_lt h)).2)

/-- At a point whose inner coordinate is 0 the columns restart from the reset values. -/
theorem scAt_reset (c : Dev nD) (n : ℕ) (h : n < cfg0.N) (hn : n % 50 = 0) :
    scAt V c n h = (mNew (xblk V c ⟨n, h⟩) (wblk V c ⟨n, h⟩) mReset, lNew (xblk V c ⟨n, h⟩) (wblk V c ⟨n, h⟩) mReset lReset) := by
  cases n with
  | zero => rfl
  | succ n => exact if_pos hn

/-- At any other point they are updated from what the point before left. -/
theorem scAt_step (c : Dev nD) (n : ℕ) (h : n + 1 < cfg0.N) (hn : (n + 1) % 50 ≠ 0) :
    scAt V c (n + 1) h = (mNew (xblk V c ⟨n + 1, h⟩) (wblk V c ⟨n + 1, h⟩) (scAt V c n (Nat.lt_of_succ_lt h)).1,
       lNew (xblk V c ⟨n + 1, h⟩) (wblk V c ⟨n + 1, h⟩) (scAt V c n (Nat.lt_of_succ_lt h)).1 (scAt V c n (Nat.lt_of_succ_lt h)).2) :=
  if_neg hn

/-- The core's scoped buffers that are neither this region's staging buffers nor its two scratch columns, each whole at some contents. -/
def otherRest (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f))

/-- The region invariant before position n: before the first point every scratch buffer at anything; afterwards the two
    scratch columns at what the point before left, the other scoped buffers at anything, the generator register at some state. -/
def PhiS (c : Dev nD) : (n : ℕ) → n ≤ cfg0.N → sProp 𝕄
  | 0, _ => Pipeline.ΦA spec0 c
  | n + 1, hn => iprop(owns (c : Thread nD τ) scM_0 fullShare (scAt V c n hn).1 ∗ owns (c : Thread nD τ) scM_1 fullShare (scAt V c n hn).2
      ∗ otherRest c ∗ (∃ r, prngReg c r))

/-- The proof data of region 0 on core c: the arrays as the region finds them; after the body at point t each input's
    buffer at its block and the output's at maximum + log(sum) of the columns after t; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outFin (scAt V c t.val t.isLt).1 (scAt V c t.val t.isLt).2
  Φ t := PhiS V c t.val (Nat.le_of_lt_succ t.isLt)
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) :
    (dat V c).after 2 t = outFin (scAt V c t.val t.isLt).1 (scAt V c t.val t.isLt).2 := by dsimp only [dat]

/-! ## The inputs' buffers, the class invariant, the region invariant -/

/-- Each input's current staging buffer holds its block at every point, fetched there or not: unfetched, the block index
    has not moved since the point before, and the body leaves the block in place. -/
theorem before_0 (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-- The class invariant with the two scratch columns as memrefs owned at some contents: the same ten whole buffers and the
    generator register, regrouped (each entailment by cancelling the conjuncts one against another, in whatever order the
    enumeration lists them). -/
theorem PhiA_eq (c : Dev nD) :
    (Pipeline.ΦA spec0 c : sProp 𝕄)
      = iprop(((∃ d, owns (c : Thread nD τ) scM_0 fullShare d) ∗ (∃ d, owns (c : Thread nD τ) scM_1 fullShare d) ∗ otherRest c)
          ∗ (∃ r, prngReg c r)) := by
  have h₁ : (Pipeline.ΦA spec0 c : sProp 𝕄)
      ⊢ iprop(((∃ d, owns (c : Thread nD τ) scM_0 fullShare d) ∗ (∃ d, owns (c : Thread nD τ) scM_1 fullShare d) ∗ otherRest c)
          ∗ (∃ r, prngReg c r)) := by
    unfold Pipeline.ΦA otherRest; rw [scopedRest0_eq]; simp only [scM_0, scM_1, owns_whole]
    iintro ⟨⟨H1, H2, H3, H4, H5, H6, H7, H8, H9, H10⟩, Hg⟩
    iframe
  have h₂ : iprop(((∃ d, owns (c : Thread nD τ) scM_0 fullShare d) ∗ (∃ d, owns (c : Thread nD τ) scM_1 fullShare d) ∗ otherRest c)
          ∗ (∃ r, prngReg c r))
      ⊢ (Pipeline.ΦA spec0 c : sProp 𝕄) := by
    unfold Pipeline.ΦA otherRest; rw [scopedRest0_eq]; simp only [scM_0, scM_1, owns_whole]
    iintro ⟨⟨H1, H2, H3, H4, H5, H6, H7, H8, H9, H10⟩, Hg⟩
    iframe
  exact BI.equiv_iff.mp ⟨h₁, h₂⟩

theorem PhiS_zero (c : Dev nD) (n : ℕ) (h : n ≤ cfg0.N) (hz : n = 0) : PhiS V c n h = Pipeline.ΦA spec0 c := by
  subst hz; rfl

/-- After point n (before point n + 1): the columns at that point's contents. -/
theorem PhiS_succ (c : Dev nD) (n : ℕ) (hn : n < cfg0.N) :
    PhiS V c (n + 1) hn = iprop(owns (c : Thread nD τ) scM_0 fullShare (scAt V c n hn).1 ∗ owns (c : Thread nD τ) scM_1 fullShare (scAt V c n hn).2
      ∗ otherRest c ∗ (∃ r, prngReg c r)) := rfl

/-- Before a point that is not the first: the columns at what the point before left. -/
theorem PhiS_pos (c : Dev nD) (n : ℕ) (h : n ≤ cfg0.N) (hz : n ≠ 0) :
    PhiS V c n h = iprop(owns (c : Thread nD τ) scM_0 fullShare (scAt V c (n - 1) (by omega)).1
      ∗ owns (c : Thread nD τ) scM_1 fullShare (scAt V c (n - 1) (by omega)).2 ∗ otherRest c ∗ (∃ r, prngReg c r)) := by
  cases n with
  | zero => exact absurd rfl hz
  | succ n => rfl

/-- The invariant at a point's start, restated at the point's position. -/
theorem PhiS_castSucc (c : Dev nD) (t : Fin cfg0.N) :
    (dat V c).Φ t.castSucc = PhiS V c t.val (Nat.le_of_lt t.isLt) := by
  dsimp only [dat]; simp only [Fin.coe_castSucc]

/-! ## The body obligation, at a generic point -/

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

/-- The columns after a point whose inner coordinate is 0, and after any other point, over the point itself. -/
theorem scAt_A (c : Dev nD) (t : Fin cfg0.N) (h0 : t.val % 50 = 0) :
    scAt V c t.val t.isLt = (mNew (xblk V c t) (wblk V c t) mReset, lNew (xblk V c t) (wblk V c t) mReset lReset) :=
  scAt_reset V c t.val t.isLt h0

theorem scAt_B (c : Dev nD) (t : Fin cfg0.N) (h0 : ¬t.val % 50 = 0) :
    scAt V c t.val t.isLt
      = (mNew (xblk V c t) (wblk V c t) (scAt V c (t.val - 1) (Nat.lt_of_le_of_lt (Nat.sub_le _ _) t.isLt)).1,
         lNew (xblk V c t) (wblk V c t) (scAt V c (t.val - 1) (Nat.lt_of_le_of_lt (Nat.sub_le _ _) t.isLt)).1 (scAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact scAt_step V c n hn h0

set_option maxHeartbeats 4800000 in
/-- The body at any point: the inputs' buffers hold their blocks; the closed forms of the two conditions say which of the
    three cases the point is in, and that case's run applies at the point's buffers; the invariant hands the body the two
    columns at what the point before left (at anything before the first point) and takes them back at this point's contents;
    the output block is handed back as found except at the last tile of a block of tokens, where it is left at
    maximum + log(sum); the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  have hN : t.val < 100 := lt_of_lt_of_eq t.isLt (show cfg0.N = 100 from N_0)
  by_cases h0 : t.val % 50 = 0
  · have hA : condA (grid0.coords t) := (hcondA t).mpr h0
    have hC : ¬condC (grid0.coords t) := fun h => by have := (hcondC t).mp h; omega
    rw [Dat.leavesExact_idle (dat V c) 2 t (idleAt_2 t hC) (noFlush_2 t hC)]
    rw [scAt_A V c t h0]; dsimp only
    by_cases hz : t.val = 0
    · rw [PhiS_castSucc V c t, PhiS_zero V c _ _ hz, PhiA_eq]
      iintro ⟨⟨⟨⟨%s0, HS0⟩, ⟨%s1, HS1⟩, Hr⟩, Hg⟩, Ho, ⟨%d0, H0⟩, ⟨%d1, H1⟩, ⟨%d2, H2⟩⟩
      iapply (runA c (grid0.coords t) (ms_0 t) (hs_0 t) (ms_1 t) (hs_1 t) (ms_2 t) (hs_2 t) scM_0 (Memref.isWhole_whole _) scM_1 (Memref.isWhole_whole _) hA hC (xblk V c t) (wblk V c t) ((dat V c).before 2 t d2) s0 s1 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      iexists _; iexact H2
    · rw [PhiS_castSucc V c t, PhiS_pos V c _ _ hz]
      iintro ⟨⟨HS0, HS1, Hr, Hg⟩, Ho, ⟨%d0, H0⟩, ⟨%d1, H1⟩, ⟨%d2, H2⟩⟩
      iapply (runA c (grid0.coords t) (ms_0 t) (hs_0 t) (ms_1 t) (hs_1 t) (ms_2 t) (hs_2 t) scM_0 (Memref.isWhole_whole _) scM_1 (Memref.isWhole_whole _) hA hC (xblk V c t) (wblk V c t) ((dat V c).before 2 t d2) (scAt V c (t.val - 1) (Nat.lt_of_le_of_lt (Nat.sub_le _ _) t.isLt)).1 (scAt V c (t.val - 1) (Nat.lt_of_le_of_lt (Nat.sub_le _ _) t.isLt)).2 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      iexists _; iexact H2
  · have hA : ¬condA (grid0.coords t) := fun h => h0 ((hcondA t).mp h)
    have hz : t.val ≠ 0 := fun h => h0 (by rw [h])
    rw [scAt_B V c t h0]; dsimp only
    rw [PhiS_castSucc V c t, PhiS_pos V c _ _ hz]
    by_cases h1 : t.val % 50 = 49
    · have hC : condC (grid0.coords t) := (hcondC t).mpr h1
      rw [show (dat V c).leavesExact 2 t = owns (c : Thread nD τ) (ms_2 t) fullShare ((dat V c).after 2 t) from by
        unfold Dat.leavesExact; rw [liveAt_2 t hC], after_2, scAt_B V c t h0]; dsimp only
      iintro ⟨⟨HS0, HS1, Hr, Hg⟩, Ho, ⟨%d0, H0⟩, ⟨%d1, H1⟩, ⟨%d2, H2⟩⟩
      iapply (runC c (grid0.coords t) (ms_0 t) (hs_0 t) (ms_1 t) (hs_1 t) (ms_2 t) (hs_2 t) scM_0 (Memref.isWhole_whole _) scM_1 (Memref.isWhole_whole _) hA hC (xblk V c t) (wblk V c t) ((dat V c).before 2 t d2) (scAt V c (t.val - 1) (Nat.lt_of_le_of_lt (Nat.sub_le _ _) t.isLt)).1 (scAt V c (t.val - 1) (Nat.lt_of_le_of_lt (Nat.sub_le _ _) t.isLt)).2 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      iexact H2
    · have hC : ¬condC (grid0.coords t) := fun h => h1 ((hcondC t).mp h)
      rw [Dat.leavesExact_idle (dat V c) 2 t (idleAt_2 t hC) (noFlush_2 t hC)]
      iintro ⟨⟨HS0, HS1, Hr, Hg⟩, Ho, ⟨%d0, H0⟩, ⟨%d1, H1⟩, ⟨%d2, H2⟩⟩
      iapply (runB c (grid0.coords t) (ms_0 t) (hs_0 t) (ms_1 t) (hs_1 t) (ms_2 t) (hs_2 t) scM_0 (Memref.isWhole_whole _) scM_1 (Memref.isWhole_whole _) hA hC (xblk V c t) (wblk V c t) ((dat V c).before 2 t d2) (scAt V c (t.val - 1) (Nat.lt_of_le_of_lt (Nat.sub_le _ _) t.isLt)).1 (scAt V c (t.val - 1) (Nat.lt_of_le_of_lt (Nat.sub_le _ _) t.isLt)).2 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the class invariant back: the columns' named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨HS0, HS1, Hr, Hg⟩
  isplitr [Hg]
  · isplitl [HS0]
    · iexists _; iexact HS0
    isplitl [HS1]
    · iexists _; iexact HS1
    iexact Hr
  iexact Hg

/-- After the last point the invariant gives the class invariant back: the columns' named contents are forgotten. -/
theorem hout (c : Dev nD) : (dat V c).Φ (Fin.last cfg0.N) ⊢ Pipeline.ΦA spec0 c :=
  Phi_out V c _ (by rw [Fin.val_last]; have : cfg0.N = 100 := N_0; omega)

end Cert.Kernel.R0

end
-- ==== Proof.K.R1.Runs.lean ====
/-
  Region 1 (the second log-sum-exp call): what its three cases share.  The grid is 2 × 50: the outer axis picks a block of 256
  token positions, the inner axis walks the vocabulary in 50 tiles of 640 rows.  The body keeps two scratch columns
  between points, the running maximum and the running sum of exponentials: it resets them at the first tile, updates
  them at every tile, and at the last tile writes maximum + log(sum) into the output block.
-/
import proofs.«411388_j45131516346680_3_alg».proof.Proof.Gen.Kernel.Launch
import proofs.«411388_j45131516346680_3_alg».proof.Proof.Gen.Kernel.Skeleton
import proofs.«411388_j45131516346680_3_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The scratch columns as pure functions of what the body loads -/

/-- The running maximum after a tile: the old column against the tile's row maxima. -/
def mNew (x : Vec F S8x256x2048 .bf16) (w : Vec F S640x2048 .bf16) (mo : Vec F S8x256x1 .f32) : Vec F S8x256x1 .f32 :=
  k1_pay7 x w mo
/-- The running sum after a tile: the old sum rescaled to the new maximum, plus the tile's exponentials. -/
def lNew (x : Vec F S8x256x2048 .bf16) (w : Vec F S640x2048 .bf16) (mo lo : Vec F S8x256x1 .f32) : Vec F S8x256x1 .f32 :=
  k1_pay6 x w mo mo lo
/-- The columns a reset writes: minus infinity, and zero. -/
def mReset : Vec F S8x256x1 .f32 := k1_pay2 (F := F)
def lReset : Vec F S8x256x1 .f32 := k1_pay3 (F := F)
/-- What the last tile stores into the output block: maximum + log(sum), the unit axis dropped. -/
def outFin (mo lo : Vec F S8x256x1 .f32) : Vec F S8x256 .f32 := k1_pay1 mo lo

/-! ## The branch conditions over the grid -/

/-- The reset's condition: the inner coordinate is 0. -/
abbrev condA (i : grid1.Coords) : Prop :=
  (Scalar.cmpi .ne (Scalar.extui (Scalar.cmpi .eq (BitVec.ofNat 32 (i 1).val) 0#32)) 0#32) = 1#1
theorem hcondA : ∀ t : Fin cfg1.N, condA (grid1.coords t) ↔ t.val % 50 = 0 :=
  (by decide +kernel : ∀ t : Fin grid1.N, condA (grid1.coords t) ↔ t.val % 50 = 0)
/-- The final store's condition: the inner coordinate is 49. -/
abbrev condC (i : grid1.Coords) : Prop := k1_cond2 i = 1#1
theorem hcondC : ∀ t : Fin cfg1.N, condC (grid1.coords t) ↔ t.val % 50 = 49 :=
  (by decide +kernel : ∀ t : Fin grid1.N, condC (grid1.coords t) ↔ t.val % 50 = 49)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
theorem idleAt_2 : ∀ t : Fin cfg1.N, ¬condC (grid1.coords t) → cfg1.idle 2 (grid1.coords t) = true := by decide +kernel
theorem noFlush_2 : ∀ t : Fin cfg1.N, ¬condC (grid1.coords t) → (cfg1.win 2).flush t = false := by decide +kernel
theorem liveAt_2 : ∀ t : Fin cfg1.N, condC (grid1.coords t) → cfg1.idle 2 (grid1.coords t) = false := by decide +kernel

/-! ## The staging and scratch memrefs the body is called with -/

abbrev ms_0 (t : Fin cfg1.N) : Memref sig .tc .vmem S8x256x2048 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S640x2048 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S8x256 .f32 := win1_2.stage (cfg1.slots t 2)
abbrev hs_2 (t : Fin cfg1.N) : (ms_2 t).IsWhole := hstage1_2 ((cfg1.slots t 2).cast nbuf1_2)
abbrev scM_0 : Memref sig .tc .vmem S8x256x1 .f32 := Memref.whole cc1_scratch0
abbrev scM_1 : Memref sig .tc .vmem S8x256x1 .f32 := Memref.whole cc1_scratch1

end Cert.Kernel.R1

end
-- ==== Proof.K.R1.RunA.lean ====
/-
  Region 1's body run in one of its three cases, as a Hoare triple over whole staging and scratch buffers: which contents the
  body leaves in the output block and in the two scratch columns, as pure functions of what it was handed.
-/
import proofs.«411388_j45131516346680_3_alg».proof.Proof.K.R1.Runs
import Idealize.ShloMosaic.Lib.Pipeline.Value

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The first tile of a block of tokens (inner coordinate 0): the scratch columns are reset, then updated by the tile; the output block is left as it was. -/
theorem runA (c : Dev nD) (i : grid1.Coords)
    (arg2 : Memref sig .tc .vmem S8x256x2048 .bf16) (harg2 : arg2.IsWhole) (arg3 : Memref sig .tc .vmem S640x2048 .bf16) (harg3 : arg3.IsWhole)
    (arg4 : Memref sig .tc .vmem S8x256 .f32) (harg4 : arg4.IsWhole) (arg5 : Memref sig .tc .vmem S8x256x1 .f32) (harg5 : arg5.IsWhole)
    (arg6 : Memref sig .tc .vmem S8x256x1 .f32) (harg6 : arg6.IsWhole) (hA : condA i) (hC : ¬condC i)
    (x0 : Vec F S8x256x2048 .bf16) (x1 : Vec F S640x2048 .bf16) (xo : Vec F S8x256 .f32) (s0 s1 : Vec F S8x256x1 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s0 ∗ owns (c : Thread nD τ) arg6 fullShare s1
        ∗ (iprop(owns (c : Thread nD τ) arg2 fullShare x0 ∗ owns (c : Thread nD τ) arg3 fullShare x1 ∗ owns (c : Thread nD τ) arg4 fullShare (xo)
            ∗ owns (c : Thread nD τ) arg5 fullShare (mNew x0 x1 mReset) ∗ owns (c : Thread nD τ) arg6 fullShare (lNew x0 x1 mReset lReset)) -∗ K ⟨⟩))
      ⊢ wp frame (wpE (defs₀ (F := F)) Variants.none c none) E (cc1__lse_kernel i arg2 harg2 arg3 harg3 arg4 harg4 arg5 harg5 arg6 harg6) K := by
  -- the whole-shape rectangles sit at offset zero along every axis
  have hz3 : (![0, 0, 0] : Fin 3 → Nat) = fun _ => 0 := funext fun a => by fin_cases a <;> rfl
  have hz2 : (![0, 0] : Fin 2 → Nat) = fun _ => 0 := funext fun a => by fin_cases a <;> rfl
  simp only [cc1__lse_kernel_eq_skeleton]; unfold cc1__lse_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1
  -- the reset branch is taken, the final-store branch is not
  sl_exec (disch := first | exact hA | exact hC)
  sl_step
  iapply Hk
  -- the two inputs and the output block are as they were handed in
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  isplitl [H3]
  -- the maximum column: its last store covers it, so it reads that store's payload, whose own loads read the two
  -- input blocks and the reset column stored just before
  · iexists _; isplitr
    swap; · iexact H3
    ipureintro
    refine (View.read_writes_eq_canon _ _ _ (fun y => ⟨_, List.mem_cons_self, View.mem_set_unit_zero (S := S8x256x1) hz3 inb_S8x256x1_S8x256x1_0_0_0 y⟩)).trans ?_
    refine (View.canon_cons_unit_zero (S := S8x256x1) hz3 inb_S8x256x1_S8x256x1_0_0_0 _ _).trans ?_
    sl_unfold_run_names
    unfold mNew mReset
    rw [View.readCov_unit_zero (S := S8x256x1) _ hz3]
    simp only [View.readAt_eq_ld, harg2.read_unread, harg3.read_unread, View.ld_unit_zero (S := S8x256x2048) hz3,
      View.ld_unit_zero (S := S640x2048) hz2]
  -- the sum column: the same, its payload reading both reset columns back
  · iexists _; isplitr
    swap; · iexact H4
    ipureintro
    refine (View.read_writes_eq_canon _ _ _ (fun y => ⟨_, List.mem_cons_self, View.mem_set_unit_zero (S := S8x256x1) hz3 inb_S8x256x1_S8x256x1_0_0_0 y⟩)).trans ?_
    refine (View.canon_cons_unit_zero (S := S8x256x1) hz3 inb_S8x256x1_S8x256x1_0_0_0 _ _).trans ?_
    sl_unfold_run_names
    unfold lNew mReset lReset
    rw [View.readCov_unit_zero (S := S8x256x1) _ hz3, View.readCov_unit_zero (S := S8x256x1) _ hz3]
    simp only [View.readAt_eq_ld, harg2.read_unread, harg3.read_unread, View.ld_unit_zero (S := S8x256x2048) hz3,
      View.ld_unit_zero (S := S640x2048) hz2]

end Cert.Kernel.R1

end
-- ==== Proof.K.R1.RunB.lean ====
/-
  Region 1's body run in one of its three cases, as a Hoare triple over whole staging and scratch buffers: which contents the
  body leaves in the output block and in the two scratch columns, as pure functions of what it was handed.
-/
import proofs.«411388_j45131516346680_3_alg».proof.Proof.K.R1.RunA
import Idealize.ShloMosaic.Lib.Pipeline.Value

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- A middle tile (inner coordinate 1 to 48): the scratch columns are updated by the tile; the output block is left as it was. -/
theorem runB (c : Dev nD) (i : grid1.Coords)
    (arg2 : Memref sig .tc .vmem S8x256x2048 .bf16) (harg2 : arg2.IsWhole) (arg3 : Memref sig .tc .vmem S640x2048 .bf16) (harg3 : arg3.IsWhole)
    (arg4 : Memref sig .tc .vmem S8x256 .f32) (harg4 : arg4.IsWhole) (arg5 : Memref sig .tc .vmem S8x256x1 .f32) (harg5 : arg5.IsWhole)
    (arg6 : Memref sig .tc .vmem S8x256x1 .f32) (harg6 : arg6.IsWhole) (hA : ¬condA i) (hC : ¬condC i)
    (x0 : Vec F S8x256x2048 .bf16) (x1 : Vec F S640x2048 .bf16) (xo : Vec F S8x256 .f32) (s0 s1 : Vec F S8x256x1 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s0 ∗ owns (c : Thread nD τ) arg6 fullShare s1
        ∗ (iprop(owns (c : Thread nD τ) arg2 fullShare x0 ∗ owns (c : Thread nD τ) arg3 fullShare x1 ∗ owns (c : Thread nD τ) arg4 fullShare (xo)
            ∗ owns (c : Thread nD τ) arg5 fullShare (mNew x0 x1 s0) ∗ owns (c : Thread nD τ) arg6 fullShare (lNew x0 x1 s0 s1)) -∗ K ⟨⟩))
      ⊢ wp frame (wpE (defs₀ (F := F)) Variants.none c none) E (cc1__lse_kernel i arg2 harg2 arg3 harg3 arg4 harg4 arg5 harg5 arg6 harg6) K := by
  simp only [cc1__lse_kernel_eq_skeleton]; unfold cc1__lse_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2
  obtain rfl := harg5.eq_unread hf3; obtain rfl := harg6.eq_unread hf4
  -- neither branch condition holds at a middle tile
  sl_exec (disch := first | exact hA | exact hC)
  sl_step
  -- the zero offsets, however spelt
  have hz3 : (![0, 0, 0] : Fin 3 → ℕ) = fun _ => 0 := by funext a; fin_cases a <;> rfl
  have hz2 : (![0, 0] : Fin 2 → ℕ) = fun _ => 0 := by funext a; fin_cases a <;> rfl
  -- a load of a whole buffer through the whole rectangle reads its contents
  have e2 : View.readAt (Elt F) arg2.view
      (Rect.unit ![0, 0, 0] S8x256x2048.size inb_S8x256x2048_S8x256x2048_0_0_0).toLoadRect (harg2.unread x0) = x0 := by
    rw [View.readAt_eq_ld, harg2.read_unread]; exact View.ld_unit_zero hz3 _ x0
  have e3 : View.readAt (Elt F) arg3.view
      (Rect.unit ![0, 0] S640x2048.size inb_S640x2048_S640x2048_0_0).toLoadRect (harg3.unread x1) = x1 := by
    rw [View.readAt_eq_ld, harg3.read_unread]; exact View.ld_unit_zero hz2 _ x1
  have e5 : View.readAt (Elt F) arg5.view
      (Rect.unit ![0, 0, 0] S8x256x1.size inb_S8x256x1_S8x256x1_0_0_0).toLoadRect (harg5.unread s0) = s0 := by
    rw [View.readAt_eq_ld, harg5.read_unread]; exact View.ld_unit_zero hz3 _ s0
  have e6 : View.readAt (Elt F) arg6.view
      (Rect.unit ![0, 0, 0] S8x256x1.size inb_S8x256x1_S8x256x1_0_0_0).toLoadRect (harg6.unread s1) = s1 := by
    rw [View.readAt_eq_ld, harg6.read_unread]; exact View.ld_unit_zero hz3 _ s1
  -- one store of a column through the whole rectangle leaves its payload, whatever the column held before
  have hst : ∀ (m : Memref sig .tc .vmem S8x256x1 .f32) (f : m.view.ty.Contents (Elt F)) (w : Vec F S8x256x1 .f32),
      m.view.read (Elt F) (m.view.writes (Elt F) f
        [(⟨Rect.unit ![0, 0, 0] S8x256x1.size inb_S8x256x1_S8x256x1_0_0_0, w⟩ : View.Piece (Elt F) S8x256x1 .f32)]) = w := by
    intro m f w
    rw [View.read_writes_eq_canon _ _ _ (fun y => ⟨_, List.mem_singleton_self _,
      View.mem_set_unit_zero hz3 inb_S8x256x1_S8x256x1_0_0_0 y⟩)]
    exact View.canon_unit_zero hz3 _ w
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · -- the maximum column
    iexists _; isplitr
    swap; · iexact H3
    ipureintro
    refine (hst arg5 _ _).trans ?_
    show k1_pay7 _ _ _ = mNew x0 x1 s0
    rw [e2, e3, e5]; rfl
  · -- the sum column
    iexists _; isplitr
    swap; · iexact H4
    ipureintro
    refine (hst arg6 _ _).trans ?_
    rw [e2, e3, e5, e6]; rfl

end Cert.Kernel.R1

end
-- ==== Proof.K.R1.RunC.lean ====
/-
  Region 1's body run in one of its three cases, as a Hoare triple over whole staging and scratch buffers: which contents the
  body leaves in the output block and in the two scratch columns, as pure functions of what it was handed.
-/
import proofs.«411388_j45131516346680_3_alg».proof.Proof.K.R1.RunB
import Idealize.ShloMosaic.Lib.Pipeline.Value

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The last tile (inner coordinate 49): the scratch columns are updated by the tile, and maximum + log(sum) is stored into the output block. -/
theorem runC (c : Dev nD) (i : grid1.Coords)
    (arg2 : Memref sig .tc .vmem S8x256x2048 .bf16) (harg2 : arg2.IsWhole) (arg3 : Memref sig .tc .vmem S640x2048 .bf16) (harg3 : arg3.IsWhole)
    (arg4 : Memref sig .tc .vmem S8x256 .f32) (harg4 : arg4.IsWhole) (arg5 : Memref sig .tc .vmem S8x256x1 .f32) (harg5 : arg5.IsWhole)
    (arg6 : Memref sig .tc .vmem S8x256x1 .f32) (harg6 : arg6.IsWhole) (hA : ¬condA i) (hC : condC i)
    (x0 : Vec F S8x256x2048 .bf16) (x1 : Vec F S640x2048 .bf16) (xo : Vec F S8x256 .f32) (s0 s1 : Vec F S8x256x1 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s0 ∗ owns (c : Thread nD τ) arg6 fullShare s1
        ∗ (iprop(owns (c : Thread nD τ) arg2 fullShare x0 ∗ owns (c : Thread nD τ) arg3 fullShare x1 ∗ owns (c : Thread nD τ) arg4 fullShare (outFin (mNew x0 x1 s0) (lNew x0 x1 s0 s1))
            ∗ owns (c : Thread nD τ) arg5 fullShare (mNew x0 x1 s0) ∗ owns (c : Thread nD τ) arg6 fullShare (lNew x0 x1 s0 s1)) -∗ K ⟨⟩))
      ⊢ wp frame (wpE (defs₀ (F := F)) Variants.none c none) E (cc1__lse_kernel i arg2 harg2 arg3 harg3 arg4 harg4 arg5 harg5 arg6 harg6) K := by
  simp only [cc1__lse_kernel_eq_skeleton]; unfold cc1__lse_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, Hk⟩
  -- a whole memref's raw contents are determined by what it reads
  obtain rfl := harg2.eq_unread hf2; obtain rfl := harg3.eq_unread hf3; obtain rfl := harg4.eq_unread hf4
  obtain rfl := harg5.eq_unread hf5; obtain rfl := harg6.eq_unread hf6
  -- the reset is skipped (inner coordinate ≠ 0) and the final store is taken (inner coordinate = 49)
  sl_exec (disch := first | exact hA | exact hC)
  sl_step
  -- every load and store of the body goes through the whole-shape rectangle at offset zero
  have hz3 : (![0, 0, 0] : Fin S8x256x1.rank → Nat) = fun _ => 0 := funext fun a => by fin_cases a <;> rfl
  have hz2 : (![0, 0] : Fin S8x256.rank → Nat) = fun _ => 0 := funext fun a => by fin_cases a <;> rfl
  have hzx : (![0, 0, 0] : Fin S8x256x2048.rank → Nat) = fun _ => 0 := funext fun a => by fin_cases a <;> rfl
  have hzw : (![0, 0] : Fin S640x2048.rank → Nat) = fun _ => 0 := funext fun a => by fin_cases a <;> rfl
  iapply Hk
  -- the two input blocks are only read
  isplitl [H2]
  · iexists _; isplitr; · ipureintro; exact harg2.read_unread _
    iexact H2
  isplitl [H3]
  · iexists _; isplitr; · ipureintro; exact harg3.read_unread _
    iexact H3
  -- the output block: maximum + log(sum) of the two columns as just updated (each read back after its covering store)
  isplitl [H4]
  · iexists _; isplitr
    on_goal 2 => iexact H4
    ipureintro
    sl_unfold_words
    -- one whole-block store covers the buffer, so it reads as that store's payload, whatever it held before
    refine (View.read_writes_eq_canon _ _ _ ?_).trans ?_
    · intro y; refine ⟨_, List.mem_singleton_self _, ?_⟩
      exact View.mem_set_unit_zero hz2 inb_S8x256_S8x256_0_0 y
    refine (View.canon_unit_zero hz2 inb_S8x256_S8x256_0_0 _).trans ?_
    -- the two columns read back are the payloads stored just before; those were computed from the whole-block loads, which read x0, x1, s0, s1
    simp only [View.readAt_eq_ld, harg2.read_unread, harg3.read_unread, harg5.read_unread, harg6.read_unread,
      View.readCov_unit_zero (S := S8x256x1) _ hz3,
      View.ld_unit_zero (S := S8x256x2048) hzx, View.ld_unit_zero (S := S640x2048) hzw, View.ld_unit_zero (S := S8x256x1) hz3]
    rfl
  -- the running maximum: the old column against the tile's row maxima
  isplitl [H5]
  · iexists _; isplitr
    on_goal 2 => iexact H5
    ipureintro
    sl_unfold_words
    -- one whole-block store covers the buffer, so it reads as that store's payload, whatever it held before
    refine (View.read_writes_eq_canon _ _ _ ?_).trans ?_
    · intro y; refine ⟨_, List.mem_singleton_self _, ?_⟩
      exact View.mem_set_unit_zero hz3 inb_S8x256x1_S8x256x1_0_0_0 y
    refine (View.canon_unit_zero hz3 inb_S8x256x1_S8x256x1_0_0_0 _).trans ?_
    -- the payload was computed from the whole-block loads, which read x0, x1, s0
    simp only [View.readAt_eq_ld, harg2.read_unread, harg3.read_unread, harg5.read_unread, harg6.read_unread,
      View.readCov_unit_zero (S := S8x256x1) _ hz3,
      View.ld_unit_zero (S := S8x256x2048) hzx, View.ld_unit_zero (S := S640x2048) hzw, View.ld_unit_zero (S := S8x256x1) hz3]
    rfl
  -- the running sum: rescaled to the new maximum, plus the tile's exponentials
  · iexists _; isplitr
    on_goal 2 => iexact H6
    ipureintro
    sl_unfold_words
    -- one whole-block store covers the buffer, so it reads as that store's payload, whatever it held before
    refine (View.read_writes_eq_canon _ _ _ ?_).trans ?_
    · intro y; refine ⟨_, List.mem_singleton_self _, ?_⟩
      exact View.mem_set_unit_zero hz3 inb_S8x256x1_S8x256x1_0_0_0 y
    refine (View.canon_unit_zero hz3 inb_S8x256x1_S8x256x1_0_0_0 _).trans ?_
    -- the payload was computed from the whole-block loads, which read x0, x1, s0 (twice) and s1
    simp only [View.readAt_eq_ld, harg2.read_unread, harg3.read_unread, harg5.read_unread, harg6.read_unread,
      View.readCov_unit_zero (S := S8x256x1) _ hz3,
      View.ld_unit_zero (S := S8x256x2048) hzx, View.ld_unit_zero (S := S640x2048) hzw, View.ld_unit_zero (S := S8x256x1) hz3]
    rfl

end Cert.Kernel.R1

end
-- ==== Proof.K.R1.Body.lean ====
/-
  Region 1's proof data and its body obligation.  After point n the two scratch columns hold the running maximum and the
  running sum of the tiles walked so far in the current block of tokens: a recursion on the point, restarted at every point
  whose inner coordinate is 0.  The output block is stored at the last tile of each block of tokens only.
-/
import proofs.«411388_j45131516346680_3_alg».proof.Proof.K.R1.RunC

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of hidden states (256 token positions of all 8 sequences) and the tile of 640 vocabulary rows at point t, at their literal types. -/
abbrev xblk (c : Dev nD) (t : Fin cfg1.N) : Vec F S8x256x2048 .bf16 := iblk V c 0 t
abbrev wblk (c : Dev nD) (t : Fin cfg1.N) : Vec F S640x2048 .bf16 := iblk V c 1 t

/-- The scratch columns (running maximum, running sum) after point n. -/
def scAt (c : Dev nD) : (n : ℕ) → n < cfg1.N → Vec F S8x256x1 .f32 × Vec F S8x256x1 .f32
  | 0, h => (mNew (xblk V c ⟨0, h⟩) (wblk V c ⟨0, h⟩) mReset, lNew (xblk V c ⟨0, h⟩) (wblk V c ⟨0, h⟩) mReset lReset)
  | n + 1, h =>
    if (n + 1) % 50 = 0 then
      (mNew (xblk V c ⟨n + 1, h⟩) (wblk V c ⟨n + 1, h⟩) mReset, lNew (xblk V c ⟨n + 1, h⟩) (wblk V c ⟨n + 1, h⟩) mReset lReset)
    else
      (mNew (xblk V c ⟨n + 1, h⟩) (wblk V c ⟨n + 1, h⟩) (scAt c n (Nat.lt_of_succ_lt h)).1,
       lNew (xblk V c ⟨n + 1, h⟩) (wblk V c ⟨n + 1, h⟩) (scAt c n (Nat.lt_of_succ_lt h)).1 (scAt c n (Nat.lt_of_succ_lt h)).2)

/-- At a point whose inner coordinate is 0 the columns restart from the reset values. -/
theorem scAt_reset (c : Dev nD) (n : ℕ) (h : n < cfg1.N) (hn : n % 50 = 0) :
    scAt V c n h = (mNew (xblk V c ⟨n, h⟩) (wblk V c ⟨n, h⟩) mReset, lNew (xblk V c ⟨n, h⟩) (wblk V c ⟨n, h⟩) mReset lReset) := by
  cases n with
  | zero => rfl
  | succ n => exact if_pos hn

/-- At any other point they are updated from what the point before left. -/
theorem scAt_step (c : Dev nD) (n : ℕ) (h : n + 1 < cfg1.N) (hn : (n + 1) % 50 ≠ 0) :
    scAt V c (n + 1) h = (mNew (xblk V c ⟨n + 1, h⟩) (wblk V c ⟨n + 1, h⟩) (scAt V c n (Nat.lt_of_succ_lt h)).1,
       lNew (xblk V c ⟨n + 1, h⟩) (wblk V c ⟨n + 1, h⟩) (scAt V c n (Nat.lt_of_succ_lt h)).1 (scAt V c n (Nat.lt_of_succ_lt h)).2) :=
  if_neg hn

/-- The core's scoped buffers that are neither this region's staging buffers nor its two scratch columns, each whole at some contents. -/
def otherRest (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- The region invariant before position n: before the first point every scratch buffer at anything; afterwards the two
    scratch columns at what the point before left, the other scoped buffers at anything, the generator register at some state. -/
def PhiS (c : Dev nD) : (n : ℕ) → n ≤ cfg1.N → sProp 𝕄
  | 0, _ => Pipeline.ΦA spec1 c
  | n + 1, hn => iprop(owns (c : Thread nD τ) scM_0 fullShare (scAt V c n hn).1 ∗ owns (c : Thread nD τ) scM_1 fullShare (scAt V c n hn).2
      ∗ otherRest c ∗ (∃ r, prngReg c r))

/-- The proof data of region 1 on core c: the arrays as the region finds them; after the body at point t each input's
    buffer at its block and the output's at maximum + log(sum) of the columns after t; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => outFin (scAt V c t.val t.isLt).1 (scAt V c t.val t.isLt).2
  Φ t := PhiS V c t.val (Nat.le_of_lt_succ t.isLt)
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) :
    (dat V c).after 2 t = outFin (scAt V c t.val t.isLt).1 (scAt V c t.val t.isLt).2 := by dsimp only [dat]

/-! ## The inputs' buffers, the class invariant, the region invariant -/

/-- Each input's current staging buffer holds its block at every point, fetched there or not: unfetched, the block index
    has not moved since the point before, and the body leaves the block in place. -/
theorem before_0 (c : Dev nD) (t : Fin cfg1.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-- The class invariant with the two scratch columns as memrefs owned at some contents: the same ten whole buffers and the
    generator register, regrouped (each entailment by cancelling the conjuncts one against another, in whatever order the
    enumeration lists them). -/
theorem PhiA_eq (c : Dev nD) :
    (Pipeline.ΦA spec1 c : sProp 𝕄)
      = iprop(((∃ d, owns (c : Thread nD τ) scM_0 fullShare d) ∗ (∃ d, owns (c : Thread nD τ) scM_1 fullShare d) ∗ otherRest c)
          ∗ (∃ r, prngReg c r)) := by
  have h₁ : (Pipeline.ΦA spec1 c : sProp 𝕄)
      ⊢ iprop(((∃ d, owns (c : Thread nD τ) scM_0 fullShare d) ∗ (∃ d, owns (c : Thread nD τ) scM_1 fullShare d) ∗ otherRest c)
          ∗ (∃ r, prngReg c r)) := by
    unfold Pipeline.ΦA otherRest; rw [scopedRest1_eq]; simp only [scM_0, scM_1, owns_whole]
    iintro ⟨⟨H1, H2, H3, H4, H5, H6, H7, H8, H9, H10⟩, Hg⟩
    iframe
  have h₂ : iprop(((∃ d, owns (c : Thread nD τ) scM_0 fullShare d) ∗ (∃ d, owns (c : Thread nD τ) scM_1 fullShare d) ∗ otherRest c)
          ∗ (∃ r, prngReg c r))
      ⊢ (Pipeline.ΦA spec1 c : sProp 𝕄) := by
    unfold Pipeline.ΦA otherRest; rw [scopedRest1_eq]; simp only [scM_0, scM_1, owns_whole]
    iintro ⟨⟨H1, H2, H3, H4, H5, H6, H7, H8, H9, H10⟩, Hg⟩
    iframe
  exact BI.equiv_iff.mp ⟨h₁, h₂⟩

theorem PhiS_zero (c : Dev nD) (n : ℕ) (h : n ≤ cfg1.N) (hz : n = 0) : PhiS V c n h = Pipeline.ΦA spec1 c := by
  subst hz; rfl

/-- After point n (before point n + 1): the columns at that point's contents. -/
theorem PhiS_succ (c : Dev nD) (n : ℕ) (hn : n < cfg1.N) :
    PhiS V c (n + 1) hn = iprop(owns (c : Thread nD τ) scM_0 fullShare (scAt V c n hn).1 ∗ owns (c : Thread nD τ) scM_1 fullShare (scAt V c n hn).2
      ∗ otherRest c ∗ (∃ r, prngReg c r)) := rfl

/-- Before a point that is not the first: the columns at what the point before left. -/
theorem PhiS_pos (c : Dev nD) (n : ℕ) (h : n ≤ cfg1.N) (hz : n ≠ 0) :
    PhiS V c n h = iprop(owns (c : Thread nD τ) scM_0 fullShare (scAt V c (n - 1) (by omega)).1
      ∗ owns (c : Thread nD τ) scM_1 fullShare (scAt V c (n - 1) (by omega)).2 ∗ otherRest c ∗ (∃ r, prngReg c r)) := by
  cases n with
  | zero => exact absurd rfl hz
  | succ n => rfl

/-- The invariant at a point's start, restated at the point's position. -/
theorem PhiS_castSucc (c : Dev nD) (t : Fin cfg1.N) :
    (dat V c).Φ t.castSucc = PhiS V c t.val (Nat.le_of_lt t.isLt) := by
  dsimp only [dat]; simp only [Fin.coe_castSucc]

/-! ## The body obligation, at a generic point -/

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

/-- The columns after a point whose inner coordinate is 0, and after any other point, over the point itself. -/
theorem scAt_A (c : Dev nD) (t : Fin cfg1.N) (h0 : t.val % 50 = 0) :
    scAt V c t.val t.isLt = (mNew (xblk V c t) (wblk V c t) mReset, lNew (xblk V c t) (wblk V c t) mReset lReset) :=
  scAt_reset V c t.val t.isLt h0

theorem scAt_B (c : Dev nD) (t : Fin cfg1.N) (h0 : ¬t.val % 50 = 0) :
    scAt V c t.val t.isLt
      = (mNew (xblk V c t) (wblk V c t) (scAt V c (t.val - 1) (Nat.lt_of_le_of_lt (Nat.sub_le _ _) t.isLt)).1,
         lNew (xblk V c t) (wblk V c t) (scAt V c (t.val - 1) (Nat.lt_of_le_of_lt (Nat.sub_le _ _) t.isLt)).1 (scAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact scAt_step V c n hn h0

set_option maxHeartbeats 4800000 in
/-- The body at any point: the inputs' buffers hold their blocks; the closed forms of the two conditions say which of the
    three cases the point is in, and that case's run applies at the point's buffers; the invariant hands the body the two
    columns at what the point before left (at anything before the first point) and takes them back at this point's contents;
    the output block is handed back as found except at the last tile of a block of tokens, where it is left at
    maximum + log(sum); the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  have hN : t.val < 100 := lt_of_lt_of_eq t.isLt (show cfg1.N = 100 from N_1)
  by_cases h0 : t.val % 50 = 0
  · have hA : condA (grid1.coords t) := (hcondA t).mpr h0
    have hC : ¬condC (grid1.coords t) := fun h => by have := (hcondC t).mp h; omega
    rw [Dat.leavesExact_idle (dat V c) 2 t (idleAt_2 t hC) (noFlush_2 t hC)]
    rw [scAt_A V c t h0]; dsimp only
    by_cases hz : t.val = 0
    · rw [PhiS_castSucc V c t, PhiS_zero V c _ _ hz, PhiA_eq]
      iintro ⟨⟨⟨⟨%s0, HS0⟩, ⟨%s1, HS1⟩, Hr⟩, Hg⟩, Ho, ⟨%d0, H0⟩, ⟨%d1, H1⟩, ⟨%d2, H2⟩⟩
      iapply (runA c (grid1.coords t) (ms_0 t) (hs_0 t) (ms_1 t) (hs_1 t) (ms_2 t) (hs_2 t) scM_0 (Memref.isWhole_whole _) scM_1 (Memref.isWhole_whole _) hA hC (xblk V c t) (wblk V c t) ((dat V c).before 2 t d2) s0 s1 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      iexists _; iexact H2
    · rw [PhiS_castSucc V c t, PhiS_pos V c _ _ hz]
      iintro ⟨⟨HS0, HS1, Hr, Hg⟩, Ho, ⟨%d0, H0⟩, ⟨%d1, H1⟩, ⟨%d2, H2⟩⟩
      iapply (runA c (grid1.coords t) (ms_0 t) (hs_0 t) (ms_1 t) (hs_1 t) (ms_2 t) (hs_2 t) scM_0 (Memref.isWhole_whole _) scM_1 (Memref.isWhole_whole _) hA hC (xblk V c t) (wblk V c t) ((dat V c).before 2 t d2) (scAt V c (t.val - 1) (Nat.lt_of_le_of_lt (Nat.sub_le _ _) t.isLt)).1 (scAt V c (t.val - 1) (Nat.lt_of_le_of_lt (Nat.sub_le _ _) t.isLt)).2 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      iexists _; iexact H2
  · have hA : ¬condA (grid1.coords t) := fun h => h0 ((hcondA t).mp h)
    have hz : t.val ≠ 0 := fun h => h0 (by rw [h])
    rw [scAt_B V c t h0]; dsimp only
    rw [PhiS_castSucc V c t, PhiS_pos V c _ _ hz]
    by_cases h1 : t.val % 50 = 49
    · have hC : condC (grid1.coords t) := (hcondC t).mpr h1
      rw [show (dat V c).leavesExact 2 t = owns (c : Thread nD τ) (ms_2 t) fullShare ((dat V c).after 2 t) from by
        unfold Dat.leavesExact; rw [liveAt_2 t hC], after_2, scAt_B V c t h0]; dsimp only
      iintro ⟨⟨HS0, HS1, Hr, Hg⟩, Ho, ⟨%d0, H0⟩, ⟨%d1, H1⟩, ⟨%d2, H2⟩⟩
      iapply (runC c (grid1.coords t) (ms_0 t) (hs_0 t) (ms_1 t) (hs_1 t) (ms_2 t) (hs_2 t) scM_0 (Memref.isWhole_whole _) scM_1 (Memref.isWhole_whole _) hA hC (xblk V c t) (wblk V c t) ((dat V c).before 2 t d2) (scAt V c (t.val - 1) (Nat.lt_of_le_of_lt (Nat.sub_le _ _) t.isLt)).1 (scAt V c (t.val - 1) (Nat.lt_of_le_of_lt (Nat.sub_le _ _) t.isLt)).2 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      iexact H2
    · have hC : ¬condC (grid1.coords t) := fun h => h1 ((hcondC t).mp h)
      rw [Dat.leavesExact_idle (dat V c) 2 t (idleAt_2 t hC) (noFlush_2 t hC)]
      iintro ⟨⟨HS0, HS1, Hr, Hg⟩, Ho, ⟨%d0, H0⟩, ⟨%d1, H1⟩, ⟨%d2, H2⟩⟩
      iapply (runB c (grid1.coords t) (ms_0 t) (hs_0 t) (ms_1 t) (hs_1 t) (ms_2 t) (hs_2 t) scM_0 (Memref.isWhole_whole _) scM_1 (Memref.isWhole_whole _) hA hC (xblk V c t) (wblk V c t) ((dat V c).before 2 t d2) (scAt V c (t.val - 1) (Nat.lt_of_le_of_lt (Nat.sub_le _ _) t.isLt)).1 (scAt V c (t.val - 1) (Nat.lt_of_le_of_lt (Nat.sub_le _ _) t.isLt)).2 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the class invariant back: the columns' named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨HS0, HS1, Hr, Hg⟩
  isplitr [Hg]
  · isplitl [HS0]
    · iexists _; iexact HS0
    isplitl [HS1]
    · iexists _; iexact HS1
    iexact Hr
  iexact Hg

/-- After the last point the invariant gives the class invariant back: the columns' named contents are forgotten. -/
theorem hout (c : Dev nD) : (dat V c).Φ (Fin.last cfg1.N) ⊢ Pipeline.ΦA spec1 c :=
  Phi_out V c _ (by rw [Fin.val_last]; have : cfg1.N = 100 := N_1; omega)

end Cert.Kernel.R1

end
-- ==== Proof.K.Regions.lean ====
/-
  The kernel's whole program as a run: thirteen items, host stretches and the two log-sum-exp regions, each entered from
  the buffer contents the item before it left.  A region changes its output array only (to what its write-backs leave);
  a host stretch writes its own result buffers only.  So the argument arrays end as launched, and every buffer's final
  contents are a fold through the items from the launch contents.
-/
import proofs.«411388_j45131516346680_3_alg».proof.Proof.K.R0.Body
import proofs.«411388_j45131516346680_3_alg».proof.Proof.K.R1.Body
import proofs.«411388_j45131516346680_3_alg».proof.Proof.Gen.Kernel.Regions
import Idealize.ShloMosaic.Lib.Pipeline.Regions
import Idealize.ShloMosaic.Lib.Pipeline.FrameSuffix
import Idealize.ShloMosaic.Lib.Pipeline.RegionsLoop

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each item's boundary -/

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
/-- Region 0's entry contents read at the TensorCore's references. -/
abbrev V5 : (c : Dev nD) → (b : Ref sig .tc) → Buf (Elt F) ((c : Thread nD τ).loc b) := fun c b => W5 m c b
/-- At region 0's exit: its arrays at what the pipeline leaves, every other buffer as entered. -/
def W6 (c : Dev nD) : Valuation τ sig (Elt F) :=
  Pipeline.withArrays spec0 c (W5 m c) fun w => (Cert.Kernel.R0.dat (V5 m) c).arrAt w cfg0.N
abbrev W7 : Dev nD → Valuation τ sig (Elt F) := fun c => StableHlo.after hostOps1 (W6 m c)
abbrev W8 : Dev nD → Valuation τ sig (Elt F) := fun c => StableHlo.after hostOps1_1 (W7 m c)
abbrev W9 : Dev nD → Valuation τ sig (Elt F) := fun c => StableHlo.after hostOps1_2 (W8 m c)
abbrev W10 : Dev nD → Valuation τ sig (Elt F) := fun c => StableHlo.after hostOps1_3 (W9 m c)
abbrev W11 : Dev nD → Valuation τ sig (Elt F) := fun c => StableHlo.after hostOps1_4 (W10 m c)
/-- Region 1's entry contents read at the TensorCore's references. -/
abbrev V11 : (c : Dev nD) → (b : Ref sig .tc) → Buf (Elt F) ((c : Thread nD τ).loc b) := fun c b => W11 m c b
/-- At region 1's exit. -/
def W12 (c : Dev nD) : Valuation τ sig (Elt F) :=
  Pipeline.withArrays spec1 c (W11 m c) fun w => (Cert.Kernel.R1.dat (V11 m) c).arrAt w cfg1.N
abbrev W13 : Dev nD → Valuation τ sig (Elt F) := fun c => StableHlo.after hostOps2 (W12 m c)

theorem W6_arr (c : Dev nD) (w : Fin cfg0.W) :
    W6 m c (Proc.devRef .tc (Pipeline.arrRef spec0 w)) = (Cert.Kernel.R0.dat (V5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
theorem W12_arr (c : Dev nD) (w : Fin cfg1.W) :
    W12 m c (Proc.devRef .tc (Pipeline.arrRef spec1 w)) = (Cert.Kernel.R1.dat (V11 m) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m c (Proc.devRef .tc b) = W11 m c (Proc.devRef .tc b) := by
  unfold W12; exact Pipeline.withArrays_of_ne spec1 c _ _ b hb

/-! ## The proof data family and the thread state -/

/-- Both pipelines' proof data, each at its region's entry contents, as a literal case split on the pipeline's index. -/
def pdats : (p : Fin 2) → (c : Dev nD) → Dat τ (Elt F) Unit ℕ (UR sig nD τ) ℕ (Pipeline.pin (pcfgs (F := F)) adm p) c
  | ⟨0, _⟩ => fun c => R0.dat (V5 m) c
  | ⟨1, _⟩ => fun c => R1.dat (V11 m) c

/-- No variant, no level, nothing owed between cores. -/
abbrev 𝒱₀ : Variants := Variants.none
abbrev Lz : GSem nD τ sig → Finset Unit := fun _ => ∅
abbrev lvz : GSem nD τ sig → Unit → ℕ := fun _ _ => 0

/-- What rides beside the buffers through every item: the generator register at some state, and the core owing nothing. -/
abbrev Rd (c : Dev nD) : sProp 𝕄 :=
  iprop((∃ r, prngReg c r) ∗ ∃ W, owes (c : Thread nD τ) (0 : CellTallies nD τ sig Unit) W)

/-- A host stretch as an item: from the unscoped buffers at W it runs to them at the stretch's fold of W, the rider kept. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

/-- At a region's exit each of its arrays holds what the pipeline leaves and every other buffer what it held at entry. -/
theorem hF0 (c : Dev nD) (w : Fin cfg0.W) :
    (R0.dat (V5 m) c).arrAt w cfg0.N = W6 m c (Proc.devRef .tc (Pipeline.arrRef spec0 w)) := (W6_arr m c w).symm
theorem hrest0 (c : Dev nD) : ∀ b : Ref sig .tc, b ∉ Finset.univ.image (Pipeline.arrRef spec0) →
    W6 m c (Proc.devRef .tc b) = V5 m c b :=
  fun b hb => W6_of_ne m c b fun w e => hb (Finset.mem_image.mpr ⟨w, Finset.mem_univ _, e⟩)
theorem hF1 (c : Dev nD) (w : Fin cfg1.W) :
    (R1.dat (V11 m) c).arrAt w cfg1.N = W12 m c (Proc.devRef .tc (Pipeline.arrRef spec1 w)) := (W12_arr m c w).symm
theorem hrest1 (c : Dev nD) : ∀ b : Ref sig .tc, b ∉ Finset.univ.image (Pipeline.arrRef spec1) →
    W12 m c (Proc.devRef .tc b) = V11 m c b :=
  fun b hb => W12_of_ne m c b fun w e => hb (Finset.mem_image.mpr ⟨w, Finset.mem_univ _, e⟩)

/-! ## The regions as items -/

-- a library lemma stated over the pinned configuration unifies with the printed one only when unification may unfold
-- plain definitions in a metavariable's type
set_option backward.isDefEq.respectTransparency.types false in
/-- REGION 0 over the thread state: entered with every unscoped buffer at W5, left with them at W6.  Its arrays are
    split out of the unscoped buffers at entry and put back at the exit contents; the generator register goes into the
    invariant and comes out of it; nothing is owed; the kernel has no semaphore of its own.  The invariant is the tracking
    one of the region's proof data: before the first point it is the class invariant (re-formed here from the register and
    the scoped buffers), after the last point it gives the class invariant back, which is split again. -/
def reg0 : Pipeline.RegionSeg (pcfgs (F := F)) adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (R0.body_obligation (V5 m) c).loose
  hwaits := Pipeline.hwaits_of_owed_zero _ _ _ _ Lz lvz 0 fun _ _ => rfl
  pre c := iprop(StableHlo.held (c : Thread nD τ) (Pipeline.ucRefs τ sig) (W5 m c) ∗ Rd c)
  post c := iprop(StableHlo.held (c : Thread nD τ) (Pipeline.ucRefs τ sig) (W6 m c) ∗ Rd c)
  X c := iprop(∃ r, prngReg c r)
  Y c := iprop(∃ r, prngReg c r)
  Z c := Pipeline.unscopedRest (Ix := Unit) (Name := ℕ) (U := UR sig nD τ) (Lvl := ℕ) spec0 c (V5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R0.hin (V5 m) c)
    unfold Pipeline.ΦA
    iintro ⟨Hp, -, Hr⟩
    isplitl [Hr]; · iexact Hr
    iexact Hp
  hout c := by
    rw [Pipeline.ownSems0_none]
    refine (R0.hout (V5 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V5 m c) (fun b => W6 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 over the thread state: entered with every unscoped buffer at W11, left with them at W12.  Its arrays are
    split out of the unscoped buffers at entry and put back at the exit contents; the generator register goes into the
    invariant and comes out of it; nothing is owed; the kernel has no semaphore of its own.  The invariant is the tracking
    one of the region's proof data: before the first point it is the class invariant (re-formed here from the register and
    the scoped buffers), after the last point it gives the class invariant back, which is split again. -/
def reg1 : Pipeline.RegionSeg (pcfgs (F := F)) adm (pdats m) () defs₀ 𝒱₀ Lz lvz 1 where
  win := launch1.win.to₀
  block_pos := launch1.block_pos
  stage_whole := launch1.stage_whole
  K := PEmpty
  osem k := k.elim
  ho := Pipeline.OwnSemFacts.none _
  hbody c := (R1.body_obligation (V11 m) c).loose
  hwaits := Pipeline.hwaits_of_owed_zero _ _ _ _ Lz lvz 1 fun _ _ => rfl
  pre c := iprop(StableHlo.held (c : Thread nD τ) (Pipeline.ucRefs τ sig) (W11 m c) ∗ Rd c)
  post c := iprop(StableHlo.held (c : Thread nD τ) (Pipeline.ucRefs τ sig) (W12 m c) ∗ Rd c)
  X c := iprop(∃ r, prngReg c r)
  Y c := iprop(∃ r, prngReg c r)
  Z c := Pipeline.unscopedRest (Ix := Unit) (Name := ℕ) (U := UR sig nD τ) (Lvl := ℕ) spec1 c (V11 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R1.hin (V11 m) c)
    unfold Pipeline.ΦA
    iintro ⟨Hp, -, Hr⟩
    isplitl [Hr]; · iexact Hr
    iexact Hp
  hout c := by
    rw [Pipeline.ownSems0_none]
    refine (R1.hout (V11 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V11 m c) (fun b => W12 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as thirteen items, and the launch -/

/-- The items in the program's order: five stretches, region 0, five stretches, region 1, the last stretch. -/
abbrev items : List (Pipeline.Seg (pcfgs (F := F)) adm (pdats m) () defs₀ 𝒱₀ Lz lvz) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg0 m),
    .host (hseg hostOps1 hostOps1_sub hostOps1_fresh (W6 m)),
    .host (hseg hostOps1_1 hostOps1_1_sub hostOps1_1_fresh (W7 m)),
    .host (hseg hostOps1_2 hostOps1_2_sub hostOps1_2_fresh (W8 m)),
    .host (hseg hostOps1_3 hostOps1_3_sub hostOps1_3_fresh (W9 m)),
    .host (hseg hostOps1_4 hostOps1_4_sub hostOps1_4_fresh (W10 m)),
    .region (reg1 m),
    .host (hseg hostOps2 hostOps2_sub hostOps2_fresh (W12 m)) ]

/-- The last thread state without what is owed: every unscoped buffer at the last contents, the register at some state. -/
abbrev Tlast (c : Dev nD) : sProp 𝕄 :=
  iprop(StableHlo.held (c : Thread nD τ) (Pipeline.ucRefs τ sig) (W13 m c) ∗ ∃ r, prngReg c r)

/-- The last item's exit state regrouped: the buffers and the register on one side, what is owed (nothing) on the other. -/
theorem hlast (c : Dev nD) (V : Valuation τ sig (Elt F)) :
    iprop(StableHlo.held (c : Thread nD τ) (Pipeline.ucRefs τ sig) V
        ∗ (∃ r, prngReg c r) ∗ ∃ W, owes (c : Thread nD τ) (0 : CellTallies nD τ sig Unit) W)
      ⊢ (iprop((StableHlo.held (c : Thread nD τ) (Pipeline.ucRefs τ sig) V ∗ ∃ r, prngReg c r)
        ∗ ∃ W, owes (c : Thread nD τ) (0 : CellTallies nD τ sig Unit) W) : sProp 𝕄) := by
  iintro ⟨Hh, Hp, HO⟩
  isplitr [HO]
  · isplitl [Hh]; · iexact Hh
    iexact Hp
  iexact HO

/-! ## The run -/

-- the launch theorem's implicit arguments are found by unifying its conclusion with this one, which takes unfolding plain
-- definitions in a metavariable's type
set_option backward.isDefEq.respectTransparency.types false in
/-- Every weakly fair execution of the program from memory m with zero counters terminates, and every final memory holds,
    in every unscoped buffer, the fold's last contents. -/
theorem run_main (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W13 m c b) :=
  Pipeline.θ_run_regions_kit (pcfgs (F := F)) adm (pdats m) () cellOf_inj emb₁ defs₀ 𝒱₀ Lz lvz m ρ main (items m)
    (fun c Q => by
      rewrite [main_chain c, Pipeline.Seg.run_eq_chain,
        show (items m).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rd c)) (Tₙ := Tlast m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => hlast c (W13 m c)⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h c => h c)

/-! ## What no item touches ends as launched -/

/-- A buffer that no host stretch writes and that is no array of either region holds at every boundary, the last included, what
    the launch put in it: each stretch leaves it (it is outside the stretch's written list), each region leaves it (a region
    changes its own arrays only). -/
theorem W13_of_untouched (c : Dev nD) (r : Ref sig .tc)
    (h0 : r ∉ hostOps0_W) (h0_1 : r ∉ hostOps0_1_W) (h0_2 : r ∉ hostOps0_2_W) (h0_3 : r ∉ hostOps0_3_W)
    (h0_4 : r ∉ hostOps0_4_W) (hA0 : ∀ w, Pipeline.arrRef spec0 w ≠ r)
    (h1 : r ∉ hostOps1_W) (h1_1 : r ∉ hostOps1_1_W) (h1_2 : r ∉ hostOps1_2_W) (h1_3 : r ∉ hostOps1_3_W)
    (h1_4 : r ∉ hostOps1_4_W) (hA1 : ∀ w, Pipeline.arrRef spec1 w ≠ r)
    (h2 : r ∉ hostOps2_W) :
    W13 m c (Proc.devRef .tc r) = m ((c : Thread nD τ).loc r) :=
  calc W13 m c (Proc.devRef .tc r)
    _ = W12 m c (Proc.devRef .tc r) := StableHlo.after_of_writes_sub hostOps2 _ hostOps2_writes h2
    _ = W11 m c (Proc.devRef .tc r) := W12_of_ne m c r hA1
    _ = W10 m c (Proc.devRef .tc r) := StableHlo.after_of_writes_sub hostOps1_4 _ hostOps1_4_writes h1_4
    _ = W9 m c (Proc.devRef .tc r) := StableHlo.after_of_writes_sub hostOps1_3 _ hostOps1_3_writes h1_3
    _ = W8 m c (Proc.devRef .tc r) := StableHlo.after_of_writes_sub hostOps1_2 _ hostOps1_2_writes h1_2
    _ = W7 m c (Proc.devRef .tc r) := StableHlo.after_of_writes_sub hostOps1_1 _ hostOps1_1_writes h1_1
    _ = W6 m c (Proc.devRef .tc r) := StableHlo.after_of_writes_sub hostOps1 _ hostOps1_writes h1
    _ = W5 m c (Proc.devRef .tc r) := W6_of_ne m c r hA0
    _ = W4 m c (Proc.devRef .tc r) := StableHlo.after_of_writes_sub hostOps0_4 _ hostOps0_4_writes h0_4
    _ = W3 m c (Proc.devRef .tc r) := StableHlo.after_of_writes_sub hostOps0_3 _ hostOps0_3_writes h0_3
    _ = W2 m c (Proc.devRef .tc r) := StableHlo.after_of_writes_sub hostOps0_2 _ hostOps0_2_writes h0_2
    _ = W1 m c (Proc.devRef .tc r) := StableHlo.after_of_writes_sub hostOps0_1 _ hostOps0_1_writes h0_1
    _ = W0 m c (Proc.devRef .tc r) := StableHlo.after_of_writes_sub hostOps0 _ hostOps0_writes h0
    _ = m ((c : Thread nD τ).loc r) := rfl

/-- No item writes an argument array. -/
theorem W13_main_arg0 (c : Dev nD) : W13 m c (Proc.devRef .tc main_arg0) = m ((c : Thread nD τ).loc main_arg0) :=
  W13_of_untouched m c main_arg0 (by decide) (by decide) (by decide) (by decide) (by decide) (by decide)
    (by decide) (by decide) (by decide) (by decide) (by decide) (by decide) (by decide)
theorem W13_main_arg1 (c : Dev nD) : W13 m c (Proc.devRef .tc main_arg1) = m ((c : Thread nD τ).loc main_arg1) :=
  W13_of_untouched m c main_arg1 (by decide) (by decide) (by decide) (by decide) (by decide) (by decide)
    (by decide) (by decide) (by decide) (by decide) (by decide) (by decide) (by decide)
theorem W13_main_arg2 (c : Dev nD) : W13 m c (Proc.devRef .tc main_arg2) = m ((c : Thread nD τ).loc main_arg2) :=
  W13_of_untouched m c main_arg2 (by decide) (by decide) (by decide) (by decide) (by decide) (by decide)
    (by decide) (by decide) (by decide) (by decide) (by decide) (by decide) (by decide)
theorem W13_main_arg3 (c : Dev nD) : W13 m c (Proc.devRef .tc main_arg3) = m ((c : Thread nD τ).loc main_arg3) :=
  W13_of_untouched m c main_arg3 (by decide) (by decide) (by decide) (by decide) (by decide) (by decide)
    (by decide) (by decide) (by decide) (by decide) (by decide) (by decide) (by decide)
theorem W13_main_arg4 (c : Dev nD) : W13 m c (Proc.devRef .tc main_arg4) = m ((c : Thread nD τ).loc main_arg4) :=
  W13_of_untouched m c main_arg4 (by decide) (by decide) (by decide) (by decide) (by decide) (by decide)
    (by decide) (by decide) (by decide) (by decide) (by decide) (by decide) (by decide)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the program runs to the end from any memory and its argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W13_main_arg0 m c),
     (h c _ (mem_uc main_arg1 (by decide))).trans (W13_main_arg1 m c),
     (h c _ (mem_uc main_arg2 (by decide))).trans (W13_main_arg2 m c),
     (h c _ (mem_uc main_arg3 (by decide))).trans (W13_main_arg3 m c),
     (h c _ (mem_uc main_arg4 (by decide))).trans (W13_main_arg4 m c)⟩) (run_main m ρ)

end Cert.Kernel.Run

end
-- ==== Proof.KI.R0.Runs.lean ====
/-
  Region 0 (the first log-sum-exp call): what its three cases share.  The grid is 2 × 50: the outer axis picks a block of 256
  token positions, the inner axis walks the vocabulary in 50 tiles of 640 rows.  The body keeps two scratch columns
  between points, the running maximum and the running sum of exponentials: it resets them at the first tile, updates
  them at every tile, and at the last tile writes maximum + log(sum) into the output block.
-/
import proofs.«411388_j45131516346680_3_alg».proof.Proof.Gen.KernelIdeal.Launch
import proofs.«411388_j45131516346680_3_alg».proof.Proof.Gen.KernelIdeal.Skeleton
import proofs.«411388_j45131516346680_3_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The scratch columns as pure functions of what the body loads -/

/-- The running maximum after a tile: the old column against the tile's row maxima. -/
def mNew (x : Vec F S8x256x2048 .bf16) (w : Vec F S640x2048 .bf16) (mo : Vec F S8x256x1 .f32) : Vec F S8x256x1 .f32 :=
  k0_pay7 x w mo
/-- The running sum after a tile: the old sum rescaled to the new maximum, plus the tile's exponentials. -/
def lNew (x : Vec F S8x256x2048 .bf16) (w : Vec F S640x2048 .bf16) (mo lo : Vec F S8x256x1 .f32) : Vec F S8x256x1 .f32 :=
  k0_pay6 x w mo mo lo
/-- The columns a reset writes: minus infinity, and zero. -/
def mReset : Vec F S8x256x1 .f32 := k0_pay2 (F := F)
def lReset : Vec F S8x256x1 .f32 := k0_pay3 (F := F)
/-- What the last tile stores into the output block: maximum + log(sum), the unit axis dropped. -/
def outFin (mo lo : Vec F S8x256x1 .f32) : Vec F S8x256 .f32 := k0_pay1 mo lo

/-! ## The branch conditions over the grid -/

/-- The reset's condition: the inner coordinate is 0. -/
abbrev condA (i : grid0.Coords) : Prop :=
  (Scalar.cmpi .ne (Scalar.extui (Scalar.cmpi .eq (BitVec.ofNat 32 (i 1).val) 0#32)) 0#32) = 1#1
theorem hcondA : ∀ t : Fin cfg0.N, condA (grid0.coords t) ↔ t.val % 50 = 0 :=
  (by decide +kernel : ∀ t : Fin grid0.N, condA (grid0.coords t) ↔ t.val % 50 = 0)
/-- The final store's condition: the inner coordinate is 49. -/
abbrev condC (i : grid0.Coords) : Prop := k0_cond2 i = 1#1
theorem hcondC : ∀ t : Fin cfg0.N, condC (grid0.coords t) ↔ t.val % 50 = 49 :=
  (by decide +kernel : ∀ t : Fin grid0.N, condC (grid0.coords t) ↔ t.val % 50 = 49)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem idleAt_2 : ∀ t : Fin cfg0.N, ¬condC (grid0.coords t) → cfg0.idle 2 (grid0.coords t) = true := by decide +kernel
theorem noFlush_2 : ∀ t : Fin cfg0.N, ¬condC (grid0.coords t) → (cfg0.win 2).flush t = false := by decide +kernel
theorem liveAt_2 : ∀ t : Fin cfg0.N, condC (grid0.coords t) → cfg0.idle 2 (grid0.coords t) = false := by decide +kernel

/-! ## The staging and scratch memrefs the body is called with -/

abbrev ms_0 (t : Fin cfg0.N) : Memref sig .tc .vmem S8x256x2048 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S640x2048 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S8x256 .f32 := win0_2.stage (cfg0.slots t 2)
abbrev hs_2 (t : Fin cfg0.N) : (ms_2 t).IsWhole := hstage0_2 ((cfg0.slots t 2).cast nbuf0_2)
abbrev scM_0 : Memref sig .tc .vmem S8x256x1 .f32 := Memref.whole cc0_scratch0
abbrev scM_1 : Memref sig .tc .vmem S8x256x1 .f32 := Memref.whole cc0_scratch1

end Cert.KernelIdeal.R0

end
-- ==== Proof.KI.R0.RunA.lean ====
/-
  Region 0's body run in one of its three cases, as a Hoare triple over whole staging and scratch buffers: which contents the
  body leaves in the output block and in the two scratch columns, as pure functions of what it was handed.
-/
import proofs.«411388_j45131516346680_3_alg».proof.Proof.KI.R0.Runs
import Idealize.ShloMosaic.Lib.Pipeline.Value

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The first tile of a block of tokens (inner coordinate 0): the scratch columns are reset, then updated by the tile; the output block is left as it was. -/
theorem runA (c : Dev nD) (i : grid0.Coords)
    (arg2 : Memref sig .tc .vmem S8x256x2048 .bf16) (harg2 : arg2.IsWhole) (arg3 : Memref sig .tc .vmem S640x2048 .bf16) (harg3 : arg3.IsWhole)
    (arg4 : Memref sig .tc .vmem S8x256 .f32) (harg4 : arg4.IsWhole) (arg5 : Memref sig .tc .vmem S8x256x1 .f32) (harg5 : arg5.IsWhole)
    (arg6 : Memref sig .tc .vmem S8x256x1 .f32) (harg6 : arg6.IsWhole) (hA : condA i) (hC : ¬condC i)
    (x0 : Vec F S8x256x2048 .bf16) (x1 : Vec F S640x2048 .bf16) (xo : Vec F S8x256 .f32) (s0 s1 : Vec F S8x256x1 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s0 ∗ owns (c : Thread nD τ) arg6 fullShare s1
        ∗ (iprop(owns (c : Thread nD τ) arg2 fullShare x0 ∗ owns (c : Thread nD τ) arg3 fullShare x1 ∗ owns (c : Thread nD τ) arg4 fullShare (xo)
            ∗ owns (c : Thread nD τ) arg5 fullShare (mNew x0 x1 mReset) ∗ owns (c : Thread nD τ) arg6 fullShare (lNew x0 x1 mReset lReset)) -∗ K ⟨⟩))
      ⊢ wp frame (wpE (defs₀ (F := F)) Variants.none c none) E (cc0__lse_kernel i arg2 harg2 arg3 harg3 arg4 harg4 arg5 harg5 arg6 harg6) K := by
  -- the whole-shape rectangles sit at offset zero along every axis
  have hz3 : (![0, 0, 0] : Fin 3 → Nat) = fun _ => 0 := funext fun a => by fin_cases a <;> rfl
  have hz2 : (![0, 0] : Fin 2 → Nat) = fun _ => 0 := funext fun a => by fin_cases a <;> rfl
  simp only [cc0__lse_kernel_eq_skeleton]; unfold cc0__lse_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1
  -- the reset branch is taken, the final-store branch is not
  sl_exec (disch := first | exact hA | exact hC)
  sl_step
  iapply Hk
  -- the two inputs and the output block are as they were handed in
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  isplitl [H3]
  -- the maximum column: its last store covers it, so it reads that store's payload, whose own loads read the two
  -- input blocks and the reset column stored just before
  · iexists _; isplitr
    swap; · iexact H3
    ipureintro
    refine (View.read_writes_eq_canon _ _ _ (fun y => ⟨_, List.mem_cons_self, View.mem_set_unit_zero (S := S8x256x1) hz3 inb_S8x256x1_S8x256x1_0_0_0 y⟩)).trans ?_
    refine (View.canon_cons_unit_zero (S := S8x256x1) hz3 inb_S8x256x1_S8x256x1_0_0_0 _ _).trans ?_
    sl_unfold_run_names
    unfold mNew mReset
    rw [View.readCov_unit_zero (S := S8x256x1) _ hz3]
    simp only [View.readAt_eq_ld, harg2.read_unread, harg3.read_unread, View.ld_unit_zero (S := S8x256x2048) hz3,
      View.ld_unit_zero (S := S640x2048) hz2]
  -- the sum column: the same, its payload reading both reset columns back
  · iexists _; isplitr
    swap; · iexact H4
    ipureintro
    refine (View.read_writes_eq_canon _ _ _ (fun y => ⟨_, List.mem_cons_self, View.mem_set_unit_zero (S := S8x256x1) hz3 inb_S8x256x1_S8x256x1_0_0_0 y⟩)).trans ?_
    refine (View.canon_cons_unit_zero (S := S8x256x1) hz3 inb_S8x256x1_S8x256x1_0_0_0 _ _).trans ?_
    sl_unfold_run_names
    unfold lNew mReset lReset
    rw [View.readCov_unit_zero (S := S8x256x1) _ hz3, View.readCov_unit_zero (S := S8x256x1) _ hz3]
    simp only [View.readAt_eq_ld, harg2.read_unread, harg3.read_unread, View.ld_unit_zero (S := S8x256x2048) hz3,
      View.ld_unit_zero (S := S640x2048) hz2]

end Cert.KernelIdeal.R0

end
-- ==== Proof.KI.R0.RunB.lean ====
/-
  Region 0's body run in one of its three cases, as a Hoare triple over whole staging and scratch buffers: which contents the
  body leaves in the output block and in the two scratch columns, as pure functions of what it was handed.
-/
import proofs.«411388_j45131516346680_3_alg».proof.Proof.KI.R0.RunA
import Idealize.ShloMosaic.Lib.Pipeline.Value

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- A middle tile (inner coordinate 1 to 48): the scratch columns are updated by the tile; the output block is left as it was. -/
theorem runB (c : Dev nD) (i : grid0.Coords)
    (arg2 : Memref sig .tc .vmem S8x256x2048 .bf16) (harg2 : arg2.IsWhole) (arg3 : Memref sig .tc .vmem S640x2048 .bf16) (harg3 : arg3.IsWhole)
    (arg4 : Memref sig .tc .vmem S8x256 .f32) (harg4 : arg4.IsWhole) (arg5 : Memref sig .tc .vmem S8x256x1 .f32) (harg5 : arg5.IsWhole)
    (arg6 : Memref sig .tc .vmem S8x256x1 .f32) (harg6 : arg6.IsWhole) (hA : ¬condA i) (hC : ¬condC i)
    (x0 : Vec F S8x256x2048 .bf16) (x1 : Vec F S640x2048 .bf16) (xo : Vec F S8x256 .f32) (s0 s1 : Vec F S8x256x1 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s0 ∗ owns (c : Thread nD τ) arg6 fullShare s1
        ∗ (iprop(owns (c : Thread nD τ) arg2 fullShare x0 ∗ owns (c : Thread nD τ) arg3 fullShare x1 ∗ owns (c : Thread nD τ) arg4 fullShare (xo)
            ∗ owns (c : Thread nD τ) arg5 fullShare (mNew x0 x1 s0) ∗ owns (c : Thread nD τ) arg6 fullShare (lNew x0 x1 s0 s1)) -∗ K ⟨⟩))
      ⊢ wp frame (wpE (defs₀ (F := F)) Variants.none c none) E (cc0__lse_kernel i arg2 harg2 arg3 harg3 arg4 harg4 arg5 harg5 arg6 harg6) K := by
  simp only [cc0__lse_kernel_eq_skeleton]; unfold cc0__lse_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2
  obtain rfl := harg5.eq_unread hf3; obtain rfl := harg6.eq_unread hf4
  -- neither branch condition holds at a middle tile
  sl_exec (disch := first | exact hA | exact hC)
  sl_step
  -- the zero offsets, however spelt
  have hz3 : (![0, 0, 0] : Fin 3 → ℕ) = fun _ => 0 := by funext a; fin_cases a <;> rfl
  have hz2 : (![0, 0] : Fin 2 → ℕ) = fun _ => 0 := by funext a; fin_cases a <;> rfl
  -- a load of a whole buffer through the whole rectangle reads its contents
  have e2 : View.readAt (Elt F) arg2.view
      (Rect.unit ![0, 0, 0] S8x256x2048.size inb_S8x256x2048_S8x256x2048_0_0_0).toLoadRect (harg2.unread x0) = x0 := by
    rw [View.readAt_eq_ld, harg2.read_unread]; exact View.ld_unit_zero hz3 _ x0
  have e3 : View.readAt (Elt F) arg3.view
      (Rect.unit ![0, 0] S640x2048.size inb_S640x2048_S640x2048_0_0).toLoadRect (harg3.unread x1) = x1 := by
    rw [View.readAt_eq_ld, harg3.read_unread]; exact View.ld_unit_zero hz2 _ x1
  have e5 : View.readAt (Elt F) arg5.view
      (Rect.unit ![0, 0, 0] S8x256x1.size inb_S8x256x1_S8x256x1_0_0_0).toLoadRect (harg5.unread s0) = s0 := by
    rw [View.readAt_eq_ld, harg5.read_unread]; exact View.ld_unit_zero hz3 _ s0
  have e6 : View.readAt (Elt F) arg6.view
      (Rect.unit ![0, 0, 0] S8x256x1.size inb_S8x256x1_S8x256x1_0_0_0).toLoadRect (harg6.unread s1) = s1 := by
    rw [View.readAt_eq_ld, harg6.read_unread]; exact View.ld_unit_zero hz3 _ s1
  -- one store of a column through the whole rectangle leaves its payload, whatever the column held before
  have hst : ∀ (m : Memref sig .tc .vmem S8x256x1 .f32) (f : m.view.ty.Contents (Elt F)) (w : Vec F S8x256x1 .f32),
      m.view.read (Elt F) (m.view.writes (Elt F) f
        [(⟨Rect.unit ![0, 0, 0] S8x256x1.size inb_S8x256x1_S8x256x1_0_0_0, w⟩ : View.Piece (Elt F) S8x256x1 .f32)]) = w := by
    intro m f w
    rw [View.read_writes_eq_canon _ _ _ (fun y => ⟨_, List.mem_singleton_self _,
      View.mem_set_unit_zero hz3 inb_S8x256x1_S8x256x1_0_0_0 y⟩)]
    exact View.canon_unit_zero hz3 _ w
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · -- the maximum column
    iexists _; isplitr
    swap; · iexact H3
    ipureintro
    refine (hst arg5 _ _).trans ?_
    show k0_pay7 _ _ _ = mNew x0 x1 s0
    rw [e2, e3, e5]; rfl
  · -- the sum column
    iexists _; isplitr
    swap; · iexact H4
    ipureintro
    refine (hst arg6 _ _).trans ?_
    rw [e2, e3, e5, e6]; rfl

end Cert.KernelIdeal.R0

end
-- ==== Proof.KI.R0.RunC.lean ====
/-
  Region 0's body run in one of its three cases, as a Hoare triple over whole staging and scratch buffers: which contents the
  body leaves in the output block and in the two scratch columns, as pure functions of what it was handed.
-/
import proofs.«411388_j45131516346680_3_alg».proof.Proof.KI.R0.RunB
import Idealize.ShloMosaic.Lib.Pipeline.Value

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The last tile (inner coordinate 49): the scratch columns are updated by the tile, and maximum + log(sum) is stored into the output block. -/
theorem runC (c : Dev nD) (i : grid0.Coords)
    (arg2 : Memref sig .tc .vmem S8x256x2048 .bf16) (harg2 : arg2.IsWhole) (arg3 : Memref sig .tc .vmem S640x2048 .bf16) (harg3 : arg3.IsWhole)
    (arg4 : Memref sig .tc .vmem S8x256 .f32) (harg4 : arg4.IsWhole) (arg5 : Memref sig .tc .vmem S8x256x1 .f32) (harg5 : arg5.IsWhole)
    (arg6 : Memref sig .tc .vmem S8x256x1 .f32) (harg6 : arg6.IsWhole) (hA : ¬condA i) (hC : condC i)
    (x0 : Vec F S8x256x2048 .bf16) (x1 : Vec F S640x2048 .bf16) (xo : Vec F S8x256 .f32) (s0 s1 : Vec F S8x256x1 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s0 ∗ owns (c : Thread nD τ) arg6 fullShare s1
        ∗ (iprop(owns (c : Thread nD τ) arg2 fullShare x0 ∗ owns (c : Thread nD τ) arg3 fullShare x1 ∗ owns (c : Thread nD τ) arg4 fullShare (outFin (mNew x0 x1 s0) (lNew x0 x1 s0 s1))
            ∗ owns (c : Thread nD τ) arg5 fullShare (mNew x0 x1 s0) ∗ owns (c : Thread nD τ) arg6 fullShare (lNew x0 x1 s0 s1)) -∗ K ⟨⟩))
      ⊢ wp frame (wpE (defs₀ (F := F)) Variants.none c none) E (cc0__lse_kernel i arg2 harg2 arg3 harg3 arg4 harg4 arg5 harg5 arg6 harg6) K := by
  simp only [cc0__lse_kernel_eq_skeleton]; unfold cc0__lse_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, Hk⟩
  -- a whole memref's raw contents are determined by what it reads
  obtain rfl := harg2.eq_unread hf2; obtain rfl := harg3.eq_unread hf3; obtain rfl := harg4.eq_unread hf4
  obtain rfl := harg5.eq_unread hf5; obtain rfl := harg6.eq_unread hf6
  -- the reset is skipped (inner coordinate ≠ 0) and the final store is taken (inner coordinate = 49)
  sl_exec (disch := first | exact hA | exact hC)
  sl_step
  -- every load and store of the body goes through the whole-shape rectangle at offset zero
  have hz3 : (![0, 0, 0] : Fin S8x256x1.rank → Nat) = fun _ => 0 := funext fun a => by fin_cases a <;> rfl
  have hz2 : (![0, 0] : Fin S8x256.rank → Nat) = fun _ => 0 := funext fun a => by fin_cases a <;> rfl
  have hzx : (![0, 0, 0] : Fin S8x256x2048.rank → Nat) = fun _ => 0 := funext fun a => by fin_cases a <;> rfl
  have hzw : (![0, 0] : Fin S640x2048.rank → Nat) = fun _ => 0 := funext fun a => by fin_cases a <;> rfl
  iapply Hk
  -- the two input blocks are only read
  isplitl [H2]
  · iexists _; isplitr; · ipureintro; exact harg2.read_unread _
    iexact H2
  isplitl [H3]
  · iexists _; isplitr; · ipureintro; exact harg3.read_unread _
    iexact H3
  -- the output block: maximum + log(sum) of the two columns as just updated (each read back after its covering store)
  isplitl [H4]
  · iexists _; isplitr
    on_goal 2 => iexact H4
    ipureintro
    sl_unfold_words
    -- one whole-block store covers the buffer, so it reads as that store's payload, whatever it held before
    refine (View.read_writes_eq_canon _ _ _ ?_).trans ?_
    · intro y; refine ⟨_, List.mem_singleton_self _, ?_⟩
      exact View.mem_set_unit_zero hz2 inb_S8x256_S8x256_0_0 y
    refine (View.canon_unit_zero hz2 inb_S8x256_S8x256_0_0 _).trans ?_
    -- the two columns read back are the payloads stored just before; those were computed from the whole-block loads, which read x0, x1, s0, s1
    simp only [View.readAt_eq_ld, harg2.read_unread, harg3.read_unread, harg5.read_unread, harg6.read_unread,
      View.readCov_unit_zero (S := S8x256x1) _ hz3,
      View.ld_unit_zero (S := S8x256x2048) hzx, View.ld_unit_zero (S := S640x2048) hzw, View.ld_unit_zero (S := S8x256x1) hz3]
    rfl
  -- the running maximum: the old column against the tile's row maxima
  isplitl [H5]
  · iexists _; isplitr
    on_goal 2 => iexact H5
    ipureintro
    sl_unfold_words
    -- one whole-block store covers the buffer, so it reads as that store's payload, whatever it held before
    refine (View.read_writes_eq_canon _ _ _ ?_).trans ?_
    · intro y; refine ⟨_, List.mem_singleton_self _, ?_⟩
      exact View.mem_set_unit_zero hz3 inb_S8x256x1_S8x256x1_0_0_0 y
    refine (View.canon_unit_zero hz3 inb_S8x256x1_S8x256x1_0_0_0 _).trans ?_
    -- the payload was computed from the whole-block loads, which read x0, x1, s0
    simp only [View.readAt_eq_ld, harg2.read_unread, harg3.read_unread, harg5.read_unread, harg6.read_unread,
      View.readCov_unit_zero (S := S8x256x1) _ hz3,
      View.ld_unit_zero (S := S8x256x2048) hzx, View.ld_unit_zero (S := S640x2048) hzw, View.ld_unit_zero (S := S8x256x1) hz3]
    rfl
  -- the running sum: rescaled to the new maximum, plus the tile's exponentials
  · iexists _; isplitr
    on_goal 2 => iexact H6
    ipureintro
    sl_unfold_words
    -- one whole-block store covers the buffer, so it reads as that store's payload, whatever it held before
    refine (View.read_writes_eq_canon _ _ _ ?_).trans ?_
    · intro y; refine ⟨_, List.mem_singleton_self _, ?_⟩
      exact View.mem_set_unit_zero hz3 inb_S8x256x1_S8x256x1_0_0_0 y
    refine (View.canon_unit_zero hz3 inb_S8x256x1_S8x256x1_0_0_0 _).trans ?_
    -- the payload was computed from the whole-block loads, which read x0, x1, s0 (twice) and s1
    simp only [View.readAt_eq_ld, harg2.read_unread, harg3.read_unread, harg5.read_unread, harg6.read_unread,
      View.readCov_unit_zero (S := S8x256x1) _ hz3,
      View.ld_unit_zero (S := S8x256x2048) hzx, View.ld_unit_zero (S := S640x2048) hzw, View.ld_unit_zero (S := S8x256x1) hz3]
    rfl

end Cert.KernelIdeal.R0

end
-- ==== Proof.KI.R0.Body.lean ====
/-
  Region 0's proof data and its body obligation.  After point n the two scratch columns hold the running maximum and the
  running sum of the tiles walked so far in the current block of tokens: a recursion on the point, restarted at every point
  whose inner coordinate is 0.  The output block is stored at the last tile of each block of tokens only.
-/
import proofs.«411388_j45131516346680_3_alg».proof.Proof.KI.R0.RunC

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of hidden states (256 token positions of all 8 sequences) and the tile of 640 vocabulary rows at point t, at their literal types. -/
abbrev xblk (c : Dev nD) (t : Fin cfg0.N) : Vec F S8x256x2048 .bf16 := iblk V c 0 t
abbrev wblk (c : Dev nD) (t : Fin cfg0.N) : Vec F S640x2048 .bf16 := iblk V c 1 t

/-- The scratch columns (running maximum, running sum) after point n. -/
def scAt (c : Dev nD) : (n : ℕ) → n < cfg0.N → Vec F S8x256x1 .f32 × Vec F S8x256x1 .f32
  | 0, h => (mNew (xblk V c ⟨0, h⟩) (wblk V c ⟨0, h⟩) mReset, lNew (xblk V c ⟨0, h⟩) (wblk V c ⟨0, h⟩) mReset lReset)
  | n + 1, h =>
    if (n + 1) % 50 = 0 then
      (mNew (xblk V c ⟨n + 1, h⟩) (wblk V c ⟨n + 1, h⟩) mReset, lNew (xblk V c ⟨n + 1, h⟩) (wblk V c ⟨n + 1, h⟩) mReset lReset)
    else
      (mNew (xblk V c ⟨n + 1, h⟩) (wblk V c ⟨n + 1, h⟩) (scAt c n (Nat.lt_of_succ_lt h)).1,
       lNew (xblk V c ⟨n + 1, h⟩) (wblk V c ⟨n + 1, h⟩) (scAt c n (Nat.lt_of_succ_lt h)).1 (scAt c n (Nat.lt_of_succ_lt h)).2)

/-- At a point whose inner coordinate is 0 the columns restart from the reset values. -/
theorem scAt_reset (c : Dev nD) (n : ℕ) (h : n < cfg0.N) (hn : n % 50 = 0) :
    scAt V c n h = (mNew (xblk V c ⟨n, h⟩) (wblk V c ⟨n, h⟩) mReset, lNew (xblk V c ⟨n, h⟩) (wblk V c ⟨n, h⟩) mReset lReset) := by
  cases n with
  | zero => rfl
  | succ n => exact if_pos hn

/-- At any other point they are updated from what the point before left. -/
theorem scAt_step (c : Dev nD) (n : ℕ) (h : n + 1 < cfg0.N) (hn : (n + 1) % 50 ≠ 0) :
    scAt V c (n + 1) h = (mNew (xblk V c ⟨n + 1, h⟩) (wblk V c ⟨n + 1, h⟩) (scAt V c n (Nat.lt_of_succ_lt h)).1,
       lNew (xblk V c ⟨n + 1, h⟩) (wblk V c ⟨n + 1, h⟩) (scAt V c n (Nat.lt_of_succ_lt h)).1 (scAt V c n (Nat.lt_of_succ_lt h)).2) :=
  if_neg hn

/-- The core's scoped buffers that are neither this region's staging buffers nor its two scratch columns, each whole at some contents. -/
def otherRest (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f))

/-- The region invariant before position n: before the first point every scratch buffer at anything; afterwards the two
    scratch columns at what the point before left, the other scoped buffers at anything, the generator register at some state. -/
def PhiS (c : Dev nD) : (n : ℕ) → n ≤ cfg0.N → sProp 𝕄
  | 0, _ => Pipeline.ΦA spec0 c
  | n + 1, hn => iprop(owns (c : Thread nD τ) scM_0 fullShare (scAt V c n hn).1 ∗ owns (c : Thread nD τ) scM_1 fullShare (scAt V c n hn).2
      ∗ otherRest c ∗ (∃ r, prngReg c r))

/-- The proof data of region 0 on core c: the arrays as the region finds them; after the body at point t each input's
    buffer at its block and the output's at maximum + log(sum) of the columns after t; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outFin (scAt V c t.val t.isLt).1 (scAt V c t.val t.isLt).2
  Φ t := PhiS V c t.val (Nat.le_of_lt_succ t.isLt)
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) :
    (dat V c).after 2 t = outFin (scAt V c t.val t.isLt).1 (scAt V c t.val t.isLt).2 := by dsimp only [dat]

/-! ## The inputs' buffers, the class invariant, the region invariant -/

/-- Each input's current staging buffer holds its block at every point, fetched there or not: unfetched, the block index
    has not moved since the point before, and the body leaves the block in place. -/
theorem before_0 (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-- The class invariant with the two scratch columns as memrefs owned at some contents: the same ten whole buffers and the
    generator register, regrouped (each entailment by cancelling the conjuncts one against another, in whatever order the
    enumeration lists them). -/
theorem PhiA_eq (c : Dev nD) :
    (Pipeline.ΦA spec0 c : sProp 𝕄)
      = iprop(((∃ d, owns (c : Thread nD τ) scM_0 fullShare d) ∗ (∃ d, owns (c : Thread nD τ) scM_1 fullShare d) ∗ otherRest c)
          ∗ (∃ r, prngReg c r)) := by
  have h₁ : (Pipeline.ΦA spec0 c : sProp 𝕄)
      ⊢ iprop(((∃ d, owns (c : Thread nD τ) scM_0 fullShare d) ∗ (∃ d, owns (c : Thread nD τ) scM_1 fullShare d) ∗ otherRest c)
          ∗ (∃ r, prngReg c r)) := by
    unfold Pipeline.ΦA otherRest; rw [scopedRest0_eq]; simp only [scM_0, scM_1, owns_whole]
    iintro ⟨⟨H1, H2, H3, H4, H5, H6, H7, H8, H9, H10⟩, Hg⟩
    iframe
  have h₂ : iprop(((∃ d, owns (c : Thread nD τ) scM_0 fullShare d) ∗ (∃ d, owns (c : Thread nD τ) scM_1 fullShare d) ∗ otherRest c)
          ∗ (∃ r, prngReg c r))
      ⊢ (Pipeline.ΦA spec0 c : sProp 𝕄) := by
    unfold Pipeline.ΦA otherRest; rw [scopedRest0_eq]; simp only [scM_0, scM_1, owns_whole]
    iintro ⟨⟨H1, H2, H3, H4, H5, H6, H7, H8, H9, H10⟩, Hg⟩
    iframe
  exact BI.equiv_iff.mp ⟨h₁, h₂⟩

theorem PhiS_zero (c : Dev nD) (n : ℕ) (h : n ≤ cfg0.N) (hz : n = 0) : PhiS V c n h = Pipeline.ΦA spec0 c := by
  subst hz; rfl

/-- After point n (before point n + 1): the columns at that point's contents. -/
theorem PhiS_succ (c : Dev nD) (n : ℕ) (hn : n < cfg0.N) :
    PhiS V c (n + 1) hn = iprop(owns (c : Thread nD τ) scM_0 fullShare (scAt V c n hn).1 ∗ owns (c : Thread nD τ) scM_1 fullShare (scAt V c n hn).2
      ∗ otherRest c ∗ (∃ r, prngReg c r)) := rfl

/-- Before a point that is not the first: the columns at what the point before left. -/
theorem PhiS_pos (c : Dev nD) (n : ℕ) (h : n ≤ cfg0.N) (hz : n ≠ 0) :
    PhiS V c n h = iprop(owns (c : Thread nD τ) scM_0 fullShare (scAt V c (n - 1) (by omega)).1
      ∗ owns (c : Thread nD τ) scM_1 fullShare (scAt V c (n - 1) (by omega)).2 ∗ otherRest c ∗ (∃ r, prngReg c r)) := by
  cases n with
  | zero => exact absurd rfl hz
  | succ n => rfl

/-- The invariant at a point's start, restated at the point's position. -/
theorem PhiS_castSucc (c : Dev nD) (t : Fin cfg0.N) :
    (dat V c).Φ t.castSucc = PhiS V c t.val (Nat.le_of_lt t.isLt) := by
  dsimp only [dat]; simp only [Fin.coe_castSucc]

/-! ## The body obligation, at a generic point -/

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

/-- The columns after a point whose inner coordinate is 0, and after any other point, over the point itself. -/
theorem scAt_A (c : Dev nD) (t : Fin cfg0.N) (h0 : t.val % 50 = 0) :
    scAt V c t.val t.isLt = (mNew (xblk V c t) (wblk V c t) mReset, lNew (xblk V c t) (wblk V c t) mReset lReset) :=
  scAt_reset V c t.val t.isLt h0

theorem scAt_B (c : Dev nD) (t : Fin cfg0.N) (h0 : ¬t.val % 50 = 0) :
    scAt V c t.val t.isLt
      = (mNew (xblk V c t) (wblk V c t) (scAt V c (t.val - 1) (Nat.lt_of_le_of_lt (Nat.sub_le _ _) t.isLt)).1,
         lNew (xblk V c t) (wblk V c t) (scAt V c (t.val - 1) (Nat.lt_of_le_of_lt (Nat.sub_le _ _) t.isLt)).1 (scAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact scAt_step V c n hn h0

set_option maxHeartbeats 4800000 in
/-- The body at any point: the inputs' buffers hold their blocks; the closed forms of the two conditions say which of the
    three cases the point is in, and that case's run applies at the point's buffers; the invariant hands the body the two
    columns at what the point before left (at anything before the first point) and takes them back at this point's contents;
    the output block is handed back as found except at the last tile of a block of tokens, where it is left at
    maximum + log(sum); the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  have hN : t.val < 100 := lt_of_lt_of_eq t.isLt (show cfg0.N = 100 from N_0)
  by_cases h0 : t.val % 50 = 0
  · have hA : condA (grid0.coords t) := (hcondA t).mpr h0
    have hC : ¬condC (grid0.coords t) := fun h => by have := (hcondC t).mp h; omega
    rw [Dat.leavesExact_idle (dat V c) 2 t (idleAt_2 t hC) (noFlush_2 t hC)]
    rw [scAt_A V c t h0]; dsimp only
    by_cases hz : t.val = 0
    · rw [PhiS_castSucc V c t, PhiS_zero V c _ _ hz, PhiA_eq]
      iintro ⟨⟨⟨⟨%s0, HS0⟩, ⟨%s1, HS1⟩, Hr⟩, Hg⟩, Ho, ⟨%d0, H0⟩, ⟨%d1, H1⟩, ⟨%d2, H2⟩⟩
      iapply (runA c (grid0.coords t) (ms_0 t) (hs_0 t) (ms_1 t) (hs_1 t) (ms_2 t) (hs_2 t) scM_0 (Memref.isWhole_whole _) scM_1 (Memref.isWhole_whole _) hA hC (xblk V c t) (wblk V c t) ((dat V c).before 2 t d2) s0 s1 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      iexists _; iexact H2
    · rw [PhiS_castSucc V c t, PhiS_pos V c _ _ hz]
      iintro ⟨⟨HS0, HS1, Hr, Hg⟩, Ho, ⟨%d0, H0⟩, ⟨%d1, H1⟩, ⟨%d2, H2⟩⟩
      iapply (runA c (grid0.coords t) (ms_0 t) (hs_0 t) (ms_1 t) (hs_1 t) (ms_2 t) (hs_2 t) scM_0 (Memref.isWhole_whole _) scM_1 (Memref.isWhole_whole _) hA hC (xblk V c t) (wblk V c t) ((dat V c).before 2 t d2) (scAt V c (t.val - 1) (Nat.lt_of_le_of_lt (Nat.sub_le _ _) t.isLt)).1 (scAt V c (t.val - 1) (Nat.lt_of_le_of_lt (Nat.sub_le _ _) t.isLt)).2 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      iexists _; iexact H2
  · have hA : ¬condA (grid0.coords t) := fun h => h0 ((hcondA t).mp h)
    have hz : t.val ≠ 0 := fun h => h0 (by rw [h])
    rw [scAt_B V c t h0]; dsimp only
    rw [PhiS_castSucc V c t, PhiS_pos V c _ _ hz]
    by_cases h1 : t.val % 50 = 49
    · have hC : condC (grid0.coords t) := (hcondC t).mpr h1
      rw [show (dat V c).leavesExact 2 t = owns (c : Thread nD τ) (ms_2 t) fullShare ((dat V c).after 2 t) from by
        unfold Dat.leavesExact; rw [liveAt_2 t hC], after_2, scAt_B V c t h0]; dsimp only
      iintro ⟨⟨HS0, HS1, Hr, Hg⟩, Ho, ⟨%d0, H0⟩, ⟨%d1, H1⟩, ⟨%d2, H2⟩⟩
      iapply (runC c (grid0.coords t) (ms_0 t) (hs_0 t) (ms_1 t) (hs_1 t) (ms_2 t) (hs_2 t) scM_0 (Memref.isWhole_whole _) scM_1 (Memref.isWhole_whole _) hA hC (xblk V c t) (wblk V c t) ((dat V c).before 2 t d2) (scAt V c (t.val - 1) (Nat.lt_of_le_of_lt (Nat.sub_le _ _) t.isLt)).1 (scAt V c (t.val - 1) (Nat.lt_of_le_of_lt (Nat.sub_le _ _) t.isLt)).2 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      iexact H2
    · have hC : ¬condC (grid0.coords t) := fun h => h1 ((hcondC t).mp h)
      rw [Dat.leavesExact_idle (dat V c) 2 t (idleAt_2 t hC) (noFlush_2 t hC)]
      iintro ⟨⟨HS0, HS1, Hr, Hg⟩, Ho, ⟨%d0, H0⟩, ⟨%d1, H1⟩, ⟨%d2, H2⟩⟩
      iapply (runB c (grid0.coords t) (ms_0 t) (hs_0 t) (ms_1 t) (hs_1 t) (ms_2 t) (hs_2 t) scM_0 (Memref.isWhole_whole _) scM_1 (Memref.isWhole_whole _) hA hC (xblk V c t) (wblk V c t) ((dat V c).before 2 t d2) (scAt V c (t.val - 1) (Nat.lt_of_le_of_lt (Nat.sub_le _ _) t.isLt)).1 (scAt V c (t.val - 1) (Nat.lt_of_le_of_lt (Nat.sub_le _ _) t.isLt)).2 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the class invariant back: the columns' named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨HS0, HS1, Hr, Hg⟩
  isplitr [Hg]
  · isplitl [HS0]
    · iexists _; iexact HS0
    isplitl [HS1]
    · iexists _; iexact HS1
    iexact Hr
  iexact Hg

/-- After the last point the invariant gives the class invariant back: the columns' named contents are forgotten. -/
theorem hout (c : Dev nD) : (dat V c).Φ (Fin.last cfg0.N) ⊢ Pipeline.ΦA spec0 c :=
  Phi_out V c _ (by rw [Fin.val_last]; have : cfg0.N = 100 := N_0; omega)

end Cert.KernelIdeal.R0

end
-- ==== Proof.KI.R1.Runs.lean ====
/-
  Region 1 (the second log-sum-exp call): what its three cases share.  The grid is 2 × 50: the outer axis picks a block of 256
  token positions, the inner axis walks the vocabulary in 50 tiles of 640 rows.  The body keeps two scratch columns
  between points, the running maximum and the running sum of exponentials: it resets them at the first tile, updates
  them at every tile, and at the last tile writes maximum + log(sum) into the output block.
-/
import proofs.«411388_j45131516346680_3_alg».proof.Proof.Gen.KernelIdeal.Launch
import proofs.«411388_j45131516346680_3_alg».proof.Proof.Gen.KernelIdeal.Skeleton
import proofs.«411388_j45131516346680_3_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The scratch columns as pure functions of what the body loads -/

/-- The running maximum after a tile: the old column against the tile's row maxima. -/
def mNew (x : Vec F S8x256x2048 .bf16) (w : Vec F S640x2048 .bf16) (mo : Vec F S8x256x1 .f32) : Vec F S8x256x1 .f32 :=
  k1_pay7 x w mo
/-- The running sum after a tile: the old sum rescaled to the new maximum, plus the tile's exponentials. -/
def lNew (x : Vec F S8x256x2048 .bf16) (w : Vec F S640x2048 .bf16) (mo lo : Vec F S8x256x1 .f32) : Vec F S8x256x1 .f32 :=
  k1_pay6 x w mo mo lo
/-- The columns a reset writes: minus infinity, and zero. -/
def mReset : Vec F S8x256x1 .f32 := k1_pay2 (F := F)
def lReset : Vec F S8x256x1 .f32 := k1_pay3 (F := F)
/-- What the last tile stores into the output block: maximum + log(sum), the unit axis dropped. -/
def outFin (mo lo : Vec F S8x256x1 .f32) : Vec F S8x256 .f32 := k1_pay1 mo lo

/-! ## The branch conditions over the grid -/

/-- The reset's condition: the inner coordinate is 0. -/
abbrev condA (i : grid1.Coords) : Prop :=
  (Scalar.cmpi .ne (Scalar.extui (Scalar.cmpi .eq (BitVec.ofNat 32 (i 1).val) 0#32)) 0#32) = 1#1
theorem hcondA : ∀ t : Fin cfg1.N, condA (grid1.coords t) ↔ t.val % 50 = 0 :=
  (by decide +kernel : ∀ t : Fin grid1.N, condA (grid1.coords t) ↔ t.val % 50 = 0)
/-- The final store's condition: the inner coordinate is 49. -/
abbrev condC (i : grid1.Coords) : Prop := k1_cond2 i = 1#1
theorem hcondC : ∀ t : Fin cfg1.N, condC (grid1.coords t) ↔ t.val % 50 = 49 :=
  (by decide +kernel : ∀ t : Fin grid1.N, condC (grid1.coords t) ↔ t.val % 50 = 49)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
theorem idleAt_2 : ∀ t : Fin cfg1.N, ¬condC (grid1.coords t) → cfg1.idle 2 (grid1.coords t) = true := by decide +kernel
theorem noFlush_2 : ∀ t : Fin cfg1.N, ¬condC (grid1.coords t) → (cfg1.win 2).flush t = false := by decide +kernel
theorem liveAt_2 : ∀ t : Fin cfg1.N, condC (grid1.coords t) → cfg1.idle 2 (grid1.coords t) = false := by decide +kernel

/-! ## The staging and scratch memrefs the body is called with -/

abbrev ms_0 (t : Fin cfg1.N) : Memref sig .tc .vmem S8x256x2048 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S640x2048 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S8x256 .f32 := win1_2.stage (cfg1.slots t 2)
abbrev hs_2 (t : Fin cfg1.N) : (ms_2 t).IsWhole := hstage1_2 ((cfg1.slots t 2).cast nbuf1_2)
abbrev scM_0 : Memref sig .tc .vmem S8x256x1 .f32 := Memref.whole cc1_scratch0
abbrev scM_1 : Memref sig .tc .vmem S8x256x1 .f32 := Memref.whole cc1_scratch1

end Cert.KernelIdeal.R1

end
-- ==== Proof.KI.R1.RunA.lean ====
/-
  Region 1's body run in one of its three cases, as a Hoare triple over whole staging and scratch buffers: which contents the
  body leaves in the output block and in the two scratch columns, as pure functions of what it was handed.
-/
import proofs.«411388_j45131516346680_3_alg».proof.Proof.KI.R1.Runs
import Idealize.ShloMosaic.Lib.Pipeline.Value

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The first tile of a block of tokens (inner coordinate 0): the scratch columns are reset, then updated by the tile; the output block is left as it was. -/
theorem runA (c : Dev nD) (i : grid1.Coords)
    (arg2 : Memref sig .tc .vmem S8x256x2048 .bf16) (harg2 : arg2.IsWhole) (arg3 : Memref sig .tc .vmem S640x2048 .bf16) (harg3 : arg3.IsWhole)
    (arg4 : Memref sig .tc .vmem S8x256 .f32) (harg4 : arg4.IsWhole) (arg5 : Memref sig .tc .vmem S8x256x1 .f32) (harg5 : arg5.IsWhole)
    (arg6 : Memref sig .tc .vmem S8x256x1 .f32) (harg6 : arg6.IsWhole) (hA : condA i) (hC : ¬condC i)
    (x0 : Vec F S8x256x2048 .bf16) (x1 : Vec F S640x2048 .bf16) (xo : Vec F S8x256 .f32) (s0 s1 : Vec F S8x256x1 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s0 ∗ owns (c : Thread nD τ) arg6 fullShare s1
        ∗ (iprop(owns (c : Thread nD τ) arg2 fullShare x0 ∗ owns (c : Thread nD τ) arg3 fullShare x1 ∗ owns (c : Thread nD τ) arg4 fullShare (xo)
            ∗ owns (c : Thread nD τ) arg5 fullShare (mNew x0 x1 mReset) ∗ owns (c : Thread nD τ) arg6 fullShare (lNew x0 x1 mReset lReset)) -∗ K ⟨⟩))
      ⊢ wp frame (wpE (defs₀ (F := F)) Variants.none c none) E (cc1__lse_kernel i arg2 harg2 arg3 harg3 arg4 harg4 arg5 harg5 arg6 harg6) K := by
  -- the whole-shape rectangles sit at offset zero along every axis
  have hz3 : (![0, 0, 0] : Fin 3 → Nat) = fun _ => 0 := funext fun a => by fin_cases a <;> rfl
  have hz2 : (![0, 0] : Fin 2 → Nat) = fun _ => 0 := funext fun a => by fin_cases a <;> rfl
  simp only [cc1__lse_kernel_eq_skeleton]; unfold cc1__lse_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1
  -- the reset branch is taken, the final-store branch is not
  sl_exec (disch := first | exact hA | exact hC)
  sl_step
  iapply Hk
  -- the two inputs and the output block are as they were handed in
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  isplitl [H3]
  -- the maximum column: its last store covers it, so it reads that store's payload, whose own loads read the two
  -- input blocks and the reset column stored just before
  · iexists _; isplitr
    swap; · iexact H3
    ipureintro
    refine (View.read_writes_eq_canon _ _ _ (fun y => ⟨_, List.mem_cons_self, View.mem_set_unit_zero (S := S8x256x1) hz3 inb_S8x256x1_S8x256x1_0_0_0 y⟩)).trans ?_
    refine (View.canon_cons_unit_zero (S := S8x256x1) hz3 inb_S8x256x1_S8x256x1_0_0_0 _ _).trans ?_
    sl_unfold_run_names
    unfold mNew mReset
    rw [View.readCov_unit_zero (S := S8x256x1) _ hz3]
    simp only [View.readAt_eq_ld, harg2.read_unread, harg3.read_unread, View.ld_unit_zero (S := S8x256x2048) hz3,
      View.ld_unit_zero (S := S640x2048) hz2]
  -- the sum column: the same, its payload reading both reset columns back
  · iexists _; isplitr
    swap; · iexact H4
    ipureintro
    refine (View.read_writes_eq_canon _ _ _ (fun y => ⟨_, List.mem_cons_self, View.mem_set_unit_zero (S := S8x256x1) hz3 inb_S8x256x1_S8x256x1_0_0_0 y⟩)).trans ?_
    refine (View.canon_cons_unit_zero (S := S8x256x1) hz3 inb_S8x256x1_S8x256x1_0_0_0 _ _).trans ?_
    sl_unfold_run_names
    unfold lNew mReset lReset
    rw [View.readCov_unit_zero (S := S8x256x1) _ hz3, View.readCov_unit_zero (S := S8x256x1) _ hz3]
    simp only [View.readAt_eq_ld, harg2.read_unread, harg3.read_unread, View.ld_unit_zero (S := S8x256x2048) hz3,
      View.ld_unit_zero (S := S640x2048) hz2]

end Cert.KernelIdeal.R1

end
-- ==== Proof.KI.R1.RunB.lean ====
/-
  Region 1's body run in one of its three cases, as a Hoare triple over whole staging and scratch buffers: which contents the
  body leaves in the output block and in the two scratch columns, as pure functions of what it was handed.
-/
import proofs.«411388_j45131516346680_3_alg».proof.Proof.KI.R1.RunA
import Idealize.ShloMosaic.Lib.Pipeline.Value

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- A middle tile (inner coordinate 1 to 48): the scratch columns are updated by the tile; the output block is left as it was. -/
theorem runB (c : Dev nD) (i : grid1.Coords)
    (arg2 : Memref sig .tc .vmem S8x256x2048 .bf16) (harg2 : arg2.IsWhole) (arg3 : Memref sig .tc .vmem S640x2048 .bf16) (harg3 : arg3.IsWhole)
    (arg4 : Memref sig .tc .vmem S8x256 .f32) (harg4 : arg4.IsWhole) (arg5 : Memref sig .tc .vmem S8x256x1 .f32) (harg5 : arg5.IsWhole)
    (arg6 : Memref sig .tc .vmem S8x256x1 .f32) (harg6 : arg6.IsWhole) (hA : ¬condA i) (hC : ¬condC i)
    (x0 : Vec F S8x256x2048 .bf16) (x1 : Vec F S640x2048 .bf16) (xo : Vec F S8x256 .f32) (s0 s1 : Vec F S8x256x1 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s0 ∗ owns (c : Thread nD τ) arg6 fullShare s1
        ∗ (iprop(owns (c : Thread nD τ) arg2 fullShare x0 ∗ owns (c : Thread nD τ) arg3 fullShare x1 ∗ owns (c : Thread nD τ) arg4 fullShare (xo)
            ∗ owns (c : Thread nD τ) arg5 fullShare (mNew x0 x1 s0) ∗ owns (c : Thread nD τ) arg6 fullShare (lNew x0 x1 s0 s1)) -∗ K ⟨⟩))
      ⊢ wp frame (wpE (defs₀ (F := F)) Variants.none c none) E (cc1__lse_kernel i arg2 harg2 arg3 harg3 arg4 harg4 arg5 harg5 arg6 harg6) K := by
  simp only [cc1__lse_kernel_eq_skeleton]; unfold cc1__lse_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2
  obtain rfl := harg5.eq_unread hf3; obtain rfl := harg6.eq_unread hf4
  -- neither branch condition holds at a middle tile
  sl_exec (disch := first | exact hA | exact hC)
  sl_step
  -- the zero offsets, however spelt
  have hz3 : (![0, 0, 0] : Fin 3 → ℕ) = fun _ => 0 := by funext a; fin_cases a <;> rfl
  have hz2 : (![0, 0] : Fin 2 → ℕ) = fun _ => 0 := by funext a; fin_cases a <;> rfl
  -- a load of a whole buffer through the whole rectangle reads its contents
  have e2 : View.readAt (Elt F) arg2.view
      (Rect.unit ![0, 0, 0] S8x256x2048.size inb_S8x256x2048_S8x256x2048_0_0_0).toLoadRect (harg2.unread x0) = x0 := by
    rw [View.readAt_eq_ld, harg2.read_unread]; exact View.ld_unit_zero hz3 _ x0
  have e3 : View.readAt (Elt F) arg3.view
      (Rect.unit ![0, 0] S640x2048.size inb_S640x2048_S640x2048_0_0).toLoadRect (harg3.unread x1) = x1 := by
    rw [View.readAt_eq_ld, harg3.read_unread]; exact View.ld_unit_zero hz2 _ x1
  have e5 : View.readAt (Elt F) arg5.view
      (Rect.unit ![0, 0, 0] S8x256x1.size inb_S8x256x1_S8x256x1_0_0_0).toLoadRect (harg5.unread s0) = s0 := by
    rw [View.readAt_eq_ld, harg5.read_unread]; exact View.ld_unit_zero hz3 _ s0
  have e6 : View.readAt (Elt F) arg6.view
      (Rect.unit ![0, 0, 0] S8x256x1.size inb_S8x256x1_S8x256x1_0_0_0).toLoadRect (harg6.unread s1) = s1 := by
    rw [View.readAt_eq_ld, harg6.read_unread]; exact View.ld_unit_zero hz3 _ s1
  -- one store of a column through the whole rectangle leaves its payload, whatever the column held before
  have hst : ∀ (m : Memref sig .tc .vmem S8x256x1 .f32) (f : m.view.ty.Contents (Elt F)) (w : Vec F S8x256x1 .f32),
      m.view.read (Elt F) (m.view.writes (Elt F) f
        [(⟨Rect.unit ![0, 0, 0] S8x256x1.size inb_S8x256x1_S8x256x1_0_0_0, w⟩ : View.Piece (Elt F) S8x256x1 .f32)]) = w := by
    intro m f w
    rw [View.read_writes_eq_canon _ _ _ (fun y => ⟨_, List.mem_singleton_self _,
      View.mem_set_unit_zero hz3 inb_S8x256x1_S8x256x1_0_0_0 y⟩)]
    exact View.canon_unit_zero hz3 _ w
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · -- the maximum column
    iexists _; isplitr
    swap; · iexact H3
    ipureintro
    refine (hst arg5 _ _).trans ?_
    show k1_pay7 _ _ _ = mNew x0 x1 s0
    rw [e2, e3, e5]; rfl
  · -- the sum column
    iexists _; isplitr
    swap; · iexact H4
    ipureintro
    refine (hst arg6 _ _).trans ?_
    rw [e2, e3, e5, e6]; rfl

end Cert.KernelIdeal.R1

end
-- ==== Proof.KI.R1.RunC.lean ====
/-
  Region 1's body run in one of its three cases, as a Hoare triple over whole staging and scratch buffers: which contents the
  body leaves in the output block and in the two scratch columns, as pure functions of what it was handed.
-/
import proofs.«411388_j45131516346680_3_alg».proof.Proof.KI.R1.RunB
import Idealize.ShloMosaic.Lib.Pipeline.Value

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The last tile (inner coordinate 49): the scratch columns are updated by the tile, and maximum + log(sum) is stored into the output block. -/
theorem runC (c : Dev nD) (i : grid1.Coords)
    (arg2 : Memref sig .tc .vmem S8x256x2048 .bf16) (harg2 : arg2.IsWhole) (arg3 : Memref sig .tc .vmem S640x2048 .bf16) (harg3 : arg3.IsWhole)
    (arg4 : Memref sig .tc .vmem S8x256 .f32) (harg4 : arg4.IsWhole) (arg5 : Memref sig .tc .vmem S8x256x1 .f32) (harg5 : arg5.IsWhole)
    (arg6 : Memref sig .tc .vmem S8x256x1 .f32) (harg6 : arg6.IsWhole) (hA : ¬condA i) (hC : condC i)
    (x0 : Vec F S8x256x2048 .bf16) (x1 : Vec F S640x2048 .bf16) (xo : Vec F S8x256 .f32) (s0 s1 : Vec F S8x256x1 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare s0 ∗ owns (c : Thread nD τ) arg6 fullShare s1
        ∗ (iprop(owns (c : Thread nD τ) arg2 fullShare x0 ∗ owns (c : Thread nD τ) arg3 fullShare x1 ∗ owns (c : Thread nD τ) arg4 fullShare (outFin (mNew x0 x1 s0) (lNew x0 x1 s0 s1))
            ∗ owns (c : Thread nD τ) arg5 fullShare (mNew x0 x1 s0) ∗ owns (c : Thread nD τ) arg6 fullShare (lNew x0 x1 s0 s1)) -∗ K ⟨⟩))
      ⊢ wp frame (wpE (defs₀ (F := F)) Variants.none c none) E (cc1__lse_kernel i arg2 harg2 arg3 harg3 arg4 harg4 arg5 harg5 arg6 harg6) K := by
  simp only [cc1__lse_kernel_eq_skeleton]; unfold cc1__lse_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, Hk⟩
  -- a whole memref's raw contents are determined by what it reads
  obtain rfl := harg2.eq_unread hf2; obtain rfl := harg3.eq_unread hf3; obtain rfl := harg4.eq_unread hf4
  obtain rfl := harg5.eq_unread hf5; obtain rfl := harg6.eq_unread hf6
  -- the reset is skipped (inner coordinate ≠ 0) and the final store is taken (inner coordinate = 49)
  sl_exec (disch := first | exact hA | exact hC)
  sl_step
  -- every load and store of the body goes through the whole-shape rectangle at offset zero
  have hz3 : (![0, 0, 0] : Fin S8x256x1.rank → Nat) = fun _ => 0 := funext fun a => by fin_cases a <;> rfl
  have hz2 : (![0, 0] : Fin S8x256.rank → Nat) = fun _ => 0 := funext fun a => by fin_cases a <;> rfl
  have hzx : (![0, 0, 0] : Fin S8x256x2048.rank → Nat) = fun _ => 0 := funext fun a => by fin_cases a <;> rfl
  have hzw : (![0, 0] : Fin S640x2048.rank → Nat) = fun _ => 0 := funext fun a => by fin_cases a <;> rfl
  iapply Hk
  -- the two input blocks are only read
  isplitl [H2]
  · iexists _; isplitr; · ipureintro; exact harg2.read_unread _
    iexact H2
  isplitl [H3]
  · iexists _; isplitr; · ipureintro; exact harg3.read_unread _
    iexact H3
  -- the output block: maximum + log(sum) of the two columns as just updated (each read back after its covering store)
  isplitl [H4]
  · iexists _; isplitr
    on_goal 2 => iexact H4
    ipureintro
    sl_unfold_words
    -- one whole-block store covers the buffer, so it reads as that store's payload, whatever it held before
    refine (View.read_writes_eq_canon _ _ _ ?_).trans ?_
    · intro y; refine ⟨_, List.mem_singleton_self _, ?_⟩
      exact View.mem_set_unit_zero hz2 inb_S8x256_S8x256_0_0 y
    refine (View.canon_unit_zero hz2 inb_S8x256_S8x256_0_0 _).trans ?_
    -- the two columns read back are the payloads stored just before; those were computed from the whole-block loads, which read x0, x1, s0, s1
    simp only [View.readAt_eq_ld, harg2.read_unread, harg3.read_unread, harg5.read_unread, harg6.read_unread,
      View.readCov_unit_zero (S := S8x256x1) _ hz3,
      View.ld_unit_zero (S := S8x256x2048) hzx, View.ld_unit_zero (S := S640x2048) hzw, View.ld_unit_zero (S := S8x256x1) hz3]
    rfl
  -- the running maximum: the old column against the tile's row maxima
  isplitl [H5]
  · iexists _; isplitr
    on_goal 2 => iexact H5
    ipureintro
    sl_unfold_words
    -- one whole-block store covers the buffer, so it reads as that store's payload, whatever it held before
    refine (View.read_writes_eq_canon _ _ _ ?_).trans ?_
    · intro y; refine ⟨_, List.mem_singleton_self _, ?_⟩
      exact View.mem_set_unit_zero hz3 inb_S8x256x1_S8x256x1_0_0_0 y
    refine (View.canon_unit_zero hz3 inb_S8x256x1_S8x256x1_0_0_0 _).trans ?_
    -- the payload was computed from the whole-block loads, which read x0, x1, s0
    simp only [View.readAt_eq_ld, harg2.read_unread, harg3.read_unread, harg5.read_unread, harg6.read_unread,
      View.readCov_unit_zero (S := S8x256x1) _ hz3,
      View.ld_unit_zero (S := S8x256x2048) hzx, View.ld_unit_zero (S := S640x2048) hzw, View.ld_unit_zero (S := S8x256x1) hz3]
    rfl
  -- the running sum: rescaled to the new maximum, plus the tile's exponentials
  · iexists _; isplitr
    on_goal 2 => iexact H6
    ipureintro
    sl_unfold_words
    -- one whole-block store covers the buffer, so it reads as that store's payload, whatever it held before
    refine (View.read_writes_eq_canon _ _ _ ?_).trans ?_
    · intro y; refine ⟨_, List.mem_singleton_self _, ?_⟩
      exact View.mem_set_unit_zero hz3 inb_S8x256x1_S8x256x1_0_0_0 y
    refine (View.canon_unit_zero hz3 inb_S8x256x1_S8x256x1_0_0_0 _).trans ?_
    -- the payload was computed from the whole-block loads, which read x0, x1, s0 (twice) and s1
    simp only [View.readAt_eq_ld, harg2.read_unread, harg3.read_unread, harg5.read_unread, harg6.read_unread,
      View.readCov_unit_zero (S := S8x256x1) _ hz3,
      View.ld_unit_zero (S := S8x256x2048) hzx, View.ld_unit_zero (S := S640x2048) hzw, View.ld_unit_zero (S := S8x256x1) hz3]
    rfl

end Cert.KernelIdeal.R1

end
-- ==== Proof.KI.R1.Body.lean ====
/-
  Region 1's proof data and its body obligation.  After point n the two scratch columns hold the running maximum and the
  running sum of the tiles walked so far in the current block of tokens: a recursion on the point, restarted at every point
  whose inner coordinate is 0.  The output block is stored at the last tile of each block of tokens only.
-/
import proofs.«411388_j45131516346680_3_alg».proof.Proof.KI.R1.RunC

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of hidden states (256 token positions of all 8 sequences) and the tile of 640 vocabulary rows at point t, at their literal types. -/
abbrev xblk (c : Dev nD) (t : Fin cfg1.N) : Vec F S8x256x2048 .bf16 := iblk V c 0 t
abbrev wblk (c : Dev nD) (t : Fin cfg1.N) : Vec F S640x2048 .bf16 := iblk V c 1 t

/-- The scratch columns (running maximum, running sum) after point n. -/
def scAt (c : Dev nD) : (n : ℕ) → n < cfg1.N → Vec F S8x256x1 .f32 × Vec F S8x256x1 .f32
  | 0, h => (mNew (xblk V c ⟨0, h⟩) (wblk V c ⟨0, h⟩) mReset, lNew (xblk V c ⟨0, h⟩) (wblk V c ⟨0, h⟩) mReset lReset)
  | n + 1, h =>
    if (n + 1) % 50 = 0 then
      (mNew (xblk V c ⟨n + 1, h⟩) (wblk V c ⟨n + 1, h⟩) mReset, lNew (xblk V c ⟨n + 1, h⟩) (wblk V c ⟨n + 1, h⟩) mReset lReset)
    else
      (mNew (xblk V c ⟨n + 1, h⟩) (wblk V c ⟨n + 1, h⟩) (scAt c n (Nat.lt_of_succ_lt h)).1,
       lNew (xblk V c ⟨n + 1, h⟩) (wblk V c ⟨n + 1, h⟩) (scAt c n (Nat.lt_of_succ_lt h)).1 (scAt c n (Nat.lt_of_succ_lt h)).2)

/-- At a point whose inner coordinate is 0 the columns restart from the reset values. -/
theorem scAt_reset (c : Dev nD) (n : ℕ) (h : n < cfg1.N) (hn : n % 50 = 0) :
    scAt V c n h = (mNew (xblk V c ⟨n, h⟩) (wblk V c ⟨n, h⟩) mReset, lNew (xblk V c ⟨n, h⟩) (wblk V c ⟨n, h⟩) mReset lReset) := by
  cases n with
  | zero => rfl
  | succ n => exact if_pos hn

/-- At any other point they are updated from what the point before left. -/
theorem scAt_step (c : Dev nD) (n : ℕ) (h : n + 1 < cfg1.N) (hn : (n + 1) % 50 ≠ 0) :
    scAt V c (n + 1) h = (mNew (xblk V c ⟨n + 1, h⟩) (wblk V c ⟨n + 1, h⟩) (scAt V c n (Nat.lt_of_succ_lt h)).1,
       lNew (xblk V c ⟨n + 1, h⟩) (wblk V c ⟨n + 1, h⟩) (scAt V c n (Nat.lt_of_succ_lt h)).1 (scAt V c n (Nat.lt_of_succ_lt h)).2) :=
  if_neg hn

/-- The core's scoped buffers that are neither this region's staging buffers nor its two scratch columns, each whole at some contents. -/
def otherRest (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- The region invariant before position n: before the first point every scratch buffer at anything; afterwards the two
    scratch columns at what the point before left, the other scoped buffers at anything, the generator register at some state. -/
def PhiS (c : Dev nD) : (n : ℕ) → n ≤ cfg1.N → sProp 𝕄
  | 0, _ => Pipeline.ΦA spec1 c
  | n + 1, hn => iprop(owns (c : Thread nD τ) scM_0 fullShare (scAt V c n hn).1 ∗ owns (c : Thread nD τ) scM_1 fullShare (scAt V c n hn).2
      ∗ otherRest c ∗ (∃ r, prngReg c r))

/-- The proof data of region 1 on core c: the arrays as the region finds them; after the body at point t each input's
    buffer at its block and the output's at maximum + log(sum) of the columns after t; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => outFin (scAt V c t.val t.isLt).1 (scAt V c t.val t.isLt).2
  Φ t := PhiS V c t.val (Nat.le_of_lt_succ t.isLt)
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) :
    (dat V c).after 2 t = outFin (scAt V c t.val t.isLt).1 (scAt V c t.val t.isLt).2 := by dsimp only [dat]

/-! ## The inputs' buffers, the class invariant, the region invariant -/

/-- Each input's current staging buffer holds its block at every point, fetched there or not: unfetched, the block index
    has not moved since the point before, and the body leaves the block in place. -/
theorem before_0 (c : Dev nD) (t : Fin cfg1.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-- The class invariant with the two scratch columns as memrefs owned at some contents: the same ten whole buffers and the
    generator register, regrouped (each entailment by cancelling the conjuncts one against another, in whatever order the
    enumeration lists them). -/
theorem PhiA_eq (c : Dev nD) :
    (Pipeline.ΦA spec1 c : sProp 𝕄)
      = iprop(((∃ d, owns (c : Thread nD τ) scM_0 fullShare d) ∗ (∃ d, owns (c : Thread nD τ) scM_1 fullShare d) ∗ otherRest c)
          ∗ (∃ r, prngReg c r)) := by
  have h₁ : (Pipeline.ΦA spec1 c : sProp 𝕄)
      ⊢ iprop(((∃ d, owns (c : Thread nD τ) scM_0 fullShare d) ∗ (∃ d, owns (c : Thread nD τ) scM_1 fullShare d) ∗ otherRest c)
          ∗ (∃ r, prngReg c r)) := by
    unfold Pipeline.ΦA otherRest; rw [scopedRest1_eq]; simp only [scM_0, scM_1, owns_whole]
    iintro ⟨⟨H1, H2, H3, H4, H5, H6, H7, H8, H9, H10⟩, Hg⟩
    iframe
  have h₂ : iprop(((∃ d, owns (c : Thread nD τ) scM_0 fullShare d) ∗ (∃ d, owns (c : Thread nD τ) scM_1 fullShare d) ∗ otherRest c)
          ∗ (∃ r, prngReg c r))
      ⊢ (Pipeline.ΦA spec1 c : sProp 𝕄) := by
    unfold Pipeline.ΦA otherRest; rw [scopedRest1_eq]; simp only [scM_0, scM_1, owns_whole]
    iintro ⟨⟨H1, H2, H3, H4, H5, H6, H7, H8, H9, H10⟩, Hg⟩
    iframe
  exact BI.equiv_iff.mp ⟨h₁, h₂⟩

theorem PhiS_zero (c : Dev nD) (n : ℕ) (h : n ≤ cfg1.N) (hz : n = 0) : PhiS V c n h = Pipeline.ΦA spec1 c := by
  subst hz; rfl

/-- After point n (before point n + 1): the columns at that point's contents. -/
theorem PhiS_succ (c : Dev nD) (n : ℕ) (hn : n < cfg1.N) :
    PhiS V c (n + 1) hn = iprop(owns (c : Thread nD τ) scM_0 fullShare (scAt V c n hn).1 ∗ owns (c : Thread nD τ) scM_1 fullShare (scAt V c n hn).2
      ∗ otherRest c ∗ (∃ r, prngReg c r)) := rfl

/-- Before a point that is not the first: the columns at what the point before left. -/
theorem PhiS_pos (c : Dev nD) (n : ℕ) (h : n ≤ cfg1.N) (hz : n ≠ 0) :
    PhiS V c n h = iprop(owns (c : Thread nD τ) scM_0 fullShare (scAt V c (n - 1) (by omega)).1
      ∗ owns (c : Thread nD τ) scM_1 fullShare (scAt V c (n - 1) (by omega)).2 ∗ otherRest c ∗ (∃ r, prngReg c r)) := by
  cases n with
  | zero => exact absurd rfl hz
  | succ n => rfl

/-- The invariant at a point's start, restated at the point's position. -/
theorem PhiS_castSucc (c : Dev nD) (t : Fin cfg1.N) :
    (dat V c).Φ t.castSucc = PhiS V c t.val (Nat.le_of_lt t.isLt) := by
  dsimp only [dat]; simp only [Fin.coe_castSucc]

/-! ## The body obligation, at a generic point -/

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

/-- The columns after a point whose inner coordinate is 0, and after any other point, over the point itself. -/
theorem scAt_A (c : Dev nD) (t : Fin cfg1.N) (h0 : t.val % 50 = 0) :
    scAt V c t.val t.isLt = (mNew (xblk V c t) (wblk V c t) mReset, lNew (xblk V c t) (wblk V c t) mReset lReset) :=
  scAt_reset V c t.val t.isLt h0

theorem scAt_B (c : Dev nD) (t : Fin cfg1.N) (h0 : ¬t.val % 50 = 0) :
    scAt V c t.val t.isLt
      = (mNew (xblk V c t) (wblk V c t) (scAt V c (t.val - 1) (Nat.lt_of_le_of_lt (Nat.sub_le _ _) t.isLt)).1,
         lNew (xblk V c t) (wblk V c t) (scAt V c (t.val - 1) (Nat.lt_of_le_of_lt (Nat.sub_le _ _) t.isLt)).1 (scAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact scAt_step V c n hn h0

set_option maxHeartbeats 4800000 in
/-- The body at any point: the inputs' buffers hold their blocks; the closed forms of the two conditions say which of the
    three cases the point is in, and that case's run applies at the point's buffers; the invariant hands the body the two
    columns at what the point before left (at anything before the first point) and takes them back at this point's contents;
    the output block is handed back as found except at the last tile of a block of tokens, where it is left at
    maximum + log(sum); the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  have hN : t.val < 100 := lt_of_lt_of_eq t.isLt (show cfg1.N = 100 from N_1)
  by_cases h0 : t.val % 50 = 0
  · have hA : condA (grid1.coords t) := (hcondA t).mpr h0
    have hC : ¬condC (grid1.coords t) := fun h => by have := (hcondC t).mp h; omega
    rw [Dat.leavesExact_idle (dat V c) 2 t (idleAt_2 t hC) (noFlush_2 t hC)]
    rw [scAt_A V c t h0]; dsimp only
    by_cases hz : t.val = 0
    · rw [PhiS_castSucc V c t, PhiS_zero V c _ _ hz, PhiA_eq]
      iintro ⟨⟨⟨⟨%s0, HS0⟩, ⟨%s1, HS1⟩, Hr⟩, Hg⟩, Ho, ⟨%d0, H0⟩, ⟨%d1, H1⟩, ⟨%d2, H2⟩⟩
      iapply (runA c (grid1.coords t) (ms_0 t) (hs_0 t) (ms_1 t) (hs_1 t) (ms_2 t) (hs_2 t) scM_0 (Memref.isWhole_whole _) scM_1 (Memref.isWhole_whole _) hA hC (xblk V c t) (wblk V c t) ((dat V c).before 2 t d2) s0 s1 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      iexists _; iexact H2
    · rw [PhiS_castSucc V c t, PhiS_pos V c _ _ hz]
      iintro ⟨⟨HS0, HS1, Hr, Hg⟩, Ho, ⟨%d0, H0⟩, ⟨%d1, H1⟩, ⟨%d2, H2⟩⟩
      iapply (runA c (grid1.coords t) (ms_0 t) (hs_0 t) (ms_1 t) (hs_1 t) (ms_2 t) (hs_2 t) scM_0 (Memref.isWhole_whole _) scM_1 (Memref.isWhole_whole _) hA hC (xblk V c t) (wblk V c t) ((dat V c).before 2 t d2) (scAt V c (t.val - 1) (Nat.lt_of_le_of_lt (Nat.sub_le _ _) t.isLt)).1 (scAt V c (t.val - 1) (Nat.lt_of_le_of_lt (Nat.sub_le _ _) t.isLt)).2 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      iexists _; iexact H2
  · have hA : ¬condA (grid1.coords t) := fun h => h0 ((hcondA t).mp h)
    have hz : t.val ≠ 0 := fun h => h0 (by rw [h])
    rw [scAt_B V c t h0]; dsimp only
    rw [PhiS_castSucc V c t, PhiS_pos V c _ _ hz]
    by_cases h1 : t.val % 50 = 49
    · have hC : condC (grid1.coords t) := (hcondC t).mpr h1
      rw [show (dat V c).leavesExact 2 t = owns (c : Thread nD τ) (ms_2 t) fullShare ((dat V c).after 2 t) from by
        unfold Dat.leavesExact; rw [liveAt_2 t hC], after_2, scAt_B V c t h0]; dsimp only
      iintro ⟨⟨HS0, HS1, Hr, Hg⟩, Ho, ⟨%d0, H0⟩, ⟨%d1, H1⟩, ⟨%d2, H2⟩⟩
      iapply (runC c (grid1.coords t) (ms_0 t) (hs_0 t) (ms_1 t) (hs_1 t) (ms_2 t) (hs_2 t) scM_0 (Memref.isWhole_whole _) scM_1 (Memref.isWhole_whole _) hA hC (xblk V c t) (wblk V c t) ((dat V c).before 2 t d2) (scAt V c (t.val - 1) (Nat.lt_of_le_of_lt (Nat.sub_le _ _) t.isLt)).1 (scAt V c (t.val - 1) (Nat.lt_of_le_of_lt (Nat.sub_le _ _) t.isLt)).2 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      iexact H2
    · have hC : ¬condC (grid1.coords t) := fun h => h1 ((hcondC t).mp h)
      rw [Dat.leavesExact_idle (dat V c) 2 t (idleAt_2 t hC) (noFlush_2 t hC)]
      iintro ⟨⟨HS0, HS1, Hr, Hg⟩, Ho, ⟨%d0, H0⟩, ⟨%d1, H1⟩, ⟨%d2, H2⟩⟩
      iapply (runB c (grid1.coords t) (ms_0 t) (hs_0 t) (ms_1 t) (hs_1 t) (ms_2 t) (hs_2 t) scM_0 (Memref.isWhole_whole _) scM_1 (Memref.isWhole_whole _) hA hC (xblk V c t) (wblk V c t) ((dat V c).before 2 t d2) (scAt V c (t.val - 1) (Nat.lt_of_le_of_lt (Nat.sub_le _ _) t.isLt)).1 (scAt V c (t.val - 1) (Nat.lt_of_le_of_lt (Nat.sub_le _ _) t.isLt)).2 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the class invariant back: the columns' named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨HS0, HS1, Hr, Hg⟩
  isplitr [Hg]
  · isplitl [HS0]
    · iexists _; iexact HS0
    isplitl [HS1]
    · iexists _; iexact HS1
    iexact Hr
  iexact Hg

/-- After the last point the invariant gives the class invariant back: the columns' named contents are forgotten. -/
theorem hout (c : Dev nD) : (dat V c).Φ (Fin.last cfg1.N) ⊢ Pipeline.ΦA spec1 c :=
  Phi_out V c _ (by rw [Fin.val_last]; have : cfg1.N = 100 := N_1; omega)

end Cert.KernelIdeal.R1

end
-- ==== Proof.KI.Regions.lean ====
/-
  The kernel's whole program as a run: thirteen items, host stretches and the two log-sum-exp regions, each entered from
  the buffer contents the item before it left.  A region changes its output array only (to what its write-backs leave);
  a host stretch writes its own result buffers only.  So the argument arrays end as launched, and every buffer's final
  contents are a fold through the items from the launch contents.
-/
import proofs.«411388_j45131516346680_3_alg».proof.Proof.KI.R0.Body
import proofs.«411388_j45131516346680_3_alg».proof.Proof.KI.R1.Body
import proofs.«411388_j45131516346680_3_alg».proof.Proof.Gen.KernelIdeal.Regions
import Idealize.ShloMosaic.Lib.Pipeline.Regions
import Idealize.ShloMosaic.Lib.Pipeline.FrameSuffix
import Idealize.ShloMosaic.Lib.Pipeline.RegionsLoop

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each item's boundary -/

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
/-- Region 0's entry contents read at the TensorCore's references. -/
abbrev V5 : (c : Dev nD) → (b : Ref sig .tc) → Buf (Elt F) ((c : Thread nD τ).loc b) := fun c b => W5 m c b
/-- At region 0's exit: its arrays at what the pipeline leaves, every other buffer as entered. -/
def W6 (c : Dev nD) : Valuation τ sig (Elt F) :=
  Pipeline.withArrays spec0 c (W5 m c) fun w => (Cert.KernelIdeal.R0.dat (V5 m) c).arrAt w cfg0.N
abbrev W7 : Dev nD → Valuation τ sig (Elt F) := fun c => StableHlo.after hostOps1 (W6 m c)
abbrev W8 : Dev nD → Valuation τ sig (Elt F) := fun c => StableHlo.after hostOps1_1 (W7 m c)
abbrev W9 : Dev nD → Valuation τ sig (Elt F) := fun c => StableHlo.after hostOps1_2 (W8 m c)
abbrev W10 : Dev nD → Valuation τ sig (Elt F) := fun c => StableHlo.after hostOps1_3 (W9 m c)
abbrev W11 : Dev nD → Valuation τ sig (Elt F) := fun c => StableHlo.after hostOps1_4 (W10 m c)
/-- Region 1's entry contents read at the TensorCore's references. -/
abbrev V11 : (c : Dev nD) → (b : Ref sig .tc) → Buf (Elt F) ((c : Thread nD τ).loc b) := fun c b => W11 m c b
/-- At region 1's exit. -/
def W12 (c : Dev nD) : Valuation τ sig (Elt F) :=
  Pipeline.withArrays spec1 c (W11 m c) fun w => (Cert.KernelIdeal.R1.dat (V11 m) c).arrAt w cfg1.N
abbrev W13 : Dev nD → Valuation τ sig (Elt F) := fun c => StableHlo.after hostOps2 (W12 m c)

theorem W6_arr (c : Dev nD) (w : Fin cfg0.W) :
    W6 m c (Proc.devRef .tc (Pipeline.arrRef spec0 w)) = (Cert.KernelIdeal.R0.dat (V5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
theorem W12_arr (c : Dev nD) (w : Fin cfg1.W) :
    W12 m c (Proc.devRef .tc (Pipeline.arrRef spec1 w)) = (Cert.KernelIdeal.R1.dat (V11 m) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m c (Proc.devRef .tc b) = W11 m c (Proc.devRef .tc b) := by
  unfold W12; exact Pipeline.withArrays_of_ne spec1 c _ _ b hb

/-! ## The proof data family and the thread state -/

/-- Both pipelines' proof data, each at its region's entry contents, as a literal case split on the pipeline's index. -/
def pdats : (p : Fin 2) → (c : Dev nD) → Dat τ (Elt F) Unit ℕ (UR sig nD τ) ℕ (Pipeline.pin (pcfgs (F := F)) adm p) c
  | ⟨0, _⟩ => fun c => R0.dat (V5 m) c
  | ⟨1, _⟩ => fun c => R1.dat (V11 m) c

/-- No variant, no level, nothing owed between cores. -/
abbrev 𝒱₀ : Variants := Variants.none
abbrev Lz : GSem nD τ sig → Finset Unit := fun _ => ∅
abbrev lvz : GSem nD τ sig → Unit → ℕ := fun _ _ => 0

/-- What rides beside the buffers through every item: the generator register at some state, and the core owing nothing. -/
abbrev Rd (c : Dev nD) : sProp 𝕄 :=
  iprop((∃ r, prngReg c r) ∗ ∃ W, owes (c : Thread nD τ) (0 : CellTallies nD τ sig Unit) W)

/-- A host stretch as an item: from the unscoped buffers at W it runs to them at the stretch's fold of W, the rider kept. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

/-- At a region's exit each of its arrays holds what the pipeline leaves and every other buffer what it held at entry. -/
theorem hF0 (c : Dev nD) (w : Fin cfg0.W) :
    (R0.dat (V5 m) c).arrAt w cfg0.N = W6 m c (Proc.devRef .tc (Pipeline.arrRef spec0 w)) := (W6_arr m c w).symm
theorem hrest0 (c : Dev nD) : ∀ b : Ref sig .tc, b ∉ Finset.univ.image (Pipeline.arrRef spec0) →
    W6 m c (Proc.devRef .tc b) = V5 m c b :=
  fun b hb => W6_of_ne m c b fun w e => hb (Finset.mem_image.mpr ⟨w, Finset.mem_univ _, e⟩)
theorem hF1 (c : Dev nD) (w : Fin cfg1.W) :
    (R1.dat (V11 m) c).arrAt w cfg1.N = W12 m c (Proc.devRef .tc (Pipeline.arrRef spec1 w)) := (W12_arr m c w).symm
theorem hrest1 (c : Dev nD) : ∀ b : Ref sig .tc, b ∉ Finset.univ.image (Pipeline.arrRef spec1) →
    W12 m c (Proc.devRef .tc b) = V11 m c b :=
  fun b hb => W12_of_ne m c b fun w e => hb (Finset.mem_image.mpr ⟨w, Finset.mem_univ _, e⟩)

/-! ## The regions as items -/

-- a library lemma stated over the pinned configuration unifies with the printed one only when unification may unfold
-- plain definitions in a metavariable's type
set_option backward.isDefEq.respectTransparency.types false in
/-- REGION 0 over the thread state: entered with every unscoped buffer at W5, left with them at W6.  Its arrays are
    split out of the unscoped buffers at entry and put back at the exit contents; the generator register goes into the
    invariant and comes out of it; nothing is owed; the kernel has no semaphore of its own.  The invariant is the tracking
    one of the region's proof data: before the first point it is the class invariant (re-formed here from the register and
    the scoped buffers), after the last point it gives the class invariant back, which is split again. -/
def reg0 : Pipeline.RegionSeg (pcfgs (F := F)) adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (R0.body_obligation (V5 m) c).loose
  hwaits := Pipeline.hwaits_of_owed_zero _ _ _ _ Lz lvz 0 fun _ _ => rfl
  pre c := iprop(StableHlo.held (c : Thread nD τ) (Pipeline.ucRefs τ sig) (W5 m c) ∗ Rd c)
  post c := iprop(StableHlo.held (c : Thread nD τ) (Pipeline.ucRefs τ sig) (W6 m c) ∗ Rd c)
  X c := iprop(∃ r, prngReg c r)
  Y c := iprop(∃ r, prngReg c r)
  Z c := Pipeline.unscopedRest (Ix := Unit) (Name := ℕ) (U := UR sig nD τ) (Lvl := ℕ) spec0 c (V5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R0.hin (V5 m) c)
    unfold Pipeline.ΦA
    iintro ⟨Hp, -, Hr⟩
    isplitl [Hr]; · iexact Hr
    iexact Hp
  hout c := by
    rw [Pipeline.ownSems0_none]
    refine (R0.hout (V5 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V5 m c) (fun b => W6 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 over the thread state: entered with every unscoped buffer at W11, left with them at W12.  Its arrays are
    split out of the unscoped buffers at entry and put back at the exit contents; the generator register goes into the
    invariant and comes out of it; nothing is owed; the kernel has no semaphore of its own.  The invariant is the tracking
    one of the region's proof data: before the first point it is the class invariant (re-formed here from the register and
    the scoped buffers), after the last point it gives the class invariant back, which is split again. -/
def reg1 : Pipeline.RegionSeg (pcfgs (F := F)) adm (pdats m) () defs₀ 𝒱₀ Lz lvz 1 where
  win := launch1.win.to₀
  block_pos := launch1.block_pos
  stage_whole := launch1.stage_whole
  K := PEmpty
  osem k := k.elim
  ho := Pipeline.OwnSemFacts.none _
  hbody c := (R1.body_obligation (V11 m) c).loose
  hwaits := Pipeline.hwaits_of_owed_zero _ _ _ _ Lz lvz 1 fun _ _ => rfl
  pre c := iprop(StableHlo.held (c : Thread nD τ) (Pipeline.ucRefs τ sig) (W11 m c) ∗ Rd c)
  post c := iprop(StableHlo.held (c : Thread nD τ) (Pipeline.ucRefs τ sig) (W12 m c) ∗ Rd c)
  X c := iprop(∃ r, prngReg c r)
  Y c := iprop(∃ r, prngReg c r)
  Z c := Pipeline.unscopedRest (Ix := Unit) (Name := ℕ) (U := UR sig nD τ) (Lvl := ℕ) spec1 c (V11 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R1.hin (V11 m) c)
    unfold Pipeline.ΦA
    iintro ⟨Hp, -, Hr⟩
    isplitl [Hr]; · iexact Hr
    iexact Hp
  hout c := by
    rw [Pipeline.ownSems0_none]
    refine (R1.hout (V11 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V11 m c) (fun b => W12 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as thirteen items, and the launch -/

/-- The items in the program's order: five stretches, region 0, five stretches, region 1, the last stretch. -/
abbrev items : List (Pipeline.Seg (pcfgs (F := F)) adm (pdats m) () defs₀ 𝒱₀ Lz lvz) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg0 m),
    .host (hseg hostOps1 hostOps1_sub hostOps1_fresh (W6 m)),
    .host (hseg hostOps1_1 hostOps1_1_sub hostOps1_1_fresh (W7 m)),
    .host (hseg hostOps1_2 hostOps1_2_sub hostOps1_2_fresh (W8 m)),
    .host (hseg hostOps1_3 hostOps1_3_sub hostOps1_3_fresh (W9 m)),
    .host (hseg hostOps1_4 hostOps1_4_sub hostOps1_4_fresh (W10 m)),
    .region (reg1 m),
    .host (hseg hostOps2 hostOps2_sub hostOps2_fresh (W12 m)) ]

/-- The last thread state without what is owed: every unscoped buffer at the last contents, the register at some state. -/
abbrev Tlast (c : Dev nD) : sProp 𝕄 :=
  iprop(StableHlo.held (c : Thread nD τ) (Pipeline.ucRefs τ sig) (W13 m c) ∗ ∃ r, prngReg c r)

/-- The last item's exit state regrouped: the buffers and the register on one side, what is owed (nothing) on the other. -/
theorem hlast (c : Dev nD) (V : Valuation τ sig (Elt F)) :
    iprop(StableHlo.held (c : Thread nD τ) (Pipeline.ucRefs τ sig) V
        ∗ (∃ r, prngReg c r) ∗ ∃ W, owes (c : Thread nD τ) (0 : CellTallies nD τ sig Unit) W)
      ⊢ (iprop((StableHlo.held (c : Thread nD τ) (Pipeline.ucRefs τ sig) V ∗ ∃ r, prngReg c r)
        ∗ ∃ W, owes (c : Thread nD τ) (0 : CellTallies nD τ sig Unit) W) : sProp 𝕄) := by
  iintro ⟨Hh, Hp, HO⟩
  isplitr [HO]
  · isplitl [Hh]; · iexact Hh
    iexact Hp
  iexact HO

/-! ## The run -/

-- the launch theorem's implicit arguments are found by unifying its conclusion with this one, which takes unfolding plain
-- definitions in a metavariable's type
set_option backward.isDefEq.respectTransparency.types false in
/-- Every weakly fair execution of the program from memory m with zero counters terminates, and every final memory holds,
    in every unscoped buffer, the fold's last contents. -/
theorem run_main (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W13 m c b) :=
  Pipeline.θ_run_regions_kit (pcfgs (F := F)) adm (pdats m) () cellOf_inj emb₁ defs₀ 𝒱₀ Lz lvz m ρ main (items m)
    (fun c Q => by
      rewrite [main_chain c, Pipeline.Seg.run_eq_chain,
        show (items m).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rd c)) (Tₙ := Tlast m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => hlast c (W13 m c)⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h c => h c)

/-! ## What no item touches ends as launched -/

/-- A buffer that no host stretch writes and that is no array of either region holds at every boundary, the last included, what
    the launch put in it: each stretch leaves it (it is outside the stretch's written list), each region leaves it (a region
    changes its own arrays only). -/
theorem W13_of_untouched (c : Dev nD) (r : Ref sig .tc)
    (h0 : r ∉ hostOps0_W) (h0_1 : r ∉ hostOps0_1_W) (h0_2 : r ∉ hostOps0_2_W) (h0_3 : r ∉ hostOps0_3_W)
    (h0_4 : r ∉ hostOps0_4_W) (hA0 : ∀ w, Pipeline.arrRef spec0 w ≠ r)
    (h1 : r ∉ hostOps1_W) (h1_1 : r ∉ hostOps1_1_W) (h1_2 : r ∉ hostOps1_2_W) (h1_3 : r ∉ hostOps1_3_W)
    (h1_4 : r ∉ hostOps1_4_W) (hA1 : ∀ w, Pipeline.arrRef spec1 w ≠ r)
    (h2 : r ∉ hostOps2_W) :
    W13 m c (Proc.devRef .tc r) = m ((c : Thread nD τ).loc r) :=
  calc W13 m c (Proc.devRef .tc r)
    _ = W12 m c (Proc.devRef .tc r) := StableHlo.after_of_writes_sub hostOps2 _ hostOps2_writes h2
    _ = W11 m c (Proc.devRef .tc r) := W12_of_ne m c r hA1
    _ = W10 m c (Proc.devRef .tc r) := StableHlo.after_of_writes_sub hostOps1_4 _ hostOps1_4_writes h1_4
    _ = W9 m c (Proc.devRef .tc r) := StableHlo.after_of_writes_sub hostOps1_3 _ hostOps1_3_writes h1_3
    _ = W8 m c (Proc.devRef .tc r) := StableHlo.after_of_writes_sub hostOps1_2 _ hostOps1_2_writes h1_2
    _ = W7 m c (Proc.devRef .tc r) := StableHlo.after_of_writes_sub hostOps1_1 _ hostOps1_1_writes h1_1
    _ = W6 m c (Proc.devRef .tc r) := StableHlo.after_of_writes_sub hostOps1 _ hostOps1_writes h1
    _ = W5 m c (Proc.devRef .tc r) := W6_of_ne m c r hA0
    _ = W4 m c (Proc.devRef .tc r) := StableHlo.after_of_writes_sub hostOps0_4 _ hostOps0_4_writes h0_4
    _ = W3 m c (Proc.devRef .tc r) := StableHlo.after_of_writes_sub hostOps0_3 _ hostOps0_3_writes h0_3
    _ = W2 m c (Proc.devRef .tc r) := StableHlo.after_of_writes_sub hostOps0_2 _ hostOps0_2_writes h0_2
    _ = W1 m c (Proc.devRef .tc r) := StableHlo.after_of_writes_sub hostOps0_1 _ hostOps0_1_writes h0_1
    _ = W0 m c (Proc.devRef .tc r) := StableHlo.after_of_writes_sub hostOps0 _ hostOps0_writes h0
    _ = m ((c : Thread nD τ).loc r) := rfl

/-- No item writes an argument array. -/
theorem W13_main_arg0 (c : Dev nD) : W13 m c (Proc.devRef .tc main_arg0) = m ((c : Thread nD τ).loc main_arg0) :=
  W13_of_untouched m c main_arg0 (by decide) (by decide) (by decide) (by decide) (by decide) (by decide)
    (by decide) (by decide) (by decide) (by decide) (by decide) (by decide) (by decide)
theorem W13_main_arg1 (c : Dev nD) : W13 m c (Proc.devRef .tc main_arg1) = m ((c : Thread nD τ).loc main_arg1) :=
  W13_of_untouched m c main_arg1 (by decide) (by decide) (by decide) (by decide) (by decide) (by decide)
    (by decide) (by decide) (by decide) (by decide) (by decide) (by decide) (by decide)
theorem W13_main_arg2 (c : Dev nD) : W13 m c (Proc.devRef .tc main_arg2) = m ((c : Thread nD τ).loc main_arg2) :=
  W13_of_untouched m c main_arg2 (by decide) (by decide) (by decide) (by decide) (by decide) (by decide)
    (by decide) (by decide) (by decide) (by decide) (by decide) (by decide) (by decide)
theorem W13_main_arg3 (c : Dev nD) : W13 m c (Proc.devRef .tc main_arg3) = m ((c : Thread nD τ).loc main_arg3) :=
  W13_of_untouched m c main_arg3 (by decide) (by decide) (by decide) (by decide) (by decide) (by decide)
    (by decide) (by decide) (by decide) (by decide) (by decide) (by decide) (by decide)
theorem W13_main_arg4 (c : Dev nD) : W13 m c (Proc.devRef .tc main_arg4) = m ((c : Thread nD τ).loc main_arg4) :=
  W13_of_untouched m c main_arg4 (by decide) (by decide) (by decide) (by decide) (by decide) (by decide)
    (by decide) (by decide) (by decide) (by decide) (by decide) (by decide) (by decide)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the program runs to the end from any memory and its argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W13_main_arg0 m c),
     (h c _ (mem_uc main_arg1 (by decide))).trans (W13_main_arg1 m c),
     (h c _ (mem_uc main_arg2 (by decide))).trans (W13_main_arg2 m c),
     (h c _ (mem_uc main_arg3 (by decide))).trans (W13_main_arg3 m c),
     (h c _ (mem_uc main_arg4 (by decide))).trans (W13_main_arg4 m c)⟩) (run_main m ρ)

end Cert.KernelIdeal.Run

end
-- ==== Proof.Spec.lean ====
/-
  The mathematics both programs compute, over the extended reals.

  A token (b, t) has a hidden vector x[b, t, ·]; its logit against vocabulary row v is the inner product with W[v, ·].
  The log-probability of the label's row is that logit minus the log-sum-exp of all the token's logits, the sum taken
  after subtracting the largest logit.  A sequence's score is the masked mean of its tokens' log-probabilities (a label
  equal to the ignore value is masked out); the loss compares the scores of the two models, a sigmoid at slope 0.1
  for the first four sequences and at slope -0.1 for the last four, averaged over the eight.
-/
import Idealize.ShloMosaic.PureOps.Ideal
import Idealize.ShloMosaic.Lib.ValueIdx

noncomputable section

namespace Cert.Lse

open Idealize.ShloMosaic Idealize.ShloMosaic.ValueIdx

abbrev SX : Shape := ⟨3, ![8, 512, 2048]⟩
abbrev SW : Shape := ⟨2, ![32000, 2048]⟩
abbrev SY : Shape := ⟨2, ![8, 512]⟩
abbrev S8 : Shape := ⟨1, ![8]⟩
abbrev S4 : Shape := ⟨1, ![4]⟩
abbrev S0 : Shape := ⟨0, ![]⟩

theorem bcast_S0_SY : S0.BroadcastsInDim SY (![] : Fin 0 → Fin SY.rank) := by decide
theorem reducesTo_SY_S8_d1 : SY.ReducesTo [1] S8 := by decide
theorem h_S0 : 0 < S0.numel := by decide
theorem slices_S8_S4_0 : S8.Slices ![0] S4 := by decide
theorem slices_S8_S4_4 : S8.Slices ![4] S4 := by decide
theorem bcast_S0_S4 : S0.BroadcastsInDim S4 (![] : Fin 0 → Fin S4.rank) := by decide
theorem concatenates_S4_S4_S8_d0 : Shape.Concatenates [S4, S4] S8 0 := by decide
theorem reducesTo_S8_S0_d0 : S8.ReducesTo [0] S0 := by decide

/-! ## Logits, their maximum, the log-sum-exp -/

/-- The logit of token (b, t) against vocabulary row v: the inner product over the 2048 hidden coordinates. -/
def logit (x : SX.Idx → EReal) (W : SW.Idx → EReal) (b : Fin 8) (t : Fin 512) (v : Fin 32000) : EReal :=
  ∑ h : Fin 2048, x (ix3 b t h) * W (ix2 v h)

/-- The largest logit of token (b, t). -/
def mx (x : SX.Idx → EReal) (W : SW.Idx → EReal) (b : Fin 8) (t : Fin 512) : EReal :=
  Finset.univ.sup' (⟨(0 : Fin 32000), Finset.mem_univ _⟩ : (Finset.univ : Finset (Fin 32000)).Nonempty) (logit x W b t)

/-- The sum over the vocabulary of exp(logit - largest logit). -/
def se (x : SX.Idx → EReal) (W : SW.Idx → EReal) (b : Fin 8) (t : Fin 512) : EReal :=
  ∑ v : Fin 32000, Ideal.exp (logit x W b t v - mx x W b t)

/-- The log-sum-exp of token (b, t)'s logits. -/
def lse (x : SX.Idx → EReal) (W : SW.Idx → EReal) (b : Fin 8) (t : Fin 512) : EReal :=
  mx x W b t + Ideal.log (se x W b t)

/-- The log-sum-exp of every token, as an array over (b, t). -/
def lseArr (x : SX.Idx → EReal) (W : SW.Idx → EReal) : SY.Idx → EReal :=
  fun j => lse x W ⟨(j 0).val, idx2_lt0 j⟩ ⟨(j 1).val, idx2_lt1 j⟩

theorem lseArr_ix2 (x : SX.Idx → EReal) (W : SW.Idx → EReal) (b : Fin 8) (t : Fin 512) :
    lseArr x W (ix2 b t) = lse x W b t := rfl

/-! ## The label's row -/

/-- A label word as the index jnp's indexing uses: the ignore value -100 reads as 0, a negative word counts from the
    end of the 32000 rows. -/
def safeIdx (yv : BitVec 32) : BitVec 32 :=
  let s : BitVec 32 := if yv = 4294967196#32 then 0#32 else yv
  if s.slt 0#32 then s + 32000#32 else s

/-- The vocabulary row a label word names, clamped into the table as a gather clamps it. -/
def row (yv : BitVec 32) : Fin 32000 := ⟨min (safeIdx yv).toInt.toNat 31999, by omega⟩

/-- The label's logit of every token. -/
def tgtArr (x : SX.Idx → EReal) (W : SW.Idx → EReal) (y : SY.Idx → BitVec 32) : SY.Idx → EReal :=
  fun j => logit x W ⟨(j 0).val, idx2_lt0 j⟩ ⟨(j 1).val, idx2_lt1 j⟩ (row (y j))

theorem tgtArr_ix2 (x : SX.Idx → EReal) (W : SW.Idx → EReal) (y : SY.Idx → BitVec 32) (b : Fin 8) (t : Fin 512) :
    tgtArr x W y (ix2 b t) = logit x W b t (row (y (ix2 b t))) := rfl

/-- The label's log-probability of every token: its logit minus the log-sum-exp. -/
def tok (x : SX.Idx → EReal) (W : SW.Idx → EReal) (y : SY.Idx → BitVec 32) : FVec Ideal SY .f32 :=
  subf (F := Ideal) (tgtArr x W y : FVec Ideal SY .f32) (lseArr x W : FVec Ideal SY .f32)

/-! ## From token log-probabilities to the loss: the host operations both programs end with -/

/-- 1.0 where the label is not the ignore value, else 0.0. -/
def maskf (y : IVec SY 32) : FVec Ideal SY .f32 :=
  uitofp (F := Ideal) .f32 (cmpi .ne y (broadcastInDim SY ![] bcast_S0_SY (constantI S0 32 4294967196#32)))

/-- The number of unmasked tokens of each sequence, as a float sum. -/
def cnt (y : IVec SY 32) : FVec Ideal S8 .f32 :=
  Host.reduceAdd (F := Ideal) (maskf y) (constant (F := Ideal) S0 .f32 0x00000000#32) reducesTo_SY_S8_d1 h_S0

/-- The masked mean over a sequence's tokens. -/
def avg (tk : FVec Ideal SY .f32) (y : IVec SY 32) : FVec Ideal S8 .f32 :=
  Host.divf (F := Ideal)
    (Host.reduceAdd (F := Ideal) (mulf (F := Ideal) tk (maskf y)) (constant (F := Ideal) S0 .f32 0x00000000#32) reducesTo_SY_S8_d1 h_S0)
    (cnt y)

/-- One half of the loss: 1 - 1 / (1 + exp(-(slope · d))) on four sequences. -/
def half (slope : BitVec 32) (d : FVec Ideal S4 .f32) : FVec Ideal S4 .f32 :=
  subf (F := Ideal) (broadcastInDim S4 ![] bcast_S0_S4 (constant (F := Ideal) S0 .f32 0x3F800000#32))
    (Host.divf (F := Ideal) (broadcastInDim S4 ![] bcast_S0_S4 (constant (F := Ideal) S0 .f32 0x3F800000#32))
      (addf (F := Ideal) (broadcastInDim S4 ![] bcast_S0_S4 (constant (F := Ideal) S0 .f32 0x3F800000#32))
        (Host.exp (F := Ideal) (Host.negf (F := Ideal)
          (mulf (F := Ideal) (broadcastInDim S4 ![] bcast_S0_S4 (constant (F := Ideal) S0 .f32 slope)) d)))))

/-- The loss from the two models' sequence scores. -/
def tail (P R : FVec Ideal S8 .f32) : FVec Ideal S0 .f32 :=
  Host.divf (F := Ideal)
    (Host.reduceAdd (F := Ideal)
      (concatenate S8 0
        [⟨S4, half 0x3DCCCCCD#32 (subf (F := Ideal) (extractStridedSlice S4 ![0] P slices_S8_S4_0) (extractStridedSlice S4 ![0] R slices_S8_S4_0))⟩,
         ⟨S4, half 0xBDCCCCCD#32 (subf (F := Ideal) (extractStridedSlice S4 ![4] P slices_S8_S4_4) (extractStridedSlice S4 ![4] R slices_S8_S4_4))⟩]
        concatenates_S4_S4_S8_d0)
      (constant (F := Ideal) S0 .f32 0x00000000#32) reducesTo_S8_S0_d0 h_S0)
    (constant (F := Ideal) S0 .f32 0x41000000#32)

/-- The loss from the two models' token log-probabilities and the labels. -/
def kloss (tkP tkR : FVec Ideal SY .f32) (y : IVec SY 32) : FVec Ideal S0 .f32 :=
  tail (avg tkP y) (avg tkR y)

/-- The whole computation: from the two models' hidden states and weights and the labels to the loss. -/
def loss (x rx : SX.Idx → EReal) (y : IVec SY 32) (W rW : SW.Idx → EReal) : FVec Ideal S0 .f32 :=
  kloss (tok x W y) (tok rx rW y) y

end Cert.Lse

end
-- ==== Proof.LibRowGather.lean ====
/-
  GENERAL LEMMA (no program imported): jnp's `table[idx]` on a matrix, read at an element.

  For a table [N, D] and a column of n indices, `table[idx]` prints as a `stablehlo.gather` with start indices [n, 1]
  (the index vector on axis 1), the table's row axis collapsed and start-indexed, its column axis the result's offset axis,
  slices of one whole row.  `gather_rows_apply`: the result at (p, q) is the table at (row, q), the row being index p's
  word read signed and clamped into [0, N − 1], as StableHLO's gather clamps every start index.
-/
import Idealize.ShloMosaic.PureOps.ShapeOps
import Idealize.ShloMosaic.Lib.ValueIdx

noncomputable section

namespace Cert.LibRowGather

open Idealize.ShloMosaic Idealize.ShloMosaic.ValueIdx

/-- The dimension numbers of `table[idx]` for a table [N, D], start indices [n, 1] and a result [n, D]. Their conditions
    are decided on a program's literal shapes; a printed record with these fields is this one. -/
abbrev rowGatherDims (N D n : Nat)
    (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

/-- THE GATHER READ AT (p, q): the table's entry q of the row that index p names, clamped into the table. -/
theorem gather_rows_apply {α : Type} {N D n w : Nat} (hN : 0 < N)
    (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (p : Fin n) (q : Fin D) :
    Host.gather (rowGatherDims N D n wf) x idx (ix2 p q)
      = x (ix2 ⟨min (idx (ix2 p (0 : Fin 1))).toInt.toNat (N - 1), by omega⟩ q) := by
  unfold Host.gather
  refine congrArg x (funext fun a => Fin.ext ?_)
  match a with
  | ⟨0, _⟩ =>
    show (rowGatherDims N D n wf).start (ix2 p q) idx 0 + (rowGatherDims N D n wf).batchCoord (ix2 p q) 0
      + (rowGatherDims N D n wf).offCoord (ix2 p q) 0 = min (idx (ix2 p (0 : Fin 1))).toInt.toNat (N - 1)
    rw [GatherDims.batchCoord_eq_zero (rowGatherDims N D n wf) _ 0 (by show (0 : Fin 2) ∉ ([] : List (Fin 2)); decide),
      GatherDims.offCoord_eq_zero (rowGatherDims N D n wf) _ 0
        (fun h => ((GatherDims.mem_sKept _ _).mp h).1 (List.mem_singleton.mpr rfl))]
    simp only [Nat.add_zero]
    unfold GatherDims.start
    rw [dif_pos (show (0 : Fin 2) ∈ (rowGatherDims N D n wf).startIndexMap from List.mem_singleton.mpr rfl)]
    have hsi : (rowGatherDims N D n wf).siIdx (ix2 p q)
        ⟨List.idxOf (0 : Fin 2) (rowGatherDims N D n wf).startIndexMap, List.idxOf_lt_length_iff.2 (List.mem_singleton.mpr rfl)⟩
        = ix2 p (0 : Fin 1) := funext fun b => Fin.ext (by
      match b with
      | ⟨0, _⟩ => rfl
      | ⟨1, _⟩ => rfl)
    rw [hsi]
    rfl
  | ⟨1, _⟩ =>
    show (rowGatherDims N D n wf).start (ix2 p q) idx 1 + (rowGatherDims N D n wf).batchCoord (ix2 p q) 1
      + (rowGatherDims N D n wf).offCoord (ix2 p q) 1 = q.val
    rw [GatherDims.batchCoord_eq_zero (rowGatherDims N D n wf) _ 1 (by show (1 : Fin 2) ∉ ([] : List (Fin 2)); decide)]
    have hs : (rowGatherDims N D n wf).start (ix2 p q) idx 1 = 0 := by
      unfold GatherDims.start
      rw [dif_neg (show (1 : Fin 2) ∉ (rowGatherDims N D n wf).startIndexMap from by
        show (1 : Fin 2) ∉ ([0] : List (Fin 2)); decide)]
    rw [hs]
    have hk : (1 : Fin 2) ∈ (rowGatherDims N D n wf).sKept :=
      (GatherDims.mem_sKept _ _).mpr ⟨by show (1 : Fin 2) ∉ ([0] : List (Fin 2)); decide,
        by show (1 : Fin 2) ∉ ([] : List (Fin 2)); decide⟩
    unfold GatherDims.offCoord
    rw [dif_pos hk]
    simp only [Nat.zero_add]
    rfl

end Cert.LibRowGather

end
-- ==== Proof.KI.ValHost.lean ====
/-
  The host operations of the kernel's program, read at the extended reals.  Before each log-sum-exp call the program
  gathers the label's row of the weight table and takes its inner product with the hidden state (the label's logit), and
  hands the call the hidden states and the weights unchanged (a change of float format is the identity here).  After the two
  calls it subtracts each log-sum-exp from the label's logit, and ends with the masked means and the sigmoid loss.
-/
import proofs.«411388_j45131516346680_3_alg».proof.Proof.Gen.KernelIdeal.Launch
import proofs.«411388_j45131516346680_3_alg».proof.Proof.Spec
import proofs.«411388_j45131516346680_3_alg».proof.Proof.LibRowGather
import Idealize.ShloMosaic.Lib.StableHlo.Run
import Idealize.ShloMosaic.Lib.ValueIdx
import Idealize.ShloMosaic.Lib.Pipeline.Value
import Idealize.ShloMosaic.PureOps.Ideal.Laws
import Idealize.ShloMosaic.Lib.WordArith

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen

/-- The host operations before the first call, composed, from any contents W of the buffers. -/
def stretchA (W : Valuation τ sig (Elt Ideal)) : Valuation τ sig (Elt Ideal) :=
  StableHlo.after hostOps0_4 (StableHlo.after hostOps0_3 (StableHlo.after hostOps0_2 (StableHlo.after hostOps0_1 (StableHlo.after hostOps0 W))))

/-- The host operations between the two calls, composed. -/
def stretchB (W : Valuation τ sig (Elt Ideal)) : Valuation τ sig (Elt Ideal) :=
  StableHlo.after hostOps1_4 (StableHlo.after hostOps1_3 (StableHlo.after hostOps1_2 (StableHlo.after hostOps1_1 (StableHlo.after hostOps1 W))))

/-- A buffer's contents read at the token array's literal type. -/
abbrev atY (f : Cert.Lse.SY.Idx → EReal) : Cert.Lse.SY.Idx → EReal := f

/-- Every label word is an index jnp accepts for an axis of 32000 rows. -/
def InRange (y : Cert.Lse.SY.Idx → BitVec 32) : Prop := ∀ j, (-32000 : Int) ≤ (y j).toInt ∧ (y j).toInt < 32000

namespace Label

/-! ## The label's logit as the program spells it, operation by operation -/

/-- The label with the ignore value replaced by 0. -/
def lab (y : IVec S8x512 32) : IVec S8x512 32 :=
  select (cmpi .ne y (broadcastInDim S8x512 ![] bcast_S_S8x512 (constantI S_ 32 4294967196#32))) y
    (broadcastInDim S8x512 ![] bcast_S_S8x512 (constantI S_ 32 0#32))

/-- The labels as one column of 4096 words. -/
def flat (y : IVec S8x512 32) : IVec S4096 32 := shapeCast S4096 (lab y) shapeCasts_S8x512_S4096

/-- A negative word counts from the end of the 32000 rows. -/
def wrapped (y : IVec S8x512 32) : IVec S4096 32 :=
  select (cmpi .slt (flat y) (broadcastInDim S4096 ![] bcast_S_S4096 (constantI S_ 32 0#32)))
    (addi (flat y) (broadcastInDim S4096 ![] bcast_S_S4096 (constantI S_ 32 32000#32))) (flat y)

/-- The start indices of the gather. -/
def col (y : IVec S8x512 32) : IVec S4096x1 32 := broadcastInDim S4096x1 ![0] bcast_S4096_S4096x1_0 (wrapped y)

/-- Whether a start index lies inside the table. -/
def inside (y : IVec S8x512 32) : IVec S4096 1 :=
  Host.reduce IntOp.andi
    (andi (cmpi .sge (col y) (broadcastInDim S4096x1 ![] bcast_S_S4096x1 (constantI S_ 32 0#32)))
      (cmpi .sle (col y) (broadcastInDim S4096x1 ![0, 1] bcast_S1x1_S4096x1_0_1
        (broadcastInDim S1x1 ![1] bcast_S1_S1x1_1 (constantI S1 32 31999#32)))))
    (constantI S_ 1 1#1) reducesTo_S4096x1_S4096_d1 h_S_

/-- The gathered rows, a row outside the table replaced by NaN. -/
def rows (Wt : FVec Ideal S32000x2048 .f32) (y : IVec S8x512 32) : FVec Ideal S4096x2048 .f32 :=
  select (broadcastInDim S4096x2048 ![0] bcast_S4096_S4096x2048_0 (inside y))
    (Host.gather gather_S32000x2048_S4096x1_S4096x2048_1_0_n_n_0_1_12048 Wt (col y))
    (broadcastInDim S4096x2048 ![] bcast_S_S4096x2048 (constant (F := Ideal) S_ .f32 0x7FC00000#32))

/-- The inner product of each token's hidden state with its gathered row. -/
def picked (x : FVec Ideal S8x512x2048 .f32) (Wt : FVec Ideal S32000x2048 .f32) (y : IVec S8x512 32) : FVec Ideal S8x512 .f32 :=
  Host.reduceAdd (F := Ideal)
    (mulf (F := Ideal) x (shapeCast S8x512x2048 (rows Wt y) shapeCasts_S4096x2048_S8x512x2048))
    (constant (F := Ideal) S_ .f32 0x00000000#32) reducesTo_S8x512x2048_S8x512_d2 h_S_

/-- The program's value of the label's logit before the first call is that spelling, at the first model's arrays. -/
theorem stretchA_v7_eq (W : Valuation τ sig (Elt Ideal)) :
    (stretchA W main_v7 : FVec Ideal S8x512 .f32) = picked (W main_arg0) (W main_arg3) (W main_arg2) := by
  unfold stretchA
  simp only [hostOps0, hostOps0_1, hostOps0_2, hostOps0_3, hostOps0_4]
  after_results_simp
  simp only [StableHlo.TRef.ofBuf, StableHlo.TRef.toBuf, cast_eq, id]
  unfold picked rows inside col wrapped flat lab
  rfl

/-- … and between the calls, at the second model's arrays. -/
theorem stretchB_v19_eq (W : Valuation τ sig (Elt Ideal)) :
    (stretchB W main_v19 : FVec Ideal S8x512 .f32) = picked (W main_arg1) (W main_arg4) (W main_arg2) := by
  unfold stretchB
  simp only [hostOps1, hostOps1_1, hostOps1_2, hostOps1_3, hostOps1_4]
  after_results_simp
  simp only [StableHlo.TRef.ofBuf, StableHlo.TRef.toBuf, cast_eq, id]
  unfold picked rows inside col wrapped flat lab
  rfl

/-! ## Words: the label's index, and that it lies inside the table -/

theorem lab_word (a : BitVec 32) :
    Scalar.select (IntOp.cmpi .ne a 4294967196#32) a 0#32 = if a = 4294967196#32 then 0#32 else a := by
  unfold Scalar.select IntOp.cmpi
  by_cases h : a = 4294967196#32
  · subst h; decide
  · have hb : (a != 4294967196#32) = true := bne_iff_ne.mpr h
    simp [h, hb]

theorem wrap_word (s : BitVec 32) :
    Scalar.select (IntOp.cmpi .slt s 0#32) (IntOp.addi s 32000#32) s = if s.slt 0#32 then s + 32000#32 else s := by
  unfold Scalar.select IntOp.cmpi IntOp.addi
  cases h : s.slt 0#32 <;> simp [h]

theorem safeIdx_word (a : BitVec 32) :
    Scalar.select (IntOp.cmpi .slt (Scalar.select (IntOp.cmpi .ne a 4294967196#32) a 0#32) 0#32)
      (IntOp.addi (Scalar.select (IntOp.cmpi .ne a 4294967196#32) a 0#32) 32000#32)
      (Scalar.select (IntOp.cmpi .ne a 4294967196#32) a 0#32) = Cert.Lse.safeIdx a := by
  rw [wrap_word, lab_word]; rfl

/-- A word jnp accepts for 32000 rows names, after the ignore value is replaced and a negative word wrapped, a row of the table. -/
theorem safeIdx_range (a : BitVec 32) (h : (-32000 : Int) ≤ a.toInt ∧ a.toInt < 32000) :
    0 ≤ (Cert.Lse.safeIdx a).toInt ∧ (Cert.Lse.safeIdx a).toInt ≤ 31999 := by
  unfold Cert.Lse.safeIdx
  by_cases h1 : a = 4294967196#32
  · subst h1; decide
  · simp only [if_neg h1]
    have e : (32000#32 : BitVec 32).toInt = 32000 := by decide
    have z : (0#32 : BitVec 32).toInt = 0 := by decide
    by_cases h2 : a.slt 0#32 = true
    · have h3 : a.toInt < 0 := by have := BitVec.slt_iff_toInt_lt.mp h2; rw [z] at this; exact this
      rw [if_pos h2, WordArith.toInt_add_of_bounds a 32000#32 (by rw [e]; omega) (by rw [e]; omega), e]
      omega
    · have h3 : ¬ a.toInt < 0 := fun h' => h2 (BitVec.slt_iff_toInt_lt.mpr (by rw [z]; exact h'))
      rw [if_neg h2]; omega

theorem inside_word (s : BitVec 32) (h0 : 0 ≤ s.toInt) (h1 : s.toInt ≤ 31999) :
    IntOp.andi (IntOp.cmpi .sge s 0#32) (IntOp.cmpi .sle s 31999#32) = 1#1 := by
  have z : (0#32 : BitVec 32).toInt = 0 := by decide
  have e : (31999#32 : BitVec 32).toInt = 31999 := by decide
  have a : (0#32 : BitVec 32).sle s = true := BitVec.sle_iff_toInt_le.mpr (by rw [z]; exact h0)
  have b : s.sle 31999#32 = true := BitVec.sle_iff_toInt_le.mpr (by rw [e]; exact h1)
  unfold IntOp.andi IntOp.cmpi
  simp only [a, b]
  decide

theorem foldl_andi_one {ι : Type} (f : ι → BitVec 1) (hf : ∀ n, f n = 1#1) (l : List ι) :
    l.foldl (fun r n => IntOp.andi r (f n)) 1#1 = 1#1 := by
  induction l with
  | nil => rfl
  | cons a l ih => rw [List.foldl_cons, hf a, show IntOp.andi 1#1 1#1 = 1#1 from by decide]; exact ih

/-! ## The program's arrays read at an index -/

theorem flat_apply (y : IVec S8x512 32) (j : S4096.Idx) (b : Fin 8) (t : Fin 512) (hj : (j 0).val = b.val * 512 + t.val) :
    flat y j = lab y (ix2 b t) := by
  unfold flat
  refine shapeCast_apply (lab y) shapeCasts_S8x512_S4096 j (ix2 b t) ?_
  rw [Shape.rowMajor_val_two, Shape.rowMajor_val_one]
  show b.val * 512 + t.val = (j 0).val
  omega

theorem wrapped_apply (y : IVec S8x512 32) (j : S4096.Idx) (b : Fin 8) (t : Fin 512) (hj : (j 0).val = b.val * 512 + t.val) :
    wrapped y j = Cert.Lse.safeIdx (y (ix2 b t)) := by
  have e : wrapped y j = Scalar.select (IntOp.cmpi .slt (flat y j) 0#32) (IntOp.addi (flat y j) 32000#32) (flat y j) := rfl
  rw [e, flat_apply y j b t hj]
  exact safeIdx_word (y (ix2 b t))

theorem col_apply (y : IVec S8x512 32) (i : S4096x1.Idx) : col y i = wrapped y (ix1 (i 0)) := by
  unfold col
  refine broadcastInDim_apply _ _ (wrapped y) i (ix1 (i 0)) (fun a => ?_)
  match a with
  | ⟨0, _⟩ => rfl

theorem insideBit_apply (y : IVec S8x512 32) (hr : ∀ i, (-32000 : Int) ≤ (y i).toInt ∧ (y i).toInt < 32000) (i : S4096x1.Idx) :
    andi (cmpi .sge (col y) (broadcastInDim S4096x1 ![] bcast_S_S4096x1 (constantI S_ 32 0#32)))
      (cmpi .sle (col y) (broadcastInDim S4096x1 ![0, 1] bcast_S1x1_S4096x1_0_1
        (broadcastInDim S1x1 ![1] bcast_S1_S1x1_1 (constantI S1 32 31999#32)))) i = 1#1 := by
  have hp : (i 0).val < 4096 := (i 0).isLt
  have e := wrapped_apply y (ix1 (i 0)) ⟨(i 0).val / 512, by omega⟩ ⟨(i 0).val % 512, Nat.mod_lt _ (by decide)⟩
    (by show (i 0).val = (i 0).val / 512 * 512 + (i 0).val % 512; omega)
  have r := safeIdx_range _ (hr (ix2 ⟨(i 0).val / 512, by omega⟩ ⟨(i 0).val % 512, Nat.mod_lt _ (by decide)⟩))
  show IntOp.andi (IntOp.cmpi .sge (col y i) 0#32) (IntOp.cmpi .sle (col y i) 31999#32) = 1#1
  rw [col_apply, e]
  exact inside_word _ r.1 r.2

theorem inside_apply (y : IVec S8x512 32) (hr : ∀ i, (-32000 : Int) ≤ (y i).toInt ∧ (y i).toInt < 32000) (j : S4096.Idx) :
    inside y j = 1#1 := by
  unfold inside Host.reduce
  exact foldl_andi_one _ (fun n => insideBit_apply y hr _) _

theorem rows_apply (Wt : FVec Ideal S32000x2048 .f32) (y : IVec S8x512 32)
    (hr : ∀ i, (-32000 : Int) ≤ (y i).toInt ∧ (y i).toInt < 32000)
    (p : Fin 4096) (q : Fin 2048) (b : Fin 8) (t : Fin 512) (hp : p.val = b.val * 512 + t.val) :
    rows Wt y (ix2 p q) = Wt (ix2 (Cert.Lse.row (y (ix2 b t))) q) := by
  have e : rows Wt y (ix2 p q)
      = Scalar.select (broadcastInDim S4096x2048 ![0] bcast_S4096_S4096x2048_0 (inside y) (ix2 p q))
          (Host.gather gather_S32000x2048_S4096x1_S4096x2048_1_0_n_n_0_1_12048 Wt (col y) (ix2 p q))
          (Ideal.ofBits .f32 0x7FC00000#32) := rfl
  rw [e, broadcastInDim_apply _ _ (inside y) (ix2 p q) (ix1 p) (fun a => match a with | ⟨0, _⟩ => rfl),
    inside_apply y hr, select_one]
  refine (Cert.LibRowGather.gather_rows_apply (N := 32000) (D := 2048) (n := 4096) (by decide)
    gather_S32000x2048_S4096x1_S4096x2048_1_0_n_n_0_1_12048_wf Wt (col y) p q).trans ?_
  refine congrArg (fun r => Wt (ix2 r q)) (Fin.ext ?_)
  have e2 : col y (ix2 p (0 : Fin 1)) = Cert.Lse.safeIdx (y (ix2 b t)) :=
    (col_apply y _).trans (wrapped_apply y (ix1 p) b t hp)
  show min (col y (ix2 p (0 : Fin 1))).toInt.toNat 31999 = min (Cert.Lse.safeIdx (y (ix2 b t))).toInt.toNat 31999
  rw [e2]

theorem reduces_d2 : S8x512x2048.Reduces [2] S8x512 := by decide

theorem lift_ix (b : Fin 8) (t : Fin 512) (k : Fin 2048) : reduces_d2.lift (ix2 b t) k = ix3 b t k := by
  funext a
  match a with
  | ⟨0, _⟩ => rfl
  | ⟨1, _⟩ => rfl
  | ⟨2, _⟩ => rfl

/-- The program's sum at token (b, t): the inner product of the hidden state with the label's row. -/
theorem picked_apply (x : FVec Ideal S8x512x2048 .f32) (Wt : FVec Ideal S32000x2048 .f32) (y : IVec S8x512 32)
    (hr : ∀ i, (-32000 : Int) ≤ (y i).toInt ∧ (y i).toInt < 32000) (b : Fin 8) (t : Fin 512) :
    picked x Wt y (ix2 b t) = Cert.Lse.logit x Wt b t (Cert.Lse.row (y (ix2 b t))) := by
  have e : picked x Wt y (ix2 b t) = Ideal.hostReduceAdd reducesTo_S8x512x2048_S8x512_d2
      (mulf (F := Ideal) x (shapeCast S8x512x2048 (rows Wt y) shapeCasts_S4096x2048_S8x512x2048))
      (Ideal.ofBits .f32 0x00000000#32) (ix2 b t) := rfl
  rw [e, Ideal.hostReduceAdd_single reducesTo_S8x512x2048_S8x512_d2 reduces_d2, Ideal.ofBits_zero_f32, zero_add]
  unfold Cert.Lse.logit
  refine Finset.sum_congr rfl fun k _ => ?_
  rw [lift_ix b t k, mulf_apply]
  refine congrArg (fun z => x (ix3 b t k) * z) ?_
  have hb := b.isLt
  have ht := t.isLt
  rw [shapeCast_apply (rows Wt y) shapeCasts_S4096x2048_S8x512x2048 (ix3 b t k)
    (ix2 (⟨b.val * 512 + t.val, by omega⟩ : Fin 4096) k)
    (by rw [Shape.rowMajor_val_two, Shape.rowMajor_val_three]; rfl)]
  exact rows_apply Wt y hr _ k b t rfl

/-- Under labels in range the program's sum is the label's logit of every token. -/
theorem picked_eq_tgtArr (x : FVec Ideal S8x512x2048 .f32) (Wt : FVec Ideal S32000x2048 .f32) (y : IVec S8x512 32)
    (hr : InRange y) : (picked x Wt y : Cert.Lse.SY.Idx → EReal) = Cert.Lse.tgtArr x Wt y := by
  funext j
  obtain ⟨b, t, rfl⟩ : ∃ (b : Fin 8) (t : Fin 512), j = ix2 b t := ⟨j 0, j 1, eq_ix2 j⟩
  rw [Cert.Lse.tgtArr_ix2]
  exact picked_apply x Wt y hr b t

end Label

/-- Before the first call: the label's logit of every token under the first model. -/
theorem stretchA_v7 (W : Valuation τ sig (Elt Ideal)) (hr : InRange (W main_arg2)) :
    (stretchA W main_v7 : Cert.Lse.SY.Idx → EReal) = Cert.Lse.tgtArr (W main_arg0) (W main_arg3) (W main_arg2) :=
  (Label.stretchA_v7_eq W).trans (Label.picked_eq_tgtArr _ _ _ hr)

/-- The first call's two operands are the first model's hidden states and weights. -/
theorem stretchA_v8 (W : Valuation τ sig (Elt Ideal)) : (stretchA W main_v8 : Cert.Lse.SX.Idx → EReal) = W main_arg0 := by
  unfold stretchA
  simp only [hostOps0, hostOps0_1, hostOps0_2, hostOps0_3, hostOps0_4]
  after_results_simp
  rfl
theorem stretchA_v9 (W : Valuation τ sig (Elt Ideal)) : (stretchA W main_v9 : Cert.Lse.SW.Idx → EReal) = W main_arg3 := by
  unfold stretchA
  simp only [hostOps0, hostOps0_1, hostOps0_2, hostOps0_3, hostOps0_4]
  after_results_simp
  rfl

/-- Between the calls: the first model's token log-probabilities, the label's logit under the second model, and the
    second call's operands. -/
theorem stretchB_v11 (W : Valuation τ sig (Elt Ideal)) :
    (stretchB W main_v11 : Cert.Lse.SY.Idx → EReal)
      = fun j => atY (W main_v7) j - atY (W main_v10) j := by
  unfold stretchB
  simp only [hostOps1, hostOps1_1, hostOps1_2, hostOps1_3, hostOps1_4]
  after_results_simp
  rfl
theorem stretchB_v19 (W : Valuation τ sig (Elt Ideal)) (hr : InRange (W main_arg2)) :
    (stretchB W main_v19 : Cert.Lse.SY.Idx → EReal) = Cert.Lse.tgtArr (W main_arg1) (W main_arg4) (W main_arg2) :=
  (Label.stretchB_v19_eq W).trans (Label.picked_eq_tgtArr _ _ _ hr)
theorem stretchB_v20 (W : Valuation τ sig (Elt Ideal)) : (stretchB W main_v20 : Cert.Lse.SX.Idx → EReal) = W main_arg1 := by
  unfold stretchB
  simp only [hostOps1, hostOps1_1, hostOps1_2, hostOps1_3, hostOps1_4]
  after_results_simp
  rfl
theorem stretchB_v21 (W : Valuation τ sig (Elt Ideal)) : (stretchB W main_v21 : Cert.Lse.SW.Idx → EReal) = W main_arg4 := by
  unfold stretchB
  simp only [hostOps1, hostOps1_1, hostOps1_2, hostOps1_3, hostOps1_4]
  after_results_simp
  rfl

/-- After the second call: the loss, from the two models' token log-probabilities and the labels. -/
theorem stretchC_v62 (W : Valuation τ sig (Elt Ideal)) :
    (StableHlo.after hostOps2 W main_v62 : FVec Ideal Cert.Lse.S0 .f32)
      = Cert.Lse.kloss (W main_v11 : Cert.Lse.SY.Idx → EReal)
          (fun j => atY (W main_v19) j - atY (W main_v22) j) (W main_arg2) := by
  simp only [hostOps2]
  after_results_simp
  unfold Cert.Lse.kloss Cert.Lse.tail Cert.Lse.avg Cert.Lse.half Cert.Lse.cnt Cert.Lse.maskf
  rfl

end Cert.KernelIdeal.Val

end
-- ==== Proof.KI.R0.PayVal.lean ====
/-
  Region 0's scratch columns and output block, read at an index over the extended reals: the tile's logits are inner products
  over the 2048 hidden coordinates; the new maximum is the old one against the tile's largest logit; the new sum is the old
  one rescaled by exp(old maximum - new maximum) plus the tile's exp(logit - new maximum); the output is maximum + log(sum).
-/
import proofs.«411388_j45131516346680_3_alg».proof.Proof.KI.R0.Runs
import proofs.«411388_j45131516346680_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.R0

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- A tile's logit: row r of sequence b of the block against row j of the tile. -/
def blkLogit (x : Vec Ideal S8x256x2048 .bf16) (w : Vec Ideal S640x2048 .bf16) (b : Fin 8) (r : Fin 256) (j : Fin 640) : EReal :=
  ∑ h : Fin 2048, x (ix3 b r h) * w (ix2 j h)

/-- The word of minus infinity denotes the bottom of the extended reals. -/
theorem ofBits_negInf_f32 : Ideal.ofBits .f32 0xFF800000#32 = (⊥ : EReal) := by
  simp [Ideal.ofBits, Ideal.ieee]

/-- The reset maximum is minus infinity everywhere. -/
theorem mReset_apply (i : S8x256x1.Idx) : mReset (F := Ideal) i = (⊥ : EReal) := by
  unfold mReset k0_pay2
  simp only [shapeCast_self]
  exact ofBits_negInf_f32

/-- The reset sum is zero everywhere. -/
theorem lReset_apply (i : S8x256x1.Idx) : lReset (F := Ideal) i = (0 : EReal) := by
  unfold lReset k0_pay3
  simp only [shapeCast_self]
  exact Ideal.ofBits_zero_f32

/-- The output block: maximum + log(sum), the unit axis dropped. -/
theorem outFin_apply (mo lo : Vec Ideal S8x256x1 .f32) (b : Fin 8) (r : Fin 256) :
    outFin mo lo (ix2 b r) = mo (ix3 b r (0 : Fin 1)) + Ideal.log (lo (ix3 b r (0 : Fin 1))) := by
  unfold outFin k0_pay1
  refine (shapeCast_apply _ shapeCasts_S8x256x1_S8x256 (ix2 b r) (ix3 b r (0 : Fin 1)) ?_).trans ?_
  · rw [Shape.rowMajor_val_three, Shape.rowMajor_val_two]
    show (b.val * 256 + r.val) * 1 + 0 = b.val * 256 + r.val
    omega
  · rfl

/-! ## The tile product read at an index -/

/-- The flat row of sequence b, position r: 256 b + r. -/
def flatRow (b : Fin 8) (r : Fin 256) : Fin 2048 := ⟨b.val * 256 + r.val, by omega⟩

theorem lhs_tile_0 (i : S2048x640.Idx) (q : dot_S2048x2048_S640x2048_S2048x640_1_1_0_0_n_n.contr.Idx) :
    (dot_S2048x2048_S640x2048_S2048x640_1_1_0_0_n_n.lhsIdx i q 0).val = (i 0).val := by
  unfold DotDims.lhsIdx
  rw [dif_neg (show ¬(0 : Fin S2048x2048.rank) ∈ dot_S2048x2048_S640x2048_S2048x640_1_1_0_0_n_n.lhsBatch by decide), dif_pos (show (0 : Fin S2048x2048.rank) ∈ dot_S2048x2048_S640x2048_S2048x640_1_1_0_0_n_n.lhsNonContracting by decide)]
  rfl
theorem lhs_tile_1 (i : S2048x640.Idx) (q : dot_S2048x2048_S640x2048_S2048x640_1_1_0_0_n_n.contr.Idx) :
    (dot_S2048x2048_S640x2048_S2048x640_1_1_0_0_n_n.lhsIdx i q 1).val = (q ⟨0, by decide⟩).val :=
  dot_S2048x2048_S640x2048_S2048x640_1_1_0_0_n_n.lhsIdx_val_of_single rfl i q
theorem rhs_tile_0 (i : S2048x640.Idx) (q : dot_S2048x2048_S640x2048_S2048x640_1_1_0_0_n_n.contr.Idx) :
    (dot_S2048x2048_S640x2048_S2048x640_1_1_0_0_n_n.rhsIdx i q 0).val = (i 1).val := by
  unfold DotDims.rhsIdx
  rw [dif_neg (show ¬(0 : Fin S640x2048.rank) ∈ dot_S2048x2048_S640x2048_S2048x640_1_1_0_0_n_n.rhsBatch by decide), dif_pos (show (0 : Fin S640x2048.rank) ∈ dot_S2048x2048_S640x2048_S2048x640_1_1_0_0_n_n.rhsNonContracting by decide)]
  rfl
theorem rhs_tile_1 (i : S2048x640.Idx) (q : dot_S2048x2048_S640x2048_S2048x640_1_1_0_0_n_n.contr.Idx) :
    (dot_S2048x2048_S640x2048_S2048x640_1_1_0_0_n_n.rhsIdx i q 1).val = (q ⟨0, by decide⟩).val :=
  dot_S2048x2048_S640x2048_S2048x640_1_1_0_0_n_n.rhsIdx_val_of_single rfl i q

/-- The tile product at (row p, lane j): the inner product of row p of the left operand with row j of the right one. -/
theorem tileDot_apply (a : FVec Ideal S2048x2048 .bf16) (w : FVec Ideal S640x2048 .bf16) (p : Fin 2048) (j : Fin 640) :
    matmul dot_S2048x2048_S640x2048_S2048x640_1_1_0_0_n_n none a w (constant (F := Ideal) S2048x640 .f32 0x00000000#32) (ix2 p j)
      = ∑ h : Fin 2048, a (ix2 p h) * w (ix2 j h) := by
  simp only [matmul]
  rw [Ideal.matmul_constant_zero_apply, ← Equiv.sum_comp (ValueIdx.contrEquiv1 dot_S2048x2048_S640x2048_S2048x640_1_1_0_0_n_n 2048 rfl rfl).symm]
  refine Finset.sum_congr rfl fun k _ => ?_
  have hk := ValueIdx.contrEquiv1_symm_val dot_S2048x2048_S640x2048_S2048x640_1_1_0_0_n_n 2048 rfl rfl k
  have el : dot_S2048x2048_S640x2048_S2048x640_1_1_0_0_n_n.lhsIdx (ix2 p j) ((ValueIdx.contrEquiv1 dot_S2048x2048_S640x2048_S2048x640_1_1_0_0_n_n 2048 rfl rfl).symm k) = ix2 p k := funext fun a => Fin.ext (by
    match a with
    | ⟨0, _⟩ => exact lhs_tile_0 _ _
    | ⟨1, _⟩ => exact (lhs_tile_1 _ _).trans hk)
  have er : dot_S2048x2048_S640x2048_S2048x640_1_1_0_0_n_n.rhsIdx (ix2 p j) ((ValueIdx.contrEquiv1 dot_S2048x2048_S640x2048_S2048x640_1_1_0_0_n_n 2048 rfl rfl).symm k) = ix2 j k := funext fun a => Fin.ext (by
    match a with
    | ⟨0, _⟩ => exact rhs_tile_0 _ _
    | ⟨1, _⟩ => exact (rhs_tile_1 _ _).trans hk)
  rw [el, er]

/-- The block flattened to 2048 rows reads, at (256 b + r, h), the block at (b, r, h). -/
theorem flatBlock_apply (x : FVec Ideal S8x256x2048 .bf16) (b : Fin 8) (r : Fin 256) (h : Fin 2048) :
    shapeCast S2048x2048 x shapeCasts_S8x256x2048_S2048x2048 (ix2 (flatRow b r) h) = x (ix3 b r h) :=
  shapeCast_apply x shapeCasts_S8x256x2048_S2048x2048 _ _ (by
    rw [Shape.rowMajor_val_three, Shape.rowMajor_val_two]
    show (b.val * 256 + r.val) * 2048 + h.val = (b.val * 256 + r.val) * 2048 + h.val
    rfl)

/-- The product's 2048 rows seen as 8 × 256 read, at (b, r, j), the product at (256 b + r, j). -/
theorem unflat_apply (y : FVec Ideal S2048x640 .f32) (b : Fin 8) (r : Fin 256) (j : Fin 640) :
    shapeCast S8x256x640 y shapeCasts_S2048x640_S8x256x640 (ix3 b r j) = y (ix2 (flatRow b r) j) :=
  shapeCast_apply y shapeCasts_S2048x640_S8x256x640 _ _ (by
    rw [Shape.rowMajor_val_three, Shape.rowMajor_val_two]
    show (b.val * 256 + r.val) * 640 + j.val = (b.val * 256 + r.val) * 640 + j.val
    rfl)

/-- The tile's logits: the generated product payload at (b, r, j) is the inner product over the hidden coordinates. -/
theorem pay4_apply (x : Vec Ideal S8x256x2048 .bf16) (w : Vec Ideal S640x2048 .bf16) (b : Fin 8) (r : Fin 256) (j : Fin 640) :
    k0_pay4 x w (ix3 b r j) = blkLogit x w b r j := by
  unfold k0_pay4 blkLogit
  simp only [shapeCast_self]
  rw [unflat_apply, tileDot_apply]
  exact Finset.sum_congr rfl fun h _ => by rw [flatBlock_apply]

/-! ## The lane reductions and the column layouts read at an index -/

/-- The lane maximum at (b, r): the fold of max from the bottom over the 640 lanes. -/
theorem laneMax_apply (src : FVec Ideal S8x256x640 .f32) (b : Fin 8) (r : Fin 256) :
    multiReduction (F := Ideal) .maximumf [2] S8x256 src 0xFF800000#32 reduces_S8x256x640_S8x256 (.inl rfl) rfl (ix2 b r)
      = (Finset.univ : Finset (Fin 640)).fold max (⊥ : EReal) (fun j => src (ix3 b r j)) := by
  refine (Ideal.multiReduction_maximumf_single src 0xFF800000#32 reduces_S8x256x640_S8x256 (.inl rfl) rfl (ix2 b r)).trans ?_
  have e1 : FloatOps.ofBits (F := Ideal) .f32 0xFF800000#32 = (⊥ : EReal) := ofBits_negInf_f32
  have e2 : (src ∘ reduces_S8x256x640_S8x256.lift (ix2 b r)) = fun j : Fin 640 => src (ix3 b r j) :=
    funext fun j => congrArg src (funext fun a => Fin.ext (by match a with | ⟨0, _⟩ => rfl | ⟨1, _⟩ => rfl | ⟨2, _⟩ => rfl))
  rw [e1, e2]
  rfl

/-- The lane sum at (b, r): the sum over the 640 lanes. -/
theorem laneSum_apply (src : FVec Ideal S8x256x640 .f32) (b : Fin 8) (r : Fin 256) :
    multiReduction (F := Ideal) .add [2] S8x256 src 0x00000000#32 reduces_S8x256x640_S8x256 (.inl rfl) rfl (ix2 b r)
      = ∑ j : Fin 640, src (ix3 b r j) := by
  refine (Ideal.multiReduction_add_single src 0x00000000#32 reduces_S8x256x640_S8x256 (.inl rfl) rfl (ix2 b r)).trans ?_
  refine Finset.sum_congr rfl fun j _ => ?_
  exact congrArg src (funext fun a => Fin.ext (by match a with | ⟨0, _⟩ => rfl | ⟨1, _⟩ => rfl | ⟨2, _⟩ => rfl))

/-- A [8,256] array seen as a column [8,256,1] reads, at (b, r, 0), the array at (b, r). -/
theorem column_apply {α : Type} (y : S8x256.Idx → α) (b : Fin 8) (r : Fin 256) :
    shapeCast S8x256x1 y shapeCasts_S8x256_S8x256x1 (ix3 b r (0 : Fin 1)) = y (ix2 b r) :=
  shapeCast_apply y shapeCasts_S8x256_S8x256x1 _ _ (by
    rw [Shape.rowMajor_val_three, Shape.rowMajor_val_two]
    show b.val * 256 + r.val = (b.val * 256 + r.val) * 1 + 0
    omega)

/-- A column [8,256,1] spread over the 640 lanes reads, at (b, r, j), the column at (b, r, 0). -/
theorem spread_apply {α : Type} (c : S8x256x1.Idx → α) (b : Fin 8) (r : Fin 256) (j : Fin 640) :
    broadcastTo S8x256x640 c broadcasts_S8x256x1_S8x256x640 (ix3 b r j) = c (ix3 b r (0 : Fin 1)) := by
  refine broadcastTo_apply c broadcasts_S8x256x1_S8x256x640 (ix3 b r j) (ix3 b r (0 : Fin 1)) fun a => ?_
  match a with
  | ⟨0, _⟩ => rfl
  | ⟨1, _⟩ => rfl
  | ⟨2, _⟩ => rfl

/-! ## The payloads -/

/-- The maximum payload at (b, r, 0): the old column against the tile's largest logit. -/
theorem pay5_apply (x : Vec Ideal S8x256x2048 .bf16) (w : Vec Ideal S640x2048 .bf16) (mo : Vec Ideal S8x256x1 .f32) (b : Fin 8) (r : Fin 256) :
    k0_pay5 x w mo (ix3 b r (0 : Fin 1))
      = max (mo (ix3 b r (0 : Fin 1))) ((Finset.univ : Finset (Fin 640)).fold max (⊥ : EReal) (fun j => blkLogit x w b r j)) := by
  unfold k0_pay5
  refine (maximumf_apply _ _ _).trans ?_
  refine congrArg (max (mo (ix3 b r (0 : Fin 1)))) ?_
  refine (column_apply _ b r).trans ?_
  refine (laneMax_apply _ b r).trans ?_
  have e : (fun j : Fin 640 => k0_pay4 x w (ix3 b r j)) = fun j => blkLogit x w b r j := funext fun j => pay4_apply x w b r j
  rw [e]

/-- The exponential of a vector read at an index. -/
theorem vexp_apply {s : Shape} {φ : FTy} (a : FVec Ideal s φ) (i : s.Idx) :
    Idealize.ShloMosaic.exp a i = Ideal.exp (a i) := rfl

/-- The stored maximum is the maximum payload. -/
theorem mNew_eq (x : Vec Ideal S8x256x2048 .bf16) (w : Vec Ideal S640x2048 .bf16) (mo : Vec Ideal S8x256x1 .f32) :
    mNew x w mo = k0_pay5 x w mo := by
  unfold mNew k0_pay7
  exact shapeCast_self _ _

/-- The new maximum: the old one against the largest logit of the tile. -/
theorem mNew_apply (x : Vec Ideal S8x256x2048 .bf16) (w : Vec Ideal S640x2048 .bf16) (mo : Vec Ideal S8x256x1 .f32) (b : Fin 8) (r : Fin 256) :
    mNew x w mo (ix3 b r (0 : Fin 1))
      = max (mo (ix3 b r (0 : Fin 1))) ((Finset.univ : Finset (Fin 640)).fold max (⊥ : EReal) (fun j => blkLogit x w b r j)) := by
  rw [mNew_eq]
  exact pay5_apply x w mo b r

/-- The sum payload at (b, r, 0), over the maximum payload. -/
theorem pay6_apply (x : Vec Ideal S8x256x2048 .bf16) (w : Vec Ideal S640x2048 .bf16) (mo lo : Vec Ideal S8x256x1 .f32) (b : Fin 8) (r : Fin 256) :
    k0_pay6 x w mo mo lo (ix3 b r (0 : Fin 1))
      = Ideal.exp (mo (ix3 b r (0 : Fin 1)) - k0_pay5 x w mo (ix3 b r (0 : Fin 1))) * lo (ix3 b r (0 : Fin 1))
        + ∑ j : Fin 640, Ideal.exp (blkLogit x w b r j - k0_pay5 x w mo (ix3 b r (0 : Fin 1))) := by
  unfold k0_pay6
  refine (congrFun (shapeCast_self _ shapeCasts_S8x256x1_S8x256x1) _).trans ?_
  refine (addf_apply _ _ _).trans ?_
  refine congrArg₂ (· + ·) ?_ ?_
  · rw [mulf_apply, vexp_apply, subf_apply]
  · refine (column_apply _ b r).trans ?_
    refine (laneSum_apply _ b r).trans ?_
    refine Finset.sum_congr rfl fun j _ => ?_
    rw [vexp_apply, subf_apply, spread_apply, pay4_apply]

/-- The new sum: the old one rescaled to the new maximum, plus the tile's exponentials. -/
theorem lNew_apply (x : Vec Ideal S8x256x2048 .bf16) (w : Vec Ideal S640x2048 .bf16) (mo lo : Vec Ideal S8x256x1 .f32) (b : Fin 8) (r : Fin 256) :
    lNew x w mo lo (ix3 b r (0 : Fin 1))
      = Ideal.exp (mo (ix3 b r (0 : Fin 1)) - mNew x w mo (ix3 b r (0 : Fin 1))) * lo (ix3 b r (0 : Fin 1))
        + ∑ j : Fin 640, Ideal.exp (blkLogit x w b r j - mNew x w mo (ix3 b r (0 : Fin 1))) := by
  rw [mNew_eq]
  exact pay6_apply x w mo lo b r

end Cert.KernelIdeal.R0

end
-- ==== Proof.Online.lean ====
/-
  The running log-sum-exp.  Walking a token's 32000 logits in 50 tiles of 640, keep the largest logit seen so far and the
  sum of exp(logit - that maximum); entering a tile, the old sum is rescaled by exp(old maximum - new maximum).  After
  the 50 tiles the pair is the overall maximum and the overall sum: exp(a) · exp(b) = exp(a + b) on the reals, and the
  logits of finite inputs are real.
-/
import proofs.«411388_j45131516346680_3_alg».proof.Proof.Spec
import Mathlib.Data.EReal.Operations
import Mathlib.Analysis.SpecialFunctions.Exp
import Mathlib.Analysis.SpecialFunctions.Log.Basic
import Mathlib.Data.Finset.Lattice.Fold
import Mathlib.Algebra.BigOperators.Group.Finset.Basic
import Mathlib.Algebra.Order.BigOperators.Group.Finset

noncomputable section

namespace Cert.Lse

open Idealize.ShloMosaic Idealize.ShloMosaic.ValueIdx

/-- Row j of tile k. -/
def tileIdx (k : Fin 50) (j : Fin 640) : Fin 32000 := ⟨640 * k.val + j.val, by have := k.isLt; have := j.isLt; omega⟩

/-- The largest logit of tile k, as a fold of max from minus infinity. -/
def tileMax (L : Fin 32000 → EReal) (k : Fin 50) : EReal :=
  (Finset.univ : Finset (Fin 640)).fold max ⊥ (fun j => L (tileIdx k j))

/-- The pair (running maximum, running sum) after the first k tiles, from (minus infinity, 0). -/
def onl (L : Fin 32000 → EReal) : ℕ → EReal × EReal
  | 0 => (⊥, 0)
  | k + 1 =>
    if h : k < 50 then
      (max (onl L k).1 (tileMax L ⟨k, h⟩),
       Ideal.exp ((onl L k).1 - max (onl L k).1 (tileMax L ⟨k, h⟩)) * (onl L k).2
         + ∑ j : Fin 640, Ideal.exp (L (tileIdx ⟨k, h⟩ j) - max (onl L k).1 (tileMax L ⟨k, h⟩)))
    else onl L k

/-! ## Real sums and maxima inside the extended reals -/

/-- The coercion of a finite sum of reals is the sum of the coercions. -/
private theorem coe_fsum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A fold of max from minus infinity is the supremum. -/
private theorem fold_max_eq_sup {ι : Type*} (s : Finset ι) (f : ι → EReal) : s.fold max ⊥ f = s.sup f := rfl

/-- A fold of max from minus infinity over a nonempty family of reals is the largest of them, attained at some index. -/
private theorem fold_max_coe {ι : Type*} (s : Finset ι) (hs : s.Nonempty) (f : ι → ℝ) :
    ∃ i ∈ s, s.fold max ⊥ (fun j => (f j : EReal)) = (f i : EReal) ∧ ∀ j ∈ s, f j ≤ f i := by
  have hfold : s.fold max ⊥ (fun j => (f j : EReal)) = s.sup (fun j => (f j : EReal)) := rfl
  obtain ⟨i, hi, hsup⟩ := Finset.exists_mem_eq_sup s hs (fun j => (f j : EReal))
  refine ⟨i, hi, hfold.trans hsup, fun j hj => ?_⟩
  have hj' : ((f j : ℝ) : EReal) ≤ s.sup (fun j => (f j : EReal)) :=
    Finset.le_sup (f := fun j => (f j : EReal)) hj
  rw [hsup] at hj'
  exact EReal.coe_le_coe_iff.mp hj'

/-- Rescaling a sum of exponentials from one reference point to another: exp(M - M') · exp(a - M) = exp(a - M'). -/
private theorem rescale (s : Finset (Fin 32000)) (ℓ : Fin 32000 → ℝ) (M M' : ℝ) :
    Real.exp (M - M') * ∑ v ∈ s, Real.exp (ℓ v - M) = ∑ v ∈ s, Real.exp (ℓ v - M') := by
  rw [Finset.mul_sum]
  refine Finset.sum_congr rfl fun v _ => ?_
  rw [← Real.exp_add]
  congr 1
  ring

/-! ## The rows of the first k tiles -/

/-- The rows of the first k tiles: those below 640 · k. -/
private def rowsBelow (k : ℕ) : Finset (Fin 32000) := Finset.univ.filter (fun v => v.val < 640 * k)

private theorem mem_rowsBelow {k : ℕ} {v : Fin 32000} : v ∈ rowsBelow k ↔ v.val < 640 * k := by
  simp [rowsBelow]

private theorem tileIdx_val (k : Fin 50) (j : Fin 640) : (tileIdx k j).val = 640 * k.val + j.val := rfl

private theorem tileIdx_inj (k : Fin 50) : Function.Injective (tileIdx k) := by
  intro a b hab
  have h := congrArg Fin.val hab
  rw [tileIdx_val, tileIdx_val] at h
  exact Fin.ext (by omega)

/-- The rows of the first k + 1 tiles are those of the first k together with tile k. -/
private theorem rowsBelow_succ (k : ℕ) (h : k < 50) :
    rowsBelow (k + 1) = rowsBelow k ∪ Finset.univ.image (tileIdx ⟨k, h⟩) := by
  ext v
  rw [Finset.mem_union, mem_rowsBelow, mem_rowsBelow, Finset.mem_image]
  constructor
  · intro hv
    by_cases hlt : v.val < 640 * k
    · exact Or.inl hlt
    · refine Or.inr ⟨⟨v.val - 640 * k, by omega⟩, Finset.mem_univ _, ?_⟩
      apply Fin.ext
      rw [tileIdx_val]
      show 640 * k + (v.val - 640 * k) = v.val
      omega
  · rintro (hv | ⟨j, -, rfl⟩)
    · omega
    · rw [tileIdx_val]
      have := j.isLt
      show 640 * k + j.val < 640 * (k + 1)
      omega

private theorem rowsBelow_disj (k : ℕ) (h : k < 50) :
    Disjoint (rowsBelow k) (Finset.univ.image (tileIdx ⟨k, h⟩)) := by
  rw [Finset.disjoint_left]
  intro v hv hv'
  rw [mem_rowsBelow] at hv
  obtain ⟨j, -, rfl⟩ := Finset.mem_image.mp hv'
  rw [tileIdx_val] at hv
  have : 640 * k + j.val < 640 * k := hv
  omega

private theorem sum_rowsBelow_succ (k : ℕ) (h : k < 50) (g : Fin 32000 → ℝ) :
    ∑ v ∈ rowsBelow (k + 1), g v = ∑ v ∈ rowsBelow k, g v + ∑ j : Fin 640, g (tileIdx ⟨k, h⟩ j) := by
  rw [rowsBelow_succ k h, Finset.sum_union (rowsBelow_disj k h),
    Finset.sum_image (fun a _ b _ hab => tileIdx_inj _ hab)]

private theorem rowsBelow_zero : rowsBelow 0 = ∅ := by
  ext v
  rw [mem_rowsBelow]
  simp

private theorem rowsBelow_fifty : rowsBelow 50 = Finset.univ := by
  ext v
  rw [mem_rowsBelow]
  have := v.isLt
  simp only [Finset.mem_univ, iff_true]
  omega

/-! ## The invariant of the walk -/

private theorem onl_succ (L : Fin 32000 → EReal) (k : ℕ) (h : k < 50) :
    onl L (k + 1) = (max (onl L k).1 (tileMax L ⟨k, h⟩),
       Ideal.exp ((onl L k).1 - max (onl L k).1 (tileMax L ⟨k, h⟩)) * (onl L k).2
         + ∑ j : Fin 640, Ideal.exp (L (tileIdx ⟨k, h⟩ j) - max (onl L k).1 (tileMax L ⟨k, h⟩))) := by
  rw [onl, dif_pos h]

/-- After k tiles (k ≥ 1) the running maximum is a real M, the largest logit among the rows seen and attained there, and
    the running sum is the real sum over those rows of exp(logit - M). -/
private def Inv (L : Fin 32000 → EReal) (ℓ : Fin 32000 → ℝ) (k : ℕ) : Prop :=
  ∃ M : ℝ, (onl L k).1 = (M : EReal) ∧ (∀ v ∈ rowsBelow k, ℓ v ≤ M) ∧ (∃ v ∈ rowsBelow k, ℓ v = M) ∧
    (onl L k).2 = ((∑ v ∈ rowsBelow k, Real.exp (ℓ v - M) : ℝ) : EReal)

/-- The largest logit of a tile of real logits is real and attained in the tile. -/
private theorem tileMax_real (L : Fin 32000 → EReal) (ℓ : Fin 32000 → ℝ) (hL : ∀ v, L v = (ℓ v : EReal)) (k : Fin 50) :
    ∃ i : Fin 640, tileMax L k = (ℓ (tileIdx k i) : EReal) ∧ ∀ j : Fin 640, ℓ (tileIdx k j) ≤ ℓ (tileIdx k i) := by
  have hfun : (fun j => L (tileIdx k j)) = (fun j => ((ℓ (tileIdx k j) : ℝ) : EReal)) := funext fun j => hL _
  obtain ⟨i, -, hi, hle⟩ :=
    fold_max_coe Finset.univ ⟨(0 : Fin 640), Finset.mem_univ _⟩ (fun j => ℓ (tileIdx k j))
  refine ⟨i, ?_, fun j => hle j (Finset.mem_univ _)⟩
  unfold tileMax
  rw [hfun]
  exact hi

/-- Adding tile k's exponentials, taken at the new maximum M', to the rescaled old sum gives the sum over the first
    k + 1 tiles. -/
private theorem step_sum (L : Fin 32000 → EReal) (ℓ : Fin 32000 → ℝ) (hL : ∀ v, L v = (ℓ v : EReal))
    (k : ℕ) (h : k < 50) (M' : ℝ) (A : EReal)
    (hA : A = ((∑ v ∈ rowsBelow k, Real.exp (ℓ v - M') : ℝ) : EReal)) :
    A + ∑ j : Fin 640, Ideal.exp (L (tileIdx ⟨k, h⟩ j) - (M' : EReal))
      = ((∑ v ∈ rowsBelow (k + 1), Real.exp (ℓ v - M') : ℝ) : EReal) := by
  have hterm : ∀ j : Fin 640, Ideal.exp (L (tileIdx ⟨k, h⟩ j) - (M' : EReal))
      = ((Real.exp (ℓ (tileIdx ⟨k, h⟩ j) - M') : ℝ) : EReal) := by
    intro j
    rw [hL, ← EReal.coe_sub, Ideal.exp_coe]
  rw [hA, Finset.sum_congr rfl (fun j _ => hterm j), ← coe_fsum, ← EReal.coe_add, sum_rowsBelow_succ k h]

/-- One tile of the walk, once the new maximum M' and the rescaled old sum are known. -/
private theorem inv_close (L : Fin 32000 → EReal) (ℓ : Fin 32000 → ℝ) (hL : ∀ v, L v = (ℓ v : EReal))
    (k : ℕ) (h : k < 50) (M' : ℝ)
    (hmax : max (onl L k).1 (tileMax L ⟨k, h⟩) = (M' : EReal))
    (hA : Ideal.exp ((onl L k).1 - (M' : EReal)) * (onl L k).2
      = ((∑ v ∈ rowsBelow k, Real.exp (ℓ v - M') : ℝ) : EReal))
    (hold : ∀ v ∈ rowsBelow k, ℓ v ≤ M')
    (hnew : ∀ j : Fin 640, ℓ (tileIdx ⟨k, h⟩ j) ≤ M')
    (hatt : ∃ v ∈ rowsBelow (k + 1), ℓ v = M') : Inv L ℓ (k + 1) := by
  refine ⟨M', ?_, ?_, hatt, ?_⟩
  · rw [onl_succ L k h]
    exact hmax
  · intro v hv
    rw [rowsBelow_succ k h, Finset.mem_union] at hv
    rcases hv with hv | hv
    · exact hold v hv
    · obtain ⟨j, -, rfl⟩ := Finset.mem_image.mp hv
      exact hnew j
  · rw [onl_succ L k h]
    dsimp only
    rw [hmax]
    exact step_sum L ℓ hL k h M' _ hA

/-- One tile of the walk, from the start (⊥, 0) or from a state satisfying the invariant. -/
private theorem inv_step (L : Fin 32000 → EReal) (ℓ : Fin 32000 → ℝ) (hL : ∀ v, L v = (ℓ v : EReal))
    (k : ℕ) (h : k < 50) (hk : k = 0 ∨ Inv L ℓ k) : Inv L ℓ (k + 1) := by
  obtain ⟨i, hi, hle⟩ := tileMax_real L ℓ hL ⟨k, h⟩
  have hmemT : tileIdx ⟨k, h⟩ i ∈ rowsBelow (k + 1) := by
    rw [rowsBelow_succ k h]
    exact Finset.mem_union_right _ (Finset.mem_image_of_mem _ (Finset.mem_univ _))
  rcases hk with hk | ⟨M, hm, hMle, ⟨v0, hv0, hv0M⟩, hs⟩
  · -- from (⊥, 0): the new maximum is the tile's, and the old sum 0 stays 0
    subst hk
    have h0 : onl L 0 = (⊥, 0) := by rw [onl]
    refine inv_close L ℓ hL 0 h (ℓ (tileIdx ⟨0, h⟩ i)) ?_ ?_ ?_ hle ⟨_, hmemT, rfl⟩
    · rw [h0, hi]
      exact max_eq_right bot_le
    · rw [h0, rowsBelow_zero, Finset.sum_empty, EReal.coe_zero]
      exact mul_zero _
    · intro v hv
      rw [rowsBelow_zero] at hv
      exact absurd hv (Finset.notMem_empty v)
  · -- from a real state (M, s)
    have hcoe_max : max (M : EReal) (ℓ (tileIdx ⟨k, h⟩ i) : EReal) = ((max M (ℓ (tileIdx ⟨k, h⟩ i)) : ℝ) : EReal) := by
      rcases le_total M (ℓ (tileIdx ⟨k, h⟩ i)) with hMT | hMT
      · rw [max_eq_right hMT, max_eq_right (EReal.coe_le_coe_iff.mpr hMT)]
      · rw [max_eq_left hMT, max_eq_left (EReal.coe_le_coe_iff.mpr hMT)]
    refine inv_close L ℓ hL k h (max M (ℓ (tileIdx ⟨k, h⟩ i))) ?_ ?_ ?_ ?_ ?_
    · rw [hm, hi, hcoe_max]
    · rw [hm, hs, ← EReal.coe_sub, Ideal.exp_coe, ← EReal.coe_mul, rescale]
    · intro v hv
      exact (hMle v hv).trans (le_max_left _ _)
    · intro j
      exact (hle j).trans (le_max_right _ _)
    · rcases le_total M (ℓ (tileIdx ⟨k, h⟩ i)) with hMT | hMT
      · exact ⟨_, hmemT, (max_eq_right hMT).symm⟩
      · refine ⟨v0, ?_, hv0M.trans (max_eq_left hMT).symm⟩
        rw [rowsBelow_succ k h]
        exact Finset.mem_union_left _ hv0

private theorem inv_all (L : Fin 32000 → EReal) (ℓ : Fin 32000 → ℝ) (hL : ∀ v, L v = (ℓ v : EReal)) :
    ∀ k : ℕ, k ≤ 50 → (k = 0 ∨ Inv L ℓ k) := by
  intro k
  induction k with
  | zero => exact fun _ => Or.inl rfl
  | succ k ih => exact fun hk => Or.inr (inv_step L ℓ hL k (by omega) (ih (by omega)))

/-- For real logits the largest one is real, and the sum of exp(logit - largest) is a positive real. -/
private theorem sup_sum_real (L : Fin 32000 → EReal) (hfin : ∀ v, ∃ r : ℝ, L v = (r : EReal)) :
    ∃ M r : ℝ, 0 < r ∧
      Finset.univ.sup' (⟨(0 : Fin 32000), Finset.mem_univ _⟩ : (Finset.univ : Finset (Fin 32000)).Nonempty) L = (M : EReal) ∧
      ∑ v : Fin 32000, Ideal.exp (L v - Finset.univ.sup' (⟨(0 : Fin 32000), Finset.mem_univ _⟩ : (Finset.univ : Finset (Fin 32000)).Nonempty) L) = (r : EReal) := by
  choose ℓ hL using hfin
  obtain ⟨i, -, hi⟩ := Finset.exists_mem_eq_sup'
    (⟨(0 : Fin 32000), Finset.mem_univ _⟩ : (Finset.univ : Finset (Fin 32000)).Nonempty) L
  refine ⟨ℓ i, ∑ v : Fin 32000, Real.exp (ℓ v - ℓ i),
    Finset.sum_pos (fun v _ => Real.exp_pos _) ⟨(0 : Fin 32000), Finset.mem_univ _⟩, hi.trans (hL i), ?_⟩
  rw [hi, coe_fsum]
  refine Finset.sum_congr rfl fun v _ => ?_
  rw [hL v, hL i, ← EReal.coe_sub, Ideal.exp_coe]

/-- After all 50 tiles: the overall maximum, and the sum of exp(logit - maximum) over all rows. -/
theorem onl_final (L : Fin 32000 → EReal) (hfin : ∀ v, ∃ r : ℝ, L v = (r : EReal)) :
    onl L 50 = (Finset.univ.sup' (⟨(0 : Fin 32000), Finset.mem_univ _⟩ : (Finset.univ : Finset (Fin 32000)).Nonempty) L,
      ∑ v : Fin 32000, Ideal.exp (L v - Finset.univ.sup' (⟨(0 : Fin 32000), Finset.mem_univ _⟩ : (Finset.univ : Finset (Fin 32000)).Nonempty) L)) := by
  choose ℓ hL using hfin
  rcases inv_all L ℓ hL 50 le_rfl with h0 | ⟨M, hm, hMle, ⟨v0, -, hv0M⟩, hs⟩
  · exact absurd h0 (by decide)
  -- the overall maximum is the real M: every logit is at most M, and M is one of them
  have hsup : Finset.univ.sup' (⟨(0 : Fin 32000), Finset.mem_univ _⟩ : (Finset.univ : Finset (Fin 32000)).Nonempty) L
      = (M : EReal) := by
    apply le_antisymm
    · refine Finset.sup'_le _ _ fun v _ => ?_
      rw [hL v]
      exact EReal.coe_le_coe_iff.mpr (hMle v (by rw [rowsBelow_fifty]; exact Finset.mem_univ v))
    · rw [← hv0M, ← hL v0]
      exact Finset.le_sup' L (Finset.mem_univ v0)
  rw [hsup]
  refine Prod.ext hm ?_
  dsimp only
  rewrite [hs, rowsBelow_fifty, coe_fsum]
  refine Finset.sum_congr rfl fun v _ => ?_
  rw [hL v, ← EReal.coe_sub, Ideal.exp_coe]

/-- A logit of finite inputs is a real number. -/
theorem logit_real (x : SX.Idx → EReal) (W : SW.Idx → EReal) (hx : ∀ i, ∃ r : ℝ, x i = (r : EReal)) (hW : ∀ i, ∃ r : ℝ, W i = (r : EReal))
    (b : Fin 8) (t : Fin 512) (v : Fin 32000) : ∃ r : ℝ, logit x W b t v = (r : EReal) := by
  choose xr hxr using hx
  choose wr hwr using hW
  refine ⟨∑ h : Fin 2048, xr (ix3 b t h) * wr (ix2 v h), ?_⟩
  unfold logit
  rw [coe_fsum]
  refine Finset.sum_congr rfl fun h _ => ?_
  rw [hxr, hwr, EReal.coe_mul]

/-- The log-sum-exp is what the running pair ends at. -/
theorem lse_eq_onl (x : SX.Idx → EReal) (W : SW.Idx → EReal) (hx : ∀ i, ∃ r : ℝ, x i = (r : EReal)) (hW : ∀ i, ∃ r : ℝ, W i = (r : EReal))
    (b : Fin 8) (t : Fin 512) :
    lse x W b t = (onl (logit x W b t) 50).1 + Ideal.log (onl (logit x W b t) 50).2 := by
  have h := onl_final (logit x W b t) (logit_real x W hx hW b t)
  have h1 := congrArg Prod.fst h
  have h2 := congrArg Prod.snd h
  dsimp only at h1 h2
  rewrite [h1, h2]
  rfl

/-- The largest logit as a fold of max from minus infinity over all rows (the form a row-maximum reduction reads as). -/
theorem mx_eq_fold (x : SX.Idx → EReal) (W : SW.Idx → EReal) (b : Fin 8) (t : Fin 512) :
    mx x W b t = (Finset.univ : Finset (Fin 32000)).fold max ⊥ (logit x W b t) := by
  have h1 : mx x W b t = Finset.univ.sup (logit x W b t) := Finset.sup'_eq_sup _ _
  exact h1.trans (fold_max_eq_sup Finset.univ (logit x W b t)).symm

/-- Subtracting the log-sum-exp in one step or in two: for finite inputs the logit, the maximum and the log of the sum are real. -/
theorem tok_law (x : SX.Idx → EReal) (W : SW.Idx → EReal) (hx : ∀ i, ∃ r : ℝ, x i = (r : EReal)) (hW : ∀ i, ∃ r : ℝ, W i = (r : EReal))
    (b : Fin 8) (t : Fin 512) (v : Fin 32000) :
    logit x W b t v - lse x W b t = (logit x W b t v - mx x W b t) - Ideal.log (se x W b t) := by
  obtain ⟨a, ha⟩ := logit_real x W hx hW b t v
  obtain ⟨M, r, hr0, hM, hr⟩ := sup_sum_real (logit x W b t) (logit_real x W hx hW b t)
  have hM' : mx x W b t = (M : EReal) := hM
  have hr' : se x W b t = (r : EReal) := hr
  have hlse : lse x W b t = mx x W b t + Ideal.log (se x W b t) := rfl
  rewrite [hlse, ha, hM', hr', Ideal.log_coe, if_neg (not_le.mpr hr0), ← EReal.coe_add, ← EReal.coe_sub, ← EReal.coe_sub,
    ← EReal.coe_sub]
  have e : a - (M + Real.log r) = a - M - Real.log r := by ring
  rw [e]

end Cert.Lse

end
-- ==== Proof.KI.R0.ScanVal.lean ====
/-
  Region 0's scratch columns along the grid.  Point t = 50·q + k works on token positions 256·q … 256·q + 255 and on vocabulary
  rows 640·k … 640·k + 639; after it the columns hold, for each token of the block, the running pair of that token's logits
  after k + 1 tiles.  At k = 49 the stored output is the token's log-sum-exp.
-/
import proofs.«411388_j45131516346680_3_alg».proof.Proof.KI.R0.Body
import proofs.«411388_j45131516346680_3_alg».proof.Proof.KI.R0.PayVal
import proofs.«411388_j45131516346680_3_alg».proof.Proof.Online

set_option maxRecDepth 16384

noncomputable section

namespace Cert.KernelIdeal.R0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The token position of row r of the block at point t. -/
def tokPos (t : Fin cfg0.N) (r : Fin 256) : Fin 512 :=
  ⟨256 * (t.val / 50) + r.val, by have := t.isLt; have : cfg0.N = 100 := N_0; have := r.isLt; omega⟩

/-- The block indices of the two input windows over the grid: the hidden states move along the token axis with the outer
    coordinate, the weights along the vocabulary axis with the inner one. -/
theorem idx_in : ∀ t : Fin cfg0.N, win0_0.index t (0 : Fin 3) = 0 ∧ win0_0.index t (1 : Fin 3) = t.val / 50 ∧ win0_0.index t (2 : Fin 3) = 0
    ∧ win0_1.index t (0 : Fin 2) = t.val % 50 ∧ win0_1.index t (1 : Fin 2) = 0 :=
  (by decide +kernel : ∀ t : Fin grid0.N, _)

/-- The block of hidden states at point t is the array's rows 256·(t / 50) + r. -/
theorem xblk_apply (c : Dev nD) (xa : Cert.Lse.SX.Idx → EReal) (hxa : V c main_v8 = xa) (t : Fin cfg0.N) (b : Fin 8) (r : Fin 256) (h : Fin 2048) :
    xblk V c t (ix3 b r h) = xa (ix3 b (tokPos t r) h) := by
  subst hxa
  obtain ⟨e0, e1, e2, -, -⟩ := idx_in t
  show V c main_v8 (((cfg0.win 0).blk t).view.emb (ix3 b r h)) = V c main_v8 (ix3 b (tokPos t r) h)
  have he : ((cfg0.win 0).blk t).view.emb (ix3 b r h) = ix3 b (tokPos t r) h := by
    funext a; apply Fin.ext
    match a with
    | ⟨0, _⟩ => show win0_0.index t (0 : Fin 3) * 8 + 1 * b.val = b.val; omega
    | ⟨1, _⟩ => show win0_0.index t (1 : Fin 3) * 256 + 1 * r.val = 256 * (t.val / 50) + r.val; omega
    | ⟨2, _⟩ => show win0_0.index t (2 : Fin 3) * 2048 + 1 * h.val = h.val; omega
  rw [he]

/-- The tile of weights at point t is the table's rows 640·(t % 50) + j. -/
theorem wblk_apply (c : Dev nD) (wa : Cert.Lse.SW.Idx → EReal) (hwa : V c main_v9 = wa) (t : Fin cfg0.N) (j : Fin 640) (h : Fin 2048) :
    wblk V c t (ix2 j h) = wa (ix2 (Cert.Lse.tileIdx ⟨t.val % 50, Nat.mod_lt _ (by decide)⟩ j) h) := by
  subst hwa
  obtain ⟨-, -, -, e0, e1⟩ := idx_in t
  show V c main_v9 (((cfg0.win 1).blk t).view.emb (ix2 j h)) = V c main_v9 (ix2 (Cert.Lse.tileIdx ⟨t.val % 50, Nat.mod_lt _ (by decide)⟩ j) h)
  have he : ((cfg0.win 1).blk t).view.emb (ix2 j h) = ix2 (Cert.Lse.tileIdx ⟨t.val % 50, Nat.mod_lt _ (by decide)⟩ j) h := by
    funext a; apply Fin.ext
    match a with
    | ⟨0, _⟩ => show win0_1.index t (0 : Fin 2) * 640 + 1 * j.val = 640 * (t.val % 50) + j.val; omega
    | ⟨1, _⟩ => show win0_1.index t (1 : Fin 2) * 2048 + 1 * h.val = h.val; omega
  rw [he]

/-- One tile of the walk: if the columns hold a token's running pair after k tiles and the point's blocks are that token's
    hidden vector and the rows of tile k, the updated columns hold the running pair after k + 1 tiles. -/
theorem pair_step (xa : Cert.Lse.SX.Idx → EReal) (wa : Cert.Lse.SW.Idx → EReal)
    (x : Vec Ideal S8x256x2048 .bf16) (w : Vec Ideal S640x2048 .bf16) (mo lo : Vec Ideal S8x256x1 .f32)
    (b : Fin 8) (r : Fin 256) (tp : Fin 512) (k : ℕ) (hk : k < 50)
    (hx : ∀ h : Fin 2048, x (ix3 b r h) = xa (ix3 b tp h))
    (hw : ∀ (j : Fin 640) (h : Fin 2048), w (ix2 j h) = wa (ix2 (Cert.Lse.tileIdx ⟨k, hk⟩ j) h))
    (hprev : (mo (ix3 b r (0 : Fin 1)), lo (ix3 b r (0 : Fin 1))) = Cert.Lse.onl (Cert.Lse.logit xa wa b tp) k) :
    (mNew x w mo (ix3 b r (0 : Fin 1)), lNew x w mo lo (ix3 b r (0 : Fin 1))) = Cert.Lse.onl (Cert.Lse.logit xa wa b tp) (k + 1) := by
  have hL : ∀ j : Fin 640, blkLogit x w b r j = Cert.Lse.logit xa wa b tp (Cert.Lse.tileIdx ⟨k, hk⟩ j) := by
    intro j
    unfold blkLogit Cert.Lse.logit
    exact Finset.sum_congr rfl (fun h _ => by rw [hx h, hw j h])
  have hm : mNew x w mo (ix3 b r (0 : Fin 1))
      = max (Cert.Lse.onl (Cert.Lse.logit xa wa b tp) k).1 (Cert.Lse.tileMax (Cert.Lse.logit xa wa b tp) ⟨k, hk⟩) := by
    rw [mNew_apply x w mo b r, ← hprev]
    unfold Cert.Lse.tileMax
    simp only [hL]
  rw [lNew_apply x w mo lo b r, hm]
  rw [Cert.Lse.onl, dif_pos hk, ← hprev]
  simp only [hL]

/-- After point t the columns hold each token's running pair after (t % 50) + 1 tiles. -/
theorem scAt_onl (c : Dev nD) (xa : Cert.Lse.SX.Idx → EReal) (wa : Cert.Lse.SW.Idx → EReal) (hxa : V c main_v8 = xa) (hwa : V c main_v9 = wa)
    (t : Fin cfg0.N) (b : Fin 8) (r : Fin 256) :
    ((scAt V c t.val t.isLt).1 (ix3 b r (0 : Fin 1)), (scAt V c t.val t.isLt).2 (ix3 b r (0 : Fin 1)))
      = Cert.Lse.onl (Cert.Lse.logit xa wa b (tokPos t r)) (t.val % 50 + 1) := by
  have hN : cfg0.N = 100 := N_0
  have key : ∀ (n : ℕ) (hn : n < cfg0.N),
      ((scAt V c n hn).1 (ix3 b r (0 : Fin 1)), (scAt V c n hn).2 (ix3 b r (0 : Fin 1)))
        = Cert.Lse.onl (Cert.Lse.logit xa wa b (tokPos ⟨n, hn⟩ r)) (n % 50 + 1) := by
    intro n
    induction n with
    | zero =>
      intro hn
      rw [scAt_reset V c 0 hn rfl]
      refine pair_step xa wa _ _ _ _ b r _ (0 % 50) (Nat.mod_lt _ (by decide))
        (fun h => xblk_apply V c xa hxa ⟨0, hn⟩ b r h) (fun j h => wblk_apply V c wa hwa ⟨0, hn⟩ j h) ?_
      rw [mReset_apply, lReset_apply]
      rfl
    | succ m ih =>
      intro hn
      by_cases h0 : (m + 1) % 50 = 0
      · rw [scAt_reset V c (m + 1) hn h0]
        refine pair_step xa wa _ _ _ _ b r _ ((m + 1) % 50) (Nat.mod_lt _ (by decide))
          (fun h => xblk_apply V c xa hxa ⟨m + 1, hn⟩ b r h) (fun j h => wblk_apply V c wa hwa ⟨m + 1, hn⟩ j h) ?_
        rw [mReset_apply, lReset_apply, h0]
        rfl
      · rw [scAt_step V c m hn h0]
        refine pair_step xa wa _ _ _ _ b r _ ((m + 1) % 50) (Nat.mod_lt _ (by decide))
          (fun h => xblk_apply V c xa hxa ⟨m + 1, hn⟩ b r h) (fun j h => wblk_apply V c wa hwa ⟨m + 1, hn⟩ j h) ?_
        have htp : tokPos ⟨m + 1, hn⟩ r = tokPos ⟨m, Nat.lt_of_succ_lt hn⟩ r := by
          apply Fin.ext
          show 256 * ((m + 1) / 50) + r.val = 256 * (m / 50) + r.val
          omega
        have hk : (m + 1) % 50 = m % 50 + 1 := by omega
        rw [htp, hk]
        exact ih (Nat.lt_of_succ_lt hn)
  exact key t.val t.isLt

/-- At the last tile of a block of tokens the stored output is each token's log-sum-exp. -/
theorem out_at (c : Dev nD) (xa : Cert.Lse.SX.Idx → EReal) (wa : Cert.Lse.SW.Idx → EReal) (hxa : V c main_v8 = xa) (hwa : V c main_v9 = wa)
    (hx : ∀ i, ∃ q : ℝ, xa i = (q : EReal)) (hw : ∀ i, ∃ q : ℝ, wa i = (q : EReal))
    (t : Fin cfg0.N) (ht : t.val % 50 = 49) (b : Fin 8) (r : Fin 256) :
    outFin (scAt V c t.val t.isLt).1 (scAt V c t.val t.isLt).2 (ix2 b r) = Cert.Lse.lse xa wa b (tokPos t r) := by
  have hp := scAt_onl V c xa wa hxa hwa t b r
  rw [ht] at hp
  have h1 : (scAt V c t.val t.isLt).1 (ix3 b r (0 : Fin 1)) = (Cert.Lse.onl (Cert.Lse.logit xa wa b (tokPos t r)) 50).1 :=
    congrArg Prod.fst hp
  have h2 : (scAt V c t.val t.isLt).2 (ix3 b r (0 : Fin 1)) = (Cert.Lse.onl (Cert.Lse.logit xa wa b (tokPos t r)) 50).2 :=
    congrArg Prod.snd hp
  rw [outFin_apply, Cert.Lse.lse_eq_onl xa wa hx hw b (tokPos t r), h1, h2]

end Cert.KernelIdeal.R0

end
-- ==== Proof.KI.R0.LseVal.lean ====
/-
  Region 0's output array after the run.  The output block of a block of tokens is written back once, after its last tile;
  the two blocks tile the [8, 512] array along the token axis.  So the array ends holding every token's log-sum-exp.
-/
import proofs.«411388_j45131516346680_3_alg».proof.Proof.KI.R0.ScanVal

set_option maxRecDepth 16384

noncomputable section

namespace Cert.KernelIdeal.R0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The output window's block index at point t: 0 along the sequences, t / 50 along the token positions. -/
theorem outBlk_index : ∀ t : Fin cfg0.N, win0_2.index t (0 : Fin 2) = 0 ∧ win0_2.index t (1 : Fin 2) = t.val / 50 :=
  (by decide +kernel : ∀ t : Fin grid0.N, _)

/-- At the last tile of a block of tokens, the stored output at an index of the block is the log-sum-exp array at the
    index of the same sequence and of token position 256·(t / 50) + the row inside the block. -/
theorem outFin_lseArr (c : Dev nD) (xa : Cert.Lse.SX.Idx → EReal) (wa : Cert.Lse.SW.Idx → EReal) (hxa : V c main_v8 = xa) (hwa : V c main_v9 = wa)
    (hx : ∀ i, ∃ q : ℝ, xa i = (q : EReal)) (hw : ∀ i, ∃ q : ℝ, wa i = (q : EReal))
    (t : Fin cfg0.N) (ht : t.val % 50 = 49) (i : S8x256.Idx) (k : S8x512.Idx)
    (hk0 : (k 0).val = (i 0).val) (hk1 : (k 1).val = 256 * (t.val / 50) + (i 1).val) :
    outFin (scAt V c t.val t.isLt).1 (scAt V c t.val t.isLt).2 i = Cert.Lse.lseArr xa wa k := by
  obtain ⟨b, r, rfl⟩ : ∃ b r, i = ix2 b r := ⟨_, _, eq_ix2 i⟩
  obtain ⟨b', p, rfl⟩ : ∃ b' p, k = ix2 b' p := ⟨_, _, eq_ix2 k⟩
  rw [out_at V c xa wa hxa hwa hx hw t ht b r, Cert.Lse.lseArr_ix2]
  have hb : b' = b := Fin.ext hk0
  have hp : p = tokPos t r := Fin.ext hk1
  rw [hb, hp]

/-- What a point at the last tile of a block of tokens writes back is its block of the log-sum-exp array. -/
theorem flushed_lse (c : Dev nD) (xa : Cert.Lse.SX.Idx → EReal) (wa : Cert.Lse.SW.Idx → EReal) (hxa : V c main_v8 = xa) (hwa : V c main_v9 = wa)
    (hx : ∀ i, ∃ q : ℝ, xa i = (q : EReal)) (hw : ∀ i, ∃ q : ℝ, wa i = (q : EReal))
    (t : Fin cfg0.N) (hf : (cfg0.win 2).flush t = true) :
    (dat V c).flushed 2 t = ((cfg0.win 2).blk t).view.read (Elt Ideal) (Cert.Lse.lseArr xa wa) := by
  have ht : t.val % 50 = 49 := (flush0_2 t).mp hf
  obtain ⟨e0, e1⟩ := outBlk_index t
  show (cfg0.win 2).cut (grid0.coords t) ((dat V c).after 2 t) = _
  rw [after_2]
  funext j
  rw [View.read_apply]
  refine outFin_lseArr V c xa wa hxa hwa hx hw t ht _ _ ?_ ?_
  · show win0_2.index t (0 : Fin 2) * 8 + 1 * (j 0).val = (j 0).val
    omega
  · show win0_2.index t (1 : Fin 2) * 256 + 1 * (j 1).val = 256 * (t.val / 50) + (j 1).val
    omega

/-- An index of the array is in point t's block iff each coordinate is in the block's range on its axis. -/
theorem mem_outBlk (t : Fin cfg0.N) (i : S8x512.Idx) :
    i ∈ ((cfg0.win 2).blk t).view.set ↔ ∀ a : Fin 2, win0_2.index t a * S8x256.size a ≤ (i a).val ∧ (i a).val < win0_2.index t a * S8x256.size a + S8x256.size a := by
  show i ∈ ((View.whole main_v10).slice (win0_2.rect t)).set ↔ _
  rw [View.set_slice_whole, Rect.mem_set_unit]
  exact Iff.rfl

/-- Every index of the array is in the block of a point that writes back: token position p is covered by the last tile
    of its block of tokens, the point 50·(p / 256) + 49. -/
theorem outBlk_cover (i : S8x512.Idx) :
    ∃ t : Fin cfg0.N, (cfg0.win 2).flush t = true ∧ i ∈ ((cfg0.win 2).blk t).view.set := by
  have hN : cfg0.N = 100 := N_0
  have hi0 : (i 0).val < 8 := (i 0).isLt
  have hi1 : (i 1).val < 512 := (i 1).isLt
  obtain ⟨t, ht⟩ : ∃ t : Fin cfg0.N, t.val = 50 * ((i 1).val / 256) + 49 := ⟨⟨50 * ((i 1).val / 256) + 49, by omega⟩, rfl⟩
  obtain ⟨e0, e1⟩ := outBlk_index t
  refine ⟨t, (flush0_2 t).mpr (by omega), ?_⟩
  rw [mem_outBlk]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 256 ≤ (i 1).val ∧ (i 1).val < win0_2.index t (1 : Fin 2) * 256 + 256; omega

/-- After the region the output array holds the log-sum-exp of every token. -/
theorem arrAt_lse (c : Dev nD) (xa : Cert.Lse.SX.Idx → EReal) (wa : Cert.Lse.SW.Idx → EReal) (hxa : V c main_v8 = xa) (hwa : V c main_v9 = wa)
    (hx : ∀ i, ∃ q : ℝ, xa i = (q : EReal)) (hw : ∀ i, ∃ q : ℝ, wa i = (q : EReal)) :
    (dat V c).arrAt 2 cfg0.N = Cert.Lse.lseArr xa wa :=
  (dat V c).arrAt_eq_of_cover 2 (Cert.Lse.lseArr xa wa)
    (fun t hf => flushed_lse V c xa wa hxa hwa hx hw t hf) outBlk_cover

end Cert.KernelIdeal.R0

end
-- ==== Proof.KI.R1.PayVal.lean ====
/-
  Region 1's scratch columns and output block, read at an index over the extended reals: the tile's logits are inner products
  over the 2048 hidden coordinates; the new maximum is the old one against the tile's largest logit; the new sum is the old
  one rescaled by exp(old maximum - new maximum) plus the tile's exp(logit - new maximum); the output is maximum + log(sum).
-/
import proofs.«411388_j45131516346680_3_alg».proof.Proof.KI.R1.Runs
import proofs.«411388_j45131516346680_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.R1

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- A tile's logit: row r of sequence b of the block against row j of the tile. -/
def blkLogit (x : Vec Ideal S8x256x2048 .bf16) (w : Vec Ideal S640x2048 .bf16) (b : Fin 8) (r : Fin 256) (j : Fin 640) : EReal :=
  ∑ h : Fin 2048, x (ix3 b r h) * w (ix2 j h)

/-- The word of minus infinity denotes the bottom of the extended reals. -/
theorem ofBits_negInf_f32 : Ideal.ofBits .f32 0xFF800000#32 = (⊥ : EReal) := by
  simp [Ideal.ofBits, Ideal.ieee]

/-- The reset maximum is minus infinity everywhere. -/
theorem mReset_apply (i : S8x256x1.Idx) : mReset (F := Ideal) i = (⊥ : EReal) := by
  unfold mReset k1_pay2
  simp only [shapeCast_self]
  exact ofBits_negInf_f32

/-- The reset sum is zero everywhere. -/
theorem lReset_apply (i : S8x256x1.Idx) : lReset (F := Ideal) i = (0 : EReal) := by
  unfold lReset k1_pay3
  simp only [shapeCast_self]
  exact Ideal.ofBits_zero_f32

/-- The output block: maximum + log(sum), the unit axis dropped. -/
theorem outFin_apply (mo lo : Vec Ideal S8x256x1 .f32) (b : Fin 8) (r : Fin 256) :
    outFin mo lo (ix2 b r) = mo (ix3 b r (0 : Fin 1)) + Ideal.log (lo (ix3 b r (0 : Fin 1))) := by
  unfold outFin k1_pay1
  refine (shapeCast_apply _ shapeCasts_S8x256x1_S8x256 (ix2 b r) (ix3 b r (0 : Fin 1)) ?_).trans ?_
  · rw [Shape.rowMajor_val_three, Shape.rowMajor_val_two]
    show (b.val * 256 + r.val) * 1 + 0 = b.val * 256 + r.val
    omega
  · rfl

/-! ## The tile product read at an index -/

/-- The flat row of sequence b, position r: 256 b + r. -/
def flatRow (b : Fin 8) (r : Fin 256) : Fin 2048 := ⟨b.val * 256 + r.val, by omega⟩

theorem lhs_tile_0 (i : S2048x640.Idx) (q : dot_S2048x2048_S640x2048_S2048x640_1_1_0_0_n_n.contr.Idx) :
    (dot_S2048x2048_S640x2048_S2048x640_1_1_0_0_n_n.lhsIdx i q 0).val = (i 0).val := by
  unfold DotDims.lhsIdx
  rw [dif_neg (show ¬(0 : Fin S2048x2048.rank) ∈ dot_S2048x2048_S640x2048_S2048x640_1_1_0_0_n_n.lhsBatch by decide), dif_pos (show (0 : Fin S2048x2048.rank) ∈ dot_S2048x2048_S640x2048_S2048x640_1_1_0_0_n_n.lhsNonContracting by decide)]
  rfl
theorem lhs_tile_1 (i : S2048x640.Idx) (q : dot_S2048x2048_S640x2048_S2048x640_1_1_0_0_n_n.contr.Idx) :
    (dot_S2048x2048_S640x2048_S2048x640_1_1_0_0_n_n.lhsIdx i q 1).val = (q ⟨0, by decide⟩).val :=
  dot_S2048x2048_S640x2048_S2048x640_1_1_0_0_n_n.lhsIdx_val_of_single rfl i q
theorem rhs_tile_0 (i : S2048x640.Idx) (q : dot_S2048x2048_S640x2048_S2048x640_1_1_0_0_n_n.contr.Idx) :
    (dot_S2048x2048_S640x2048_S2048x640_1_1_0_0_n_n.rhsIdx i q 0).val = (i 1).val := by
  unfold DotDims.rhsIdx
  rw [dif_neg (show ¬(0 : Fin S640x2048.rank) ∈ dot_S2048x2048_S640x2048_S2048x640_1_1_0_0_n_n.rhsBatch by decide), dif_pos (show (0 : Fin S640x2048.rank) ∈ dot_S2048x2048_S640x2048_S2048x640_1_1_0_0_n_n.rhsNonContracting by decide)]
  rfl
theorem rhs_tile_1 (i : S2048x640.Idx) (q : dot_S2048x2048_S640x2048_S2048x640_1_1_0_0_n_n.contr.Idx) :
    (dot_S2048x2048_S640x2048_S2048x640_1_1_0_0_n_n.rhsIdx i q 1).val = (q ⟨0, by decide⟩).val :=
  dot_S2048x2048_S640x2048_S2048x640_1_1_0_0_n_n.rhsIdx_val_of_single rfl i q

/-- The tile product at (row p, lane j): the inner product of row p of the left operand with row j of the right one. -/
theorem tileDot_apply (a : FVec Ideal S2048x2048 .bf16) (w : FVec Ideal S640x2048 .bf16) (p : Fin 2048) (j : Fin 640) :
    matmul dot_S2048x2048_S640x2048_S2048x640_1_1_0_0_n_n none a w (constant (F := Ideal) S2048x640 .f32 0x00000000#32) (ix2 p j)
      = ∑ h : Fin 2048, a (ix2 p h) * w (ix2 j h) := by
  simp only [matmul]
  rw [Ideal.matmul_constant_zero_apply, ← Equiv.sum_comp (ValueIdx.contrEquiv1 dot_S2048x2048_S640x2048_S2048x640_1_1_0_0_n_n 2048 rfl rfl).symm]
  refine Finset.sum_congr rfl fun k _ => ?_
  have hk := ValueIdx.contrEquiv1_symm_val dot_S2048x2048_S640x2048_S2048x640_1_1_0_0_n_n 2048 rfl rfl k
  have el : dot_S2048x2048_S640x2048_S2048x640_1_1_0_0_n_n.lhsIdx (ix2 p j) ((ValueIdx.contrEquiv1 dot_S2048x2048_S640x2048_S2048x640_1_1_0_0_n_n 2048 rfl rfl).symm k) = ix2 p k := funext fun a => Fin.ext (by
    match a with
    | ⟨0, _⟩ => exact lhs_tile_0 _ _
    | ⟨1, _⟩ => exact (lhs_tile_1 _ _).trans hk)
  have er : dot_S2048x2048_S640x2048_S2048x640_1_1_0_0_n_n.rhsIdx (ix2 p j) ((ValueIdx.contrEquiv1 dot_S2048x2048_S640x2048_S2048x640_1_1_0_0_n_n 2048 rfl rfl).symm k) = ix2 j k := funext fun a => Fin.ext (by
    match a with
    | ⟨0, _⟩ => exact rhs_tile_0 _ _
    | ⟨1, _⟩ => exact (rhs_tile_1 _ _).trans hk)
  rw [el, er]

/-- The block flattened to 2048 rows reads, at (256 b + r, h), the block at (b, r, h). -/
theorem flatBlock_apply (x : FVec Ideal S8x256x2048 .bf16) (b : Fin 8) (r : Fin 256) (h : Fin 2048) :
    shapeCast S2048x2048 x shapeCasts_S8x256x2048_S2048x2048 (ix2 (flatRow b r) h) = x (ix3 b r h) :=
  shapeCast_apply x shapeCasts_S8x256x2048_S2048x2048 _ _ (by
    rw [Shape.rowMajor_val_three, Shape.rowMajor_val_two]
    show (b.val * 256 + r.val) * 2048 + h.val = (b.val * 256 + r.val) * 2048 + h.val
    rfl)

/-- The product's 2048 rows seen as 8 × 256 read, at (b, r, j), the product at (256 b + r, j). -/
theorem unflat_apply (y : FVec Ideal S2048x640 .f32) (b : Fin 8) (r : Fin 256) (j : Fin 640) :
    shapeCast S8x256x640 y shapeCasts_S2048x640_S8x256x640 (ix3 b r j) = y (ix2 (flatRow b r) j) :=
  shapeCast_apply y shapeCasts_S2048x640_S8x256x640 _ _ (by
    rw [Shape.rowMajor_val_three, Shape.rowMajor_val_two]
    show (b.val * 256 + r.val) * 640 + j.val = (b.val * 256 + r.val) * 640 + j.val
    rfl)

/-- The tile's logits: the generated product payload at (b, r, j) is the inner product over the hidden coordinates. -/
theorem pay4_apply (x : Vec Ideal S8x256x2048 .bf16) (w : Vec Ideal S640x2048 .bf16) (b : Fin 8) (r : Fin 256) (j : Fin 640) :
    k1_pay4 x w (ix3 b r j) = blkLogit x w b r j := by
  unfold k1_pay4 blkLogit
  simp only [shapeCast_self]
  rw [unflat_apply, tileDot_apply]
  exact Finset.sum_congr rfl fun h _ => by rw [flatBlock_apply]

/-! ## The lane reductions and the column layouts read at an index -/

/-- The lane maximum at (b, r): the fold of max from the bottom over the 640 lanes. -/
theorem laneMax_apply (src : FVec Ideal S8x256x640 .f32) (b : Fin 8) (r : Fin 256) :
    multiReduction (F := Ideal) .maximumf [2] S8x256 src 0xFF800000#32 reduces_S8x256x640_S8x256 (.inl rfl) rfl (ix2 b r)
      = (Finset.univ : Finset (Fin 640)).fold max (⊥ : EReal) (fun j => src (ix3 b r j)) := by
  refine (Ideal.multiReduction_maximumf_single src 0xFF800000#32 reduces_S8x256x640_S8x256 (.inl rfl) rfl (ix2 b r)).trans ?_
  have e1 : FloatOps.ofBits (F := Ideal) .f32 0xFF800000#32 = (⊥ : EReal) := ofBits_negInf_f32
  have e2 : (src ∘ reduces_S8x256x640_S8x256.lift (ix2 b r)) = fun j : Fin 640 => src (ix3 b r j) :=
    funext fun j => congrArg src (funext fun a => Fin.ext (by match a with | ⟨0, _⟩ => rfl | ⟨1, _⟩ => rfl | ⟨2, _⟩ => rfl))
  rw [e1, e2]
  rfl

/-- The lane sum at (b, r): the sum over the 640 lanes. -/
theorem laneSum_apply (src : FVec Ideal S8x256x640 .f32) (b : Fin 8) (r : Fin 256) :
    multiReduction (F := Ideal) .add [2] S8x256 src 0x00000000#32 reduces_S8x256x640_S8x256 (.inl rfl) rfl (ix2 b r)
      = ∑ j : Fin 640, src (ix3 b r j) := by
  refine (Ideal.multiReduction_add_single src 0x00000000#32 reduces_S8x256x640_S8x256 (.inl rfl) rfl (ix2 b r)).trans ?_
  refine Finset.sum_congr rfl fun j _ => ?_
  exact congrArg src (funext fun a => Fin.ext (by match a with | ⟨0, _⟩ => rfl | ⟨1, _⟩ => rfl | ⟨2, _⟩ => rfl))

/-- A [8,256] array seen as a column [8,256,1] reads, at (b, r, 0), the array at (b, r). -/
theorem column_apply {α : Type} (y : S8x256.Idx → α) (b : Fin 8) (r : Fin 256) :
    shapeCast S8x256x1 y shapeCasts_S8x256_S8x256x1 (ix3 b r (0 : Fin 1)) = y (ix2 b r) :=
  shapeCast_apply y shapeCasts_S8x256_S8x256x1 _ _ (by
    rw [Shape.rowMajor_val_three, Shape.rowMajor_val_two]
    show b.val * 256 + r.val = (b.val * 256 + r.val) * 1 + 0
    omega)

/-- A column [8,256,1] spread over the 640 lanes reads, at (b, r, j), the column at (b, r, 0). -/
theorem spread_apply {α : Type} (c : S8x256x1.Idx → α) (b : Fin 8) (r : Fin 256) (j : Fin 640) :
    broadcastTo S8x256x640 c broadcasts_S8x256x1_S8x256x640 (ix3 b r j) = c (ix3 b r (0 : Fin 1)) := by
  refine broadcastTo_apply c broadcasts_S8x256x1_S8x256x640 (ix3 b r j) (ix3 b r (0 : Fin 1)) fun a => ?_
  match a with
  | ⟨0, _⟩ => rfl
  | ⟨1, _⟩ => rfl
  | ⟨2, _⟩ => rfl

/-! ## The payloads -/

/-- The maximum payload at (b, r, 0): the old column against the tile's largest logit. -/
theorem pay5_apply (x : Vec Ideal S8x256x2048 .bf16) (w : Vec Ideal S640x2048 .bf16) (mo : Vec Ideal S8x256x1 .f32) (b : Fin 8) (r : Fin 256) :
    k1_pay5 x w mo (ix3 b r (0 : Fin 1))
      = max (mo (ix3 b r (0 : Fin 1))) ((Finset.univ : Finset (Fin 640)).fold max (⊥ : EReal) (fun j => blkLogit x w b r j)) := by
  unfold k1_pay5
  refine (maximumf_apply _ _ _).trans ?_
  refine congrArg (max (mo (ix3 b r (0 : Fin 1)))) ?_
  refine (column_apply _ b r).trans ?_
  refine (laneMax_apply _ b r).trans ?_
  have e : (fun j : Fin 640 => k1_pay4 x w (ix3 b r j)) = fun j => blkLogit x w b r j := funext fun j => pay4_apply x w b r j
  rw [e]

/-- The exponential of a vector read at an index. -/
theorem vexp_apply {s : Shape} {φ : FTy} (a : FVec Ideal s φ) (i : s.Idx) :
    Idealize.ShloMosaic.exp a i = Ideal.exp (a i) := rfl

/-- The stored maximum is the maximum payload. -/
theorem mNew_eq (x : Vec Ideal S8x256x2048 .bf16) (w : Vec Ideal S640x2048 .bf16) (mo : Vec Ideal S8x256x1 .f32) :
    mNew x w mo = k1_pay5 x w mo := by
  unfold mNew k1_pay7
  exact shapeCast_self _ _

/-- The new maximum: the old one against the largest logit of the tile. -/
theorem mNew_apply (x : Vec Ideal S8x256x2048 .bf16) (w : Vec Ideal S640x2048 .bf16) (mo : Vec Ideal S8x256x1 .f32) (b : Fin 8) (r : Fin 256) :
    mNew x w mo (ix3 b r (0 : Fin 1))
      = max (mo (ix3 b r (0 : Fin 1))) ((Finset.univ : Finset (Fin 640)).fold max (⊥ : EReal) (fun j => blkLogit x w b r j)) := by
  rw [mNew_eq]
  exact pay5_apply x w mo b r

/-- The sum payload at (b, r, 0), over the maximum payload. -/
theorem pay6_apply (x : Vec Ideal S8x256x2048 .bf16) (w : Vec Ideal S640x2048 .bf16) (mo lo : Vec Ideal S8x256x1 .f32) (b : Fin 8) (r : Fin 256) :
    k1_pay6 x w mo mo lo (ix3 b r (0 : Fin 1))
      = Ideal.exp (mo (ix3 b r (0 : Fin 1)) - k1_pay5 x w mo (ix3 b r (0 : Fin 1))) * lo (ix3 b r (0 : Fin 1))
        + ∑ j : Fin 640, Ideal.exp (blkLogit x w b r j - k1_pay5 x w mo (ix3 b r (0 : Fin 1))) := by
  unfold k1_pay6
  refine (congrFun (shapeCast_self _ shapeCasts_S8x256x1_S8x256x1) _).trans ?_
  refine (addf_apply _ _ _).trans ?_
  refine congrArg₂ (· + ·) ?_ ?_
  · rw [mulf_apply, vexp_apply, subf_apply]
  · refine (column_apply _ b r).trans ?_
    refine (laneSum_apply _ b r).trans ?_
    refine Finset.sum_congr rfl fun j _ => ?_
    rw [vexp_apply, subf_apply, spread_apply, pay4_apply]

/-- The new sum: the old one rescaled to the new maximum, plus the tile's exponentials. -/
theorem lNew_apply (x : Vec Ideal S8x256x2048 .bf16) (w : Vec Ideal S640x2048 .bf16) (mo lo : Vec Ideal S8x256x1 .f32) (b : Fin 8) (r : Fin 256) :
    lNew x w mo lo (ix3 b r (0 : Fin 1))
      = Ideal.exp (mo (ix3 b r (0 : Fin 1)) - mNew x w mo (ix3 b r (0 : Fin 1))) * lo (ix3 b r (0 : Fin 1))
        + ∑ j : Fin 640, Ideal.exp (blkLogit x w b r j - mNew x w mo (ix3 b r (0 : Fin 1))) := by
  rw [mNew_eq]
  exact pay6_apply x w mo lo b r

end Cert.KernelIdeal.R1

end
-- ==== Proof.KI.R1.ScanVal.lean ====
/-
  Region 1's scratch columns along the grid.  Point t = 50·q + k works on token positions 256·q … 256·q + 255 and on vocabulary
  rows 640·k … 640·k + 639; after it the columns hold, for each token of the block, the running pair of that token's logits
  after k + 1 tiles.  At k = 49 the stored output is the token's log-sum-exp.
-/
import proofs.«411388_j45131516346680_3_alg».proof.Proof.KI.R1.Body
import proofs.«411388_j45131516346680_3_alg».proof.Proof.KI.R1.PayVal
import proofs.«411388_j45131516346680_3_alg».proof.Proof.Online

set_option maxRecDepth 16384

noncomputable section

namespace Cert.KernelIdeal.R1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The token position of row r of the block at point t. -/
def tokPos (t : Fin cfg1.N) (r : Fin 256) : Fin 512 :=
  ⟨256 * (t.val / 50) + r.val, by have := t.isLt; have : cfg1.N = 100 := N_1; have := r.isLt; omega⟩

/-- The block indices of the two input windows over the grid: the hidden states move along the token axis with the outer
    coordinate, the weights along the vocabulary axis with the inner one. -/
theorem idx_in : ∀ t : Fin cfg1.N, win1_0.index t (0 : Fin 3) = 0 ∧ win1_0.index t (1 : Fin 3) = t.val / 50 ∧ win1_0.index t (2 : Fin 3) = 0
    ∧ win1_1.index t (0 : Fin 2) = t.val % 50 ∧ win1_1.index t (1 : Fin 2) = 0 :=
  (by decide +kernel : ∀ t : Fin grid1.N, _)

/-- The block of hidden states at point t is the array's rows 256·(t / 50) + r. -/
theorem xblk_apply (c : Dev nD) (xa : Cert.Lse.SX.Idx → EReal) (hxa : V c main_v20 = xa) (t : Fin cfg1.N) (b : Fin 8) (r : Fin 256) (h : Fin 2048) :
    xblk V c t (ix3 b r h) = xa (ix3 b (tokPos t r) h) := by
  subst hxa
  obtain ⟨e0, e1, e2, -, -⟩ := idx_in t
  show V c main_v20 (((cfg1.win 0).blk t).view.emb (ix3 b r h)) = V c main_v20 (ix3 b (tokPos t r) h)
  have he : ((cfg1.win 0).blk t).view.emb (ix3 b r h) = ix3 b (tokPos t r) h := by
    funext a; apply Fin.ext
    match a with
    | ⟨0, _⟩ => show win1_0.index t (0 : Fin 3) * 8 + 1 * b.val = b.val; omega
    | ⟨1, _⟩ => show win1_0.index t (1 : Fin 3) * 256 + 1 * r.val = 256 * (t.val / 50) + r.val; omega
    | ⟨2, _⟩ => show win1_0.index t (2 : Fin 3) * 2048 + 1 * h.val = h.val; omega
  rw [he]

/-- The tile of weights at point t is the table's rows 640·(t % 50) + j. -/
theorem wblk_apply (c : Dev nD) (wa : Cert.Lse.SW.Idx → EReal) (hwa : V c main_v21 = wa) (t : Fin cfg1.N) (j : Fin 640) (h : Fin 2048) :
    wblk V c t (ix2 j h) = wa (ix2 (Cert.Lse.tileIdx ⟨t.val % 50, Nat.mod_lt _ (by decide)⟩ j) h) := by
  subst hwa
  obtain ⟨-, -, -, e0, e1⟩ := idx_in t
  show V c main_v21 (((cfg1.win 1).blk t).view.emb (ix2 j h)) = V c main_v21 (ix2 (Cert.Lse.tileIdx ⟨t.val % 50, Nat.mod_lt _ (by decide)⟩ j) h)
  have he : ((cfg1.win 1).blk t).view.emb (ix2 j h) = ix2 (Cert.Lse.tileIdx ⟨t.val % 50, Nat.mod_lt _ (by decide)⟩ j) h := by
    funext a; apply Fin.ext
    match a with
    | ⟨0, _⟩ => show win1_1.index t (0 : Fin 2) * 640 + 1 * j.val = 640 * (t.val % 50) + j.val; omega
    | ⟨1, _⟩ => show win1_1.index t (1 : Fin 2) * 2048 + 1 * h.val = h.val; omega
  rw [he]

/-- One tile of the walk: if the columns hold a token's running pair after k tiles and the point's blocks are that token's
    hidden vector and the rows of tile k, the updated columns hold the running pair after k + 1 tiles. -/
theorem pair_step (xa : Cert.Lse.SX.Idx → EReal) (wa : Cert.Lse.SW.Idx → EReal)
    (x : Vec Ideal S8x256x2048 .bf16) (w : Vec Ideal S640x2048 .bf16) (mo lo : Vec Ideal S8x256x1 .f32)
    (b : Fin 8) (r : Fin 256) (tp : Fin 512) (k : ℕ) (hk : k < 50)
    (hx : ∀ h : Fin 2048, x (ix3 b r h) = xa (ix3 b tp h))
    (hw : ∀ (j : Fin 640) (h : Fin 2048), w (ix2 j h) = wa (ix2 (Cert.Lse.tileIdx ⟨k, hk⟩ j) h))
    (hprev : (mo (ix3 b r (0 : Fin 1)), lo (ix3 b r (0 : Fin 1))) = Cert.Lse.onl (Cert.Lse.logit xa wa b tp) k) :
    (mNew x w mo (ix3 b r (0 : Fin 1)), lNew x w mo lo (ix3 b r (0 : Fin 1))) = Cert.Lse.onl (Cert.Lse.logit xa wa b tp) (k + 1) := by
  have hL : ∀ j : Fin 640, blkLogit x w b r j = Cert.Lse.logit xa wa b tp (Cert.Lse.tileIdx ⟨k, hk⟩ j) := by
    intro j
    unfold blkLogit Cert.Lse.logit
    exact Finset.sum_congr rfl (fun h _ => by rw [hx h, hw j h])
  have hm : mNew x w mo (ix3 b r (0 : Fin 1))
      = max (Cert.Lse.onl (Cert.Lse.logit xa wa b tp) k).1 (Cert.Lse.tileMax (Cert.Lse.logit xa wa b tp) ⟨k, hk⟩) := by
    rw [mNew_apply x w mo b r, ← hprev]
    unfold Cert.Lse.tileMax
    simp only [hL]
  rw [lNew_apply x w mo lo b r, hm]
  rw [Cert.Lse.onl, dif_pos hk, ← hprev]
  simp only [hL]

/-- After point t the columns hold each token's running pair after (t % 50) + 1 tiles. -/
theorem scAt_onl (c : Dev nD) (xa : Cert.Lse.SX.Idx → EReal) (wa : Cert.Lse.SW.Idx → EReal) (hxa : V c main_v20 = xa) (hwa : V c main_v21 = wa)
    (t : Fin cfg1.N) (b : Fin 8) (r : Fin 256) :
    ((scAt V c t.val t.isLt).1 (ix3 b r (0 : Fin 1)), (scAt V c t.val t.isLt).2 (ix3 b r (0 : Fin 1)))
      = Cert.Lse.onl (Cert.Lse.logit xa wa b (tokPos t r)) (t.val % 50 + 1) := by
  have hN : cfg1.N = 100 := N_1
  have key : ∀ (n : ℕ) (hn : n < cfg1.N),
      ((scAt V c n hn).1 (ix3 b r (0 : Fin 1)), (scAt V c n hn).2 (ix3 b r (0 : Fin 1)))
        = Cert.Lse.onl (Cert.Lse.logit xa wa b (tokPos ⟨n, hn⟩ r)) (n % 50 + 1) := by
    intro n
    induction n with
    | zero =>
      intro hn
      rw [scAt_reset V c 0 hn rfl]
      refine pair_step xa wa _ _ _ _ b r _ (0 % 50) (Nat.mod_lt _ (by decide))
        (fun h => xblk_apply V c xa hxa ⟨0, hn⟩ b r h) (fun j h => wblk_apply V c wa hwa ⟨0, hn⟩ j h) ?_
      rw [mReset_apply, lReset_apply]
      rfl
    | succ m ih =>
      intro hn
      by_cases h0 : (m + 1) % 50 = 0
      · rw [scAt_reset V c (m + 1) hn h0]
        refine pair_step xa wa _ _ _ _ b r _ ((m + 1) % 50) (Nat.mod_lt _ (by decide))
          (fun h => xblk_apply V c xa hxa ⟨m + 1, hn⟩ b r h) (fun j h => wblk_apply V c wa hwa ⟨m + 1, hn⟩ j h) ?_
        rw [mReset_apply, lReset_apply, h0]
        rfl
      · rw [scAt_step V c m hn h0]
        refine pair_step xa wa _ _ _ _ b r _ ((m + 1) % 50) (Nat.mod_lt _ (by decide))
          (fun h => xblk_apply V c xa hxa ⟨m + 1, hn⟩ b r h) (fun j h => wblk_apply V c wa hwa ⟨m + 1, hn⟩ j h) ?_
        have htp : tokPos ⟨m + 1, hn⟩ r = tokPos ⟨m, Nat.lt_of_succ_lt hn⟩ r := by
          apply Fin.ext
          show 256 * ((m + 1) / 50) + r.val = 256 * (m / 50) + r.val
          omega
        have hk : (m + 1) % 50 = m % 50 + 1 := by omega
        rw [htp, hk]
        exact ih (Nat.lt_of_succ_lt hn)
  exact key t.val t.isLt

/-- At the last tile of a block of tokens the stored output is each token's log-sum-exp. -/
theorem out_at (c : Dev nD) (xa : Cert.Lse.SX.Idx → EReal) (wa : Cert.Lse.SW.Idx → EReal) (hxa : V c main_v20 = xa) (hwa : V c main_v21 = wa)
    (hx : ∀ i, ∃ q : ℝ, xa i = (q : EReal)) (hw : ∀ i, ∃ q : ℝ, wa i = (q : EReal))
    (t : Fin cfg1.N) (ht : t.val % 50 = 49) (b : Fin 8) (r : Fin 256) :
    outFin (scAt V c t.val t.isLt).1 (scAt V c t.val t.isLt).2 (ix2 b r) = Cert.Lse.lse xa wa b (tokPos t r) := by
  have hp := scAt_onl V c xa wa hxa hwa t b r
  rw [ht] at hp
  have h1 : (scAt V c t.val t.isLt).1 (ix3 b r (0 : Fin 1)) = (Cert.Lse.onl (Cert.Lse.logit xa wa b (tokPos t r)) 50).1 :=
    congrArg Prod.fst hp
  have h2 : (scAt V c t.val t.isLt).2 (ix3 b r (0 : Fin 1)) = (Cert.Lse.onl (Cert.Lse.logit xa wa b (tokPos t r)) 50).2 :=
    congrArg Prod.snd hp
  rw [outFin_apply, Cert.Lse.lse_eq_onl xa wa hx hw b (tokPos t r), h1, h2]

end Cert.KernelIdeal.R1

end
-- ==== Proof.KI.R1.LseVal.lean ====
/-
  Region 1's output array after the run.  The output block of a block of tokens is written back once, after its last tile;
  the two blocks tile the [8, 512] array along the token axis.  So the array ends holding every token's log-sum-exp.
-/
import proofs.«411388_j45131516346680_3_alg».proof.Proof.KI.R1.ScanVal

set_option maxRecDepth 16384

noncomputable section

namespace Cert.KernelIdeal.R1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The output window's block index at point t: 0 along the sequences, t / 50 along the token positions. -/
theorem outBlk_index : ∀ t : Fin cfg1.N, win1_2.index t (0 : Fin 2) = 0 ∧ win1_2.index t (1 : Fin 2) = t.val / 50 :=
  (by decide +kernel : ∀ t : Fin grid1.N, _)

/-- At the last tile of a block of tokens, the stored output at an index of the block is the log-sum-exp array at the
    index of the same sequence and of token position 256·(t / 50) + the row inside the block. -/
theorem outFin_lseArr (c : Dev nD) (xa : Cert.Lse.SX.Idx → EReal) (wa : Cert.Lse.SW.Idx → EReal) (hxa : V c main_v20 = xa) (hwa : V c main_v21 = wa)
    (hx : ∀ i, ∃ q : ℝ, xa i = (q : EReal)) (hw : ∀ i, ∃ q : ℝ, wa i = (q : EReal))
    (t : Fin cfg1.N) (ht : t.val % 50 = 49) (i : S8x256.Idx) (k : S8x512.Idx)
    (hk0 : (k 0).val = (i 0).val) (hk1 : (k 1).val = 256 * (t.val / 50) + (i 1).val) :
    outFin (scAt V c t.val t.isLt).1 (scAt V c t.val t.isLt).2 i = Cert.Lse.lseArr xa wa k := by
  obtain ⟨b, r, rfl⟩ : ∃ b r, i = ix2 b r := ⟨_, _, eq_ix2 i⟩
  obtain ⟨b', p, rfl⟩ : ∃ b' p, k = ix2 b' p := ⟨_, _, eq_ix2 k⟩
  rw [out_at V c xa wa hxa hwa hx hw t ht b r, Cert.Lse.lseArr_ix2]
  have hb : b' = b := Fin.ext hk0
  have hp : p = tokPos t r := Fin.ext hk1
  rw [hb, hp]

/-- What a point at the last tile of a block of tokens writes back is its block of the log-sum-exp array. -/
theorem flushed_lse (c : Dev nD) (xa : Cert.Lse.SX.Idx → EReal) (wa : Cert.Lse.SW.Idx → EReal) (hxa : V c main_v20 = xa) (hwa : V c main_v21 = wa)
    (hx : ∀ i, ∃ q : ℝ, xa i = (q : EReal)) (hw : ∀ i, ∃ q : ℝ, wa i = (q : EReal))
    (t : Fin cfg1.N) (hf : (cfg1.win 2).flush t = true) :
    (dat V c).flushed 2 t = ((cfg1.win 2).blk t).view.read (Elt Ideal) (Cert.Lse.lseArr xa wa) := by
  have ht : t.val % 50 = 49 := (flush1_2 t).mp hf
  obtain ⟨e0, e1⟩ := outBlk_index t
  show (cfg1.win 2).cut (grid1.coords t) ((dat V c).after 2 t) = _
  rw [after_2]
  funext j
  rw [View.read_apply]
  refine outFin_lseArr V c xa wa hxa hwa hx hw t ht _ _ ?_ ?_
  · show win1_2.index t (0 : Fin 2) * 8 + 1 * (j 0).val = (j 0).val
    omega
  · show win1_2.index t (1 : Fin 2) * 256 + 1 * (j 1).val = 256 * (t.val / 50) + (j 1).val
    omega

/-- An index of the array is in point t's block iff each coordinate is in the block's range on its axis. -/
theorem mem_outBlk (t : Fin cfg1.N) (i : S8x512.Idx) :
    i ∈ ((cfg1.win 2).blk t).view.set ↔ ∀ a : Fin 2, win1_2.index t a * S8x256.size a ≤ (i a).val ∧ (i a).val < win1_2.index t a * S8x256.size a + S8x256.size a := by
  show i ∈ ((View.whole main_v22).slice (win1_2.rect t)).set ↔ _
  rw [View.set_slice_whole, Rect.mem_set_unit]
  exact Iff.rfl

/-- Every index of the array is in the block of a point that writes back: token position p is covered by the last tile
    of its block of tokens, the point 50·(p / 256) + 49. -/
theorem outBlk_cover (i : S8x512.Idx) :
    ∃ t : Fin cfg1.N, (cfg1.win 2).flush t = true ∧ i ∈ ((cfg1.win 2).blk t).view.set := by
  have hN : cfg1.N = 100 := N_1
  have hi0 : (i 0).val < 8 := (i 0).isLt
  have hi1 : (i 1).val < 512 := (i 1).isLt
  obtain ⟨t, ht⟩ : ∃ t : Fin cfg1.N, t.val = 50 * ((i 1).val / 256) + 49 := ⟨⟨50 * ((i 1).val / 256) + 49, by omega⟩, rfl⟩
  obtain ⟨e0, e1⟩ := outBlk_index t
  refine ⟨t, (flush1_2 t).mpr (by omega), ?_⟩
  rw [mem_outBlk]
  intro a
  match a with
  | ⟨0, _⟩ => show win1_2.index t (0 : Fin 2) * 8 ≤ (i 0).val ∧ (i 0).val < win1_2.index t (0 : Fin 2) * 8 + 8; omega
  | ⟨1, _⟩ => show win1_2.index t (1 : Fin 2) * 256 ≤ (i 1).val ∧ (i 1).val < win1_2.index t (1 : Fin 2) * 256 + 256; omega

/-- After the region the output array holds the log-sum-exp of every token. -/
theorem arrAt_lse (c : Dev nD) (xa : Cert.Lse.SX.Idx → EReal) (wa : Cert.Lse.SW.Idx → EReal) (hxa : V c main_v20 = xa) (hwa : V c main_v21 = wa)
    (hx : ∀ i, ∃ q : ℝ, xa i = (q : EReal)) (hw : ∀ i, ∃ q : ℝ, wa i = (q : EReal)) :
    (dat V c).arrAt 2 cfg1.N = Cert.Lse.lseArr xa wa :=
  (dat V c).arrAt_eq_of_cover 2 (Cert.Lse.lseArr xa wa)
    (fun t hf => flushed_lse V c xa wa hxa hwa hx hw t hf) outBlk_cover

end Cert.KernelIdeal.R1

end
-- ==== Proof.KI.Value.lean ====
/-
  The kernel's result.  Folding the buffer contents through the thirteen items: each call's operands are the model's
  hidden states and weights, each call's result the log-sum-exp of every token, the label's logit comes from the gathered
  rows, and the host operations after the calls make the loss of the two arrays of token log-probabilities.
-/
import proofs.«411388_j45131516346680_3_alg».proof.Proof.KI.Regions
import proofs.«411388_j45131516346680_3_alg».proof.Proof.KI.ValHost
import proofs.«411388_j45131516346680_3_alg».proof.Proof.KI.R0.LseVal
import proofs.«411388_j45131516346680_3_alg».proof.Proof.KI.R1.LseVal

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Run

variable (m : (ℓ : Loc nD τ sig) → Buf (Elt Ideal) ℓ)

/-- A buffer no host operation before the first call writes keeps its launch contents up to the call. -/
theorem W5_keep (c : Dev nD) (r : Ref sig .tc) (h0 : r ∉ hostOps0_W) (h1 : r ∉ hostOps0_1_W) (h2 : r ∉ hostOps0_2_W)
    (h3 : r ∉ hostOps0_3_W) (h4 : r ∉ hostOps0_4_W) : W5 m c r = W0 m c r :=
  (StableHlo.after_of_writes_sub hostOps0_4 _ hostOps0_4_writes h4).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0)

/-- A buffer no host operation between the calls writes keeps, up to the second call, what the first call left. -/
theorem W11_keep (c : Dev nD) (r : Ref sig .tc) (h0 : r ∉ hostOps1_W) (h1 : r ∉ hostOps1_1_W) (h2 : r ∉ hostOps1_2_W)
    (h3 : r ∉ hostOps1_3_W) (h4 : r ∉ hostOps1_4_W) : W11 m c r = W6 m c r :=
  (StableHlo.after_of_writes_sub hostOps1_4 _ hostOps1_4_writes h4).trans <|
  (StableHlo.after_of_writes_sub hostOps1_3 _ hostOps1_3_writes h3).trans <|
  (StableHlo.after_of_writes_sub hostOps1_2 _ hostOps1_2_writes h2).trans <|
  (StableHlo.after_of_writes_sub hostOps1_1 _ hostOps1_1_writes h1).trans <|
  (StableHlo.after_of_writes_sub hostOps1 _ hostOps1_writes h0)

/-- The arrays the first call's windows stage. -/
theorem arr0_mem : ∀ w : Fin cfg0.W, Pipeline.arrRef spec0 w ∈ ([main_v8, main_v9, main_v10] : List (Ref sig .tc)) := by decide
/-- The arrays the second call's windows stage. -/
theorem arr1_mem : ∀ w : Fin cfg1.W, Pipeline.arrRef spec1 w ∈ ([main_v20, main_v21, main_v22] : List (Ref sig .tc)) := by decide

/-- The first call changes its output array only. -/
theorem W6_keep (c : Dev nD) (r : Ref sig .tc) (h : r ∉ ([main_v8, main_v9, main_v10] : List (Ref sig .tc))) :
    W6 m c (Proc.devRef .tc r) = W5 m c (Proc.devRef .tc r) :=
  W6_of_ne m c r (fun w e => h (e ▸ arr0_mem w))

/-- The second call changes its output array only. -/
theorem W12_keep (c : Dev nD) (r : Ref sig .tc) (h : r ∉ ([main_v20, main_v21, main_v22] : List (Ref sig .tc))) :
    W12 m c (Proc.devRef .tc r) = W11 m c (Proc.devRef .tc r) :=
  W12_of_ne m c r (fun w e => h (e ▸ arr1_mem w))

/-- The arguments through the first stretch and the first call. -/
theorem W6_arg0 (c : Dev nD) : W6 m c (Proc.devRef .tc main_arg0) = m ((c : Thread nD τ).loc main_arg0) :=
  (W6_keep m c main_arg0 (by decide)).trans (W5_keep m c main_arg0 (by decide) (by decide) (by decide) (by decide) (by decide))
theorem W6_arg1 (c : Dev nD) : W6 m c (Proc.devRef .tc main_arg1) = m ((c : Thread nD τ).loc main_arg1) :=
  (W6_keep m c main_arg1 (by decide)).trans (W5_keep m c main_arg1 (by decide) (by decide) (by decide) (by decide) (by decide))
theorem W6_arg2 (c : Dev nD) : W6 m c (Proc.devRef .tc main_arg2) = m ((c : Thread nD τ).loc main_arg2) :=
  (W6_keep m c main_arg2 (by decide)).trans (W5_keep m c main_arg2 (by decide) (by decide) (by decide) (by decide) (by decide))
theorem W6_arg4 (c : Dev nD) : W6 m c (Proc.devRef .tc main_arg4) = m ((c : Thread nD τ).loc main_arg4) :=
  (W6_keep m c main_arg4 (by decide)).trans (W5_keep m c main_arg4 (by decide) (by decide) (by decide) (by decide) (by decide))

/-- THE KERNEL'S RESULT: for finite inputs and labels in range, the last buffer of the fold holds the specification's loss. -/
theorem result (c : Dev nD)
    (h0 : ∀ i, ∃ q : ℝ, (m ((c : Thread nD τ).loc main_arg0) : Cert.Lse.SX.Idx → EReal) i = (q : EReal))
    (h1 : ∀ i, ∃ q : ℝ, (m ((c : Thread nD τ).loc main_arg1) : Cert.Lse.SX.Idx → EReal) i = (q : EReal))
    (h3 : ∀ i, ∃ q : ℝ, (m ((c : Thread nD τ).loc main_arg3) : Cert.Lse.SW.Idx → EReal) i = (q : EReal))
    (h4 : ∀ i, ∃ q : ℝ, (m ((c : Thread nD τ).loc main_arg4) : Cert.Lse.SW.Idx → EReal) i = (q : EReal))
    (hr : InRange (m ((c : Thread nD τ).loc main_arg2))) :
    W13 m c (Proc.devRef .tc main_v62)
      = Cert.Lse.loss (m ((c : Thread nD τ).loc main_arg0)) (m ((c : Thread nD τ).loc main_arg1)) (m ((c : Thread nD τ).loc main_arg2))
          (m ((c : Thread nD τ).loc main_arg3)) (m ((c : Thread nD τ).loc main_arg4)) := by
  -- the first call's operands and result
  have e8 : Run.V5 m c main_v8 = m ((c : Thread nD τ).loc main_arg0) := stretchA_v8 (W0 m c)
  have e9 : Run.V5 m c main_v9 = m ((c : Thread nD τ).loc main_arg3) := stretchA_v9 (W0 m c)
  have l0 : W6 m c (Proc.devRef .tc main_v10) = Cert.Lse.lseArr (m ((c : Thread nD τ).loc main_arg0)) (m ((c : Thread nD τ).loc main_arg3)) :=
    (W6_arr m c 2).trans (Cert.KernelIdeal.R0.arrAt_lse (Run.V5 m) c _ _ e8 e9 h0 h3)
  have t0 : W6 m c (Proc.devRef .tc main_v7) = Cert.Lse.tgtArr (m ((c : Thread nD τ).loc main_arg0)) (m ((c : Thread nD τ).loc main_arg3)) (m ((c : Thread nD τ).loc main_arg2)) :=
    (W6_keep m c main_v7 (by decide)).trans (stretchA_v7 (W0 m c) hr)
  -- the second call's operands and result
  have hr6 : InRange (W6 m c (Proc.devRef .tc main_arg2)) := by rw [W6_arg2]; exact hr
  have e20 : Run.V11 m c main_v20 = m ((c : Thread nD τ).loc main_arg1) := (stretchB_v20 (W6 m c)).trans (W6_arg1 m c)
  have e21 : Run.V11 m c main_v21 = m ((c : Thread nD τ).loc main_arg4) := (stretchB_v21 (W6 m c)).trans (W6_arg4 m c)
  have l1 : W12 m c (Proc.devRef .tc main_v22) = Cert.Lse.lseArr (m ((c : Thread nD τ).loc main_arg1)) (m ((c : Thread nD τ).loc main_arg4)) :=
    (W12_arr m c 2).trans (Cert.KernelIdeal.R1.arrAt_lse (Run.V11 m) c _ _ e20 e21 h1 h4)
  have t1 : W12 m c (Proc.devRef .tc main_v19) = Cert.Lse.tgtArr (m ((c : Thread nD τ).loc main_arg1)) (m ((c : Thread nD τ).loc main_arg4)) (m ((c : Thread nD τ).loc main_arg2)) := by
    rw [W12_keep m c main_v19 (by decide)]
    refine (stretchB_v19 (W6 m c) hr6).trans ?_
    rw [W6_arg1, W6_arg4, W6_arg2]
  have k11 : W12 m c (Proc.devRef .tc main_v11) = fun j => atY (Cert.Lse.tgtArr (m ((c : Thread nD τ).loc main_arg0)) (m ((c : Thread nD τ).loc main_arg3)) (m ((c : Thread nD τ).loc main_arg2))) j
      - atY (Cert.Lse.lseArr (m ((c : Thread nD τ).loc main_arg0)) (m ((c : Thread nD τ).loc main_arg3))) j := by
    rw [W12_keep m c main_v11 (by decide)]
    refine (stretchB_v11 (W6 m c)).trans ?_
    rw [t0, l0]
  have a2 : W12 m c (Proc.devRef .tc main_arg2) = m ((c : Thread nD τ).loc main_arg2) :=
    (W12_keep m c main_arg2 (by decide)).trans
      ((W11_keep m c main_arg2 (by decide) (by decide) (by decide) (by decide) (by decide)).trans (W6_arg2 m c))
  refine (stretchC_v62 (W12 m c)).trans ?_
  rw [k11, t1, l1, a2]
  rfl

end Cert.KernelIdeal.Val

end
-- ==== Proof.Ref.TokRef.lean ====
/-
  The reference's token log-probabilities.  It multiplies the hidden states against the whole weight table, takes each token's
  log-softmax over the 32000 logits (subtract the largest, subtract the log of the sum of exponentials) and picks the label's
  entry.  For finite inputs and labels in range this is the label's logit minus the log-sum-exp.

  Read at a token (b, t): the reshape's element is the select's at (b, t, 0); the in-range test there is the and of
  0 ≤ s and s ≤ 31999 for the label's safe index s (the ignore value read as 0, a negative word counted from the end),
  which holds for a label word in [−32000, 32000), so the select takes the gathered entry; the gather reads the log-softmax at
  (b, t, s clamped); the log-softmax there is (logit − M) − log (0 + Σ exp(logit − M)), M the fold of max from minus
  infinity over the row joined once more with minus infinity, that is the largest logit; and for real logits
  (logit − M) − log Σ is logit − (M + log Σ).
-/
import proofs.«411388_j45131516346680_3_alg».proof.Proof.RefRead
import proofs.«411388_j45131516346680_3_alg».proof.Proof.Spec
import proofs.«411388_j45131516346680_3_alg».proof.Proof.Online
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.BitExact.Laws
import Idealize.ShloMosaic.Lib.StableHlo.Predicate

set_option maxRecDepth 16384

noncomputable section

namespace Cert.ReferenceIdeal.RefVal

open Idealize.ShloMosaic Idealize.ShloMosaic.TcCoe Idealize.ShloMosaic.ValueIdx Idealize.SL.Sem
open Cert.ReferenceIdeal Cert.ReferenceIdeal.Gen Cert.ReferenceIdeal.ReadP

/-- Every label word is an index jnp accepts for an axis of 32000 rows. -/
def InRange (y : Cert.Lse.SY.Idx → BitVec 32) : Prop := ∀ j, (-32000 : Int) ≤ (y j).toInt ∧ (y j).toInt < 32000

/-! ## Label words -/

/-- The two selects the program makes of a label word are the safe index. -/
private theorem safe_word (y : BitVec 32) :
    Scalar.select (IntOp.cmpi .slt (Scalar.select (IntOp.cmpi .ne y 4294967196#32) y 0#32) 0#32)
        (IntOp.addi (Scalar.select (IntOp.cmpi .ne y 4294967196#32) y 0#32) 32000#32)
        (Scalar.select (IntOp.cmpi .ne y 4294967196#32) y 0#32)
      = Cert.Lse.safeIdx y := by
  unfold Cert.Lse.safeIdx
  have hs : Scalar.select (IntOp.cmpi .ne y 4294967196#32) y 0#32 = (if y = 4294967196#32 then 0#32 else y) := by
    by_cases hy : y = 4294967196#32
    · subst hy; rfl
    · rw [if_neg hy]
      have : IntOp.cmpi .ne y 4294967196#32 = 1#1 := by
        have hb : (y != 4294967196#32) = true := bne_iff_ne.mpr hy
        show BitVec.ofBool (y != 4294967196#32) = 1#1
        rw [hb]; rfl
      rw [this]; rfl
  rw [hs]
  generalize (if y = 4294967196#32 then 0#32 else y) = s
  show Scalar.select (BitVec.ofBool (s.slt 0#32)) (s + 32000#32) s = if s.slt 0#32 then s + 32000#32 else s
  cases hc : s.slt 0#32
  · rfl
  · rfl

/-- A label word in [−32000, 32000) has its safe index inside the table. -/
private theorem safe_range (y : BitVec 32) (hy : (-32000 : Int) ≤ y.toInt ∧ y.toInt < 32000) :
    0 ≤ (Cert.Lse.safeIdx y).toInt ∧ (Cert.Lse.safeIdx y).toInt ≤ 31999 := by
  unfold Cert.Lse.safeIdx
  by_cases h100 : y = 4294967196#32
  · subst h100; decide
  · simp only [if_neg h100]
    have h0 : (0#32 : BitVec 32).toInt = 0 := by decide
    by_cases hneg : y.slt 0#32 = true
    · rw [if_pos hneg]
      have hlt : y.toInt < 0 := by
        have := hneg
        simp only [BitVec.slt, h0, decide_eq_true_eq] at this
        exact this
      have hk : (32000#32 : BitVec 32).toInt = 32000 := by decide
      rw [BitVec.toInt_add, hk]
      have : (y.toInt + 32000).bmod (2 ^ 32) = y.toInt + 32000 := by
        apply Int.bmod_eq_of_le <;> omega
      rw [this]
      omega
    · rw [if_neg hneg]
      have hge : 0 ≤ y.toInt := by
        have := hneg
        simp only [BitVec.slt, h0, decide_eq_true_eq, not_lt] at this
        exact this
      omega

/-- The in-range test of a word inside [0, 31999] is 1. -/
private theorem inrange_bit (w : BitVec 32) (hw : 0 ≤ w.toInt ∧ w.toInt ≤ 31999) :
    IntOp.andi (IntOp.cmpi .sge w 0#32) (IntOp.cmpi .sle w 31999#32) = 1#1 := by
  have h0 : (0#32 : BitVec 32).toInt = 0 := by decide
  have hk : (31999#32 : BitVec 32).toInt = 31999 := by decide
  have h1 : IntOp.cmpi .sge w 0#32 = 1#1 := by
    unfold IntOp.cmpi
    simp only [BitVec.sle, h0]
    rw [decide_eq_true hw.1]; rfl
  have h2 : IntOp.cmpi .sle w 31999#32 = 1#1 := by
    unfold IntOp.cmpi
    simp only [BitVec.sle, hk]
    rw [decide_eq_true hw.2]; rfl
  rw [h1, h2]; rfl

/-! ## The reductions and the gather, read at a token -/

private theorem reduces_unit3 : S8x512x1x1.Reduces [3] S8x512x1 := by decide
private theorem reduces_row : S8x512x32000.Reduces [2] S8x512 := by decide

/-- An and-reduce from 1 over an axis of size one keeps the one element. -/
private theorem and_reduce_unit (m : IVec S8x512x1x1 1) (b : Fin 8) (t : Fin 512) :
    Host.reduce IntOp.andi m (constantI S_ 1 1#1) reducesTo_S8x512x1x1_S8x512x1_d3 h_S_ (ix3 b t (0 : Fin 1))
      = m (ix4 b t (0 : Fin 1) (0 : Fin 1)) := by
  rw [Host.reduce_eq_fold_single IntOp.andi m _ reducesTo_S8x512x1x1_S8x512x1_d3 reduces_unit3 h_S_]
  have hl : reduces_unit3.lift (ix3 b t (0 : Fin 1)) (⟨0, by decide⟩ : Fin (S8x512x1x1.size 3)) = ix4 b t (0 : Fin 1) (0 : Fin 1) :=
    funext fun c => Fin.ext (by
      match c with
      | ⟨0, _⟩ => rfl
      | ⟨1, _⟩ => rfl
      | ⟨2, _⟩ => rfl
      | ⟨3, _⟩ => rfl)
  have hand : ∀ x : BitVec 1, IntOp.andi x 1#1 = x := by decide
  show IntOp.andi (m (reduces_unit3.lift (ix3 b t (0 : Fin 1)) (⟨0, by decide⟩ : Fin (S8x512x1x1.size 3)))) 1#1 = _
  rw [hand, hl]

/-- A row-maximum reduce from minus infinity is, at token (b, t), the fold of max over the row. -/
private theorem max_reduce_row (L : S8x512x32000.Idx → EReal) (b : Fin 8) (t : Fin 512) :
    Host.reduce (FloatOps.maximumf (F := Ideal) (φ := .f32)) L (constant (F := Ideal) S_ .f32 0xFF800000#32)
        reducesTo_S8x512x32000_S8x512_d2 h_S_ (ix2 b t)
      = (Finset.univ : Finset (Fin 32000)).fold max ⊥ (fun v => L (ix3 b t v)) := by
  refine (Host.reduce_eq_fold_single (FloatOps.maximumf (F := Ideal) (φ := .f32)) L _
    reducesTo_S8x512x32000_S8x512_d2 reduces_row h_S_ (ix2 b t)).trans ?_
  have hb : (constant (F := Ideal) S_ .f32 0xFF800000#32) (Shape.Idx.first h_S_) = (⊥ : EReal) := by
    show Ideal.ofBits .f32 0xFF800000#32 = ⊥
    simp [Ideal.ofBits, Ideal.ieee]
  rw [hb]
  have hf : (L ∘ reduces_row.lift (ix2 b t)) = fun v : Fin 32000 => L (ix3 b t v) :=
    funext fun k => congrArg L (funext fun c => Fin.ext (by
      match c with
      | ⟨0, _⟩ => rfl
      | ⟨1, _⟩ => rfl
      | ⟨2, _⟩ => rfl))
  exact congrArg (fun f => Finset.fold max (⊥ : EReal) f (Finset.univ : Finset (Fin 32000))) hf

/-- The label gather at token (b, t): the operand's entry (b, t, r), r the start index read signed and
    clamped into the 32000 rows. -/
private theorem gather_label_apply {α : Type} {w : Nat} (x : S8x512x32000.Idx → α) (idx : IVec S8x512x1x1 w) (b : Fin 8) (t : Fin 512)
    (r : Fin 32000) (hrow : r.val = min (idx (ix4 b t (0 : Fin 1) (0 : Fin 1))).toInt.toNat 31999) :
    Host.gather gather_S8x512x32000_S8x512x1x1_S8x512x1_n_2_01_01_2_3_111 x idx (ix3 b t (0 : Fin 1)) = x (ix3 b t r) := by
  unfold Host.gather
  refine congrArg x (funext fun a => Fin.ext ?_)
  match a with
  | ⟨0, _⟩ =>
    show gather_S8x512x32000_S8x512x1x1_S8x512x1_n_2_01_01_2_3_111.start (ix3 b t (0 : Fin 1)) idx 0
      + gather_S8x512x32000_S8x512x1x1_S8x512x1_n_2_01_01_2_3_111.batchCoord (ix3 b t (0 : Fin 1)) 0
      + gather_S8x512x32000_S8x512x1x1_S8x512x1_n_2_01_01_2_3_111.offCoord (ix3 b t (0 : Fin 1)) 0 = b.val
    have hm : (0 : Fin 3) ∈ gather_S8x512x32000_S8x512x1x1_S8x512x1_n_2_01_01_2_3_111.operandBatchingDims := by
      show (0 : Fin 3) ∈ ([0, 1] : List (Fin 3)); decide
    rw [GatherDims.start_batching _ _ idx 0 hm,
      GatherDims.offCoord_eq_zero _ _ 0 (fun h => ((GatherDims.mem_sKept _ _).mp h).2 hm)]
    unfold GatherDims.batchCoord
    rw [dif_pos hm]
    simp only [Nat.zero_add, Nat.add_zero]
    rfl
  | ⟨1, _⟩ =>
    show gather_S8x512x32000_S8x512x1x1_S8x512x1_n_2_01_01_2_3_111.start (ix3 b t (0 : Fin 1)) idx 1
      + gather_S8x512x32000_S8x512x1x1_S8x512x1_n_2_01_01_2_3_111.batchCoord (ix3 b t (0 : Fin 1)) 1
      + gather_S8x512x32000_S8x512x1x1_S8x512x1_n_2_01_01_2_3_111.offCoord (ix3 b t (0 : Fin 1)) 1 = t.val
    have hm : (1 : Fin 3) ∈ gather_S8x512x32000_S8x512x1x1_S8x512x1_n_2_01_01_2_3_111.operandBatchingDims := by
      show (1 : Fin 3) ∈ ([0, 1] : List (Fin 3)); decide
    rw [GatherDims.start_batching _ _ idx 1 hm,
      GatherDims.offCoord_eq_zero _ _ 1 (fun h => ((GatherDims.mem_sKept _ _).mp h).2 hm)]
    unfold GatherDims.batchCoord
    rw [dif_pos hm]
    simp only [Nat.zero_add, Nat.add_zero]
    rfl
  | ⟨2, _⟩ =>
    show gather_S8x512x32000_S8x512x1x1_S8x512x1_n_2_01_01_2_3_111.start (ix3 b t (0 : Fin 1)) idx 2
      + gather_S8x512x32000_S8x512x1x1_S8x512x1_n_2_01_01_2_3_111.batchCoord (ix3 b t (0 : Fin 1)) 2
      + gather_S8x512x32000_S8x512x1x1_S8x512x1_n_2_01_01_2_3_111.offCoord (ix3 b t (0 : Fin 1)) 2
        = r.val
    have hnb : (2 : Fin 3) ∉ gather_S8x512x32000_S8x512x1x1_S8x512x1_n_2_01_01_2_3_111.operandBatchingDims := by
      show (2 : Fin 3) ∉ ([0, 1] : List (Fin 3)); decide
    have hc : (2 : Fin 3) ∈ gather_S8x512x32000_S8x512x1x1_S8x512x1_n_2_01_01_2_3_111.collapsedSliceDims := by
      show (2 : Fin 3) ∈ ([2] : List (Fin 3)); decide
    have hs : (2 : Fin 3) ∈ gather_S8x512x32000_S8x512x1x1_S8x512x1_n_2_01_01_2_3_111.startIndexMap := by
      show (2 : Fin 3) ∈ ([2] : List (Fin 3)); decide
    rw [GatherDims.batchCoord_eq_zero _ _ 2 hnb,
      GatherDims.offCoord_eq_zero _ _ 2 (fun h => ((GatherDims.mem_sKept _ _).mp h).1 hc)]
    simp only [Nat.add_zero]
    unfold GatherDims.start
    rw [dif_pos hs]
    have hsi : gather_S8x512x32000_S8x512x1x1_S8x512x1_n_2_01_01_2_3_111.siIdx (ix3 b t (0 : Fin 1))
        ⟨List.idxOf (2 : Fin 3) gather_S8x512x32000_S8x512x1x1_S8x512x1_n_2_01_01_2_3_111.startIndexMap,
          List.idxOf_lt_length_iff.2 hs⟩ = ix4 b t (0 : Fin 1) (0 : Fin 1) := funext fun c => Fin.ext (by
      match c with
      | ⟨0, _⟩ => rfl
      | ⟨1, _⟩ => rfl
      | ⟨2, _⟩ => rfl
      | ⟨3, _⟩ => rfl)
    rw [hsi, hrow]
    rfl

/-! ## The first model's operations, read at a token -/

section Chain
variable (x0 : Cert.Lse.SX.Idx → EReal) (x2 : Cert.Lse.SY.Idx → BitVec 32) (x3 : Cert.Lse.SW.Idx → EReal)

/-- The dot_general's element (b, t, v) is the logit of token (b, t) against row v. -/
private theorem logits_at (b : Fin 8) (t : Fin 512) (v : Fin 32000) :
    val_main_v0 (F := Ideal) x0 x3 (ix3 b t v) = Cert.Lse.logit x0 x3 b t v := by
  rw [val_main_v0_apply]
  unfold Cert.Lse.logit
  refine Finset.sum_congr rfl fun k _ => ?_
  have hl : lidx_main_v0 (ix3 b t v) k = ix3 b t k := funext fun a => by
    match a with
    | ⟨0, _⟩ => rfl
    | ⟨1, _⟩ => rfl
    | ⟨2, _⟩ => rfl
  have hr : ridx_main_v0 (ix3 b t v) k = ix2 v k := funext fun a => by
    match a with
    | ⟨0, _⟩ => rfl
    | ⟨1, _⟩ => rfl
  rw [hl, hr]

/-- The row maximum the log-softmax subtracts: the fold of max from minus infinity, joined once more with minus
    infinity, is the largest logit. -/
private theorem rowmax_at (b : Fin 8) (t : Fin 512) :
    val_main_call1_v2 (F := Ideal) x0 x3 (ix2 b t) = Cert.Lse.mx x0 x3 b t := by
  have h0 : val_main_call1_v0 (F := Ideal) x0 x3 (ix2 b t) = Cert.Lse.mx x0 x3 b t := by
    unfold val_main_call1_v0
    refine (max_reduce_row (val_main_v0 (F := Ideal) x0 x3) b t).trans ?_
    rw [Cert.Lse.mx_eq_fold]
    exact congrArg (fun f => Finset.fold max (⊥ : EReal) f (Finset.univ : Finset (Fin 32000)))
      (funext fun v => logits_at x0 x3 b t v)
  rw [val_main_call1_v2_apply, val_main_call1_v1_apply, val_main_call1_cst_0_apply, h0]
  show max (Ideal.ofBits .f32 0xFF800000#32) (Cert.Lse.mx x0 x3 b t) = _
  have hb : Ideal.ofBits .f32 0xFF800000#32 = (⊥ : EReal) := by simp [Ideal.ofBits, Ideal.ieee]
  rw [hb]
  exact max_eq_right bot_le

/-- The shifted logit. -/
private theorem shifted_at (b : Fin 8) (t : Fin 512) (v : Fin 32000) :
    val_main_call1_v5 (F := Ideal) x0 x3 (ix3 b t v) = Cert.Lse.logit x0 x3 b t v - Cert.Lse.mx x0 x3 b t := by
  have hi : idx_main_call1_v3 (idx_main_call1_v4 (ix3 b t v)) = ix2 b t := funext fun a => by
    match a with
    | ⟨0, _⟩ => rfl
    | ⟨1, _⟩ => rfl
  rw [val_main_call1_v5_apply, val_main_call1_v4_apply, val_main_call1_v3_apply, hi, logits_at, rowmax_at]
  rfl

/-- The sum of the exponentials of the shifted logits, from zero. -/
private theorem sumexp_at (b : Fin 8) (t : Fin 512) :
    val_main_call1_v7 (F := Ideal) x0 x3 (ix2 b t) = Cert.Lse.se x0 x3 b t := by
  rw [val_main_call1_v7_apply, val_main_call1_cst_1_apply]
  show Ideal.ofBits .f32 0x00000000#32 + _ = _
  rw [Ideal.ofBits_zero_f32, zero_add]
  unfold Cert.Lse.se
  refine Finset.sum_congr rfl fun k _ => ?_
  have hi : idx_main_call1_v7 (ix2 b t) k = ix3 b t k := funext fun a => by
    match a with
    | ⟨0, _⟩ => rfl
    | ⟨1, _⟩ => rfl
    | ⟨2, _⟩ => rfl
  rw [hi, val_main_call1_v6_apply, shifted_at]
  rfl

/-- The log-softmax at (b, t, v). -/
private theorem logp_at (b : Fin 8) (t : Fin 512) (v : Fin 32000) :
    val_main_v4 (F := Ideal) x0 x3 (ix3 b t v)
      = (Cert.Lse.logit x0 x3 b t v - Cert.Lse.mx x0 x3 b t) - Ideal.log (Cert.Lse.se x0 x3 b t) := by
  have hi : idx_main_call1_v8 (idx_main_call1_v10 (ix3 b t v)) = ix2 b t := funext fun a => by
    match a with
    | ⟨0, _⟩ => rfl
    | ⟨1, _⟩ => rfl
  rw [val_main_v4_apply, shifted_at, val_main_call1_v10_apply, val_main_call1_v9_apply, val_main_call1_v8_apply, hi,
    sumexp_at, Ideal.subf_def, Ideal.hostUnary_log_def]

/-- The label with the ignore value replaced by 0. -/
private theorem where_at (b : Fin 8) (t : Fin 512) :
    val_main_v3 (F := Ideal) x2 (ix2 b t)
      = Scalar.select (IntOp.cmpi .ne (x2 (ix2 b t)) 4294967196#32) (x2 (ix2 b t)) 0#32 := by
  rw [val_main_v3_apply, val_main_v2_apply, val_main_v1_apply, val_main_c_apply, val_main_call0_v1_apply,
    val_main_call0_v0_apply, val_main_c_0_apply]

/-- The start index the gather reads is the label's safe index. -/
private theorem safe_at (b : Fin 8) (t : Fin 512) :
    val_main_call2_v5 (F := Ideal) x2 (ix4 b t (0 : Fin 1) (0 : Fin 1)) = Cert.Lse.safeIdx (x2 (ix2 b t)) := by
  have h5 : val_main_v5 (F := Ideal) x2 (ix3 b t (0 : Fin 1))
      = Scalar.select (IntOp.cmpi .ne (x2 (ix2 b t)) 4294967196#32) (x2 (ix2 b t)) 0#32 := by
    have hi : idx_main_v5 (ix3 b t (0 : Fin 1)) = ix2 b t := funext fun a => by
      match a with
      | ⟨0, _⟩ => rfl
      | ⟨1, _⟩ => rfl
    rw [val_main_v5_apply, hi, where_at]
  have hi : idx_main_call2_v5 (ix4 b t (0 : Fin 1) (0 : Fin 1)) = ix3 b t (0 : Fin 1) := funext fun a => Fin.ext (by
    have hb := b.isLt
    have ht := t.isLt
    match a with
    | ⟨0, _⟩ => show (((b.val * 512 + t.val) * 1 + 0) * 1 + 0) / 512 = b.val; omega
    | ⟨1, _⟩ => show (((b.val * 512 + t.val) * 1 + 0) * 1 + 0) / 1 % 512 = t.val; omega
    | ⟨2, _⟩ => rfl)
  rw [val_main_call2_v5_apply, hi, val_main_call2_v4_apply, val_main_call2_v1_apply, val_main_call2_v3_apply, h5,
    val_main_call2_v0_apply, val_main_call2_c_apply, val_main_call2_v2_apply, val_main_call2_c_0_apply]
  exact safe_word _

/-- For a label word in range the in-range test before the gather is 1. -/
private theorem inrange_at (hr : InRange x2) (b : Fin 8) (t : Fin 512) :
    val_main_call2_v12 (F := Ideal) x2 (ix3 b t (0 : Fin 1)) = 1#1 := by
  unfold val_main_call2_v12
  refine (and_reduce_unit (val_main_call2_v11 (F := Ideal) x2) b t).trans ?_
  rw [val_main_call2_v11_apply, val_main_call2_v7_apply, val_main_call2_v10_apply, safe_at, val_main_call2_v6_apply,
    val_main_call2_c_2_apply, val_main_call2_v9_apply, val_main_call2_v8_apply, val_main_call2_c_1_apply]
  exact inrange_bit _ (safe_range _ (hr (ix2 b t)))

/-- The gather reads the log-softmax at the label's row. -/
private theorem gathered_at (b : Fin 8) (t : Fin 512) :
    val_main_call2_v13 (F := Ideal) x0 x2 x3 (ix3 b t (0 : Fin 1))
      = val_main_v4 (F := Ideal) x0 x3 (ix3 b t (Cert.Lse.row (x2 (ix2 b t)))) := by
  unfold val_main_call2_v13
  refine gather_label_apply (val_main_v4 (F := Ideal) x0 x3) (val_main_call2_v5 (F := Ideal) x2) b t
    (Cert.Lse.row (x2 (ix2 b t))) ?_
  rw [safe_at]
  rfl

/-- The token log-probability at (b, t). -/
private theorem tok_at (h0 : ∀ i, ∃ q : ℝ, x0 i = (q : EReal)) (h3 : ∀ i, ∃ q : ℝ, x3 i = (q : EReal)) (hr : InRange x2)
    (b : Fin 8) (t : Fin 512) :
    val_main_v7 (F := Ideal) x0 x2 x3 (ix2 b t) = Cert.Lse.tok x0 x3 x2 (ix2 b t) := by
  have hi : idx_main_v7 (ix2 b t) = ix3 b t (0 : Fin 1) := funext fun a => Fin.ext (by
    have hb := b.isLt
    have ht := t.isLt
    match a with
    | ⟨0, _⟩ => show (b.val * 512 + t.val) / 512 = b.val; omega
    | ⟨1, _⟩ => show (b.val * 512 + t.val) / 1 % 512 = t.val; omega
    | ⟨2, _⟩ => rfl)
  rw [val_main_v7_apply, hi, val_main_v6_apply, inrange_at x2 hr, select_one, gathered_at, logp_at]
  show _ = Cert.Lse.tgtArr x0 x3 x2 (ix2 b t) - Cert.Lse.lseArr x0 x3 (ix2 b t)
  rw [Cert.Lse.tgtArr_ix2, Cert.Lse.lseArr_ix2, Cert.Lse.tok_law x0 x3 h0 h3]

end Chain

/-- The first model's token log-probabilities, as the reference computes them. -/
theorem tok_policy (x0 : Cert.Lse.SX.Idx → EReal) (x2 : Cert.Lse.SY.Idx → BitVec 32) (x3 : Cert.Lse.SW.Idx → EReal)
    (h0 : ∀ i, ∃ q : ℝ, x0 i = (q : EReal)) (h3 : ∀ i, ∃ q : ℝ, x3 i = (q : EReal)) (hr : InRange x2) :
    (val_main_v7 (F := Ideal) x0 x2 x3 : Cert.Lse.SY.Idx → EReal) = Cert.Lse.tok x0 x3 x2 := by
  funext j
  obtain ⟨b, t, rfl⟩ : ∃ (b : Fin 8) (t : Fin 512), j = ix2 b t := ⟨j 0, j 1, eq_ix2 j⟩
  exact tok_at x0 x2 x3 h0 h3 hr b t

/-- The second model's operations are, one for one, the first's applied to the other hidden states and weights. -/
private theorem second_eq_first (x1 : Cert.Lse.SX.Idx → EReal) (x2 : Cert.Lse.SY.Idx → BitVec 32) (x4 : Cert.Lse.SW.Idx → EReal) :
    (val_main_v24 (F := Ideal) x1 x2 x4 : Cert.Lse.SY.Idx → EReal) = val_main_v7 (F := Ideal) x1 x2 x4 := rfl

/-- The second model's. -/
theorem tok_second (x1 : Cert.Lse.SX.Idx → EReal) (x2 : Cert.Lse.SY.Idx → BitVec 32) (x4 : Cert.Lse.SW.Idx → EReal)
    (h1 : ∀ i, ∃ q : ℝ, x1 i = (q : EReal)) (h4 : ∀ i, ∃ q : ℝ, x4 i = (q : EReal)) (hr : InRange x2) :
    (val_main_v24 (F := Ideal) x1 x2 x4 : Cert.Lse.SY.Idx → EReal) = Cert.Lse.tok x1 x4 x2 :=
  (second_eq_first x1 x2 x4).trans (tok_policy x1 x2 x4 h1 h4 hr)

end Cert.ReferenceIdeal.RefVal

end
-- ==== Proof.Ref.LossRef.lean ====
/-
  The reference's loss from its token log-probabilities: the masked means (the count of unmasked tokens taken as an integer
  sum and converted, which is the float sum of the 0/1 mask), the two sigmoid halves, the mean over the eight sequences.
-/
import proofs.«411388_j45131516346680_3_alg».proof.Proof.Ref.TokRef
import Idealize.ShloMosaic.PureOps.Reduce
import Idealize.ShloMosaic.Lib.WordSum
import Idealize.ShloMosaic.Lib.IdealHost
import Mathlib.Data.EReal.Operations

set_option maxRecDepth 16384

noncomputable section

namespace Cert.ReferenceIdeal.RefVal

open Idealize.ShloMosaic Idealize.ShloMosaic.TcCoe Idealize.ShloMosaic.ValueIdx Idealize.SL.Sem
open Cert.ReferenceIdeal Cert.ReferenceIdeal.Gen Cert.ReferenceIdeal.ReadP

/-! ## Counting a 0/1 mask: as an integer sum converted, and as a float sum -/

/-- The coercion of a finite sum of natural numbers, through the reals, is the sum of the coercions. -/
private theorem coe_natSum {ι : Type*} (s : Finset ι) (f : ι → ℕ) :
    (((∑ i ∈ s, f i : ℕ) : ℝ) : EReal) = ∑ i ∈ s, ((f i : ℝ) : EReal) := by
  classical
  induction s using Finset.induction_on with
  | empty => simp
  | insert a s ha ih => rw [Finset.sum_insert ha, Finset.sum_insert ha, Nat.cast_add, EReal.coe_add, ih]

/-- A one-bit word widened to 32 bits keeps its value, 0 or 1. -/
private theorem toNat_widen_bit (b : BitVec 1) : (b.setWidth 32).toNat = b.toNat := by
  rw [BitVec.toNat_setWidth]
  have := b.isLt
  omega

/-- Along each of the 8 sequences, the 32-bit sum of the 512 mask bits widened to words, read signed and converted, is the
    float sum from 0.0 of the bits converted: both are the number of set bits, which is at most 512, far inside the word. -/
private theorem count_sum (m : IVec Cert.Lse.SY 1) (hlt : 1 < 32) (h' : Cert.Lse.SY.ReducesTo [1] Cert.Lse.S8)
    (hu : 0 < Cert.Lse.S0.numel) :
    (sitofp (F := Ideal) .f32 (Host.reduce IntOp.addi (extui 32 m hlt) (constantI Cert.Lse.S0 32 0#32) h' hu)
        : FVec Ideal Cert.Lse.S8 .f32)
      = Host.reduceAdd (F := Ideal) (uitofp (F := Ideal) .f32 m) (constant (F := Ideal) Cert.Lse.S0 .f32 0x00000000#32) h' hu := by
  have h : Cert.Lse.SY.Reduces [1] Cert.Lse.S8 := by decide
  funext j
  show (((Host.reduce IntOp.addi (extui 32 m hlt) (constantI Cert.Lse.S0 32 0#32) h' hu j).toInt : ℝ) : EReal)
    = Ideal.hostReduceAdd h' (uitofp (F := Ideal) .f32 m) (Ideal.ofBits .f32 0x00000000#32) j
  rw [Host.reduce_eq_fold_single IntOp.addi _ _ h' h hu j, Ideal.hostReduceAdd_single h' h, Ideal.ofBits_zero_f32, zero_add]
  -- the integer side: the fold of word addition from 0 is the sum of the widened bits
  have hfold : (Finset.univ : Finset (Fin (Cert.Lse.SY.size 1))).fold IntOp.addi
        ((constantI Cert.Lse.S0 32 0#32) (Shape.Idx.first hu)) ((extui 32 m hlt) ∘ h.lift j)
      = ∑ k : Fin (Cert.Lse.SY.size 1), (m (h.lift j k)).setWidth 32 := by
    rw [Finset.sum_eq_fold]; rfl
  have hb : ∀ k : Fin (Cert.Lse.SY.size 1), ((m (h.lift j k)).setWidth 32).toNat = (m (h.lift j k)).toNat :=
    fun k => toNat_widen_bit _
  -- 512 terms, each 0 or 1
  have hle : ∑ k : Fin (Cert.Lse.SY.size 1), ((m (h.lift j k)).setWidth 32).toNat ≤ 512 := by
    calc ∑ k : Fin (Cert.Lse.SY.size 1), ((m (h.lift j k)).setWidth 32).toNat
        ≤ ∑ k : Fin (Cert.Lse.SY.size 1), 1 :=
          Finset.sum_le_sum (fun k _ => by rw [hb]; have := (m (h.lift j k)).isLt; omega)
      _ = 512 := by rw [Finset.sum_const, Finset.card_univ, Fintype.card_fin]; rfl
  -- so the word sum does not wrap, and its sign bit is clear
  have hnat : (∑ k : Fin (Cert.Lse.SY.size 1), (m (h.lift j k)).setWidth 32).toNat
      = ∑ k : Fin (Cert.Lse.SY.size 1), (m (h.lift j k)).toNat := by
    rw [WordSum.toNat_sum Finset.univ (fun k => (m (h.lift j k)).setWidth 32) (by omega)]
    exact Finset.sum_congr rfl fun k _ => hb k
  have hint : (∑ k : Fin (Cert.Lse.SY.size 1), (m (h.lift j k)).setWidth 32).toInt
      = ((∑ k : Fin (Cert.Lse.SY.size 1), (m (h.lift j k)).toNat : ℕ) : ℤ) := by
    rw [← hnat]
    apply BitVec.toInt_eq_toNat_of_lt
    rw [WordSum.toNat_sum Finset.univ (fun k => (m (h.lift j k)).setWidth 32) (by omega)]
    omega
  rw [hfold, hint, Int.cast_natCast, coe_natSum]
  rfl

/-- The count of unmasked tokens of each sequence: the integer sum converted is the float sum of the mask. -/
theorem cnt_ref (x2 : Cert.Lse.SY.Idx → BitVec 32) :
    (val_main_v13 (F := Ideal) x2 : Cert.Lse.S8.Idx → EReal) = Cert.Lse.cnt x2 :=
  count_sum (val_main_v2 (F := Ideal) x2) _ _ _

/-- The same count where the program takes it a second time, for the second model's mean. -/
private theorem cnt_ref_second (x2 : Cert.Lse.SY.Idx → BitVec 32) :
    (val_main_v30 (F := Ideal) x2 : Cert.Lse.S8.Idx → EReal) = Cert.Lse.cnt x2 :=
  count_sum (val_main_v19 (F := Ideal) x2) _ _ _

/-! ## The masked means, then the loss -/

/-- The first model's sequence scores: the masked sum of its token log-probabilities over the count. -/
private theorem avg_policy (x0 : Cert.Lse.SX.Idx → EReal) (x2 : Cert.Lse.SY.Idx → BitVec 32) (x3 : Cert.Lse.SW.Idx → EReal) :
    (val_main_v14 (F := Ideal) x0 x2 x3 : Cert.Lse.S8.Idx → EReal)
      = Cert.Lse.avg (val_main_v7 (F := Ideal) x0 x2 x3) x2 := by
  unfold val_main_v14
  rw [cnt_ref]
  rfl

/-- The second model's. -/
private theorem avg_second (x1 : Cert.Lse.SX.Idx → EReal) (x2 : Cert.Lse.SY.Idx → BitVec 32) (x4 : Cert.Lse.SW.Idx → EReal) :
    (val_main_v31 (F := Ideal) x1 x2 x4 : Cert.Lse.S8.Idx → EReal)
      = Cert.Lse.avg (val_main_v24 (F := Ideal) x1 x2 x4) x2 := by
  unfold val_main_v31
  rw [cnt_ref_second]
  rfl

/-- From the two arrays of sequence scores on, the program's operations are the specification's: the two slices of four,
    their differences, 1 - 1 / (1 + exp(-(slope · d))) at slopes 0.1 and -0.1, the eight values joined, summed, over 8. -/
private theorem loss_of_avgs (x0 x1 : Cert.Lse.SX.Idx → EReal) (x2 : Cert.Lse.SY.Idx → BitVec 32) (x3 x4 : Cert.Lse.SW.Idx → EReal) :
    (val_main_v58 (F := Ideal) x0 x1 x2 x3 x4 : Cert.Lse.S0.Idx → EReal)
      = Cert.Lse.tail (val_main_v14 (F := Ideal) x0 x2 x3) (val_main_v31 (F := Ideal) x1 x2 x4) := rfl

/-- The reference's result from its two arrays of token log-probabilities. -/
theorem loss_of_toks (x0 x1 : Cert.Lse.SX.Idx → EReal) (x2 : Cert.Lse.SY.Idx → BitVec 32) (x3 x4 : Cert.Lse.SW.Idx → EReal) :
    (val_main_v58 (F := Ideal) x0 x1 x2 x3 x4 : Cert.Lse.S0.Idx → EReal)
      = Cert.Lse.kloss (val_main_v7 (F := Ideal) x0 x2 x3) (val_main_v24 (F := Ideal) x1 x2 x4) x2 := by
  rw [loss_of_avgs, avg_policy, avg_second]
  rfl

/-- The reference's result is the specification's loss of the five arguments. -/
theorem ref_loss (x0 x1 : Cert.Lse.SX.Idx → EReal) (x2 : Cert.Lse.SY.Idx → BitVec 32) (x3 x4 : Cert.Lse.SW.Idx → EReal)
    (h0 : ∀ i, ∃ q : ℝ, x0 i = (q : EReal)) (h1 : ∀ i, ∃ q : ℝ, x1 i = (q : EReal))
    (h3 : ∀ i, ∃ q : ℝ, x3 i = (q : EReal)) (h4 : ∀ i, ∃ q : ℝ, x4 i = (q : EReal)) (hr : InRange x2) :
    (val_main_v58 (F := Ideal) x0 x1 x2 x3 x4 : Cert.Lse.S0.Idx → EReal) = Cert.Lse.loss x0 x1 x2 x3 x4 := by
  rw [loss_of_toks, tok_policy x0 x2 x3 h0 h3 hr, tok_second x1 x2 x4 h1 h4 hr]; rfl

end Cert.ReferenceIdeal.RefVal

end
-- ==== Proof.PreFacts.lean ====
/-
  The precondition, decoded.  The printed predicate is the conjunction of five all-reductions: each of the four float
  arrays has |x| < +∞ at every entry, and the integer array has -32000 ≤ y < 32000 (signed) at every entry.  Stated
  to be all ones, it gives the five elementwise comparisons at any float instance (`split`).  Over the extended
  reals |x| is max x (-x) and the pattern 0x7F800000 denotes +∞, so "|x| < +∞" says that x is neither infinity:
  x is a real.  A signed comparison of words is the comparison of their signed values, and the word 4294935296 has
  the signed value -32000.
-/
import proofs.«411388_j45131516346680_3_alg».proof.Pre_finite_inputs
import proofs.«411388_j45131516346680_3_alg».proof.Proof.Gen.Pre_finite_inputs
import Idealize.ShloMosaic.Lib.ReduceAll
import Idealize.ShloMosaic.Lib.ValueIdx
import Idealize.ShloMosaic.PureOps.Ideal

noncomputable section

namespace Cert.PreFacts

open Idealize.ShloMosaic Cert.Pre_finite_inputs

/-- The rank-0 shape has one index. -/
instance : Subsingleton S_.Idx := ⟨fun a b => funext fun d => d.elim0⟩

/-! ## The predicate split into its five elementwise facts, at any float instance -/

section Generic
variable {F : FTy → Type} [FloatOps F]

/-- The predicate all ones: each float entry's absolute value compares below the pattern of +∞, and each integer
    entry compares at least -32000 and below 32000, signed. -/
theorem split (a0 a1 : FVec F S8x512x2048 .f32) (a2 : IVec S8x512 32) (a3 a4 : FVec F S32000x2048 .f32)
    (h : @Cert.Pre_finite_inputs.fn Cert.Pre_finite_inputs.Gen.facts F _ a0 a1 a2 a3 a4 = fun _ => 1#1) :
    (∀ i, FloatOps.cmpf .olt (FloatOps.hostAbsf (a0 i)) (FloatOps.ofBits (F := F) .f32 0x7F800000#32) = 1#1)
    ∧ (∀ i, FloatOps.cmpf .olt (FloatOps.hostAbsf (a1 i)) (FloatOps.ofBits (F := F) .f32 0x7F800000#32) = 1#1)
    ∧ (∀ i, FloatOps.cmpf .olt (FloatOps.hostAbsf (a3 i)) (FloatOps.ofBits (F := F) .f32 0x7F800000#32) = 1#1)
    ∧ (∀ i, FloatOps.cmpf .olt (FloatOps.hostAbsf (a4 i)) (FloatOps.ofBits (F := F) .f32 0x7F800000#32) = 1#1)
    ∧ (∀ j, IntOp.cmpi .sge (a2 j) 4294935296#32 = 1#1 ∧ IntOp.cmpi .slt (a2 j) 32000#32 = 1#1) := by
  -- the predicate's one element, with the printed chain in view: a conjunction of five reductions by `and`
  have e := congrFun h ValueIdx.ix0
  dsimp only [Cert.Pre_finite_inputs.fn, Cert.Pre_finite_inputs.fn_part1, andi] at e
  simp only [IntOp.andi_eq_one] at e
  obtain ⟨⟨⟨⟨h0, h1⟩, h3⟩, h4⟩, h2⟩ := e
  -- a reduction by `and` over all axes that is 1 had a 1 at every index
  refine ⟨fun i => ?_, fun i => ?_, fun i => ?_, fun i => ?_, fun j => ?_⟩
  · exact Host.reduce_andi_all _ _ _ _ _ h0 i
  · exact Host.reduce_andi_all _ _ _ _ _ h1 i
  · exact Host.reduce_andi_all _ _ _ _ _ h3 i
  · exact Host.reduce_andi_all _ _ _ _ _ h4 i
  · exact IntOp.andi_eq_one.1 (Host.reduce_andi_all _ _ _ _ _ h2 j)

/-- The word 4294935296 is -32000 read signed. -/
theorem toInt_lo : (4294935296#32 : BitVec 32).toInt = -32000 := by decide

/-- The word 32000 is 32000 read signed. -/
theorem toInt_hi : (32000#32 : BitVec 32).toInt = 32000 := by decide

/-- THE RANGE of the integer array, at any float instance: every entry's signed value lies in [-32000, 32000). -/
theorem range2F (a0 a1 : FVec F S8x512x2048 .f32) (a2 : IVec S8x512 32) (a3 a4 : FVec F S32000x2048 .f32)
    (h : @Cert.Pre_finite_inputs.fn Cert.Pre_finite_inputs.Gen.facts F _ a0 a1 a2 a3 a4 = fun _ => 1#1) :
    ∀ j, (-32000 : Int) ≤ (a2 j).toInt ∧ (a2 j).toInt < 32000 := by
  intro j
  obtain ⟨hge, hlt⟩ := (split a0 a1 a2 a3 a4 h).2.2.2.2 j
  rw [IntOp.cmpi_sge, toInt_lo] at hge
  rw [IntOp.cmpi_slt, toInt_hi] at hlt
  exact ⟨hge, hlt⟩

end Generic

/-! ## Over the extended reals: every float entry is a real -/

/-- The pattern 0x7F800000 denotes +∞. -/
theorem inf_eq_top : FloatOps.ofBits (F := Ideal) .f32 0x7F800000#32 = (⊤ : EReal) := by
  show Ideal.ofBits .f32 0x7F800000#32 = ⊤
  simp [Ideal.ofBits, Ideal.ieee]

/-- An extended real whose absolute value compares below +∞ is a real: at either infinity max x (-x) is +∞. -/
theorem real_of_abs_lt (x : Ideal .f32)
    (h : FloatOps.cmpf .olt (FloatOps.hostAbsf x) (FloatOps.ofBits (F := Ideal) .f32 0x7F800000#32) = 1#1) :
    ∃ r : ℝ, x = (r : EReal) := by
  rw [inf_eq_top] at h
  have h' : max x (-x) < (⊤ : EReal) := by
    by_contra hn
    have hb : BitVec.ofBool (decide (max x (-x) < (⊤ : EReal))) = 1#1 := h
    rw [decide_eq_false hn] at hb
    exact absurd hb (by decide)
  induction x using EReal.rec with
  | bot => simp at h'
  | coe r => exact ⟨r, rfl⟩
  | top => simp at h'

section AtIdeal
variable (a0 a1 : FVec Ideal S8x512x2048 .f32) (a2 : IVec S8x512 32) (a3 a4 : FVec Ideal S32000x2048 .f32)
  (h : @Cert.Pre_finite_inputs.fn Cert.Pre_finite_inputs.Gen.facts Ideal _ a0 a1 a2 a3 a4 = fun _ => 1#1)
include h

/-- Every entry of the first float array is a real. -/
theorem finite0 : ∀ i, ∃ r : ℝ, a0 i = (r : EReal) :=
  fun i => real_of_abs_lt _ ((split a0 a1 a2 a3 a4 h).1 i)

/-- Every entry of the second float array is a real. -/
theorem finite1 : ∀ i, ∃ r : ℝ, a1 i = (r : EReal) :=
  fun i => real_of_abs_lt _ ((split a0 a1 a2 a3 a4 h).2.1 i)

/-- Every entry of the first table is a real. -/
theorem finite3 : ∀ i, ∃ r : ℝ, a3 i = (r : EReal) :=
  fun i => real_of_abs_lt _ ((split a0 a1 a2 a3 a4 h).2.2.1 i)

/-- Every entry of the second table is a real. -/
theorem finite4 : ∀ i, ∃ r : ℝ, a4 i = (r : EReal) :=
  fun i => real_of_abs_lt _ ((split a0 a1 a2 a3 a4 h).2.2.2.1 i)

/-- Every entry of the integer array lies in [-32000, 32000), signed. -/
theorem range2 : ∀ j, (-32000 : Int) ≤ (a2 j).toInt ∧ (a2 j).toInt < 32000 :=
  range2F a0 a1 a2 a3 a4 h

end AtIdeal

end Cert.PreFacts

end
-- ==== Proof.lean ====
/-
  The certificate's assembly.  The kernel computes, per token, the label's logit minus a running log-sum-exp over the
  vocabulary (two pallas_calls, one per model); the reference takes a log-softmax of the full logits and picks the label's
  entry.  Over the extended reals, for finite inputs and labels that index the 32000 rows, both are the same token
  log-probabilities, and both programs end with the same masked means and sigmoid loss.
  The three frames: each program runs to the end from any memory and leaves its arguments as launched (the kernel's two
  programs as a run through their thirteen items, the reference by its run).
-/
import proofs.«411388_j45131516346680_3_alg».proof.Defs
import proofs.«411388_j45131516346680_3_alg».proof.Proof.Gen.Kernel
import proofs.«411388_j45131516346680_3_alg».proof.Proof.Gen.KernelIdeal
import proofs.«411388_j45131516346680_3_alg».proof.Proof.Gen.ReferenceIdeal
import proofs.«411388_j45131516346680_3_alg».proof.Proof.Gen.Pre_finite_inputs
import proofs.«411388_j45131516346680_3_alg».proof.Proof.Ref.RunHand
import proofs.«411388_j45131516346680_3_alg».proof.Proof.K.Regions
import proofs.«411388_j45131516346680_3_alg».proof.Proof.KI.Regions
import proofs.«411388_j45131516346680_3_alg».proof.Proof.KI.Value
import proofs.«411388_j45131516346680_3_alg».proof.Proof.Ref.LossRef
import proofs.«411388_j45131516346680_3_alg».proof.Proof.PreFacts
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Run.frame m ρ

theorem frame_ki : @Cert.frame_KernelIdeal Cert.KernelIdeal.Gen.facts Cert.Pre_finite_inputs.Gen.facts :=
  fun m ρ _ => Cert.KernelIdeal.Run.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Stages.run (F := Ideal) m ρ)

/-- Both idealized programs end at the specification's loss of the five arguments. -/
theorem algebraic : @Cert.algebraic_KernelIdeal_ReferenceIdeal Cert.KernelIdeal.Gen.facts Cert.ReferenceIdeal.Gen.facts Cert.Pre_finite_inputs.Gen.facts := by
  intro m ρ m' ρ' hpre hagree
  have f0 := fun c => Cert.PreFacts.finite0 _ _ _ _ _ (hpre c)
  have f1 := fun c => Cert.PreFacts.finite1 _ _ _ _ _ (hpre c)
  have f3 := fun c => Cert.PreFacts.finite3 _ _ _ _ _ (hpre c)
  have f4 := fun c => Cert.PreFacts.finite4 _ _ _ _ _ (hpre c)
  have r2 := fun c => Cert.PreFacts.range2 _ _ _ _ _ (hpre c)
  refine ⟨fun c => Cert.Lse.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨?_, ?_, ?_, ?_, ?_, ?_⟩) (Cert.KernelIdeal.Run.run_main m ρ)
    · exact (h c _ (Cert.KernelIdeal.Run.mem_uc Cert.KernelIdeal.main_v62 (by decide))).trans
        (Cert.KernelIdeal.Val.result m c (f0 c) (f1 c) (f3 c) (f4 c) (r2 c))
    · exact (h c _ (Cert.KernelIdeal.Run.mem_uc Cert.KernelIdeal.main_arg0 (by decide))).trans (Cert.KernelIdeal.Run.W13_main_arg0 m c)
    · exact (h c _ (Cert.KernelIdeal.Run.mem_uc Cert.KernelIdeal.main_arg1 (by decide))).trans (Cert.KernelIdeal.Run.W13_main_arg1 m c)
    · exact (h c _ (Cert.KernelIdeal.Run.mem_uc Cert.KernelIdeal.main_arg2 (by decide))).trans (Cert.KernelIdeal.Run.W13_main_arg2 m c)
    · exact (h c _ (Cert.KernelIdeal.Run.mem_uc Cert.KernelIdeal.main_arg3 (by decide))).trans (Cert.KernelIdeal.Run.W13_main_arg3 m c)
    · exact (h c _ (Cert.KernelIdeal.Run.mem_uc Cert.KernelIdeal.main_arg4 (by decide))).trans (Cert.KernelIdeal.Run.W13_main_arg4 m c)
  · refine (θ_run Cert.ReferenceIdeal.defs _ _).mono (fun _ h c => ⟨(h c).1.trans ?_, (h c).2⟩)
      (Cert.ReferenceIdeal.Stages.run (F := Ideal) m' ρ')
    rw [(hagree c).1, (hagree c).2.1, (hagree c).2.2.1, (hagree c).2.2.2.1, (hagree c).2.2.2.2]
    exact Cert.ReferenceIdeal.RefVal.ref_loss _ _ _ _ _ (f0 c) (f1 c) (f3 c) (f4 c) (r2 c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
